-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1000x64 : Shape := ⟨3, ![64, 1000, 64]⟩
abbrev S2x32000 : Shape := ⟨2, ![2, 32000]⟩
abbrev S64x128 : Shape := ⟨2, ![64, 128]⟩
abbrev S64x64 : Shape := ⟨2, ![64, 64]⟩
abbrev S64 : Shape := ⟨1, ![64]⟩
abbrev S64000x512 : Shape := ⟨2, ![64000, 512]⟩
abbrev S512 : Shape := ⟨1, ![512]⟩
abbrev S512x128 : Shape := ⟨2, ![512, 128]⟩
abbrev S128 : Shape := ⟨1, ![128]⟩
abbrev S128x512 : Shape := ⟨2, ![128, 512]⟩
abbrev S512x64000 : Shape := ⟨2, ![512, 64000]⟩
abbrev S64000 : Shape := ⟨1, ![64000]⟩
abbrev S_ : Shape := ⟨0, ![]⟩

class Facts : Prop where
  bcast_S_S64x1000x64 : S_.BroadcastsInDim S64x1000x64 (![] : Fin 0 → Fin S64x1000x64.rank)
  reducesTo_S64x1000x64_S_d0_1_2 : S64x1000x64.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64000x512 : S_.BroadcastsInDim S64000x512 (![] : Fin 0 → Fin S64000x512.rank)
  reducesTo_S64000x512_S_d0_1 : S64000x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_
  bcast_S_S512x64000 : S_.BroadcastsInDim S512x64000 (![] : Fin 0 → Fin S512x64000.rank)
  reducesTo_S512x64000_S_d0_1 : S512x64000.ReducesTo [0, 1] S_
  bcast_S_S64000 : S_.BroadcastsInDim S64000 (![] : Fin 0 → Fin S64000.rank)
  reducesTo_S64000_S_d0 : S64000.ReducesTo [0] S_
  bcast_S_S2x32000 : S_.BroadcastsInDim S2x32000 (![] : Fin 0 → Fin S2x32000.rank)
  reducesTo_S2x32000_S_d0_1 : S2x32000.ReducesTo [0, 1] S_

variable [Facts]

def fn_part4 {F : FTy → Type} [FloatOps F] (main_arg1 : IVec S2x32000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x32000 32 := broadcastInDim S2x32000 ![] bcast_S_S2x32000 main_c_26
  let main_v70 : IVec S2x32000 1 := cmpi .sge main_arg1 main_v69
  let main_c_27 : IVec S_ 32 := constantI S_ 32 1000#32
  let main_v71 : IVec S2x32000 32 := broadcastInDim S2x32000 ![] bcast_S_S2x32000 main_c_27
  let main_v72 : IVec S2x32000 1 := cmpi .slt main_arg1 main_v71
  let main_v73 : IVec S2x32000 1 := andi main_v70 main_v72
  let main_c_28 : IVec S_ 1 := constantI S_ 1 1#1
  let main_v74 : IVec S_ 1 := (fun x v => Host.reduce IntOp.andi x v reducesTo_S2x32000_S_d0_1 h_S_) main_v73 main_c_28
  let main_v75 : IVec S_ 1 := andi main_v68 main_v74
  main_v75

def fn_part3 {F : FTy → Type} [FloatOps F] (main_arg1 : IVec S2x32000 32) (main_arg12 : FVec F S512 .f32) (main_arg13 : FVec F S512x64000 .f32) (main_arg14 : FVec F S64000 .f32) (main_v48 : IVec S_ 1) (main_v49 : FVec F S128x512 .f32) (main_v50 : FVec F S128x512 .f32) : IVec S_ 1 :=
  let main_v51 : IVec S128x512 1 := cmpf .olt main_v49 main_v50
  let main_c_19 : IVec S_ 1 := constantI S_ 1 1#1
  let main_v52 : IVec S_ 1 := (fun x v => Host.reduce IntOp.andi x v reducesTo_S128x512_S_d0_1 h_S_) main_v51 main_c_19
  let main_v53 : IVec S_ 1 := andi main_v48 main_v52
  let main_v54 : FVec F S512 .f32 := Host.absf main_arg12
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x64000 .f32 := Host.absf main_arg13
  let main_cst_22 : FVec F S_ .f32 := constant S_ .f32 0x7F800000#32
  let main_v60 : FVec F S512x64000 .f32 := broadcastInDim S512x64000 ![] bcast_S_S512x64000 main_cst_22
  let main_v61 : IVec S512x64000 1 := cmpf .olt main_v59 main_v60
  let main_c_23 : IVec S_ 1 := constantI S_ 1 1#1
  let main_v62 : IVec S_ 1 := (fun x v => Host.reduce IntOp.andi x v reducesTo_S512x64000_S_d0_1 h_S_) main_v61 main_c_23
  let main_v63 : IVec S_ 1 := andi main_v58 main_v62
  let main_v64 : FVec F S64000 .f32 := Host.absf main_arg14
  let main_cst_24 : FVec F S_ .f32 := constant S_ .f32 0x7F800000#32
  let main_v65 : FVec F S64000 .f32 := broadcastInDim S64000 ![] bcast_S_S64000 main_cst_24
  let main_v66 : IVec S64000 1 := cmpf .olt main_v64 main_v65
  let main_c_25 : IVec S_ 1 := constantI S_ 1 1#1
  let main_v67 : IVec S_ 1 := (fun x v => Host.reduce IntOp.andi x v reducesTo_S64000_S_d0 h_S_) main_v66 main_c_25
  fn_part4 (F := F) main_arg1 main_v63 main_v67

def fn_part2 {F : FTy → Type} [FloatOps F] (main_arg1 : IVec S2x32000 32) (main_arg8 : FVec F S128 .f32) (main_arg9 : FVec F S512x128 .f32) (main_arg10 : FVec F S128 .f32) (main_arg11 : FVec F S128x512 .f32) (main_arg12 : FVec F S512 .f32) (main_arg13 : FVec F S512x64000 .f32) (main_arg14 : FVec F S64000 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S512x128 .f32 := Host.absf main_arg9
  let main_cst_14 : FVec F S_ .f32 := constant S_ .f32 0x7F800000#32
  let main_v40 : FVec F S512x128 .f32 := broadcastInDim S512x128 ![] bcast_S_S512x128 main_cst_14
  let main_v41 : IVec S512x128 1 := cmpf .olt main_v39 main_v40
  let main_c_15 : IVec S_ 1 := constantI S_ 1 1#1
  let main_v42 : IVec S_ 1 := (fun x v => Host.reduce IntOp.andi x v reducesTo_S512x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x512 .f32 := Host.absf main_arg11
  let main_cst_18 : FVec F S_ .f32 := constant S_ .f32 0x7F800000#32
  let main_v50 : FVec F S128x512 .f32 := broadcastInDim S128x512 ![] bcast_S_S128x512 main_cst_18
  fn_part3 (F := F) main_arg1 main_arg12 main_arg13 main_arg14 main_v48 main_v49 main_v50

def fn_part1 {F : FTy → Type} [FloatOps F] (main_arg1 : IVec S2x32000 32) (main_arg5 : FVec F S64000x512 .f32) (main_arg6 : FVec F S512 .f32) (main_arg7 : FVec F S512x128 .f32) (main_arg8 : FVec F S128 .f32) (main_arg9 : FVec F S512x128 .f32) (main_arg10 : FVec F S128 .f32) (main_arg11 : FVec F S128x512 .f32) (main_arg12 : FVec F S512 .f32) (main_arg13 : FVec F S512x64000 .f32) (main_arg14 : FVec F S64000 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64000x512 .f32 := Host.absf main_arg5
  let main_cst_6 : FVec F S_ .f32 := constant S_ .f32 0x7F800000#32
  let main_v20 : FVec F S64000x512 .f32 := broadcastInDim S64000x512 ![] bcast_S_S64000x512 main_cst_6
  let main_v21 : IVec S64000x512 1 := cmpf .olt main_v19 main_v20
  let main_c_7 : IVec S_ 1 := constantI S_ 1 1#1
  let main_v22 : IVec S_ 1 := (fun x v => Host.reduce IntOp.andi x v reducesTo_S64000x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x128 .f32 := Host.absf main_arg7
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg1 main_arg8 main_arg9 main_arg10 main_arg11 main_arg12 main_arg13 main_arg14 main_v33

def fn {F : FTy → Type} [FloatOps F] (main_arg0 : FVec F S64x1000x64 .f32) (main_arg1 : IVec S2x32000 32) (main_arg2 : FVec F S64x128 .f32) (main_arg3 : FVec F S64x64 .f32) (main_arg4 : FVec F S64 .f32) (main_arg5 : FVec F S64000x512 .f32) (main_arg6 : FVec F S512 .f32) (main_arg7 : FVec F S512x128 .f32) (main_arg8 : FVec F S128 .f32) (main_arg9 : FVec F S512x128 .f32) (main_arg10 : FVec F S128 .f32) (main_arg11 : FVec F S128x512 .f32) (main_arg12 : FVec F S512 .f32) (main_arg13 : FVec F S512x64000 .f32) (main_arg14 : FVec F S64000 .f32) : IVec S_ 1 :=
  let main_v0 : FVec F S64x1000x64 .f32 := Host.absf main_arg0
  let main_cst : FVec F S_ .f32 := constant S_ .f32 0x7F800000#32
  let main_v1 : FVec F S64x1000x64 .f32 := broadcastInDim S64x1000x64 ![] bcast_S_S64x1000x64 main_cst
  let main_v2 : IVec S64x1000x64 1 := cmpf .olt main_v0 main_v1
  let main_c : IVec S_ 1 := constantI S_ 1 1#1
  let main_v3 : IVec S_ 1 := (fun x v => Host.reduce IntOp.andi x v reducesTo_S64x1000x64_S_d0_1_2 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_arg11 main_arg12 main_arg13 main_arg14 main_v13 main_v16
-- ==== Kernel.lean ====
abbrev S64x1000x64 : Shape := ⟨3, ![64, 1000, 64]⟩
abbrev S2x32000 : Shape := ⟨2, ![2, 32000]⟩
abbrev S64x128 : Shape := ⟨2, ![64, 128]⟩
abbrev S64x64 : Shape := ⟨2, ![64, 64]⟩
abbrev S64 : Shape := ⟨1, ![64]⟩
abbrev S64000x512 : Shape := ⟨2, ![64000, 512]⟩
abbrev S512 : Shape := ⟨1, ![512]⟩
abbrev S512x128 : Shape := ⟨2, ![512, 128]⟩
abbrev S128 : Shape := ⟨1, ![128]⟩
abbrev S128x512 : Shape := ⟨2, ![128, 512]⟩
abbrev S512x64000 : Shape := ⟨2, ![512, 64000]⟩
abbrev S64000 : Shape := ⟨1, ![64000]⟩
abbrev S1x32000 : Shape := ⟨2, ![1, 32000]⟩
abbrev S32000 : Shape := ⟨1, ![32000]⟩
abbrev S_ : Shape := ⟨0, ![]⟩
abbrev S1000000 : Shape := ⟨1, ![1000000]⟩
abbrev S32000x1 : Shape := ⟨2, ![32000, 1]⟩
abbrev S1000x1000 : Shape := ⟨2, ![1000, 1000]⟩
abbrev S1000 : Shape := ⟨1, ![1000]⟩
abbrev S1000x1 : Shape := ⟨2, ![1000, 1]⟩
abbrev S1x64 : Shape := ⟨2, ![1, 64]⟩
abbrev S1000x64 : Shape := ⟨2, ![1000, 64]⟩
abbrev S1x1000x1x64 : Shape := ⟨4, ![1, 1000, 1, 64]⟩
abbrev S1x1000x8x64 : Shape := ⟨4, ![1, 1000, 8, 64]⟩
abbrev S1000x512 : Shape := ⟨2, ![1000, 512]⟩
abbrev S512x512 : Shape := ⟨2, ![512, 512]⟩
abbrev S1 : Shape := ⟨1, ![1]⟩
abbrev S2 : Shape := ⟨1, ![2]⟩
abbrev S8x8x1000x64 : Shape := ⟨4, ![8, 8, 1000, 64]⟩
abbrev S8x1000x8x64 : Shape := ⟨4, ![8, 1000, 8, 64]⟩
abbrev S8x1000x512 : Shape := ⟨3, ![8, 1000, 512]⟩
abbrev S64x64000 : Shape := ⟨2, ![64, 64000]⟩
abbrev S64x512 : Shape := ⟨2, ![64, 512]⟩
abbrev S1x64000 : Shape := ⟨2, ![1, 64000]⟩
abbrev S1x1000x512 : Shape := ⟨3, ![1, 1000, 512]⟩
abbrev S64x6400 : Shape := ⟨2, ![64, 6400]⟩
abbrev S6400x256 : Shape := ⟨2, ![6400, 256]⟩
abbrev S256 : Shape := ⟨1, ![256]⟩
abbrev S64x256 : Shape := ⟨2, ![64, 256]⟩
abbrev S1x256 : Shape := ⟨2, ![1, 256]⟩
abbrev S1x128 : Shape := ⟨2, ![1, 128]⟩
abbrev S1x512 : Shape := ⟨2, ![1, 512]⟩
abbrev S512x3200 : Shape := ⟨2, ![512, 3200]⟩
abbrev S1x3200 : Shape := ⟨2, ![1, 3200]⟩
abbrev S64x3200 : Shape := ⟨2, ![64, 3200]⟩

abbrev nBuf : Space → Nat
  | .hbm => 116
  | .vmem => 35
  | .smem => 0
  | _ => 0

abbrev bufTy : (tb : Table) → Fin (tcTables nBuf tb) → BufTy
  | .hbm, ⟨0, _⟩ => ⟨S64x1000x64, .f32⟩
  | .hbm, ⟨1, _⟩ => ⟨S2x32000, .i32⟩
  | .hbm, ⟨2, _⟩ => ⟨S64x128, .f32⟩
  | .hbm, ⟨3, _⟩ => ⟨S64x64, .f32⟩
  | .hbm, ⟨4, _⟩ => ⟨S64, .f32⟩
  | .hbm, ⟨5, _⟩ => ⟨S64000x512, .f32⟩
  | .hbm, ⟨6, _⟩ => ⟨S512, .f32⟩
  | .hbm, ⟨7, _⟩ => ⟨S512x128, .f32⟩
  | .hbm, ⟨8, _⟩ => ⟨S128, .f32⟩
  | .hbm, ⟨9, _⟩ => ⟨S512x128, .f32⟩
  | .hbm, ⟨10, _⟩ => ⟨S128, .f32⟩
  | .hbm, ⟨11, _⟩ => ⟨S128x512, .f32⟩
  | .hbm, ⟨12, _⟩ => ⟨S512, .f32⟩
  | .hbm, ⟨13, _⟩ => ⟨S512x64000, .f32⟩
  | .hbm, ⟨14, _⟩ => ⟨S64000, .f32⟩
  | .hbm, ⟨15, _⟩ => ⟨S1x32000, .i32⟩
  | .hbm, ⟨16, _⟩ => ⟨S32000, .i32⟩
  | .hbm, ⟨17, _⟩ => ⟨S1x32000, .i32⟩
  | .hbm, ⟨18, _⟩ => ⟨S32000, .i32⟩
  | .hbm, ⟨19, _⟩ => ⟨S_, .i32⟩
  | .hbm, ⟨20, _⟩ => ⟨S32000, .i32⟩
  | .hbm, ⟨21, _⟩ => ⟨S32000, .i32⟩
  | .hbm, ⟨22, _⟩ => ⟨S32000, .i32⟩
  | .hbm, ⟨23, _⟩ => ⟨S_, .f32⟩
  | .hbm, ⟨24, _⟩ => ⟨S32000, .f32⟩
  | .hbm, ⟨25, _⟩ => ⟨S_, .f32⟩
  | .hbm, ⟨26, _⟩ => ⟨S1000000, .f32⟩
  | .hbm, ⟨27, _⟩ => ⟨S32000x1, .i32⟩
  | .hbm, ⟨28, _⟩ => ⟨S1000000, .f32⟩
  | .hbm, ⟨29, _⟩ => ⟨S1000x1000, .f32⟩
  | .hbm, ⟨30, _⟩ => ⟨S_, .f32⟩
  | .hbm, ⟨31, _⟩ => ⟨S1000, .f32⟩
  | .hbm, ⟨32, _⟩ => ⟨S_, .f32⟩
  | .hbm, ⟨33, _⟩ => ⟨S1000, .f32⟩
  | .hbm, ⟨34, _⟩ => ⟨S1000, .f32⟩
  | .hbm, ⟨35, _⟩ => ⟨S_, .f32⟩
  | .hbm, ⟨36, _⟩ => ⟨S1000, .f32⟩
  | .hbm, ⟨37, _⟩ => ⟨S1000, .f32⟩
  | .hbm, ⟨38, _⟩ => ⟨S1000x1, .f32⟩
  | .hbm, ⟨39, _⟩ => ⟨S_, .f32⟩
  | .hbm, ⟨40, _⟩ => ⟨S1000, .f32⟩
  | .hbm, ⟨41, _⟩ => ⟨S1000, .i1⟩
  | .hbm, ⟨42, _⟩ => ⟨S1000, .f32⟩
  | .hbm, ⟨43, _⟩ => ⟨S1000x1, .f32⟩
  | .hbm, ⟨44, _⟩ => ⟨S1000x1000, .bf16⟩
  | .hbm, ⟨45, _⟩ => ⟨S1x64, .f32⟩
  | .hbm, ⟨46, _⟩ => ⟨S1000x64, .f32⟩
  | .hbm, ⟨47, _⟩ => ⟨S1000x64, .f32⟩
  | .hbm, ⟨48, _⟩ => ⟨S1000x64, .f32⟩
  | .hbm, ⟨49, _⟩ => ⟨S1x1000x1x64, .f32⟩
  | .hbm, ⟨50, _⟩ => ⟨S1x1000x8x64, .f32⟩
  | .hbm, ⟨51, _⟩ => ⟨S1000x512, .f32⟩
  | .hbm, ⟨52, _⟩ => ⟨S_, .f32⟩
  | .hbm, ⟨53, _⟩ => ⟨S512x512, .f32⟩
  | .hbm, ⟨54, _⟩ => ⟨S_, .i32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S2, .i32⟩
  | .hbm, ⟨59, _⟩ => ⟨S512x512, .f32⟩
  | .hbm, ⟨60, _⟩ => ⟨S_, .i32⟩
  | .hbm, ⟨61, _⟩ => ⟨S1, .i32⟩
  | .hbm, ⟨62, _⟩ => ⟨S_, .i32⟩
  | .hbm, ⟨63, _⟩ => ⟨S1, .i32⟩
  | .hbm, ⟨64, _⟩ => ⟨S2, .i32⟩
  | .hbm, ⟨65, _⟩ => ⟨S512x512, .f32⟩
  | .hbm, ⟨66, _⟩ => ⟨S_, .i32⟩
  | .hbm, ⟨67, _⟩ => ⟨S1, .i32⟩
  | .hbm, ⟨68, _⟩ => ⟨S_, .i32⟩
  | .hbm, ⟨69, _⟩ => ⟨S1, .i32⟩
  | .hbm, ⟨70, _⟩ => ⟨S2, .i32⟩
  | .hbm, ⟨71, _⟩ => ⟨S512x512, .f32⟩
  | .hbm, ⟨72, _⟩ => ⟨S_, .i32⟩
  | .hbm, ⟨73, _⟩ => ⟨S1, .i32⟩
  | .hbm, ⟨74, _⟩ => ⟨S_, .i32⟩
  | .hbm, ⟨75, _⟩ => ⟨S1, .i32⟩
  | .hbm, ⟨76, _⟩ => ⟨S2, .i32⟩
  | .hbm, ⟨77, _⟩ => ⟨S512x512, .f32⟩
  | .hbm, ⟨78, _⟩ => ⟨S_, .i32⟩
  | .hbm, ⟨79, _⟩ => ⟨S1, .i32⟩
  | .hbm, ⟨80, _⟩ => ⟨S_, .i32⟩
  | .hbm, ⟨81, _⟩ => ⟨S1, .i32⟩
  | .hbm, ⟨82, _⟩ => ⟨S2, .i32⟩
  | .hbm, ⟨83, _⟩ => ⟨S512x512, .f32⟩
  | .hbm, ⟨84, _⟩ => ⟨S_, .i32⟩
  | .hbm, ⟨85, _⟩ => ⟨S1, .i32⟩
  | .hbm, ⟨86, _⟩ => ⟨S_, .i32⟩
  | .hbm, ⟨87, _⟩ => ⟨S1, .i32⟩
  | .hbm, ⟨88, _⟩ => ⟨S2, .i32⟩
  | .hbm, ⟨89, _⟩ => ⟨S512x512, .f32⟩
  | .hbm, ⟨90, _⟩ => ⟨S_, .i32⟩
  | .hbm, ⟨91, _⟩ => ⟨S1, .i32⟩
  | .hbm, ⟨92, _⟩ => ⟨S_, .i32⟩
  | .hbm, ⟨93, _⟩ => ⟨S1, .i32⟩
  | .hbm, ⟨94, _⟩ => ⟨S2, .i32⟩
  | .hbm, ⟨95, _⟩ => ⟨S512x512, .f32⟩
  | .hbm, ⟨96, _⟩ => ⟨S_, .i32⟩
  | .hbm, ⟨97, _⟩ => ⟨S1, .i32⟩
  | .hbm, ⟨98, _⟩ => ⟨S_, .i32⟩
  | .hbm, ⟨99, _⟩ => ⟨S1, .i32⟩
  | .hbm, ⟨100, _⟩ => ⟨S2, .i32⟩
  | .hbm, ⟨101, _⟩ => ⟨S512x512, .f32⟩
  | .hbm, ⟨102, _⟩ => ⟨S8x8x1000x64, .f32⟩
  | .hbm, ⟨103, _⟩ => ⟨S8x1000x8x64, .f32⟩
  | .hbm, ⟨104, _⟩ => ⟨S8x1000x512, .f32⟩
  | .hbm, ⟨105, _⟩ => ⟨S8x1000x512, .bf16⟩
  | .hbm, ⟨106, _⟩ => ⟨S8x1000x8x64, .bf16⟩
  | .hbm, ⟨107, _⟩ => ⟨S8x8x1000x64, .bf16⟩
  | .hbm, ⟨108, _⟩ => ⟨S64x1000x64, .bf16⟩
  | .hbm, ⟨109, _⟩ => ⟨S64x64000, .bf16⟩
  | .hbm, ⟨110, _⟩ => ⟨S64x512, .bf16⟩
  | .hbm, ⟨111, _⟩ => ⟨S64x128, .f32⟩
  | .hbm, ⟨112, _⟩ => ⟨S64x128, .f32⟩
  | .hbm, ⟨113, _⟩ => ⟨S64x512, .bf16⟩
  | .hbm, ⟨114, _⟩ => ⟨S1x64000, .f32⟩
  | .hbm, ⟨115, _⟩ => ⟨S64x64000, .f32⟩
  | .local _ .vmem, ⟨0, _⟩ => ⟨S1000x1000, .bf16⟩
  | .local _ .vmem, ⟨1, _⟩ => ⟨S1x1000x512, .f32⟩
  | .local _ .vmem, ⟨2, _⟩ => ⟨S1x1000x512, .f32⟩
  | .local _ .vmem, ⟨3, _⟩ => ⟨S512x512, .f32⟩
  | .local _ .vmem, ⟨4, _⟩ => ⟨S1000x1, .f32⟩
  | .local _ .vmem, ⟨5, _⟩ => ⟨S1000x512, .f32⟩
  | .local _ .vmem, ⟨6, _⟩ => ⟨S1x1000x512, .bf16⟩
  | .local _ .vmem, ⟨7, _⟩ => ⟨S1x1000x512, .bf16⟩
  | .local _ .vmem, ⟨8, _⟩ => ⟨S64x6400, .bf16⟩
  | .local _ .vmem, ⟨9, _⟩ => ⟨S64x6400, .bf16⟩
  | .local _ .vmem, ⟨10, _⟩ => ⟨S6400x256, .f32⟩
  | .local _ .vmem, ⟨11, _⟩ => ⟨S6400x256, .f32⟩
  | .local _ .vmem, ⟨12, _⟩ => ⟨S256, .f32⟩
  | .local _ .vmem, ⟨13, _⟩ => ⟨S256, .f32⟩
  | .local _ .vmem, ⟨14, _⟩ => ⟨S64x256, .bf16⟩
  | .local _ .vmem, ⟨15, _⟩ => ⟨S64x256, .bf16⟩
  | .local _ .vmem, ⟨16, _⟩ => ⟨S64x256, .f32⟩
  | .local _ .vmem, ⟨17, _⟩ => ⟨S64x512, .bf16⟩
  | .local _ .vmem, ⟨18, _⟩ => ⟨S512x128, .f32⟩
  | .local _ .vmem, ⟨19, _⟩ => ⟨S128, .f32⟩
  | .local _ .vmem, ⟨20, _⟩ => ⟨S512x128, .f32⟩
  | .local _ .vmem, ⟨21, _⟩ => ⟨S128, .f32⟩
  | .local _ .vmem, ⟨22, _⟩ => ⟨S64x128, .f32⟩
  | .local _ .vmem, ⟨23, _⟩ => ⟨S128x512, .f32⟩
  | .local _ .vmem, ⟨24, _⟩ => ⟨S512, .f32⟩
  | .local _ .vmem, ⟨25, _⟩ => ⟨S64x128, .f32⟩
  | .local _ .vmem, ⟨26, _⟩ => ⟨S64x128, .f32⟩
  | .local _ .vmem, ⟨27, _⟩ => ⟨S64x512, .bf16⟩
  | .local _ .vmem, ⟨28, _⟩ => ⟨S64x512, .bf16⟩
  | .local _ .vmem, ⟨29, _⟩ => ⟨S512x3200, .f32⟩
  | .local _ .vmem, ⟨30, _⟩ => ⟨S512x3200, .f32⟩
  | .local _ .vmem, ⟨31, _⟩ => ⟨S1x3200, .f32⟩
  | .local _ .vmem, ⟨32, _⟩ => ⟨S1x3200, .f32⟩
  | .local _ .vmem, ⟨33, _⟩ => ⟨S64x3200, .f32⟩
  | .local _ .vmem, ⟨34, _⟩ => ⟨S64x3200, .f32⟩
  | _, _ => ⟨S64x1000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_c : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_cst : Ref sig .tc := ⟨.hbm, 23, rfl⟩
abbrev main_call0_v7 : Ref sig .tc := ⟨.hbm, 24, rfl⟩
abbrev main_call0_cst_0 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_cst_1 : Ref sig .tc := ⟨.hbm, 30, rfl⟩
abbrev main_call0_v12 : Ref sig .tc := ⟨.hbm, 31, rfl⟩
abbrev main_call0_cst_2 : Ref sig .tc := ⟨.hbm, 32, rfl⟩
abbrev main_call0_v13 : Ref sig .tc := ⟨.hbm, 33, rfl⟩
abbrev main_call0_v14 : Ref sig .tc := ⟨.hbm, 34, rfl⟩
abbrev main_call0_cst_3 : Ref sig .tc := ⟨.hbm, 35, rfl⟩
abbrev main_call0_v15 : Ref sig .tc := ⟨.hbm, 36, rfl⟩
abbrev main_call0_v16 : Ref sig .tc := ⟨.hbm, 37, rfl⟩
abbrev main_call0_v17 : Ref sig .tc := ⟨.hbm, 38, rfl⟩
abbrev main_call0_cst_4 : Ref sig .tc := ⟨.hbm, 39, rfl⟩
abbrev main_call0_v18 : Ref sig .tc := ⟨.hbm, 40, rfl⟩
abbrev main_call0_v19 : Ref sig .tc := ⟨.hbm, 41, rfl⟩
abbrev main_call0_v20 : Ref sig .tc := ⟨.hbm, 42, rfl⟩
abbrev main_call0_v21 : Ref sig .tc := ⟨.hbm, 43, rfl⟩
abbrev main_call0_v22 : Ref sig .tc := ⟨.hbm, 44, rfl⟩
abbrev main_call0_v23 : Ref sig .tc := ⟨.hbm, 45, rfl⟩
abbrev main_call0_v24 : Ref sig .tc := ⟨.hbm, 46, rfl⟩
abbrev main_call0_v25 : Ref sig .tc := ⟨.hbm, 47, rfl⟩
abbrev main_call0_v26 : Ref sig .tc := ⟨.hbm, 48, rfl⟩
abbrev main_call0_v27 : Ref sig .tc := ⟨.hbm, 49, rfl⟩
abbrev main_call0_v28 : Ref sig .tc := ⟨.hbm, 50, rfl⟩
abbrev main_call0_v29 : Ref sig .tc := ⟨.hbm, 51, rfl⟩
abbrev main_call0_cst_5 : Ref sig .tc := ⟨.hbm, 52, rfl⟩
abbrev main_call0_v30 : Ref sig .tc := ⟨.hbm, 53, rfl⟩
abbrev main_call0_c_6 : Ref sig .tc := ⟨.hbm, 54, rfl⟩
abbrev main_call0_v31 : Ref sig .tc := ⟨.hbm, 55, rfl⟩
abbrev main_call0_c_7 : Ref sig .tc := ⟨.hbm, 56, rfl⟩
abbrev main_call0_v32 : Ref sig .tc := ⟨.hbm, 57, rfl⟩
abbrev main_call0_v33 : Ref sig .tc := ⟨.hbm, 58, rfl⟩
abbrev main_call0_v34 : Ref sig .tc := ⟨.hbm, 59, rfl⟩
abbrev main_call0_c_8 : Ref sig .tc := ⟨.hbm, 60, rfl⟩
abbrev main_call0_v35 : Ref sig .tc := ⟨.hbm, 61, rfl⟩
abbrev main_call0_c_9 : Ref sig .tc := ⟨.hbm, 62, rfl⟩
abbrev main_call0_v36 : Ref sig .tc := ⟨.hbm, 63, rfl⟩
abbrev main_call0_v37 : Ref sig .tc := ⟨.hbm, 64, rfl⟩
abbrev main_call0_v38 : Ref sig .tc := ⟨.hbm, 65, rfl⟩
abbrev main_call0_c_10 : Ref sig .tc := ⟨.hbm, 66, rfl⟩
abbrev main_call0_v39 : Ref sig .tc := ⟨.hbm, 67, rfl⟩
abbrev main_call0_c_11 : Ref sig .tc := ⟨.hbm, 68, rfl⟩
abbrev main_call0_v40 : Ref sig .tc := ⟨.hbm, 69, rfl⟩
abbrev main_call0_v41 : Ref sig .tc := ⟨.hbm, 70, rfl⟩
abbrev main_call0_v42 : Ref sig .tc := ⟨.hbm, 71, rfl⟩
abbrev main_call0_c_12 : Ref sig .tc := ⟨.hbm, 72, rfl⟩
abbrev main_call0_v43 : Ref sig .tc := ⟨.hbm, 73, rfl⟩
abbrev main_call0_c_13 : Ref sig .tc := ⟨.hbm, 74, rfl⟩
abbrev main_call0_v44 : Ref sig .tc := ⟨.hbm, 75, rfl⟩
abbrev main_call0_v45 : Ref sig .tc := ⟨.hbm, 76, rfl⟩
abbrev main_call0_v46 : Ref sig .tc := ⟨.hbm, 77, rfl⟩
abbrev main_call0_c_14 : Ref sig .tc := ⟨.hbm, 78, rfl⟩
abbrev main_call0_v47 : Ref sig .tc := ⟨.hbm, 79, rfl⟩
abbrev main_call0_c_15 : Ref sig .tc := ⟨.hbm, 80, rfl⟩
abbrev main_call0_v48 : Ref sig .tc := ⟨.hbm, 81, rfl⟩
abbrev main_call0_v49 : Ref sig .tc := ⟨.hbm, 82, rfl⟩
abbrev main_call0_v50 : Ref sig .tc := ⟨.hbm, 83, rfl⟩
abbrev main_call0_c_16 : Ref sig .tc := ⟨.hbm, 84, rfl⟩
abbrev main_call0_v51 : Ref sig .tc := ⟨.hbm, 85, rfl⟩
abbrev main_call0_c_17 : Ref sig .tc := ⟨.hbm, 86, rfl⟩
abbrev main_call0_v52 : Ref sig .tc := ⟨.hbm, 87, rfl⟩
abbrev main_call0_v53 : Ref sig .tc := ⟨.hbm, 88, rfl⟩
abbrev main_call0_v54 : Ref sig .tc := ⟨.hbm, 89, rfl⟩
abbrev main_call0_c_18 : Ref sig .tc := ⟨.hbm, 90, rfl⟩
abbrev main_call0_v55 : Ref sig .tc := ⟨.hbm, 91, rfl⟩
abbrev main_call0_c_19 : Ref sig .tc := ⟨.hbm, 92, rfl⟩
abbrev main_call0_v56 : Ref sig .tc := ⟨.hbm, 93, rfl⟩
abbrev main_call0_v57 : Ref sig .tc := ⟨.hbm, 94, rfl⟩
abbrev main_call0_v58 : Ref sig .tc := ⟨.hbm, 95, rfl⟩
abbrev main_call0_c_20 : Ref sig .tc := ⟨.hbm, 96, rfl⟩
abbrev main_call0_v59 : Ref sig .tc := ⟨.hbm, 97, rfl⟩
abbrev main_call0_c_21 : Ref sig .tc := ⟨.hbm, 98, rfl⟩
abbrev main_call0_v60 : Ref sig .tc := ⟨.hbm, 99, rfl⟩
abbrev main_call0_v61 : Ref sig .tc := ⟨.hbm, 100, rfl⟩
abbrev main_call0_v62 : Ref sig .tc := ⟨.hbm, 101, rfl⟩
abbrev main_call0_v63 : Ref sig .tc := ⟨.hbm, 102, rfl⟩
abbrev main_call0_v64 : Ref sig .tc := ⟨.hbm, 103, rfl⟩
abbrev main_call0_v65 : Ref sig .tc := ⟨.hbm, 104, rfl⟩
abbrev main_call0_v66 : Ref sig .tc := ⟨.hbm, 105, rfl⟩
abbrev main_call0_v67 : Ref sig .tc := ⟨.hbm, 106, rfl⟩
abbrev main_call0_v68 : Ref sig .tc := ⟨.hbm, 107, rfl⟩
abbrev main_call0_v69 : Ref sig .tc := ⟨.hbm, 108, rfl⟩
abbrev main_call0_v70 : Ref sig .tc := ⟨.hbm, 109, rfl⟩
abbrev main_call0_v71 : Ref sig .tc := ⟨.hbm, 110, rfl⟩
abbrev main_v0_1 : Ref sig .tc := ⟨.hbm, 111, rfl⟩
abbrev main_v0_2 : Ref sig .tc := ⟨.hbm, 112, rfl⟩
abbrev main_call0_v72_2 : Ref sig .tc := ⟨.hbm, 113, rfl⟩
abbrev main_call0_v73 : Ref sig .tc := ⟨.hbm, 114, rfl⟩
abbrev main_v0_0 : Ref sig .tc := ⟨.hbm, 115, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg10_0 : Ref sig .tc := ⟨.vmem, 27, rfl⟩
abbrev cc3_stg0_0 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem10_0 : DmaSem sig := 26
abbrev cc3_sem0_0 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1000x1000 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1000x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1000x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1000x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 10], ![false, false]⟩

def k1_cond2 (i : grid1.Coords) : BitVec 1 :=
  let arg1 : BitVec 32 := BitVec.ofNat 32 (i 1).val
  let c9_i32 : BitVec 32 := 9#32
  let v13 : BitVec 1 := Scalar.cmpi .eq arg1 c9_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S64x6400 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S6400x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S64x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x512 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S512x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64x512 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S64x512 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S512x3200 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x3200 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S64x3200 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x32000_S1x32000_0_0 : S2x32000.Slices ![0, 0] S1x32000
  shapeCasts_S1x32000_S32000 : S1x32000.ShapeCasts S32000
  slices_S2x32000_S1x32000_1_0 : S2x32000.Slices ![1, 0] S1x32000
  bcast_S_S32000 : S_.BroadcastsInDim S32000 (![] : Fin 0 → Fin S32000.rank)
  bcast_S_S1000000 : S_.BroadcastsInDim S1000000 (![] : Fin 0 → Fin S1000000.rank)
  bcast_S32000_S32000x1_0 : S32000.BroadcastsInDim S32000x1 (![0] : Fin 1 → Fin S32000x1.rank)
  shapeCasts_S1000000_S1000x1000 : S1000000.ShapeCasts S1000x1000
  reducesTo_S1000x1000_S1000_d1 : S1000x1000.ReducesTo [1] S1000
  h_S_ : 0 < S_.numel
  bcast_S_S1000 : S_.BroadcastsInDim S1000 (![] : Fin 0 → Fin S1000.rank)
  shapeCasts_S1000_S1000x1 : S1000.ShapeCasts S1000x1
  bitsLt_bf16_f32 : FTy.bits .bf16 < FTy.bits .f32
  bcast_S64_S1x64_1 : S64.BroadcastsInDim S1x64 (![1] : Fin 1 → Fin S1x64.rank)
  bcast_S1000x1_S1000x64_0_1 : S1000x1.BroadcastsInDim S1000x64 (![0, 1] : Fin 2 → Fin S1000x64.rank)
  bcast_S1x64_S1000x64_0_1 : S1x64.BroadcastsInDim S1000x64 (![0, 1] : Fin 2 → Fin S1000x64.rank)
  shapeCasts_S1000x64_S1x1000x1x64 : S1000x64.ShapeCasts S1x1000x1x64
  bcast_S1x1000x1x64_S1x1000x8x64_0_1_2_3 : S1x1000x1x64.BroadcastsInDim S1x1000x8x64 (![0, 1, 2, 3] : Fin 4 → Fin S1x1000x8x64.rank)
  shapeCasts_S1x1000x8x64_S1000x512 : S1x1000x8x64.ShapeCasts S1000x512
  bcast_S_S512x512 : S_.BroadcastsInDim S512x512 (![] : Fin 0 → Fin S512x512.rank)
  bcast_S_S1 : S_.BroadcastsInDim S1 (![] : Fin 0 → Fin S1.rank)
  concatenates_S1_S1_S2_d0 : Shape.Concatenates [S1, S1] S2 0
  shapeCasts_S64x1000x64_S8x8x1000x64 : S64x1000x64.ShapeCasts S8x8x1000x64
  transposes_S8x8x1000x64_S8x1000x8x64_0_2_1_3 : S8x8x1000x64.Transposes [0, 2, 1, 3] S8x1000x8x64
  shapeCasts_S8x1000x8x64_S8x1000x512 : S8x1000x8x64.ShapeCasts S8x1000x512
  shapeCasts_S8x1000x512_S8x1000x8x64 : S8x1000x512.ShapeCasts S8x1000x8x64
  transposes_S8x1000x8x64_S8x8x1000x64_0_2_1_3 : S8x1000x8x64.Transposes [0, 2, 1, 3] S8x8x1000x64
  shapeCasts_S8x8x1000x64_S64x1000x64 : S8x8x1000x64.ShapeCasts S64x1000x64
  shapeCasts_S64x1000x64_S64x64000 : S64x1000x64.ShapeCasts S64x64000
  shapeCasts_S64000_S1x64000 : S64000.ShapeCasts S1x64000
  inb_S1000x1000_S1000x1000_0_0 : ∀ a, (![0, 0] : Fin 2 → Nat) a + S1000x1000.size a ≤ S1000x1000.size a
  h_S1000x1000 : 0 < S1000x1000.numel
  shapeCasts_S1000x1000_S1000x1000 : S1000x1000.ShapeCasts S1000x1000
  inb_S1x1000x512_S1x1000x512_0_0_0 : ∀ a, (![0, 0, 0] : Fin 3 → Nat) a + S1x1000x512.size a ≤ S1x1000x512.size a
  h_S1x1000x512 : 0 < S1x1000x512.numel
  shapeCasts_S1x1000x512_S1000x512 : S1x1000x512.ShapeCasts S1000x512
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x512 : S1000x1.Broadcasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  shapeCasts_S1000x512_S1x1000x512 : S1000x512.ShapeCasts S1x1000x512
  packedbf16_S1x1000x512_S1x1000x512_0_0_0 : (Rect.unit (s := S1x1000x512) ![0, 0, 0] S1x1000x512.size inb_S1x1000x512_S1x1000x512_0_0_0).PackedRows (EltTy.packing .bf16)
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S64x6400_S64x6400_0_0 : ∀ a, (![0, 0] : Fin 2 → Nat) a + S64x6400.size a ≤ S64x6400.size a
  h_S64x6400 : 0 < S64x6400.numel
  shapeCasts_S64x6400_S64x6400 : S64x6400.ShapeCasts S64x6400
  inb_S6400x256_S6400x256_0_0 : ∀ a, (![0, 0] : Fin 2 → Nat) a + S6400x256.size a ≤ S6400x256.size a
  h_S6400x256 : 0 < S6400x256.numel
  inb_S256_S256_0 : ∀ a, (![0] : Fin 1 → Nat) a + S256.size a ≤ S256.size a
  h_S256 : 0 < S256.numel
  shapeCasts_S256_S1x256 : S256.ShapeCasts S1x256
  broadcasts_S1x256_S64x256 : S1x256.Broadcasts S64x256
  packedbf16_S64x256_S64x256_0_0 : (Rect.unit (s := S64x256) ![0, 0] S64x256.size inb_S64x256_S64x256_0_0).PackedRows (EltTy.packing .bf16)
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S512x128_S512x128_0_0 : ∀ a, (![0, 0] : Fin 2 → Nat) a + S512x128.size a ≤ S512x128.size a
  h_S512x128 : 0 < S512x128.numel
  inb_S128_S128_0 : ∀ a, (![0] : Fin 1 → Nat) a + S128.size a ≤ S128.size a
  h_S128 : 0 < S128.numel
  shapeCasts_S128_S1x128 : S128.ShapeCasts S1x128
  broadcasts_S1x128_S64x128 : S1x128.Broadcasts S64x128
  inb_S64x128_S64x128_0_0 : ∀ a, (![0, 0] : Fin 2 → Nat) a + S64x128.size a ≤ S64x128.size a
  h_S64x128 : 0 < S64x128.numel
  inb_S128x512_S128x512_0_0 : ∀ a, (![0, 0] : Fin 2 → Nat) a + S128x512.size a ≤ S128x512.size a
  h_S128x512 : 0 < S128x512.numel
  inb_S512_S512_0 : ∀ a, (![0] : Fin 1 → Nat) a + S512.size a ≤ S512.size a
  h_S512 : 0 < S512.numel
  shapeCasts_S512_S1x512 : S512.ShapeCasts S1x512
  broadcasts_S1x512_S64x512 : S1x512.Broadcasts S64x512
  packedbf16_S64x512_S64x512_0_0 : (Rect.unit (s := S64x512) ![0, 0] S64x512.size inb_S64x512_S64x512_0_0).PackedRows (EltTy.packing .bf16)
  inb_S512x3200_S512x3200_0_0 : ∀ a, (![0, 0] : Fin 2 → Nat) a + S512x3200.size a ≤ S512x3200.size a
  h_S512x3200 : 0 < S512x3200.numel
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S1x3200_S64x3200 : S1x3200.Broadcasts S64x3200
  inb_S64x3200_S64x3200_0_0 : ∀ a, (![0, 0] : Fin 2 → Nat) a + S64x3200.size a ≤ S64x3200.size a
  h_S64x3200 : 0 < S64x3200.numel
  scatter_S1000000_S32000x1_S32000_n_0_0_1_wf : ScatterDims.WF S1000000 S32000x1 S32000 [] [0] [0] 1
  scatter_S512x512_S2_S64x64_01_n_01_0_wf : ScatterDims.WF S512x512 S2 S64x64 [0, 1] [] [0, 1] 0
  dot_S1000x1000_S1000x512_S1000x512_1_0_0_1_n_n_wf : DotDims.WF S1000x1000 S1000x512 S1000x512 [1] [0] [0] [1] [] []
  dot_S1000x512_S512x512_S1000x512_1_0_0_1_n_n_wf : DotDims.WF S1000x512 S512x512 S1000x512 [1] [0] [0] [1] [] []
  dot_S64x6400_S6400x256_S64x256_1_0_0_1_n_n_wf : DotDims.WF S64x6400 S6400x256 S64x256 [1] [0] [0] [1] [] []
  dot_S64x512_S512x128_S64x128_1_0_0_1_n_n_wf : DotDims.WF S64x512 S512x128 S64x128 [1] [0] [0] [1] [] []
  dot_S64x128_S128x512_S64x512_1_0_0_1_n_n_wf : DotDims.WF S64x128 S128x512 S64x512 [1] [0] [0] [1] [] []
  dot_S64x512_S512x3200_S64x3200_1_0_0_1_n_n_wf : DotDims.WF S64x512 S512x3200 S64x3200 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1000x1000.size a ≤ S1000x1000.size a
  hwx0_0 : ∀ i : grid0.Coords, EltTy.bits .bf16 = 32 ∨ (Rect.block (s := S1000x1000) S1000x1000.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1000x512.size a ≤ S8x1000x512.size a
  hwx0_1 : ∀ i : grid0.Coords, EltTy.bits .f32 = 32 ∨ (Rect.block (s := S8x1000x512) S1x1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1000x1.size a ≤ S1000x1.size a
  hwx0_3 : ∀ i : grid0.Coords, EltTy.bits .f32 = 32 ∨ (Rect.block (s := S1000x1) S1000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1000x512.size a ≤ S1000x512.size a
  hwx0_4 : ∀ i : grid0.Coords, EltTy.bits .f32 = 32 ∨ (Rect.block (s := S1000x512) S1000x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1000x512.size a ≤ S8x1000x512.size a
  hwx0_5 : ∀ i : grid0.Coords, EltTy.bits .bf16 = 32 ∨ (Rect.block (s := S8x1000x512) S1x1000x512.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x6400.size a ≤ S64x64000.size a
  hwx1_0 : ∀ i : grid1.Coords, EltTy.bits .bf16 = 32 ∨ (Rect.block (s := S64x64000) S64x6400.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x256.size a ≤ S64000x512.size a
  hwx1_1 : ∀ i : grid1.Coords, EltTy.bits .f32 = 32 ∨ (Rect.block (s := S64000x512) S6400x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S512.size a
  hwx1_2 : ∀ i : grid1.Coords, EltTy.bits .f32 = 32 ∨ (Rect.block (s := S512) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x256.size a ≤ S64x512.size a
  hwx1_3 : ∀ i : grid1.Coords, EltTy.bits .bf16 = 32 ∨ (Rect.block (s := S64x512) S64x256.size (cc1_transform_3 i) (hinb1_3 i)).WholeWords (EltTy.packing .bf16)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x512.size a ≤ S64x512.size a
  hwx2_0 : ∀ i : grid2.Coords, EltTy.bits .bf16 = 32 ∨ (Rect.block (s := S64x512) S64x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x128.size a ≤ S512x128.size a
  hwx2_1 : ∀ i : grid2.Coords, EltTy.bits .f32 = 32 ∨ (Rect.block (s := S512x128) S512x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S512x128.size a
  hwx2_3 : ∀ i : grid2.Coords, EltTy.bits .f32 = 32 ∨ (Rect.block (s := S512x128) S512x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x128.size a ≤ S64x128.size a
  hwx2_5 : ∀ i : grid2.Coords, EltTy.bits .f32 = 32 ∨ (Rect.block (s := S64x128) S64x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x512.size a ≤ S128x512.size a
  hwx2_6 : ∀ i : grid2.Coords, EltTy.bits .f32 = 32 ∨ (Rect.block (s := S128x512) S128x512.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S512.size a ≤ S512.size a
  hwx2_7 : ∀ i : grid2.Coords, EltTy.bits .f32 = 32 ∨ (Rect.block (s := S512) S512.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x128.size a ≤ S64x128.size a
  hwx2_8 : ∀ i : grid2.Coords, EltTy.bits .f32 = 32 ∨ (Rect.block (s := S64x128) S64x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x128.size a ≤ S64x128.size a
  hwx2_9 : ∀ i : grid2.Coords, EltTy.bits .f32 = 32 ∨ (Rect.block (s := S64x128) S64x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S64x512.size a ≤ S64x512.size a
  hwx2_10 : ∀ i : grid2.Coords, EltTy.bits .bf16 = 32 ∨ (Rect.block (s := S64x512) S64x512.size (cc2_transform_10 i) (hinb2_10 i)).WholeWords (EltTy.packing .bf16)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x512.size a ≤ S64x512.size a
  hwx3_0 : ∀ i : grid3.Coords, EltTy.bits .bf16 = 32 ∨ (Rect.block (s := S64x512) S64x512.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x3200.size a ≤ S512x64000.size a
  hwx3_1 : ∀ i : grid3.Coords, EltTy.bits .f32 = 32 ∨ (Rect.block (s := S512x64000) S512x3200.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x3200.size a ≤ S1x64000.size a
  hwx3_2 : ∀ i : grid3.Coords, EltTy.bits .f32 = 32 ∨ (Rect.block (s := S1x64000) S1x3200.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S64x3200.size a ≤ S64x64000.size a
  hwx3_3 : ∀ i : grid3.Coords, EltTy.bits .f32 = 32 ∨ (Rect.block (s := S64x64000) S64x3200.size (cc3_transform_3 i) (hinb3_3 i)).WholeWords (EltTy.packing .f32)

variable [Facts₀]

def scatter_S1000000_S32000x1_S32000_n_0_0_1 : ScatterDims S1000000 S32000x1 S32000 where
  updateWindowDims := []
  insertedWindowDims := [0]
  scatterDimsToOperandDims := [0]
  indexVectorDim := 1
  wf := scatter_S1000000_S32000x1_S32000_n_0_0_1_wf
def scatter_S512x512_S2_S64x64_01_n_01_0 : ScatterDims S512x512 S2 S64x64 where
  updateWindowDims := [0, 1]
  insertedWindowDims := []
  scatterDimsToOperandDims := [0, 1]
  indexVectorDim := 0
  wf := scatter_S512x512_S2_S64x64_01_n_01_0_wf
def dot_S1000x1000_S1000x512_S1000x512_1_0_0_1_n_n : DotDims S1000x1000 S1000x512 S1000x512 where
  lhsContracting := [1]
  rhsContracting := [0]
  lhsNonContracting := [0]
  rhsNonContracting := [1]
  lhsBatch := []
  rhsBatch := []
  wf := dot_S1000x1000_S1000x512_S1000x512_1_0_0_1_n_n_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S64x6400_S6400x256_S64x256_1_0_0_1_n_n : DotDims S64x6400 S6400x256 S64x256 where
  lhsContracting := [1]
  rhsContracting := [0]
  lhsNonContracting := [0]
  rhsNonContracting := [1]
  lhsBatch := []
  rhsBatch := []
  wf := dot_S64x6400_S6400x256_S64x256_1_0_0_1_n_n_wf
def dot_S64x512_S512x128_S64x128_1_0_0_1_n_n : DotDims S64x512 S512x128 S64x128 where
  lhsContracting := [1]
  rhsContracting := [0]
  lhsNonContracting := [0]
  rhsNonContracting := [1]
  lhsBatch := []
  rhsBatch := []
  wf := dot_S64x512_S512x128_S64x128_1_0_0_1_n_n_wf
def dot_S64x128_S128x512_S64x512_1_0_0_1_n_n : DotDims S64x128 S128x512 S64x512 where
  lhsContracting := [1]
  rhsContracting := [0]
  lhsNonContracting := [0]
  rhsNonContracting := [1]
  lhsBatch := []
  rhsBatch := []
  wf := dot_S64x128_S128x512_S64x512_1_0_0_1_n_n_wf
def dot_S64x512_S512x3200_S64x3200_1_0_0_1_n_n : DotDims S64x512 S512x3200 S64x3200 where
  lhsContracting := [1]
  rhsContracting := [0]
  lhsNonContracting := [0]
  rhsNonContracting := [1]
  lhsBatch := []
  rhsBatch := []
  wf := dot_S64x512_S512x3200_S64x3200_1_0_0_1_n_n_wf

abbrev win0_0 : Pipeline.Window sig grid0 :=
  Pipeline.Window.ofSpec (Memref.whole main_call0_v22) S1000x1000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v65) S1x1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v62) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v17) S1000x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v29) S1000x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v66) S1x1000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v70) S64x6400.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S6400x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v71) S64x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_call0_v71) S64x512.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S512x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S512x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg2) S64x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg11) S128x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg12) S512.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v0_1) S64x128.size cc2_transform_8 reads2_8 true true 1 stage2_8 sem2_8
    hrank2 hreads2_8 hinb2_8 nbuf2_8 (Memref.isWhole_whole _) hwx2_8 hstage2_8

abbrev win2_9 : Pipeline.Window sig grid2 :=
  Pipeline.Window.ofSpec (Memref.whole main_v0_2) S64x128.size cc2_transform_9 reads2_9 true true 1 stage2_9 sem2_9
    hrank2 hreads2_9 hinb2_9 nbuf2_9 (Memref.isWhole_whole _) hwx2_9 hstage2_9

abbrev win2_10 : Pipeline.Window sig grid2 :=
  Pipeline.Window.ofSpec (Memref.whole main_call0_v72_2) S64x512.size cc2_transform_10 reads2_10 true true 1 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_call0_v72_2) S64x512.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg13) S512x3200.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v73) S1x3200.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v0_0) S64x3200.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S64x1000x64 : Shape := ⟨3, ![64, 1000, 64]⟩
abbrev S2x32000 : Shape := ⟨2, ![2, 32000]⟩
abbrev S64x128 : Shape := ⟨2, ![64, 128]⟩
abbrev S64x64 : Shape := ⟨2, ![64, 64]⟩
abbrev S64 : Shape := ⟨1, ![64]⟩
abbrev S64000x512 : Shape := ⟨2, ![64000, 512]⟩
abbrev S512 : Shape := ⟨1, ![512]⟩
abbrev S512x128 : Shape := ⟨2, ![512, 128]⟩
abbrev S128 : Shape := ⟨1, ![128]⟩
abbrev S128x512 : Shape := ⟨2, ![128, 512]⟩
abbrev S512x64000 : Shape := ⟨2, ![512, 64000]⟩
abbrev S64000 : Shape := ⟨1, ![64000]⟩
abbrev S1x32000 : Shape := ⟨2, ![1, 32000]⟩
abbrev S32000 : Shape := ⟨1, ![32000]⟩
abbrev S_ : Shape := ⟨0, ![]⟩
abbrev S32000x1 : Shape := ⟨2, ![32000, 1]⟩
abbrev S64x32000x64 : Shape := ⟨3, ![64, 32000, 64]⟩
abbrev S1x1x64 : Shape := ⟨3, ![1, 1, 64]⟩
abbrev S1000 : Shape := ⟨1, ![1000]⟩
abbrev S1x1000x1 : Shape := ⟨3, ![1, 1000, 1]⟩
abbrev S64x64000 : Shape := ⟨2, ![64, 64000]⟩
abbrev S64x512 : Shape := ⟨2, ![64, 512]⟩
abbrev S1x512 : Shape := ⟨2, ![1, 512]⟩
abbrev S1x128 : Shape := ⟨2, ![1, 128]⟩
abbrev S1x64000 : Shape := ⟨2, ![1, 64000]⟩

abbrev nBuf : Space → Nat
  | .hbm => 111
  | .vmem => 0
  | .smem => 0
  | _ => 0

abbrev bufTy : (tb : Table) → Fin (tcTables nBuf tb) → BufTy
  | .hbm, ⟨0, _⟩ => ⟨S64x1000x64, .f32⟩
  | .hbm, ⟨1, _⟩ => ⟨S2x32000, .i32⟩
  | .hbm, ⟨2, _⟩ => ⟨S64x128, .f32⟩
  | .hbm, ⟨3, _⟩ => ⟨S64x64, .f32⟩
  | .hbm, ⟨4, _⟩ => ⟨S64, .f32⟩
  | .hbm, ⟨5, _⟩ => ⟨S64000x512, .f32⟩
  | .hbm, ⟨6, _⟩ => ⟨S512, .f32⟩
  | .hbm, ⟨7, _⟩ => ⟨S512x128, .f32⟩
  | .hbm, ⟨8, _⟩ => ⟨S128, .f32⟩
  | .hbm, ⟨9, _⟩ => ⟨S512x128, .f32⟩
  | .hbm, ⟨10, _⟩ => ⟨S128, .f32⟩
  | .hbm, ⟨11, _⟩ => ⟨S128x512, .f32⟩
  | .hbm, ⟨12, _⟩ => ⟨S512, .f32⟩
  | .hbm, ⟨13, _⟩ => ⟨S512x64000, .f32⟩
  | .hbm, ⟨14, _⟩ => ⟨S64000, .f32⟩
  | .hbm, ⟨15, _⟩ => ⟨S1x32000, .i32⟩
  | .hbm, ⟨16, _⟩ => ⟨S32000, .i32⟩
  | .hbm, ⟨17, _⟩ => ⟨S1x32000, .i32⟩
  | .hbm, ⟨18, _⟩ => ⟨S32000, .i32⟩
  | .hbm, ⟨19, _⟩ => ⟨S_, .i32⟩
  | .hbm, ⟨20, _⟩ => ⟨S32000, .i32⟩
  | .hbm, ⟨21, _⟩ => ⟨S32000, .i1⟩
  | .hbm, ⟨22, _⟩ => ⟨S_, .i32⟩
  | .hbm, ⟨23, _⟩ => ⟨S32000, .i32⟩
  | .hbm, ⟨24, _⟩ => ⟨S32000, .i32⟩
  | .hbm, ⟨25, _⟩ => ⟨S32000, .i32⟩
  | .hbm, ⟨26, _⟩ => ⟨S32000x1, .i32⟩
  | .hbm, ⟨27, _⟩ => ⟨S64x32000x64, .f32⟩
  | .hbm, ⟨28, _⟩ => ⟨S64x32000x64, .f32⟩
  | .hbm, ⟨29, _⟩ => ⟨S1x1x64, .f32⟩
  | .hbm, ⟨30, _⟩ => ⟨S64x32000x64, .f32⟩
  | .hbm, ⟨31, _⟩ => ⟨S64x32000x64, .f32⟩
  | .hbm, ⟨32, _⟩ => ⟨S_, .f32⟩
  | .hbm, ⟨33, _⟩ => ⟨S64x1000x64, .f32⟩
  | .hbm, ⟨34, _⟩ => ⟨S_, .i32⟩
  | .hbm, ⟨35, _⟩ => ⟨S32000, .i32⟩
  | .hbm, ⟨36, _⟩ => ⟨S32000, .i1⟩
  | .hbm, ⟨37, _⟩ => ⟨S_, .i32⟩
  | .hbm, ⟨38, _⟩ => ⟨S32000, .i32⟩
  | .hbm, ⟨39, _⟩ => ⟨S32000, .i32⟩
  | .hbm, ⟨40, _⟩ => ⟨S32000, .i32⟩
  | .hbm, ⟨41, _⟩ => ⟨S32000x1, .i32⟩
  | .hbm, ⟨42, _⟩ => ⟨S64x1000x64, .f32⟩
  | .hbm, ⟨43, _⟩ => ⟨S_, .f32⟩
  | .hbm, ⟨44, _⟩ => ⟨S1000, .f32⟩
  | .hbm, ⟨45, _⟩ => ⟨S_, .i32⟩
  | .hbm, ⟨46, _⟩ => ⟨S32000, .i32⟩
  | .hbm, ⟨47, _⟩ => ⟨S32000, .i1⟩
  | .hbm, ⟨48, _⟩ => ⟨S_, .i32⟩
  | .hbm, ⟨49, _⟩ => ⟨S32000, .i32⟩
  | .hbm, ⟨50, _⟩ => ⟨S32000, .i32⟩
  | .hbm, ⟨51, _⟩ => ⟨S32000, .i32⟩
  | .hbm, ⟨52, _⟩ => ⟨S32000x1, .i32⟩
  | .hbm, ⟨53, _⟩ => ⟨S_, .f32⟩
  | .hbm, ⟨54, _⟩ => ⟨S32000, .f32⟩
  | .hbm, ⟨55, _⟩ => ⟨S1000, .f32⟩
  | .hbm, ⟨56, _⟩ => ⟨S_, .f32⟩
  | .hbm, ⟨57, _⟩ => ⟨S1000, .f32⟩
  | .hbm, ⟨58, _⟩ => ⟨S1000, .f32⟩
  | .hbm, ⟨59, _⟩ => ⟨S1x1000x1, .f32⟩
  | .hbm, ⟨60, _⟩ => ⟨S64x1000x64, .f32⟩
  | .hbm, ⟨61, _⟩ => ⟨S64x1000x64, .f32⟩
  | .hbm, ⟨62, _⟩ => ⟨S64x1000x64, .f32⟩
  | .hbm, ⟨63, _⟩ => ⟨S_, .f32⟩
  | .hbm, ⟨64, _⟩ => ⟨S64x1000x64, .f32⟩
  | .hbm, ⟨65, _⟩ => ⟨S64x1000x64, .i1⟩
  | .hbm, ⟨66, _⟩ => ⟨S_, .f32⟩
  | .hbm, ⟨67, _⟩ => ⟨S64x1000x64, .f32⟩
  | .hbm, ⟨68, _⟩ => ⟨S64x1000x64, .f32⟩
  | .hbm, ⟨69, _⟩ => ⟨S64x1000x64, .f32⟩
  | .hbm, ⟨70, _⟩ => ⟨S64x64000, .f32⟩
  | .hbm, ⟨71, _⟩ => ⟨S64x512, .f32⟩
  | .hbm, ⟨72, _⟩ => ⟨S1x512, .f32⟩
  | .hbm, ⟨73, _⟩ => ⟨S64x512, .f32⟩
  | .hbm, ⟨74, _⟩ => ⟨S64x512, .f32⟩
  | .hbm, ⟨75, _⟩ => ⟨S_, .f32⟩
  | .hbm, ⟨76, _⟩ => ⟨S64x512, .f32⟩
  | .hbm, ⟨77, _⟩ => ⟨S64x512, .f32⟩
  | .hbm, ⟨78, _⟩ => ⟨S64x128, .f32⟩
  | .hbm, ⟨79, _⟩ => ⟨S1x128, .f32⟩
  | .hbm, ⟨80, _⟩ => ⟨S64x128, .f32⟩
  | .hbm, ⟨81, _⟩ => ⟨S64x128, .f32⟩
  | .hbm, ⟨82, _⟩ => ⟨S64x128, .f32⟩
  | .hbm, ⟨83, _⟩ => ⟨S1x128, .f32⟩
  | .hbm, ⟨84, _⟩ => ⟨S64x128, .f32⟩
  | .hbm, ⟨85, _⟩ => ⟨S64x128, .f32⟩
  | .hbm, ⟨86, _⟩ => ⟨S_, .f32⟩
  | .hbm, ⟨87, _⟩ => ⟨S64x128, .f32⟩
  | .hbm, ⟨88, _⟩ => ⟨S64x128, .f32⟩
  | .hbm, ⟨89, _⟩ => ⟨S64x128, .f32⟩
  | .hbm, ⟨90, _⟩ => ⟨S64x128, .f32⟩
  | .hbm, ⟨91, _⟩ => ⟨S64x128, .f32⟩
  | .hbm, ⟨92, _⟩ => ⟨S64x512, .f32⟩
  | .hbm, ⟨93, _⟩ => ⟨S1x512, .f32⟩
  | .hbm, ⟨94, _⟩ => ⟨S64x512, .f32⟩
  | .hbm, ⟨95, _⟩ => ⟨S64x512, .f32⟩
  | .hbm, ⟨96, _⟩ => ⟨S_, .f32⟩
  | .hbm, ⟨97, _⟩ => ⟨S64x512, .f32⟩
  | .hbm, ⟨98, _⟩ => ⟨S64x512, .f32⟩
  | .hbm, ⟨99, _⟩ => ⟨S64x64000, .f32⟩
  | .hbm, ⟨100, _⟩ => ⟨S1x64000, .f32⟩
  | .hbm, ⟨101, _⟩ => ⟨S64x64000, .f32⟩
  | .hbm, ⟨102, _⟩ => ⟨S64x64000, .f32⟩
  | .hbm, ⟨103, _⟩ => ⟨S64x64000, .f32⟩
  | .hbm, ⟨104, _⟩ => ⟨S64x64000, .f32⟩
  | .hbm, ⟨105, _⟩ => ⟨S_, .f32⟩
  | .hbm, ⟨106, _⟩ => ⟨S64x64000, .f32⟩
  | .hbm, ⟨107, _⟩ => ⟨S64x64000, .f32⟩
  | .hbm, ⟨108, _⟩ => ⟨S_, .f32⟩
  | .hbm, ⟨109, _⟩ => ⟨S64x64000, .f32⟩
  | .hbm, ⟨110, _⟩ => ⟨S64x64000, .f32⟩
  | _, _ => ⟨S64x1000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_c_1 : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_6 : Ref sig .tc := ⟨.hbm, 53, rfl⟩
abbrev main_v30 : Ref sig .tc := ⟨.hbm, 54, rfl⟩
abbrev main_v31 : Ref sig .tc := ⟨.hbm, 55, rfl⟩
abbrev main_cst_7 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_8 : Ref sig .tc := ⟨.hbm, 63, rfl⟩
abbrev main_v38 : Ref sig .tc := ⟨.hbm, 64, rfl⟩
abbrev main_v39 : Ref sig .tc := ⟨.hbm, 65, rfl⟩
abbrev main_cst_9 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call1_cst : Ref sig .tc := ⟨.hbm, 75, rfl⟩
abbrev main_call1_v0 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_10 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_call2_cst : Ref sig .tc := ⟨.hbm, 96, rfl⟩
abbrev main_call2_v0 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_11 : Ref sig .tc := ⟨.hbm, 105, rfl⟩
abbrev main_v73 : Ref sig .tc := ⟨.hbm, 106, rfl⟩
abbrev main_v74 : Ref sig .tc := ⟨.hbm, 107, rfl⟩
abbrev main_cst_12 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  slices_S2x32000_S1x32000_0_0 : S2x32000.Slices ![0, 0] S1x32000
  shapeCasts_S1x32000_S32000 : S1x32000.ShapeCasts S32000
  slices_S2x32000_S1x32000_1_0 : S2x32000.Slices ![1, 0] S1x32000
  bcast_S_S32000 : S_.BroadcastsInDim S32000 (![] : Fin 0 → Fin S32000.rank)
  bcast_S32000_S32000x1_0 : S32000.BroadcastsInDim S32000x1 (![0] : Fin 1 → Fin S32000x1.rank)
  bcast_S64_S1x1x64_2 : S64.BroadcastsInDim S1x1x64 (![2] : Fin 1 → Fin S1x1x64.rank)
  bcast_S1x1x64_S64x32000x64_0_1_2 : S1x1x64.BroadcastsInDim S64x32000x64 (![0, 1, 2] : Fin 3 → Fin S64x32000x64.rank)
  bcast_S_S64x1000x64 : S_.BroadcastsInDim S64x1000x64 (![] : Fin 0 → Fin S64x1000x64.rank)
  bcast_S_S1000 : S_.BroadcastsInDim S1000 (![] : Fin 0 → Fin S1000.rank)
  bcast_S1000_S1x1000x1_1 : S1000.BroadcastsInDim S1x1000x1 (![1] : Fin 1 → Fin S1x1000x1.rank)
  bcast_S1x1000x1_S64x1000x64_0_1_2 : S1x1000x1.BroadcastsInDim S64x1000x64 (![0, 1, 2] : Fin 3 → Fin S64x1000x64.rank)
  shapeCasts_S64x1000x64_S64x64000 : S64x1000x64.ShapeCasts S64x64000
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S_S64x512 : S_.BroadcastsInDim S64x512 (![] : Fin 0 → Fin S64x512.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S64000_S1x64000_1 : S64000.BroadcastsInDim S1x64000 (![1] : Fin 1 → Fin S1x64000.rank)
  bcast_S1x64000_S64x64000_0_1 : S1x64000.BroadcastsInDim S64x64000 (![0, 1] : Fin 2 → Fin S64x64000.rank)
  bcast_S_S64x64000 : S_.BroadcastsInDim S64x64000 (![] : Fin 0 → Fin S64x64000.rank)
  gather_S64x1000x64_S32000x1_S64x32000x64_02_1_n_n_1_1_64164_wf : GatherDims.WF S64x1000x64 S32000x1 S64x32000x64 [0, 2] [1] [] [1] [] 1 ![64, 1, 64]
  dot_S64x32000x64_S64x64_S64x32000x64_2_0_01_1_n_n_wf : DotDims.WF S64x32000x64 S64x64 S64x32000x64 [2] [0] [0, 1] [1] [] []
  scatter_S64x1000x64_S32000x1_S64x32000x64_02_1_1_1_wf : ScatterDims.WF S64x1000x64 S32000x1 S64x32000x64 [0, 2] [1] [1] 1
  scatter_S1000_S32000x1_S32000_n_0_0_1_wf : ScatterDims.WF S1000 S32000x1 S32000 [] [0] [0] 1
  dot_S64x64000_S64000x512_S64x512_1_0_0_1_n_n_wf : DotDims.WF S64x64000 S64000x512 S64x512 [1] [0] [0] [1] [] []
  dot_S64x512_S512x128_S64x128_1_0_0_1_n_n_wf : DotDims.WF S64x512 S512x128 S64x128 [1] [0] [0] [1] [] []
  dot_S64x128_S128x512_S64x512_1_0_0_1_n_n_wf : DotDims.WF S64x128 S128x512 S64x512 [1] [0] [0] [1] [] []
  dot_S64x512_S512x64000_S64x64000_1_0_0_1_n_n_wf : DotDims.WF S64x512 S512x64000 S64x64000 [1] [0] [0] [1] [] []

variable [Facts₀]

def gather_S64x1000x64_S32000x1_S64x32000x64_02_1_n_n_1_1_64164 : GatherDims S64x1000x64 S32000x1 S64x32000x64 where
  offsetDims := [0, 2]
  collapsedSliceDims := [1]
  operandBatchingDims := []
  startIndicesBatchingDims := []
  startIndexMap := [1]
  indexVectorDim := 1
  sliceSizes := ![64, 1, 64]
  wf := gather_S64x1000x64_S32000x1_S64x32000x64_02_1_n_n_1_1_64164_wf
def dot_S64x32000x64_S64x64_S64x32000x64_2_0_01_1_n_n : DotDims S64x32000x64 S64x64 S64x32000x64 where
  lhsContracting := [2]
  rhsContracting := [0]
  lhsNonContracting := [0, 1]
  rhsNonContracting := [1]
  lhsBatch := []
  rhsBatch := []
  wf := dot_S64x32000x64_S64x64_S64x32000x64_2_0_01_1_n_n_wf
def scatter_S64x1000x64_S32000x1_S64x32000x64_02_1_1_1 : ScatterDims S64x1000x64 S32000x1 S64x32000x64 where
  updateWindowDims := [0, 2]
  insertedWindowDims := [1]
  scatterDimsToOperandDims := [1]
  indexVectorDim := 1
  wf := scatter_S64x1000x64_S32000x1_S64x32000x64_02_1_1_1_wf
def scatter_S1000_S32000x1_S32000_n_0_0_1 : ScatterDims S1000 S32000x1 S32000 where
  updateWindowDims := []
  insertedWindowDims := [0]
  scatterDimsToOperandDims := [0]
  indexVectorDim := 1
  wf := scatter_S1000_S32000x1_S32000_n_0_0_1_wf
def dot_S64x64000_S64000x512_S64x512_1_0_0_1_n_n : DotDims S64x64000 S64000x512 S64x512 where
  lhsContracting := [1]
  rhsContracting := [0]
  lhsNonContracting := [0]
  rhsNonContracting := [1]
  lhsBatch := []
  rhsBatch := []
  wf := dot_S64x64000_S64000x512_S64x512_1_0_0_1_n_n_wf
def dot_S64x512_S512x128_S64x128_1_0_0_1_n_n : DotDims S64x512 S512x128 S64x128 where
  lhsContracting := [1]
  rhsContracting := [0]
  lhsNonContracting := [0]
  rhsNonContracting := [1]
  lhsBatch := []
  rhsBatch := []
  wf := dot_S64x512_S512x128_S64x128_1_0_0_1_n_n_wf
def dot_S64x128_S128x512_S64x512_1_0_0_1_n_n : DotDims S64x128 S128x512 S64x512 where
  lhsContracting := [1]
  rhsContracting := [0]
  lhsNonContracting := [0]
  rhsNonContracting := [1]
  lhsBatch := []
  rhsBatch := []
  wf := dot_S64x128_S128x512_S64x512_1_0_0_1_n_n_wf
def dot_S64x512_S512x64000_S64x64000_1_0_0_1_n_n : DotDims S64x512 S512x64000 S64x64000 where
  lhsContracting := [1]
  rhsContracting := [0]
  lhsNonContracting := [0]
  rhsNonContracting := [1]
  lhsBatch := []
  rhsBatch := []
  wf := dot_S64x512_S512x64000_S64x64000_1_0_0_1_n_n_wf

class Facts : Prop extends Facts₀ where

variable [Facts]
-- ==== Proof.KI.Base.lean ====
/- What the four region modules share: the type of a region's entry contents. -/
import proofs.«419763_j27925877358777_3_alg».proof.Proof.Gen.KernelIdeal.Launch
import proofs.«419763_j27925877358777_3_alg».proof.Proof.Gen.KernelIdeal.Skeleton
import proofs.«419763_j27925877358777_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The TensorCore's buffer contents when a region is entered, per core and buffer. -/
abbrev Entry (F : FTy → Type) [FloatOps F] : Type := (c : Dev nD) → (b : Ref sig .tc) → Buf (Elt F) ((c : Thread nD τ).loc b)

end Cert.KernelIdeal.Fr

end
-- ==== Proof.KI.R0.lean ====
/- Region 0 (the fused message-passing kernel, a grid of eight groups): the windows' blocks, what the body leaves
   in the output's staging buffer, the pipeline's proof data and the body obligation, at any entry contents. -/
import proofs.«419763_j27925877358777_3_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks -/

/-- Window `w`'s block at point `t`, read off its array as the region finds it. -/
def iblk0 (V : Entry F) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and the one store take a whole staging buffer -/

abbrev r0_0 : Rect S1000x1000 := Rect.unit (s := S1000x1000) ![0, 0] S1000x1000.size inb_S1000x1000_S1000x1000_0_0
abbrev r0_1 : Rect S1x1000x512 := Rect.unit (s := S1x1000x512) ![0, 0, 0] S1x1000x512.size inb_S1x1000x512_S1x1000x512_0_0_0
abbrev r0_2 : Rect S512x512 := Rect.unit (s := S512x512) ![0, 0] S512x512.size inb_S512x512_S512x512_0_0
abbrev r0_3 : Rect S1000x1 := Rect.unit (s := S1000x1) ![0, 0] S1000x1.size inb_S1000x1_S1000x1_0_0
abbrev r0_4 : Rect S1000x512 := Rect.unit (s := S1000x512) ![0, 0] S1000x512.size inb_S1000x512_S1000x512_0_0

/-! ## What the body leaves in the output window's buffer -/

/-- Window 5's staging buffer after the body, from the five input windows' blocks (adjacency, grouped features,
    block-diagonal weight, inverse degree, bias): its one store, a whole-buffer piece. -/
def out0_5 (x0 : Vec F S1000x1000 .bf16) (x1 : Vec F S1x1000x512 .f32) (x2 : Vec F S512x512 .f32) (x3 : Vec F S1000x1 .f32) (x4 : Vec F S1000x512 .f32) :
    Vec F S1x1000x512 .bf16 :=
  View.canon [⟨r0_1, k0_pay1 (View.ld x0 r0_0) (View.ld x1 r0_1) (View.ld x3 r0_3) (View.ld x2 r0_2) (View.ld x4 r0_4)⟩]

/-! ## The pipeline's proof data -/

/-- The proof data of pipeline 0 on core `c`: the arrays as the region finds them; after the body at point `t` each
    input's buffer at its block and the output's at `out0_5` of the input blocks; the class's invariant (the scoped rest
    and the generator register, untouched); nothing owed; full shares. -/
def dat0 (V : Entry F) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (V : Entry F) (c : Dev nD) (w : Fin cfg0.W) : (dat0 V c).A w = V c (Pipeline.arrRef spec0 w) := by
  dsimp only [dat0]

/-- What the body leaves, window by window. -/
theorem after0_0 (V : Entry F) (c : Dev nD) (t : Fin cfg0.N) : (dat0 V c).after 0 t = iblk0 V c 0 t := by dsimp only [dat0]
theorem after0_1 (V : Entry F) (c : Dev nD) (t : Fin cfg0.N) : (dat0 V c).after 1 t = iblk0 V c 1 t := by dsimp only [dat0]
theorem after0_2 (V : Entry F) (c : Dev nD) (t : Fin cfg0.N) : (dat0 V c).after 2 t = iblk0 V c 2 t := by dsimp only [dat0]
theorem after0_3 (V : Entry F) (c : Dev nD) (t : Fin cfg0.N) : (dat0 V c).after 3 t = iblk0 V c 3 t := by dsimp only [dat0]
theorem after0_4 (V : Entry F) (c : Dev nD) (t : Fin cfg0.N) : (dat0 V c).after 4 t = iblk0 V c 4 t := by dsimp only [dat0]
theorem after0_5 (V : Entry F) (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- The invariant is the class's at both ends; nothing is owed; every share is full; every point records everything. -/
theorem hin0 (V : Entry F) (c : Dev nD) : Pipeline.ΦA spec0 c ⊢ (dat0 V c).Φ 0 := .rfl
theorem hout0 (V : Entry F) (c : Dev nD) : (dat0 V c).Φ (Fin.last cfg0.N) ⊢ Pipeline.ΦA spec0 c := .rfl
theorem owed0 (V : Entry F) (c : Dev nD) (t : Fin (cfg0.N + 1)) : (dat0 V c).owed t = 0 := rfl
theorem share0 (V : Entry F) (c : Dev nD) (w : Fin cfg0.W) : (dat0 V c).q w = fullShare := rfl
theorem recorded0 (V : Entry F) (c : Dev nD) (t : Fin (cfg0.N + 1)) : (dat0 V c).recorded t = Set.univ := rfl

/-! ## Each input's staging buffer at a point -/

/-- Input window 0's current staging buffer holds its block at every point, fetched there or not, for any proof data
    whose array is the entry contents' and whose body leaves the block in place: unfetched, the block index has not moved. -/
theorem before0_0_of (V : Entry F) {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof data
    whose array is the entry contents' and whose body leaves the block in place: unfetched, the block index has not moved. -/
theorem before0_1_of (V : Entry F) {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof data
    whose array is the entry contents' and whose body leaves the block in place: unfetched, the block index has not moved. -/
theorem before0_2_of (V : Entry F) {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof data
    whose array is the entry contents' and whose body leaves the block in place: unfetched, the block index has not moved. -/
theorem before0_3_of (V : Entry F) {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof data
    whose array is the entry contents' and whose body leaves the block in place: unfetched, the block index has not moved. -/
theorem before0_4_of (V : Entry F) {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Each input's current staging buffer holds its block at every point, fetched there or not. -/
theorem before0_0 (V : Entry F) (c : Dev nD) (t : Fin cfg0.N) (d) : (dat0 V c).before 0 t d = iblk0 V c 0 t :=
  before0_0_of V (dat0 V c) (A_eq0 V c 0) (after0_0 V c) t d
theorem before0_1 (V : Entry F) (c : Dev nD) (t : Fin cfg0.N) (d) : (dat0 V c).before 1 t d = iblk0 V c 1 t :=
  before0_1_of V (dat0 V c) (A_eq0 V c 1) (after0_1 V c) t d
theorem before0_2 (V : Entry F) (c : Dev nD) (t : Fin cfg0.N) (d) : (dat0 V c).before 2 t d = iblk0 V c 2 t :=
  before0_2_of V (dat0 V c) (A_eq0 V c 2) (after0_2 V c) t d
theorem before0_3 (V : Entry F) (c : Dev nD) (t : Fin cfg0.N) (d) : (dat0 V c).before 3 t d = iblk0 V c 3 t :=
  before0_3_of V (dat0 V c) (A_eq0 V c 3) (after0_3 V c) t d
theorem before0_4 (V : Entry F) (c : Dev nD) (t : Fin cfg0.N) (d) : (dat0 V c).before 4 t d = iblk0 V c 4 t :=
  before0_4_of V (dat0 V c) (A_eq0 V c 4) (after0_4 V c) t d

/-! ## The body's triple -/

/-- The one store takes the whole buffer, so it covers it. -/
theorem cover0_5 (p0 : Vec F S1x1000x512 .bf16) (y : S1x1000x512.Idx) :
    ∃ pc ∈ ([⟨r0_1, p0⟩] : List (View.Piece (Elt F) S1x1000x512 .bf16)), y ∈ pc.1.set :=
  View.cover_of_tiled [⟨r0_1, p0⟩] S1x1000x512.size (by rfl) y

set_option maxHeartbeats 1000000 in
/-- The kernel body on whole staging memrefs, the inputs' at read contents `xW` and the output's at anything, runs to the
    continuation holding the inputs' as they were and the output's at `out0_5` of the inputs'. -/
theorem sound_kernel0 (c : Dev nD) (E : Set ℕ) (i : grid0.Coords)
    (arg1 : Memref sig .tc .vmem S1000x1000 .bf16) (harg1 : arg1.IsWhole) (arg2 : Memref sig .tc .vmem S1x1000x512 .f32) (harg2 : arg2.IsWhole)
    (arg3 : Memref sig .tc .vmem S512x512 .f32) (harg3 : arg3.IsWhole) (arg4 : Memref sig .tc .vmem S1000x1 .f32) (harg4 : arg4.IsWhole)
    (arg5 : Memref sig .tc .vmem S1000x512 .f32) (harg5 : arg5.IsWhole) (arg6 : Memref sig .tc .vmem S1x1000x512 .bf16) (harg6 : arg6.IsWhole)
    (x0 : Vec F S1000x1000 .bf16) (x1 : Vec F S1x1000x512 .f32) (x2 : Vec F S512x512 .f32) (x3 : Vec F S1000x1 .f32) (x4 : Vec F S1000x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__gnn_fused_kernel i arg1 harg1 arg2 harg2 arg3 harg3 arg4 harg4 arg5 harg5 arg6 harg6) K := by
  simp only [cc0__gnn_fused_kernel_eq_skeleton]; unfold cc0__gnn_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The body obligation, at a generic point -/

/-- What the body is called with at point `t`, the windows one by one, -/
def bodyPre0 (V : Entry F) (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (V : Entry F) (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's tally of what it owes pass through unread. -/
theorem sound_body0 (V : Entry F) (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (V : Entry F) (c : Dev nD) : BodyObligation (dat0 (F := F) V c) (defs₀ (F := F)) Variants.none () Set.univ := fun t => by
  rw [bigSep_W0, bigSep_W0]
  exact sound_body0 V c t

end Cert.KernelIdeal.Fr

end
-- ==== Proof.KI.R1Defs.lean ====
/- Region 1 (the encoder's blocked matrix product): what the body leaves in its carried accumulator and in its output's
   buffer, point by point, and the pipeline's proof data over them. -/
import proofs.«419763_j27925877358777_3_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the encoder's blocked matrix product with a carried accumulator — definitions

The grid is 2 × 10, the point `t` at coordinates (h, k) = (t / 10, t % 10). At every point the body adds the product of
the point's two input blocks to a scratch accumulator; at k = 0 it first zeroes the accumulator; at k = 9 it then
adds the bias block, rectifies and stores the result to the output window's buffer. -/

/-! ## The body's branch conditions, in closed form over the grid -/

/-- The condition of the body's first conditional (the accumulator's reset), from the grid coordinates. -/
abbrev cond1_0 (i : grid1.Coords) : Prop := (Scalar.cmpi .ne (Scalar.extui (Scalar.cmpi .eq (BitVec.ofNat 32 (i 1).val) 0#32)) 0#32) = 1#1
/-- It holds exactly where the inner coordinate is 0. -/
theorem hcond1_0 : ∀ t : Fin cfg1.N, cond1_0 (grid1.coords t) ↔ t.val % 10 = 0 :=
  (by decide +kernel : ∀ t : Fin grid1.N, cond1_0 (grid1.coords t) ↔ t.val % 10 = 0)

/-- The condition of the body's second conditional (the result's store), from the grid coordinates. -/
abbrev cond1_1 (i : grid1.Coords) : Prop := k1_cond2 i = 1#1
/-- It holds exactly where the inner coordinate is 9. -/
theorem hcond1_1 : ∀ t : Fin cfg1.N, cond1_1 (grid1.coords t) ↔ t.val % 10 = 9 :=
  (by decide +kernel : ∀ t : Fin grid1.N, cond1_1 (grid1.coords t) ↔ t.val % 10 = 9)

/-! ## The windows' blocks -/

/-- Window `w`'s block at point `t`, read off its array as the region finds it (`V`). -/
def iblk1 (V : Entry F) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each is its whole buffer -/

abbrev r1_0 : Rect S64x6400 := Rect.unit (s := S64x6400) ![0, 0] S64x6400.size inb_S64x6400_S64x6400_0_0
abbrev r1_1 : Rect S6400x256 := Rect.unit (s := S6400x256) ![0, 0] S6400x256.size inb_S6400x256_S6400x256_0_0
abbrev r1_2 : Rect S256 := Rect.unit (s := S256) ![0] S256.size inb_S256_S256_0
abbrev r1_s : Rect S64x256 := Rect.unit (s := S64x256) ![0, 0] S64x256.size inb_S64x256_S64x256_0_0

/-! ## What the body leaves in the accumulator and in the output's buffer -/

/-- The accumulator after the reset: the zero payload stored whole. -/
def zero1 : Vec F S64x256 .f32 := View.canon [⟨r1_s, k1_pay1 (F := F)⟩]

/-- The accumulator after the body, from the two input blocks and the contents `xs` the accumulating load finds:
    its one store as a piece (the payload is the skeleton's: `xs` plus the blocks' product). -/
def acc1 (x0 : Vec F S64x6400 .bf16) (x1 : Vec F S6400x256 .f32) (xs : Vec F S64x256 .f32) : Vec F S64x256 .f32 :=
  View.canon [⟨r1_s, k1_pay2 (View.ld x0 r1_0) (View.ld x1 r1_1) (View.ld xs r1_s)⟩]

/-- The output window's buffer after the body at a point that stores it, from the accumulator `s` as the body left
    it and the bias block: its one store as a piece (the payload is the skeleton's: bias added, rectified). -/
def out1 (s : Vec F S64x256 .f32) (x2 : Vec F S256 .f32) : Vec F S64x256 .bf16 :=
  View.canon [⟨r1_s, k1_pay3 (View.ld s r1_s) (View.ld x2 r1_2)⟩]

/-- A store through the whole rectangle covers the buffer (checked by evaluation), whatever was stored before. -/
theorem cover1_s {e : EltTy} (p0 : r1_s.shape.Idx → Elt F e) (L : List (View.Piece (Elt F) S64x256 e)) (y : S64x256.Idx) :
    ∃ pc ∈ (⟨r1_s, p0⟩ :: L : List (View.Piece (Elt F) S64x256 e)), y ∈ pc.1.set := by
  obtain ⟨pc, hm, hy⟩ := View.cover_of_tiled ([⟨r1_s, p0⟩] : List (View.Piece (Elt F) S64x256 e)) S64x256.size (by rfl) y
  exact ⟨pc, List.mem_cons.mpr (Or.inl (List.mem_singleton.mp hm)), hy⟩

/-- Under a last store through the whole rectangle the earlier stores do not show. -/
theorem canon_whole1 {e : EltTy} (w : r1_s.shape.Idx → Elt F e) (L : List (View.Piece (Elt F) S64x256 e)) :
    View.canon (⟨r1_s, w⟩ :: L) = View.canon [⟨r1_s, w⟩] := by
  funext y
  obtain ⟨pc, hm, hy⟩ := cover1_s (F := F) w [] y
  obtain rfl := List.mem_singleton.mp hm
  obtain ⟨x, rfl⟩ := r1_s.exists_idx_of_mem hy
  exact (View.canon_cons_emb r1_s w L x).trans (View.canon_cons_emb r1_s w [] x).symm

/-- A load through the whole rectangle after a last store through it reads that store's payload. -/
theorem ld_canon1 {e : EltTy} (w : r1_s.shape.Idx → Elt F e) (L : List (View.Piece (Elt F) S64x256 e)) :
    View.ld (View.canon (⟨r1_s, w⟩ :: L)) r1_s = w :=
  funext fun j => View.canon_cons_emb r1_s w L j

/-- What the final load reads of the accumulator the body left. -/
theorem ld_acc1 (x0 : Vec F S64x6400 .bf16) (x1 : Vec F S6400x256 .f32) (xs : Vec F S64x256 .f32) :
    View.ld (acc1 x0 x1 xs) r1_s = k1_pay2 (View.ld x0 r1_0) (View.ld x1 r1_1) (View.ld xs r1_s) := ld_canon1 _ _
/-- What the accumulating load reads after the reset. -/
theorem ld_zero1 : View.ld (zero1 (F := F)) r1_s = k1_pay1 (F := F) := ld_canon1 _ _

/-! ## The accumulator point by point -/

/-- THE ACCUMULATION. What the accumulator holds after the body at position `n`: the blocks' product added to zero
    where the inner coordinate is 0 (the body resets it first), else to what position `n - 1` left. -/
def scAt1 (V : Entry F) (c : Dev nD) : (n : ℕ) → n < cfg1.N → Vec F S64x256 .f32
  | 0, hn => acc1 (iblk1 V c 0 ⟨0, hn⟩) (iblk1 V c 1 ⟨0, hn⟩) zero1
  | n + 1, hn => acc1 (iblk1 V c 0 ⟨n + 1, hn⟩) (iblk1 V c 1 ⟨n + 1, hn⟩)
      (if (n + 1) % 10 = 0 then zero1 else scAt1 V c n (Nat.lt_of_succ_lt hn))

/-- At a point of inner coordinate 0: the product added to zero. -/
theorem scAt1_reset (V : Entry F) (c : Dev nD) (t : Fin cfg1.N) (h : t.val % 10 = 0) :
    scAt1 V c t.val t.isLt = acc1 (iblk1 V c 0 t) (iblk1 V c 1 t) zero1 := by
  obtain ⟨n, hn⟩ := t
  cases n with
  | zero => rfl
  | succ n => exact congrArg (acc1 _ _) (if_pos h)

/-- At any other point: the product added to what the point before left. -/
theorem scAt1_step (V : Entry F) (c : Dev nD) (t : Fin cfg1.N) (h : ¬t.val % 10 = 0) :
    scAt1 V c t.val t.isLt = acc1 (iblk1 V c 0 t) (iblk1 V c 1 t) (scAt1 V c (t.val - 1) (Nat.lt_of_le_of_lt (Nat.sub_le _ _) t.isLt)) := by
  obtain ⟨n, hn⟩ := t
  cases n with
  | zero => exact absurd (Nat.zero_mod _) h
  | succ n => exact congrArg (acc1 _ _) (if_neg h)

/-! ## The region invariant: the scoped rest with the accumulator named -/

/-- The scratch operand: a whole scoped buffer of the kernel's own, passed beside the windows. -/
abbrev scM1 : Memref sig .tc .vmem S64x256 .f32 := Memref.whole cc1_scratch0

/-- The region invariant before position `n`: before the first point the class's (every scoped buffer that is no
    staging buffer at anything, the generator register at some state); afterwards the accumulator at what the point
    before left in it, beside the other scoped buffers and the generator register. -/
def PhiS1 (V : Entry F) (c : Dev nD) : (n : ℕ) → n ≤ cfg1.N → sProp 𝕄
  | 0, _ => Pipeline.ΦA spec1 c
  | n + 1, hn => iprop(iprop(owns (c : Thread nD τ) scM1 fullShare (scAt1 V c n hn)
      ∗ Pipeline.scopedRestBut (Ix := Unit) (Name := ℕ) (U := UR sig nD τ) (Lvl := ℕ) (Val := Elt F) spec1 c [cc1_scratch0]) ∗ (∃ r, prngReg c r))

theorem PhiS1_zero (V : Entry F) (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (V : Entry F) (c : Dev nD) (n : ℕ) (hn : n < cfg1.N) :
    PhiS1 V c (n + 1) hn = iprop(iprop(owns (c : Thread nD τ) scM1 fullShare (scAt1 V c n hn)
      ∗ Pipeline.scopedRestBut (Ix := Unit) (Name := ℕ) (U := UR sig nD τ) (Lvl := ℕ) (Val := Elt F) spec1 c [cc1_scratch0]) ∗ (∃ r, prngReg c r)) := rfl

/-- Before a point that is not the first: the accumulator at what the point before left. -/
theorem PhiS1_pos (V : Entry F) (c : Dev nD) (n : ℕ) (h : n ≤ cfg1.N) (hz : n ≠ 0) :
    PhiS1 V c n h = iprop(iprop(owns (c : Thread nD τ) scM1 fullShare (scAt1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of pipeline 1 on core `c`: the arrays as the region finds them (`V`); after the body at point
    `t` each input's buffer at its block and the output's at the rectified, biased accumulator (consulted only where
    the inner coordinate is 9: elsewhere the window is idle and not written back); the invariant `PhiS1`; nothing
    owed; full shares. -/
def dat1 (V : Entry F) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (scAt1 V c t.val t.isLt) (iblk1 V c 2 t)
  Φ t := PhiS1 V c t.val (Nat.le_of_lt_succ t.isLt)
  q _ := fullShare
  owed _ := 0

/-- The proof data's arrays are the region-entry contents. -/
theorem A_eq1 (V : Entry F) (c : Dev nD) (w : Fin cfg1.W) : (dat1 V c).A w = V c (Pipeline.arrRef spec1 w) := by
  dsimp only [dat1]

/-- What the body leaves, window by window. -/
theorem after1_0 (V : Entry F) (c : Dev nD) (t : Fin cfg1.N) : (dat1 V c).after 0 t = iblk1 V c 0 t := by dsimp only [dat1]
theorem after1_1 (V : Entry F) (c : Dev nD) (t : Fin cfg1.N) : (dat1 V c).after 1 t = iblk1 V c 1 t := by dsimp only [dat1]
theorem after1_2 (V : Entry F) (c : Dev nD) (t : Fin cfg1.N) : (dat1 V c).after 2 t = iblk1 V c 2 t := by dsimp only [dat1]
theorem after1_3 (V : Entry F) (c : Dev nD) (t : Fin cfg1.N) :
    (dat1 V c).after 3 t = out1 (scAt1 V c t.val t.isLt) (iblk1 V c 2 t) := by dsimp only [dat1]

/-- The invariant at a point's start, restated at `t.val`. -/
theorem PhiS1_castSucc (V : Entry F) (c : Dev nD) (t : Fin cfg1.N) :
    (dat1 V c).Φ t.castSucc = PhiS1 V c t.val (Nat.le_of_lt t.isLt) := by
  dsimp only [dat1]; simp only [Fin.coe_castSucc]

/-- Nothing is owed, every share is full, and no wait is recorded beyond the default bound. -/
theorem owed1 (V : Entry F) (c : Dev nD) (t : Fin (cfg1.N + 1)) : (dat1 V c).owed t = 0 := rfl
theorem share1 (V : Entry F) (c : Dev nD) (w : Fin cfg1.W) : (dat1 V c).q w = fullShare := rfl
theorem recorded1 (V : Entry F) (c : Dev nD) (t : Fin (cfg1.N + 1)) : (dat1 V c).recorded t = Set.univ := rfl

end Cert.KernelIdeal.Fr

end
-- ==== Proof.KI.R1.lean ====
/- Region 1 (the encoder's blocked matrix product): the body's triple in each of its three cases, the body obligation over
   the proof data of KI/R1Defs.lean, and the invariant's two ends. -/
import proofs.«419763_j27925877358777_3_alg».proof.Proof.KI.R1Defs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's triple, case by case

On whole memrefs — the inputs' at read contents, the accumulator's at the contents the accumulating load is to find
(or, where the body resets it first, at anything), the output's at contents handed back untouched (or, where the body
stores it, at anything) — the body runs to the continuation holding the inputs' as they were, the accumulator at
`acc1` and, where stored, the output's buffer at `out1`. The printed function is its skeleton, run operation by
operation; each conditional is decided by the case's hypotheses. -/

set_option maxHeartbeats 1000000 in
/-- CASE A (inner coordinate 0): the accumulator zeroed, then the blocks' product added; the output untouched. -/
theorem sound_kernel1_A (c : Dev nD) (i : grid1.Coords) (arg2 : Memref sig .tc .vmem S64x6400 .bf16) (harg2 : arg2.IsWhole) (arg3 : Memref sig .tc .vmem S6400x256 .f32) (harg3 : arg3.IsWhole) (arg4 : Memref sig .tc .vmem S256 .f32) (harg4 : arg4.IsWhole) (arg5 : Memref sig .tc .vmem S64x256 .bf16) (harg5 : arg5.IsWhole) (arg6 : Memref sig .tc .vmem S64x256 .f32) (harg6 : arg6.IsWhole)
    (hc0 : cond1_0 i) (hc1 : ¬cond1_1 i)
    (x0 : Vec F S64x6400 .bf16) (x1 : Vec F S6400x256 .f32) (x2 : Vec F S256 .f32) (xi3 : Vec F S64x256 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (acc1 x0 x1 zero1)) -∗ K ⟨⟩))
      ⊢ wp frame (wpE (defs₀ (F := F)) Variants.none c none) E (cc1__vae_encoder_matmul_kernel i arg2 harg2 arg3 harg3 arg4 harg4 arg5 harg5 arg6 harg6) K := by
  simp only [cc1__vae_encoder_matmul_kernel_eq_skeleton]; unfold cc1__vae_encoder_matmul_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  rw [View.readCov_eq_canon']
  exact (View.read_writes_eq_canon _ _ _ (cover1_s _ _)).trans (canon_whole1 _ _)

set_option maxHeartbeats 1000000 in
/-- CASE B (inner coordinate 1 to 8): the blocks' product added to the accumulator as found; the output untouched. -/
theorem sound_kernel1_B (c : Dev nD) (i : grid1.Coords) (arg2 : Memref sig .tc .vmem S64x6400 .bf16) (harg2 : arg2.IsWhole) (arg3 : Memref sig .tc .vmem S6400x256 .f32) (harg3 : arg3.IsWhole) (arg4 : Memref sig .tc .vmem S256 .f32) (harg4 : arg4.IsWhole) (arg5 : Memref sig .tc .vmem S64x256 .bf16) (harg5 : arg5.IsWhole) (arg6 : Memref sig .tc .vmem S64x256 .f32) (harg6 : arg6.IsWhole)
    (hc0 : ¬cond1_0 i) (hc1 : ¬cond1_1 i)
    (x0 : Vec F S64x6400 .bf16) (x1 : Vec F S6400x256 .f32) (x2 : Vec F S256 .f32) (xs : Vec F S64x256 .f32) (xi3 : Vec F S64x256 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (acc1 x0 x1 xs)) -∗ K ⟨⟩))
      ⊢ wp frame (wpE (defs₀ (F := F)) Variants.none c none) E (cc1__vae_encoder_matmul_kernel i arg2 harg2 arg3 harg3 arg4 harg4 arg5 harg5 arg6 harg6) K := by
  simp only [cc1__vae_encoder_matmul_kernel_eq_skeleton]; unfold cc1__vae_encoder_matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  exact View.read_writes_eq_canon _ _ _ (cover1_s _ _)

set_option maxHeartbeats 1000000 in
/-- CASE C (inner coordinate 9): as case B, then the accumulator, biased and rectified, stored to the output's buffer. -/
theorem sound_kernel1_C (c : Dev nD) (i : grid1.Coords) (arg2 : Memref sig .tc .vmem S64x6400 .bf16) (harg2 : arg2.IsWhole) (arg3 : Memref sig .tc .vmem S6400x256 .f32) (harg3 : arg3.IsWhole) (arg4 : Memref sig .tc .vmem S256 .f32) (harg4 : arg4.IsWhole) (arg5 : Memref sig .tc .vmem S64x256 .bf16) (harg5 : arg5.IsWhole) (arg6 : Memref sig .tc .vmem S64x256 .f32) (harg6 : arg6.IsWhole)
    (hc0 : ¬cond1_0 i) (hc1 : cond1_1 i)
    (x0 : Vec F S64x6400 .bf16) (x1 : Vec F S6400x256 .f32) (x2 : Vec F S256 .f32) (xs : Vec F S64x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (out1 (acc1 x0 x1 xs) x2) ∗ owns (c : Thread nD τ) arg6 fullShare (acc1 x0 x1 xs)) -∗ K ⟨⟩))
      ⊢ wp frame (wpE (defs₀ (F := F)) Variants.none c none) E (cc1__vae_encoder_matmul_kernel i arg2 harg2 arg3 harg3 arg4 harg4 arg5 harg5 arg6 harg6) K := by
  simp only [cc1__vae_encoder_matmul_kernel_eq_skeleton]; unfold cc1__vae_encoder_matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [View.readCov_eq_canon']
    exact View.read_writes_eq_canon _ _ _ (cover1_s _ _)
  iexists _; isplitr
  swap; · iexact HS
  ipureintro
  sl_unfold_run_names
  exact View.read_writes_eq_canon _ _ _ (cover1_s _ _)

/-! ## Where the windows are idle (the printed configuration's table) -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the result is not stored the printed configuration calls the output idle, -/
theorem idleAt1_3 : ∀ t : Fin cfg1.N, ¬cond1_1 (grid1.coords t) → cfg1.idle 3 (grid1.coords t) = true := by decide +kernel
/-- and the pipeline does not write its block back there; -/
theorem noFlush1_3 : ∀ t : Fin cfg1.N, ¬cond1_1 (grid1.coords t) → (cfg1.win 3).flush t = false := by decide +kernel
/-- where it is stored the output is live. -/
theorem liveAt1_3 : ∀ t : Fin cfg1.N, cond1_1 (grid1.coords t) → cfg1.idle 3 (grid1.coords t) = false := by decide +kernel

/-! ## The staging memrefs at a point, as the pipeline passes them -/

abbrev ms1_0 (t : Fin cfg1.N) : Memref sig .tc .vmem S64x6400 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S6400x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x256 .bf16 := win1_3.stage (cfg1.slots t 3)
abbrev hs1_3 (t : Fin cfg1.N) : (ms1_3 t).IsWhole := hstage1_3 ((cfg1.slots t 3).cast nbuf1_3)

/-! ## What the body finds in the inputs' buffers -/

/-- An input window's current staging buffer holds its block at every point, fetched there or not, for any proof
    data whose array is `V`'s and whose body leaves the block in place: unfetched, the block index has not moved;
    the windows are uncut and never idle. -/
theorem before1_0_of (V : Entry F) {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of (V : Entry F) {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of (V : Entry F) {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (V : Entry F) (c : Dev nD) (t : Fin cfg1.N) (d) : (dat1 V c).before 0 t d = iblk1 V c 0 t :=
  before1_0_of V (dat1 V c) (A_eq1 V c 0) (after1_0 V c) t d
theorem before1_1 (V : Entry F) (c : Dev nD) (t : Fin cfg1.N) (d) : (dat1 V c).before 1 t d = iblk1 V c 1 t :=
  before1_1_of V (dat1 V c) (A_eq1 V c 1) (after1_1 V c) t d
theorem before1_2 (V : Entry F) (c : Dev nD) (t : Fin cfg1.N) (d) : (dat1 V c).before 2 t d = iblk1 V c 2 t :=
  before1_2_of V (dat1 V c) (A_eq1 V c 2) (after1_2 V c) t d

/-! ## The class invariant with the accumulator set apart -/

/-- The class's invariant is the accumulator's buffer at some contents, beside the other scoped buffers that are no
    staging buffer and the generator register: the scoped rest split at the call's own scratch. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The body obligation, at a generic point -/

/-- What the body is called with at point `t`, the windows one by one, -/
def bodyPre1 (V : Entry F) (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (V : Entry F) (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the inner coordinate says which case the point is
    in. The invariant hands the body the accumulator — at anything before the first point, else at what the point
    before left (which the reset, where it runs, overwrites unread) — and takes it back at this point's contents;
    where the result is not stored the output's buffer passes through untouched; the core owes nothing throughout. -/
theorem sound_body1 (V : Entry F) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 20 := lt_of_lt_of_eq t.isLt (show cfg1.N = 20 from N_1)
  by_cases h0 : t.val % 10 = 0
  · have h1 : ¬t.val % 10 = 9 := by omega
    rw [Dat.leavesExact_idle (dat1 V c) 3 t (idleAt1_3 t (fun h => h1 ((hcond1_1 t).mp h))) (noFlush1_3 t (fun h => h1 ((hcond1_1 t).mp h)))]
    rw [scAt1_reset V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩⟩
      iapply (sound_kernel1_A c (grid1.coords t) _ _ _ _ _ _ _ _ _ _ ((hcond1_0 t).mpr h0) (fun h => h1 ((hcond1_1 t).mp h)) (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (sound_kernel1_A c (grid1.coords t) _ _ _ _ _ _ _ _ _ _ ((hcond1_0 t).mpr h0) (fun h => h1 ((hcond1_1 t).mp h)) (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [scAt1_step V c t h0, PhiS1_castSucc V c t, PhiS1_pos V c _ _ hz]
    by_cases h1 : t.val % 10 = 9
    · rw [show (dat1 V c).leavesExact 3 t = owns (c : Thread nD τ) (ms1_3 t) fullShare ((dat1 V c).after 3 t) from by
        unfold Dat.leavesExact; rw [liveAt1_3 t ((hcond1_1 t).mpr h1)], after1_3, scAt1_step V c t h0]
      iintro ⟨⟨⟨HS, HR⟩, Hg⟩, Ho, ⟨%d0, H0⟩, ⟨%d1, H1⟩, ⟨%d2, H2⟩, ⟨%d3, H3⟩⟩
      iapply (sound_kernel1_C c (grid1.coords t) _ _ _ _ _ _ _ _ _ _ (fun h => h0 ((hcond1_0 t).mp h)) ((hcond1_1 t).mpr h1) (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      iintro ⟨⟨⟨HS, HR⟩, Hg⟩, Ho, ⟨%d0, H0⟩, ⟨%d1, H1⟩, ⟨%d2, H2⟩, ⟨%d3, H3⟩⟩
      iapply (sound_kernel1_B c (grid1.coords t) _ _ _ _ _ _ _ _ _ _ (fun h => h0 ((hcond1_0 t).mp h)) (fun h => h1 ((hcond1_1 t).mp h)) (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (V : Entry F) (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (V : Entry F) (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the accumulator's named contents are forgotten. -/
theorem Phi_out1 (V : Entry F) (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]; · iexists _; iexact HS
    iexact HR
  iexact Hg

/-- The same after the last point. -/
theorem hout1 (V : Entry F) (c : Dev nD) : (dat1 V c).Φ (Fin.last cfg1.N) ⊢ Pipeline.ΦA spec1 c :=
  Phi_out1 V c _ (by rw [Fin.val_last]; have : cfg1.N = 20 := N_1; omega)

end Cert.KernelIdeal.Fr

end
-- ==== Proof.KI.R2.lean ====
/- Region 2 (custom_call 2, the VAE latent kernel, one grid point, eleven windows): the frame half at the
   region's entry contents. -/
import proofs.«419763_j27925877358777_3_alg».proof.Proof.KI.Base
import proofs.«419763_j27925877358777_3_alg».proof.Proof.Gen.KernelIdeal.Launch
import proofs.«419763_j27925877358777_3_alg».proof.Proof.Gen.KernelIdeal.Skeleton
import proofs.«419763_j27925877358777_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks -/

/-- Window `w`'s block at point `t`, read off its array as the region finds it (`V`). -/
def iblk2 (V : Entry F) (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the index has not moved; the
    window is uncut and never idle. -/
theorem before2_0_of (V : Entry F) {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the index has not moved; the
    window is uncut and never idle. -/
theorem before2_1_of (V : Entry F) {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the index has not moved; the
    window is uncut and never idle. -/
theorem before2_2_of (V : Entry F) {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: unfetched, the index has not moved; the
    window is uncut and never idle. -/
theorem before2_3_of (V : Entry F) {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place: unfetched, the index has not moved; the
    window is uncut and never idle. -/
theorem before2_4_of (V : Entry F) {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s and whose body leaves the block in place: unfetched, the index has not moved; the
    window is uncut and never idle. -/
theorem before2_5_of (V : Entry F) {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof
    data whose array is `V`'s and whose body leaves the block in place: unfetched, the index has not moved; the
    window is uncut and never idle. -/
theorem before2_6_of (V : Entry F) {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not, for any proof
    data whose array is `V`'s and whose body leaves the block in place: unfetched, the index has not moved; the
    window is uncut and never idle. -/
theorem before2_7_of (V : Entry F) {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_S64x512 : Rect S64x512 := Rect.unit (s := S64x512) ![0, 0] S64x512.size inb_S64x512_S64x512_0_0
abbrev r2_S512x128 : Rect S512x128 := Rect.unit (s := S512x128) ![0, 0] S512x128.size inb_S512x128_S512x128_0_0
abbrev r2_S128 : Rect S128 := Rect.unit (s := S128) ![0] S128.size inb_S128_S128_0
abbrev r2_S64x128 : Rect S64x128 := Rect.unit (s := S64x128) ![0, 0] S64x128.size inb_S64x128_S64x128_0_0
abbrev r2_S128x512 : Rect S128x512 := Rect.unit (s := S128x512) ![0, 0] S128x512.size inb_S128x512_S128x512_0_0
abbrev r2_S512 : Rect S512 := Rect.unit (s := S512) ![0] S512.size inb_S512_S512_0

/-! ## What the body leaves in each output window's buffer -/

/-- Window 8's staging buffer (the mean) after the body, from the input windows' blocks: its one store as a piece
    over the payload of the hidden activations, the mean's weight and the mean's bias. -/
def out2_8 (x0 : Vec F S64x512 .bf16) (x1 : Vec F S512x128 .f32) (x2 : Vec F S128 .f32) : Vec F S64x128 .f32 :=
  View.canon [⟨r2_S64x128, k2_pay2 (View.ld x0 r2_S64x512) (View.ld x1 r2_S512x128) (View.ld x2 r2_S128)⟩]

/-- Window 9's staging buffer (the log-variance) after the body: its one store over the payload of the hidden
    activations, the log-variance's weight and its bias. -/
def out2_9 (x0 : Vec F S64x512 .bf16) (x3 : Vec F S512x128 .f32) (x4 : Vec F S128 .f32) : Vec F S64x128 .f32 :=
  View.canon [⟨r2_S64x128, k2_pay3 (View.ld x0 r2_S64x512) (View.ld x3 r2_S512x128) (View.ld x4 r2_S128)⟩]

/-- Window 10's staging buffer (the decoder's hidden layer) after the body: its one store over the payload of all
    eight inputs. -/
def out2_10 (x0 : Vec F S64x512 .bf16) (x1 : Vec F S512x128 .f32) (x2 : Vec F S128 .f32) (x3 : Vec F S512x128 .f32) (x4 : Vec F S128 .f32) (x5 : Vec F S64x128 .f32) (x6 : Vec F S128x512 .f32) (x7 : Vec F S512 .f32) : Vec F S64x512 .bf16 :=
  View.canon [⟨r2_S64x512, k2_pay4 (View.ld x0 r2_S64x512) (View.ld x1 r2_S512x128) (View.ld x3 r2_S512x128) (View.ld x2 r2_S128) (View.ld x4 r2_S128) (View.ld x5 r2_S64x128) (View.ld x6 r2_S128x512) (View.ld x7 r2_S512)⟩]

/-- A single whole-buffer store tiles the buffer, so it covers it. -/
theorem cover2_S64x128 (p0 : Vec F S64x128 .f32) (y : S64x128.Idx) :
    ∃ pc ∈ ([⟨r2_S64x128, p0⟩] : List (View.Piece (Elt F) S64x128 .f32)), y ∈ pc.1.set :=
  View.cover_of_tiled [⟨r2_S64x128, p0⟩] S64x128.size (by rfl) y
theorem cover2_S64x512 (p0 : Vec F S64x512 .bf16) (y : S64x512.Idx) :
    ∃ pc ∈ ([⟨r2_S64x512, p0⟩] : List (View.Piece (Elt F) S64x512 .bf16)), y ∈ pc.1.set :=
  View.cover_of_tiled [⟨r2_S64x512, p0⟩] S64x512.size (by rfl) y

/-! ## The body's triple -/

set_option maxHeartbeats 4000000 in
/-- The kernel body on whole staging memrefs, the inputs' at read contents `xW` and the outputs' at anything, runs to
    the continuation holding the inputs' as they were and each output's at `out2_W` of the inputs': the printed
    function is its skeleton, a call of its first part (again its skeleton) then one load and one store. -/
theorem sound_kernel2 (c : Dev nD) (E : Set ℕ) (i : grid2.Coords) (arg1 : Memref sig .tc .vmem S64x512 .bf16) (harg1 : arg1.IsWhole) (arg2 : Memref sig .tc .vmem S512x128 .f32) (harg2 : arg2.IsWhole) (arg3 : Memref sig .tc .vmem S128 .f32) (harg3 : arg3.IsWhole) (arg4 : Memref sig .tc .vmem S512x128 .f32) (harg4 : arg4.IsWhole) (arg5 : Memref sig .tc .vmem S128 .f32) (harg5 : arg5.IsWhole) (arg6 : Memref sig .tc .vmem S64x128 .f32) (harg6 : arg6.IsWhole) (arg7 : Memref sig .tc .vmem S128x512 .f32) (harg7 : arg7.IsWhole) (arg8 : Memref sig .tc .vmem S512 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x512 .bf16) (harg11 : arg11.IsWhole)
    (x0 : Vec F S64x512 .bf16) (x1 : Vec F S512x128 .f32) (x2 : Vec F S128 .f32) (x3 : Vec F S512x128 .f32) (x4 : Vec F S128 .f32) (x5 : Vec F S64x128 .f32) (x6 : Vec F S128x512 .f32) (x7 : Vec F S512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out2_8 x0 x1 x2) ∗ owns (c : Thread nD τ) arg10 fullShare (out2_9 x0 x3 x4) ∗ owns (c : Thread nD τ) arg11 fullShare (out2_10 x0 x1 x2 x3 x4 x5 x6 x7)) -∗ K ⟨⟩))
      ⊢ wp frame (wpE (defs₀ (F := F)) Variants.none c none) E (cc2__vae_latent_kernel i arg1 harg1 arg2 harg2 arg3 harg3 arg4 harg4 arg5 harg5 arg6 harg6 arg7 harg7 arg8 harg8 arg9 harg9 arg10 harg10 arg11 harg11) K := by
  simp only [cc2__vae_latent_kernel_eq_skeleton]; unfold cc2__vae_latent_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover2_S64x128 _)
  isplitl [H9]
  · iexists _; isplitr
    swap; · iexact H9
    ipureintro
    exact View.read_writes_eq_canon _ _ _ (cover2_S64x128 _)
  iexists _; isplitr
  swap; · iexact H10
  ipureintro
  exact View.read_writes_eq_canon _ _ _ (cover2_S64x512 _)

/-! ## The pipeline's proof data -/

/-- The proof data of pipeline 2 on core `c`: the arrays as the region finds them (`V`); after the body at
    point `t` each input's buffer at its block and each output's at `out2_W` of the input blocks; the invariant the
    class's (the scoped rest and the generator register, untouched); nothing owed; full shares. -/
def dat2 (V : Entry F) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t)
    | ⟨9, _⟩ => out2_9 (iblk2 V c 0 t) (iblk2 V c 3 t) (iblk2 V c 4 t)
    | ⟨10, _⟩ => out2_10 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

/-- The proof data's arrays are the region-entry contents. -/
theorem A_eq2 (V : Entry F) (c : Dev nD) (w : Fin cfg2.W) : (dat2 V c).A w = V c (Pipeline.arrRef spec2 w) := by
  dsimp only [dat2]

/-- What the body leaves, window by window. -/
theorem after2_0 (V : Entry F) (c : Dev nD) (t : Fin cfg2.N) : (dat2 V c).after 0 t = iblk2 V c 0 t := by dsimp only [dat2]
theorem after2_1 (V : Entry F) (c : Dev nD) (t : Fin cfg2.N) : (dat2 V c).after 1 t = iblk2 V c 1 t := by dsimp only [dat2]
theorem after2_2 (V : Entry F) (c : Dev nD) (t : Fin cfg2.N) : (dat2 V c).after 2 t = iblk2 V c 2 t := by dsimp only [dat2]
theorem after2_3 (V : Entry F) (c : Dev nD) (t : Fin cfg2.N) : (dat2 V c).after 3 t = iblk2 V c 3 t := by dsimp only [dat2]
theorem after2_4 (V : Entry F) (c : Dev nD) (t : Fin cfg2.N) : (dat2 V c).after 4 t = iblk2 V c 4 t := by dsimp only [dat2]
theorem after2_5 (V : Entry F) (c : Dev nD) (t : Fin cfg2.N) : (dat2 V c).after 5 t = iblk2 V c 5 t := by dsimp only [dat2]
theorem after2_6 (V : Entry F) (c : Dev nD) (t : Fin cfg2.N) : (dat2 V c).after 6 t = iblk2 V c 6 t := by dsimp only [dat2]
theorem after2_7 (V : Entry F) (c : Dev nD) (t : Fin cfg2.N) : (dat2 V c).after 7 t = iblk2 V c 7 t := by dsimp only [dat2]
theorem after2_8 (V : Entry F) (c : Dev nD) (t : Fin cfg2.N) : (dat2 V c).after 8 t = out2_8 (iblk2 V c 0 t) (iblk2 V c 1 t) (iblk2 V c 2 t) := by dsimp only [dat2]
theorem after2_9 (V : Entry F) (c : Dev nD) (t : Fin cfg2.N) : (dat2 V c).after 9 t = out2_9 (iblk2 V c 0 t) (iblk2 V c 3 t) (iblk2 V c 4 t) := by dsimp only [dat2]
theorem after2_10 (V : Entry F) (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) := by dsimp only [dat2]

/-- The invariant is the class's at every point, nothing is owed, every share is full. -/
theorem hin2 (V : Entry F) (c : Dev nD) : Pipeline.ΦA spec2 c ⊢ (dat2 V c).Φ 0 := .rfl
theorem hout2 (V : Entry F) (c : Dev nD) : (dat2 V c).Φ (Fin.last cfg2.N) ⊢ Pipeline.ΦA spec2 c := .rfl
theorem owed2 (V : Entry F) (c : Dev nD) (t : Fin (cfg2.N + 1)) : (dat2 V c).owed t = 0 := rfl
theorem share2 (V : Entry F) (c : Dev nD) (w : Fin cfg2.W) : (dat2 V c).q w = fullShare := rfl
/-- Every level is recorded at every point (the proof data leaves the field at its default). -/
theorem recorded2 (V : Entry F) (c : Dev nD) (t : Fin (cfg2.N + 1)) : (dat2 V c).recorded t = Set.univ := rfl

/-- Each input's current staging buffer holds its block at every point, fetched there or not. -/
theorem before2_0 (V : Entry F) (c : Dev nD) (t : Fin cfg2.N) (d) : (dat2 V c).before 0 t d = iblk2 V c 0 t :=
  before2_0_of V (dat2 V c) (A_eq2 V c 0) (after2_0 V c) t d
theorem before2_1 (V : Entry F) (c : Dev nD) (t : Fin cfg2.N) (d) : (dat2 V c).before 1 t d = iblk2 V c 1 t :=
  before2_1_of V (dat2 V c) (A_eq2 V c 1) (after2_1 V c) t d
theorem before2_2 (V : Entry F) (c : Dev nD) (t : Fin cfg2.N) (d) : (dat2 V c).before 2 t d = iblk2 V c 2 t :=
  before2_2_of V (dat2 V c) (A_eq2 V c 2) (after2_2 V c) t d
theorem before2_3 (V : Entry F) (c : Dev nD) (t : Fin cfg2.N) (d) : (dat2 V c).before 3 t d = iblk2 V c 3 t :=
  before2_3_of V (dat2 V c) (A_eq2 V c 3) (after2_3 V c) t d
theorem before2_4 (V : Entry F) (c : Dev nD) (t : Fin cfg2.N) (d) : (dat2 V c).before 4 t d = iblk2 V c 4 t :=
  before2_4_of V (dat2 V c) (A_eq2 V c 4) (after2_4 V c) t d
theorem before2_5 (V : Entry F) (c : Dev nD) (t : Fin cfg2.N) (d) : (dat2 V c).before 5 t d = iblk2 V c 5 t :=
  before2_5_of V (dat2 V c) (A_eq2 V c 5) (after2_5 V c) t d
theorem before2_6 (V : Entry F) (c : Dev nD) (t : Fin cfg2.N) (d) : (dat2 V c).before 6 t d = iblk2 V c 6 t :=
  before2_6_of V (dat2 V c) (A_eq2 V c 6) (after2_6 V c) t d
theorem before2_7 (V : Entry F) (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point `t` (the obligation's precondition, the windows one by one), -/
def bodyPre2 (V : Entry F) (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns. -/
def bodyPost2 (V : Entry F) (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

/-- The body at any point: the inputs' memrefs hold their blocks, so the body's triple applies; the invariant and
    the core's `owes` pass through unread. -/
theorem sound_body2 (V : Entry F) (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation2 (V : Entry F) (c : Dev nD) : BodyObligation (dat2 (F := F) V c) (defs₀ (F := F)) Variants.none () Set.univ := fun t => by
  rw [bigSep_W2, bigSep_W2]
  exact sound_body2 V c t

end Cert.KernelIdeal.Fr

end
-- ==== Proof.KI.R3.lean ====
/- Region 3 of the kernel program, the decoder pipeline (grid of 20 points; windows 0..2 inputs, window 3 the output):
   each window's block at a point, what the body leaves in the output's staging buffer, the body's triple, the
   pipeline's proof data at the region's entry contents, and the body obligation. -/
import proofs.«419763_j27925877358777_3_alg».proof.Proof.KI.Base
import proofs.«419763_j27925877358777_3_alg».proof.Proof.Gen.KernelIdeal.Launch
import proofs.«419763_j27925877358777_3_alg».proof.Proof.Gen.KernelIdeal.Skeleton
import proofs.«419763_j27925877358777_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks -/

/-- Window `w`'s block at point `t`, read off its array as the region finds it (`V`). -/
def iblk3 (V : Entry F) (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is `V`'s (`hA`) and whose body leaves the block in place (`hafter`): unfetched, the block
    index has not moved, so the previous point's block is this point's. Window 0's index map is constant (fetched
    at the first point only); windows 1 and 2 move with the point. All three are uncut and never idle. -/
theorem before3_0_of (V : Entry F) {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of (V : Entry F) {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of (V : Entry F) {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole of each staging buffer: every access of the body is of a whole buffer. -/
abbrev r3_0 : Rect S64x512 := Rect.unit (s := S64x512) ![0, 0] S64x512.size inb_S64x512_S64x512_0_0
abbrev r3_1 : Rect S512x3200 := Rect.unit (s := S512x3200) ![0, 0] S512x3200.size inb_S512x3200_S512x3200_0_0
abbrev r3_2 : Rect S1x3200 := Rect.unit (s := S1x3200) ![0, 0] S1x3200.size inb_S1x3200_S1x3200_0_0
abbrev r3_3 : Rect S64x3200 := Rect.unit (s := S64x3200) ![0, 0] S64x3200.size inb_S64x3200_S64x3200_0_0

/-! ## What the body leaves in the output window's buffer -/

/-- Window 3's staging buffer after the body, from the input windows' blocks: its one store, of the whole buffer,
    of the logistic of (window 0's block · window 1's block + window 2's block, broadcast over the rows). -/
def out3_3 (x0 : Vec F S64x512 .bf16) (x1 : Vec F S512x3200 .f32) (x2 : Vec F S1x3200 .f32) : Vec F S64x3200 .f32 :=
  View.canon [⟨r3_3, k3_pay1 (View.ld x0 r3_0) (View.ld x1 r3_1) (View.ld x2 r3_2)⟩]

/-- The one store is of the whole buffer, so it covers it. -/
theorem cover3_3 (p0 : Vec F S64x3200 .f32) (y : S64x3200.Idx) :
    ∃ pc ∈ ([⟨r3_3, p0⟩] : List (View.Piece (Elt F) S64x3200 .f32)), y ∈ pc.1.set :=
  View.cover_of_tiled [⟨r3_3, p0⟩] S64x3200.size (by rfl) y

/-! ## The body's triple -/

set_option maxHeartbeats 1000000 in
/-- The kernel body on whole staging memrefs, the inputs' at read contents `xW` and the output's at anything, runs to
    the continuation holding the inputs' as they were and the output's at `out3_3` of the inputs'. -/
theorem sound_kernel3 (c : Dev nD) (E : Set ℕ) (i : grid3.Coords) (arg1 : Memref sig .tc .vmem S64x512 .bf16) (harg1 : arg1.IsWhole) (arg2 : Memref sig .tc .vmem S512x3200 .f32) (harg2 : arg2.IsWhole) (arg3 : Memref sig .tc .vmem S1x3200 .f32) (harg3 : arg3.IsWhole) (arg4 : Memref sig .tc .vmem S64x3200 .f32) (harg4 : arg4.IsWhole)
    (x0 : Vec F S64x512 .bf16) (x1 : Vec F S512x3200 .f32) (x2 : Vec F S1x3200 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__vae_decoder_kernel i arg1 harg1 arg2 harg2 arg3 harg3 arg4 harg4) K := by
  simp only [cc3__vae_decoder_kernel_eq_skeleton]; unfold cc3__vae_decoder_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at
    point `t` each input's buffer at its block and the output's at `out3_3` of the input blocks; the invariant the
    scoped rest and the generator register, untouched; nothing owed; full shares. -/
def dat3 (V : Entry F) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents: the definition projected. -/
theorem A_eq3 (V : Entry F) (c : Dev nD) (w : Fin cfg3.W) : (dat3 V c).A w = V c (Pipeline.arrRef spec3 w) := by
  dsimp only [dat3]

/-- What the body leaves, window by window: the definition's case split reduced. -/
theorem after3_0 (V : Entry F) (c : Dev nD) (t : Fin cfg3.N) : (dat3 V c).after 0 t = iblk3 V c 0 t := by dsimp only [dat3]
theorem after3_1 (V : Entry F) (c : Dev nD) (t : Fin cfg3.N) : (dat3 V c).after 1 t = iblk3 V c 1 t := by dsimp only [dat3]
theorem after3_2 (V : Entry F) (c : Dev nD) (t : Fin cfg3.N) : (dat3 V c).after 2 t = iblk3 V c 2 t := by dsimp only [dat3]
theorem after3_3 (V : Entry F) (c : Dev nD) (t : Fin cfg3.N) :
    (dat3 V c).after 3 t = out3_3 (iblk3 V c 0 t) (iblk3 V c 1 t) (iblk3 V c 2 t) := by dsimp only [dat3]

/-- Each input's current staging buffer holds its block at every point, fetched there or not. -/
theorem before3_0 (V : Entry F) (c : Dev nD) (t : Fin cfg3.N) (d) : (dat3 V c).before 0 t d = iblk3 V c 0 t :=
  before3_0_of V (dat3 V c) (A_eq3 V c 0) (after3_0 V c) t d
theorem before3_1 (V : Entry F) (c : Dev nD) (t : Fin cfg3.N) (d) : (dat3 V c).before 1 t d = iblk3 V c 1 t :=
  before3_1_of V (dat3 V c) (A_eq3 V c 1) (after3_1 V c) t d
theorem before3_2 (V : Entry F) (c : Dev nD) (t : Fin cfg3.N) (d) : (dat3 V c).before 2 t d = iblk3 V c 2 t :=
  before3_2_of V (dat3 V c) (A_eq3 V c 2) (after3_2 V c) t d

/-- The invariant is the same at every point, nothing is ever owed, every share is full. -/
theorem hin3 (V : Entry F) (c : Dev nD) : Pipeline.ΦA spec3 c ⊢ (dat3 V c).Φ 0 := .rfl
theorem hout3 (V : Entry F) (c : Dev nD) : (dat3 V c).Φ (Fin.last cfg3.N) ⊢ Pipeline.ΦA spec3 c := .rfl
theorem owed3 (V : Entry F) (c : Dev nD) (t : Fin (cfg3.N + 1)) : (dat3 V c).owed t = 0 := rfl
theorem share3 (V : Entry F) (c : Dev nD) (w : Fin cfg3.W) : (dat3 V c).q w = fullShare := rfl
/-- The proof data records every name at every point (the field's default). -/
theorem recorded3 (V : Entry F) (c : Dev nD) (t : Fin (cfg3.N + 1)) : (dat3 V c).recorded t = Set.univ := rfl

/-! ## The body obligation, at a generic point -/

/-- What the body is called with at point `t` (the obligation's precondition, the windows one by one), -/
def bodyPre3 (V : Entry F) (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (V : Entry F) (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and
    the core's owed counts pass through unread. -/
theorem sound_body3 (V : Entry F) (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (V : Entry F) (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Run.lean ====
/- The run of the kernel program: the buffer contents at each of its eight segment boundaries as a fold from the launch
   memory, each argument read back through the fold to its launch contents, the four regions and three host stretches
   as segments over the thread state "every unscoped buffer at the boundary's contents", and the frame. -/
import proofs.«419763_j27925877358777_3_alg».proof.Proof.KI.R0
import proofs.«419763_j27925877358777_3_alg».proof.Proof.KI.R1
import proofs.«419763_j27925877358777_3_alg».proof.Proof.KI.R2
import proofs.«419763_j27925877358777_3_alg».proof.Proof.KI.R3

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the host stretches write -/

/-- An operation whose one written buffer is the reference `y` writes within any list holding `y`. -/
theorem writes_sub_of_mem {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw, Finset.singleton_subset_iff, List.mem_toFinset]; exact List.mem_map_of_mem hy

/-- The references the first stretch's operations write, in order: each operation's one result. -/
abbrev hostOps0_W : List (Ref sig .tc) := [main_call0_v0, main_call0_v1, main_call0_v2, main_call0_v3, main_call0_c, main_call0_v4, main_call0_v5, main_call0_v6, main_call0_cst, main_call0_v7, main_call0_cst_0, main_call0_v8, main_call0_v9, main_call0_v10, main_call0_v11, main_call0_cst_1, main_call0_v12, main_call0_cst_2, main_call0_v13, main_call0_v14, main_call0_cst_3, main_call0_v15, main_call0_v16, main_call0_v17, main_call0_cst_4, main_call0_v18, main_call0_v19, main_call0_v20, main_call0_v21, main_call0_v22, main_call0_v23, main_call0_v24, main_call0_v25, main_call0_v26, main_call0_v27, main_call0_v28, main_call0_v29, main_call0_cst_5, main_call0_v30, main_call0_c_6, main_call0_v31, main_call0_c_7, main_call0_v32, main_call0_v33, main_call0_v34, main_call0_c_8, main_call0_v35, main_call0_c_9, main_call0_v36, main_call0_v37, main_call0_v38, main_call0_c_10, main_call0_v39, main_call0_c_11, main_call0_v40, main_call0_v41, main_call0_v42, main_call0_c_12, main_call0_v43, main_call0_c_13, main_call0_v44, main_call0_v45, main_call0_v46, main_call0_c_14, main_call0_v47, main_call0_c_15, main_call0_v48, main_call0_v49, main_call0_v50, main_call0_c_16, main_call0_v51, main_call0_c_17, main_call0_v52, main_call0_v53, main_call0_v54, main_call0_c_18, main_call0_v55, main_call0_c_19, main_call0_v56, main_call0_v57, main_call0_v58, main_call0_c_20, main_call0_v59, main_call0_c_21, main_call0_v60, main_call0_v61, main_call0_v62, main_call0_v63, main_call0_v64, main_call0_v65]
set_option maxHeartbeats 4000000 in
theorem hostOps0_writes : (hostOps0 : List (HloOp τ sig (Elt F))).Forall fun op => op.writes ⊆ (hostOps0_W.map (Proc.devRef (τ := τ) .tc)).toFinset :=
  ⟨writes_sub_of_mem main_call0_v0 rfl (by decide),
   writes_sub_of_mem main_call0_v1 rfl (by decide),
   writes_sub_of_mem main_call0_v2 rfl (by decide),
   writes_sub_of_mem main_call0_v3 rfl (by decide),
   writes_sub_of_mem main_call0_c rfl (by decide),
   writes_sub_of_mem main_call0_v4 rfl (by decide),
   writes_sub_of_mem main_call0_v5 rfl (by decide),
   writes_sub_of_mem main_call0_v6 rfl (by decide),
   writes_sub_of_mem main_call0_cst rfl (by decide),
   writes_sub_of_mem main_call0_v7 rfl (by decide),
   writes_sub_of_mem main_call0_cst_0 rfl (by decide),
   writes_sub_of_mem main_call0_v8 rfl (by decide),
   writes_sub_of_mem main_call0_v9 rfl (by decide),
   writes_sub_of_mem main_call0_v10 rfl (by decide),
   writes_sub_of_mem main_call0_v11 rfl (by decide),
   writes_sub_of_mem main_call0_cst_1 rfl (by decide),
   writes_sub_of_mem main_call0_v12 rfl (by decide),
   writes_sub_of_mem main_call0_cst_2 rfl (by decide),
   writes_sub_of_mem main_call0_v13 rfl (by decide),
   writes_sub_of_mem main_call0_v14 rfl (by decide),
   writes_sub_of_mem main_call0_cst_3 rfl (by decide),
   writes_sub_of_mem main_call0_v15 rfl (by decide),
   writes_sub_of_mem main_call0_v16 rfl (by decide),
   writes_sub_of_mem main_call0_v17 rfl (by decide),
   writes_sub_of_mem main_call0_cst_4 rfl (by decide),
   writes_sub_of_mem main_call0_v18 rfl (by decide),
   writes_sub_of_mem main_call0_v19 rfl (by decide),
   writes_sub_of_mem main_call0_v20 rfl (by decide),
   writes_sub_of_mem main_call0_v21 rfl (by decide),
   writes_sub_of_mem main_call0_v22 rfl (by decide),
   writes_sub_of_mem main_call0_v23 rfl (by decide),
   writes_sub_of_mem main_call0_v24 rfl (by decide),
   writes_sub_of_mem main_call0_v25 rfl (by decide),
   writes_sub_of_mem main_call0_v26 rfl (by decide),
   writes_sub_of_mem main_call0_v27 rfl (by decide),
   writes_sub_of_mem main_call0_v28 rfl (by decide),
   writes_sub_of_mem main_call0_v29 rfl (by decide),
   writes_sub_of_mem main_call0_cst_5 rfl (by decide),
   writes_sub_of_mem main_call0_v30 rfl (by decide),
   writes_sub_of_mem main_call0_c_6 rfl (by decide),
   writes_sub_of_mem main_call0_v31 rfl (by decide),
   writes_sub_of_mem main_call0_c_7 rfl (by decide),
   writes_sub_of_mem main_call0_v32 rfl (by decide),
   writes_sub_of_mem main_call0_v33 rfl (by decide),
   writes_sub_of_mem main_call0_v34 rfl (by decide),
   writes_sub_of_mem main_call0_c_8 rfl (by decide),
   writes_sub_of_mem main_call0_v35 rfl (by decide),
   writes_sub_of_mem main_call0_c_9 rfl (by decide),
   writes_sub_of_mem main_call0_v36 rfl (by decide),
   writes_sub_of_mem main_call0_v37 rfl (by decide),
   writes_sub_of_mem main_call0_v38 rfl (by decide),
   writes_sub_of_mem main_call0_c_10 rfl (by decide),
   writes_sub_of_mem main_call0_v39 rfl (by decide),
   writes_sub_of_mem main_call0_c_11 rfl (by decide),
   writes_sub_of_mem main_call0_v40 rfl (by decide),
   writes_sub_of_mem main_call0_v41 rfl (by decide),
   writes_sub_of_mem main_call0_v42 rfl (by decide),
   writes_sub_of_mem main_call0_c_12 rfl (by decide),
   writes_sub_of_mem main_call0_v43 rfl (by decide),
   writes_sub_of_mem main_call0_c_13 rfl (by decide),
   writes_sub_of_mem main_call0_v44 rfl (by decide),
   writes_sub_of_mem main_call0_v45 rfl (by decide),
   writes_sub_of_mem main_call0_v46 rfl (by decide),
   writes_sub_of_mem main_call0_c_14 rfl (by decide),
   writes_sub_of_mem main_call0_v47 rfl (by decide),
   writes_sub_of_mem main_call0_c_15 rfl (by decide),
   writes_sub_of_mem main_call0_v48 rfl (by decide),
   writes_sub_of_mem main_call0_v49 rfl (by decide),
   writes_sub_of_mem main_call0_v50 rfl (by decide),
   writes_sub_of_mem main_call0_c_16 rfl (by decide),
   writes_sub_of_mem main_call0_v51 rfl (by decide),
   writes_sub_of_mem main_call0_c_17 rfl (by decide),
   writes_sub_of_mem main_call0_v52 rfl (by decide),
   writes_sub_of_mem main_call0_v53 rfl (by decide),
   writes_sub_of_mem main_call0_v54 rfl (by decide),
   writes_sub_of_mem main_call0_c_18 rfl (by decide),
   writes_sub_of_mem main_call0_v55 rfl (by decide),
   writes_sub_of_mem main_call0_c_19 rfl (by decide),
   writes_sub_of_mem main_call0_v56 rfl (by decide),
   writes_sub_of_mem main_call0_v57 rfl (by decide),
   writes_sub_of_mem main_call0_v58 rfl (by decide),
   writes_sub_of_mem main_call0_c_20 rfl (by decide),
   writes_sub_of_mem main_call0_v59 rfl (by decide),
   writes_sub_of_mem main_call0_c_21 rfl (by decide),
   writes_sub_of_mem main_call0_v60 rfl (by decide),
   writes_sub_of_mem main_call0_v61 rfl (by decide),
   writes_sub_of_mem main_call0_v62 rfl (by decide),
   writes_sub_of_mem main_call0_v63 rfl (by decide),
   writes_sub_of_mem main_call0_v64 rfl (by decide),
   writes_sub_of_mem main_call0_v65 rfl (by decide)⟩
/-- The references the second stretch's operations write. -/
abbrev hostOps1_W : List (Ref sig .tc) := [main_call0_v67, main_call0_v68, main_call0_v69, main_call0_v70]
theorem hostOps1_writes : (hostOps1 : List (HloOp τ sig (Elt F))).Forall fun op => op.writes ⊆ (hostOps1_W.map (Proc.devRef (τ := τ) .tc)).toFinset :=
  ⟨writes_sub_of_mem main_call0_v67 rfl (by decide),
   writes_sub_of_mem main_call0_v68 rfl (by decide),
   writes_sub_of_mem main_call0_v69 rfl (by decide),
   writes_sub_of_mem main_call0_v70 rfl (by decide)⟩
/-- The reference the last stretch's one operation writes. -/
abbrev hostOps3_W : List (Ref sig .tc) := [main_call0_v73]
theorem hostOps3_writes : (hostOps3 : List (HloOp τ sig (Elt F))).Forall fun op => op.writes ⊆ (hostOps3_W.map (Proc.devRef (τ := τ) .tc)).toFinset :=
  writes_sub_of_mem main_call0_v73 rfl (by decide)

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the host stretch `hostOps0` (region 0's entry). -/
abbrev W1 : Dev nD → Valuation τ sig (Elt F) := fun c => StableHlo.after hostOps0 (W0 m ρ c)
/-- The same read at the TensorCore's references (what region 0's proof data take). -/
abbrev V1 : Entry F := fun c b => W1 m ρ c b
/-- A reference the stretch does not write holds after it what it held before. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : Entry F := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host stretch `hostOps1` (region 1's entry). -/
abbrev W3 : Dev nD → Valuation τ sig (Elt F) := fun c => StableHlo.after hostOps1 (W2 m ρ c)
/-- The same read at the TensorCore's references (what region 1's proof data take). -/
abbrev V3 : Entry F := fun c b => W3 m ρ c b
/-- A reference the stretch does not write holds after it what it held before. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents: what region 2's proof data take, the two regions being adjacent). -/
abbrev V4 : Entry F := fun c b => W4 m ρ c b
/-- At region 1's exit each of its arrays holds what the pipeline leaves and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- At region 2's exit: its arrays at what the pipeline leaves (the inputs as entered, each output's write-backs
    folded), every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references (region 2's exit contents). -/
abbrev V5 : Entry F := fun c b => W5 m ρ c b
/-- At region 2's exit each of its arrays holds what the pipeline leaves and every other buffer what it held at entry. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- After the host stretch `hostOps3` (region 3's entry). -/
abbrev W6 : Dev nD → Valuation τ sig (Elt F) := fun c => StableHlo.after hostOps3 (W5 m ρ c)
/-- The same read at the TensorCore's references (what region 3's proof data take). -/
abbrev V6 : Entry F := fun c b => W6 m ρ c b
/-- A reference the stretch does not write holds after it what it held before. -/
theorem W6_of (c : Dev nD) (r : Ref sig .tc) (h : r ∉ hostOps3_W) :
    W6 m ρ c (Proc.devRef .tc r) = W5 m ρ c (Proc.devRef .tc r) :=
  StableHlo.after_of_writes_sub hostOps3 _ hostOps3_writes h
/-- At region 3's exit: its arrays at what the pipeline leaves (the inputs as entered, each output's write-backs
    folded), every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references (region 3's exit contents). -/
abbrev V7 : Entry F := fun c b => W7 m ρ c b
/-- At region 3's exit each of its arrays holds what the pipeline leaves and every other buffer what it held at entry. -/
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-! ## The arguments hold their launch contents at every boundary

No host operation writes an argument, and a region either reads it through an input window (whose array the
pipeline leaves as entered) or bypasses it: the fold at an argument's buffer walks back to the launch memory. -/

theorem W1_main_arg0 (c : Dev nD) : W1 m ρ c (Proc.devRef .tc main_arg0) = m ((c : Thread nD τ).loc main_arg0) :=
  (W1_of m ρ c main_arg0 (by decide)).trans rfl
theorem W2_main_arg0 (c : Dev nD) : W2 m ρ c (Proc.devRef .tc main_arg0) = m ((c : Thread nD τ).loc main_arg0) :=
  (W2_of_ne m ρ c main_arg0 (by decide)).trans (W1_main_arg0 m ρ c)
theorem W3_main_arg0 (c : Dev nD) : W3 m ρ c (Proc.devRef .tc main_arg0) = m ((c : Thread nD τ).loc main_arg0) :=
  (W3_of m ρ c main_arg0 (by decide)).trans (W2_main_arg0 m ρ c)
theorem W4_main_arg0 (c : Dev nD) : W4 m ρ c (Proc.devRef .tc main_arg0) = m ((c : Thread nD τ).loc main_arg0) :=
  (W4_of_ne m ρ c main_arg0 (by decide)).trans (W3_main_arg0 m ρ c)
theorem W5_main_arg0 (c : Dev nD) : W5 m ρ c (Proc.devRef .tc main_arg0) = m ((c : Thread nD τ).loc main_arg0) :=
  (W5_of_ne m ρ c main_arg0 (by decide)).trans (W4_main_arg0 m ρ c)
theorem W6_main_arg0 (c : Dev nD) : W6 m ρ c (Proc.devRef .tc main_arg0) = m ((c : Thread nD τ).loc main_arg0) :=
  (W6_of m ρ c main_arg0 (by decide)).trans (W5_main_arg0 m ρ c)
theorem W7_main_arg0 (c : Dev nD) : W7 m ρ c (Proc.devRef .tc main_arg0) = m ((c : Thread nD τ).loc main_arg0) :=
  (W7_of_ne m ρ c main_arg0 (by decide)).trans (W6_main_arg0 m ρ c)

theorem W1_main_arg1 (c : Dev nD) : W1 m ρ c (Proc.devRef .tc main_arg1) = m ((c : Thread nD τ).loc main_arg1) :=
  (W1_of m ρ c main_arg1 (by decide)).trans rfl
theorem W2_main_arg1 (c : Dev nD) : W2 m ρ c (Proc.devRef .tc main_arg1) = m ((c : Thread nD τ).loc main_arg1) :=
  (W2_of_ne m ρ c main_arg1 (by decide)).trans (W1_main_arg1 m ρ c)
theorem W3_main_arg1 (c : Dev nD) : W3 m ρ c (Proc.devRef .tc main_arg1) = m ((c : Thread nD τ).loc main_arg1) :=
  (W3_of m ρ c main_arg1 (by decide)).trans (W2_main_arg1 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W5_main_arg1 (c : Dev nD) : W5 m ρ c (Proc.devRef .tc main_arg1) = m ((c : Thread nD τ).loc main_arg1) :=
  (W5_of_ne m ρ c main_arg1 (by decide)).trans (W4_main_arg1 m ρ c)
theorem W6_main_arg1 (c : Dev nD) : W6 m ρ c (Proc.devRef .tc main_arg1) = m ((c : Thread nD τ).loc main_arg1) :=
  (W6_of m ρ c main_arg1 (by decide)).trans (W5_main_arg1 m ρ c)
theorem W7_main_arg1 (c : Dev nD) : W7 m ρ c (Proc.devRef .tc main_arg1) = m ((c : Thread nD τ).loc main_arg1) :=
  (W7_of_ne m ρ c main_arg1 (by decide)).trans (W6_main_arg1 m ρ c)

theorem W1_main_arg2 (c : Dev nD) : W1 m ρ c (Proc.devRef .tc main_arg2) = m ((c : Thread nD τ).loc main_arg2) :=
  (W1_of m ρ c main_arg2 (by decide)).trans rfl
theorem W2_main_arg2 (c : Dev nD) : W2 m ρ c (Proc.devRef .tc main_arg2) = m ((c : Thread nD τ).loc main_arg2) :=
  (W2_of_ne m ρ c main_arg2 (by decide)).trans (W1_main_arg2 m ρ c)
theorem W3_main_arg2 (c : Dev nD) : W3 m ρ c (Proc.devRef .tc main_arg2) = m ((c : Thread nD τ).loc main_arg2) :=
  (W3_of m ρ c main_arg2 (by decide)).trans (W2_main_arg2 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W5_main_arg2 (c : Dev nD) : W5 m ρ c (Proc.devRef .tc main_arg2) = m ((c : Thread nD τ).loc main_arg2) :=
  ((W5_arr m ρ c 5).trans (((dat2 (V4 m ρ) c).arrAt_in 5 rfl _).trans (A_eq2 (V4 m ρ) c 5))).trans (W4_main_arg2 m ρ c)
theorem W6_main_arg2 (c : Dev nD) : W6 m ρ c (Proc.devRef .tc main_arg2) = m ((c : Thread nD τ).loc main_arg2) :=
  (W6_of m ρ c main_arg2 (by decide)).trans (W5_main_arg2 m ρ c)
theorem W7_main_arg2 (c : Dev nD) : W7 m ρ c (Proc.devRef .tc main_arg2) = m ((c : Thread nD τ).loc main_arg2) :=
  (W7_of_ne m ρ c main_arg2 (by decide)).trans (W6_main_arg2 m ρ c)

theorem W1_main_arg3 (c : Dev nD) : W1 m ρ c (Proc.devRef .tc main_arg3) = m ((c : Thread nD τ).loc main_arg3) :=
  (W1_of m ρ c main_arg3 (by decide)).trans rfl
theorem W2_main_arg3 (c : Dev nD) : W2 m ρ c (Proc.devRef .tc main_arg3) = m ((c : Thread nD τ).loc main_arg3) :=
  (W2_of_ne m ρ c main_arg3 (by decide)).trans (W1_main_arg3 m ρ c)
theorem W3_main_arg3 (c : Dev nD) : W3 m ρ c (Proc.devRef .tc main_arg3) = m ((c : Thread nD τ).loc main_arg3) :=
  (W3_of m ρ c main_arg3 (by decide)).trans (W2_main_arg3 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W5_main_arg3 (c : Dev nD) : W5 m ρ c (Proc.devRef .tc main_arg3) = m ((c : Thread nD τ).loc main_arg3) :=
  (W5_of_ne m ρ c main_arg3 (by decide)).trans (W4_main_arg3 m ρ c)
theorem W6_main_arg3 (c : Dev nD) : W6 m ρ c (Proc.devRef .tc main_arg3) = m ((c : Thread nD τ).loc main_arg3) :=
  (W6_of m ρ c main_arg3 (by decide)).trans (W5_main_arg3 m ρ c)
theorem W7_main_arg3 (c : Dev nD) : W7 m ρ c (Proc.devRef .tc main_arg3) = m ((c : Thread nD τ).loc main_arg3) :=
  (W7_of_ne m ρ c main_arg3 (by decide)).trans (W6_main_arg3 m ρ c)

theorem W1_main_arg4 (c : Dev nD) : W1 m ρ c (Proc.devRef .tc main_arg4) = m ((c : Thread nD τ).loc main_arg4) :=
  (W1_of m ρ c main_arg4 (by decide)).trans rfl
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  (W3_of m ρ c main_arg4 (by decide)).trans (W2_main_arg4 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W5_main_arg4 (c : Dev nD) : W5 m ρ c (Proc.devRef .tc main_arg4) = m ((c : Thread nD τ).loc main_arg4) :=
  (W5_of_ne m ρ c main_arg4 (by decide)).trans (W4_main_arg4 m ρ c)
theorem W6_main_arg4 (c : Dev nD) : W6 m ρ c (Proc.devRef .tc main_arg4) = m ((c : Thread nD τ).loc main_arg4) :=
  (W6_of m ρ c main_arg4 (by decide)).trans (W5_main_arg4 m ρ c)
theorem W7_main_arg4 (c : Dev nD) : W7 m ρ c (Proc.devRef .tc main_arg4) = m ((c : Thread nD τ).loc main_arg4) :=
  (W7_of_ne m ρ c main_arg4 (by decide)).trans (W6_main_arg4 m ρ c)

theorem W1_main_arg5 (c : Dev nD) : W1 m ρ c (Proc.devRef .tc main_arg5) = m ((c : Thread nD τ).loc main_arg5) :=
  (W1_of m ρ c main_arg5 (by decide)).trans rfl
theorem W2_main_arg5 (c : Dev nD) : W2 m ρ c (Proc.devRef .tc main_arg5) = m ((c : Thread nD τ).loc main_arg5) :=
  (W2_of_ne m ρ c main_arg5 (by decide)).trans (W1_main_arg5 m ρ c)
theorem W3_main_arg5 (c : Dev nD) : W3 m ρ c (Proc.devRef .tc main_arg5) = m ((c : Thread nD τ).loc main_arg5) :=
  (W3_of m ρ c main_arg5 (by decide)).trans (W2_main_arg5 m ρ c)
theorem W4_main_arg5 (c : Dev nD) : W4 m ρ c (Proc.devRef .tc main_arg5) = m ((c : Thread nD τ).loc main_arg5) :=
  ((W4_arr m ρ c 1).trans (((dat1 (V3 m ρ) c).arrAt_in 1 rfl _).trans (A_eq1 (V3 m ρ) c 1))).trans (W3_main_arg5 m ρ c)
theorem W5_main_arg5 (c : Dev nD) : W5 m ρ c (Proc.devRef .tc main_arg5) = m ((c : Thread nD τ).loc main_arg5) :=
  (W5_of_ne m ρ c main_arg5 (by decide)).trans (W4_main_arg5 m ρ c)
theorem W6_main_arg5 (c : Dev nD) : W6 m ρ c (Proc.devRef .tc main_arg5) = m ((c : Thread nD τ).loc main_arg5) :=
  (W6_of m ρ c main_arg5 (by decide)).trans (W5_main_arg5 m ρ c)
theorem W7_main_arg5 (c : Dev nD) : W7 m ρ c (Proc.devRef .tc main_arg5) = m ((c : Thread nD τ).loc main_arg5) :=
  (W7_of_ne m ρ c main_arg5 (by decide)).trans (W6_main_arg5 m ρ c)

theorem W1_main_arg6 (c : Dev nD) : W1 m ρ c (Proc.devRef .tc main_arg6) = m ((c : Thread nD τ).loc main_arg6) :=
  (W1_of m ρ c main_arg6 (by decide)).trans rfl
theorem W2_main_arg6 (c : Dev nD) : W2 m ρ c (Proc.devRef .tc main_arg6) = m ((c : Thread nD τ).loc main_arg6) :=
  (W2_of_ne m ρ c main_arg6 (by decide)).trans (W1_main_arg6 m ρ c)
theorem W3_main_arg6 (c : Dev nD) : W3 m ρ c (Proc.devRef .tc main_arg6) = m ((c : Thread nD τ).loc main_arg6) :=
  (W3_of m ρ c main_arg6 (by decide)).trans (W2_main_arg6 m ρ c)
theorem W4_main_arg6 (c : Dev nD) : W4 m ρ c (Proc.devRef .tc main_arg6) = m ((c : Thread nD τ).loc main_arg6) :=
  ((W4_arr m ρ c 2).trans (((dat1 (V3 m ρ) c).arrAt_in 2 rfl _).trans (A_eq1 (V3 m ρ) c 2))).trans (W3_main_arg6 m ρ c)
theorem W5_main_arg6 (c : Dev nD) : W5 m ρ c (Proc.devRef .tc main_arg6) = m ((c : Thread nD τ).loc main_arg6) :=
  (W5_of_ne m ρ c main_arg6 (by decide)).trans (W4_main_arg6 m ρ c)
theorem W6_main_arg6 (c : Dev nD) : W6 m ρ c (Proc.devRef .tc main_arg6) = m ((c : Thread nD τ).loc main_arg6) :=
  (W6_of m ρ c main_arg6 (by decide)).trans (W5_main_arg6 m ρ c)
theorem W7_main_arg6 (c : Dev nD) : W7 m ρ c (Proc.devRef .tc main_arg6) = m ((c : Thread nD τ).loc main_arg6) :=
  (W7_of_ne m ρ c main_arg6 (by decide)).trans (W6_main_arg6 m ρ c)

theorem W1_main_arg7 (c : Dev nD) : W1 m ρ c (Proc.devRef .tc main_arg7) = m ((c : Thread nD τ).loc main_arg7) :=
  (W1_of m ρ c main_arg7 (by decide)).trans rfl
theorem W2_main_arg7 (c : Dev nD) : W2 m ρ c (Proc.devRef .tc main_arg7) = m ((c : Thread nD τ).loc main_arg7) :=
  (W2_of_ne m ρ c main_arg7 (by decide)).trans (W1_main_arg7 m ρ c)
theorem W3_main_arg7 (c : Dev nD) : W3 m ρ c (Proc.devRef .tc main_arg7) = m ((c : Thread nD τ).loc main_arg7) :=
  (W3_of m ρ c main_arg7 (by decide)).trans (W2_main_arg7 m ρ c)
theorem W4_main_arg7 (c : Dev nD) : W4 m ρ c (Proc.devRef .tc main_arg7) = m ((c : Thread nD τ).loc main_arg7) :=
  (W4_of_ne m ρ c main_arg7 (by decide)).trans (W3_main_arg7 m ρ c)
theorem W5_main_arg7 (c : Dev nD) : W5 m ρ c (Proc.devRef .tc main_arg7) = m ((c : Thread nD τ).loc main_arg7) :=
  ((W5_arr m ρ c 1).trans (((dat2 (V4 m ρ) c).arrAt_in 1 rfl _).trans (A_eq2 (V4 m ρ) c 1))).trans (W4_main_arg7 m ρ c)
theorem W6_main_arg7 (c : Dev nD) : W6 m ρ c (Proc.devRef .tc main_arg7) = m ((c : Thread nD τ).loc main_arg7) :=
  (W6_of m ρ c main_arg7 (by decide)).trans (W5_main_arg7 m ρ c)
theorem W7_main_arg7 (c : Dev nD) : W7 m ρ c (Proc.devRef .tc main_arg7) = m ((c : Thread nD τ).loc main_arg7) :=
  (W7_of_ne m ρ c main_arg7 (by decide)).trans (W6_main_arg7 m ρ c)

theorem W1_main_arg8 (c : Dev nD) : W1 m ρ c (Proc.devRef .tc main_arg8) = m ((c : Thread nD τ).loc main_arg8) :=
  (W1_of m ρ c main_arg8 (by decide)).trans rfl
theorem W2_main_arg8 (c : Dev nD) : W2 m ρ c (Proc.devRef .tc main_arg8) = m ((c : Thread nD τ).loc main_arg8) :=
  (W2_of_ne m ρ c main_arg8 (by decide)).trans (W1_main_arg8 m ρ c)
theorem W3_main_arg8 (c : Dev nD) : W3 m ρ c (Proc.devRef .tc main_arg8) = m ((c : Thread nD τ).loc main_arg8) :=
  (W3_of m ρ c main_arg8 (by decide)).trans (W2_main_arg8 m ρ c)
theorem W4_main_arg8 (c : Dev nD) : W4 m ρ c (Proc.devRef .tc main_arg8) = m ((c : Thread nD τ).loc main_arg8) :=
  (W4_of_ne m ρ c main_arg8 (by decide)).trans (W3_main_arg8 m ρ c)
theorem W5_main_arg8 (c : Dev nD) : W5 m ρ c (Proc.devRef .tc main_arg8) = m ((c : Thread nD τ).loc main_arg8) :=
  ((W5_arr m ρ c 2).trans (((dat2 (V4 m ρ) c).arrAt_in 2 rfl _).trans (A_eq2 (V4 m ρ) c 2))).trans (W4_main_arg8 m ρ c)
theorem W6_main_arg8 (c : Dev nD) : W6 m ρ c (Proc.devRef .tc main_arg8) = m ((c : Thread nD τ).loc main_arg8) :=
  (W6_of m ρ c main_arg8 (by decide)).trans (W5_main_arg8 m ρ c)
theorem W7_main_arg8 (c : Dev nD) : W7 m ρ c (Proc.devRef .tc main_arg8) = m ((c : Thread nD τ).loc main_arg8) :=
  (W7_of_ne m ρ c main_arg8 (by decide)).trans (W6_main_arg8 m ρ c)

theorem W1_main_arg9 (c : Dev nD) : W1 m ρ c (Proc.devRef .tc main_arg9) = m ((c : Thread nD τ).loc main_arg9) :=
  (W1_of m ρ c main_arg9 (by decide)).trans rfl
theorem W2_main_arg9 (c : Dev nD) : W2 m ρ c (Proc.devRef .tc main_arg9) = m ((c : Thread nD τ).loc main_arg9) :=
  (W2_of_ne m ρ c main_arg9 (by decide)).trans (W1_main_arg9 m ρ c)
theorem W3_main_arg9 (c : Dev nD) : W3 m ρ c (Proc.devRef .tc main_arg9) = m ((c : Thread nD τ).loc main_arg9) :=
  (W3_of m ρ c main_arg9 (by decide)).trans (W2_main_arg9 m ρ c)
theorem W4_main_arg9 (c : Dev nD) : W4 m ρ c (Proc.devRef .tc main_arg9) = m ((c : Thread nD τ).loc main_arg9) :=
  (W4_of_ne m ρ c main_arg9 (by decide)).trans (W3_main_arg9 m ρ c)
theorem W5_main_arg9 (c : Dev nD) : W5 m ρ c (Proc.devRef .tc main_arg9) = m ((c : Thread nD τ).loc main_arg9) :=
  ((W5_arr m ρ c 3).trans (((dat2 (V4 m ρ) c).arrAt_in 3 rfl _).trans (A_eq2 (V4 m ρ) c 3))).trans (W4_main_arg9 m ρ c)
theorem W6_main_arg9 (c : Dev nD) : W6 m ρ c (Proc.devRef .tc main_arg9) = m ((c : Thread nD τ).loc main_arg9) :=
  (W6_of m ρ c main_arg9 (by decide)).trans (W5_main_arg9 m ρ c)
theorem W7_main_arg9 (c : Dev nD) : W7 m ρ c (Proc.devRef .tc main_arg9) = m ((c : Thread nD τ).loc main_arg9) :=
  (W7_of_ne m ρ c main_arg9 (by decide)).trans (W6_main_arg9 m ρ c)

theorem W1_main_arg10 (c : Dev nD) : W1 m ρ c (Proc.devRef .tc main_arg10) = m ((c : Thread nD τ).loc main_arg10) :=
  (W1_of m ρ c main_arg10 (by decide)).trans rfl
theorem W2_main_arg10 (c : Dev nD) : W2 m ρ c (Proc.devRef .tc main_arg10) = m ((c : Thread nD τ).loc main_arg10) :=
  (W2_of_ne m ρ c main_arg10 (by decide)).trans (W1_main_arg10 m ρ c)
theorem W3_main_arg10 (c : Dev nD) : W3 m ρ c (Proc.devRef .tc main_arg10) = m ((c : Thread nD τ).loc main_arg10) :=
  (W3_of m ρ c main_arg10 (by decide)).trans (W2_main_arg10 m ρ c)
theorem W4_main_arg10 (c : Dev nD) : W4 m ρ c (Proc.devRef .tc main_arg10) = m ((c : Thread nD τ).loc main_arg10) :=
  (W4_of_ne m ρ c main_arg10 (by decide)).trans (W3_main_arg10 m ρ c)
theorem W5_main_arg10 (c : Dev nD) : W5 m ρ c (Proc.devRef .tc main_arg10) = m ((c : Thread nD τ).loc main_arg10) :=
  ((W5_arr m ρ c 4).trans (((dat2 (V4 m ρ) c).arrAt_in 4 rfl _).trans (A_eq2 (V4 m ρ) c 4))).trans (W4_main_arg10 m ρ c)
theorem W6_main_arg10 (c : Dev nD) : W6 m ρ c (Proc.devRef .tc main_arg10) = m ((c : Thread nD τ).loc main_arg10) :=
  (W6_of m ρ c main_arg10 (by decide)).trans (W5_main_arg10 m ρ c)
theorem W7_main_arg10 (c : Dev nD) : W7 m ρ c (Proc.devRef .tc main_arg10) = m ((c : Thread nD τ).loc main_arg10) :=
  (W7_of_ne m ρ c main_arg10 (by decide)).trans (W6_main_arg10 m ρ c)

theorem W1_main_arg11 (c : Dev nD) : W1 m ρ c (Proc.devRef .tc main_arg11) = m ((c : Thread nD τ).loc main_arg11) :=
  (W1_of m ρ c main_arg11 (by decide)).trans rfl
theorem W2_main_arg11 (c : Dev nD) : W2 m ρ c (Proc.devRef .tc main_arg11) = m ((c : Thread nD τ).loc main_arg11) :=
  (W2_of_ne m ρ c main_arg11 (by decide)).trans (W1_main_arg11 m ρ c)
theorem W3_main_arg11 (c : Dev nD) : W3 m ρ c (Proc.devRef .tc main_arg11) = m ((c : Thread nD τ).loc main_arg11) :=
  (W3_of m ρ c main_arg11 (by decide)).trans (W2_main_arg11 m ρ c)
theorem W4_main_arg11 (c : Dev nD) : W4 m ρ c (Proc.devRef .tc main_arg11) = m ((c : Thread nD τ).loc main_arg11) :=
  (W4_of_ne m ρ c main_arg11 (by decide)).trans (W3_main_arg11 m ρ c)
theorem W5_main_arg11 (c : Dev nD) : W5 m ρ c (Proc.devRef .tc main_arg11) = m ((c : Thread nD τ).loc main_arg11) :=
  ((W5_arr m ρ c 6).trans (((dat2 (V4 m ρ) c).arrAt_in 6 rfl _).trans (A_eq2 (V4 m ρ) c 6))).trans (W4_main_arg11 m ρ c)
theorem W6_main_arg11 (c : Dev nD) : W6 m ρ c (Proc.devRef .tc main_arg11) = m ((c : Thread nD τ).loc main_arg11) :=
  (W6_of m ρ c main_arg11 (by decide)).trans (W5_main_arg11 m ρ c)
theorem W7_main_arg11 (c : Dev nD) : W7 m ρ c (Proc.devRef .tc main_arg11) = m ((c : Thread nD τ).loc main_arg11) :=
  (W7_of_ne m ρ c main_arg11 (by decide)).trans (W6_main_arg11 m ρ c)

theorem W1_main_arg12 (c : Dev nD) : W1 m ρ c (Proc.devRef .tc main_arg12) = m ((c : Thread nD τ).loc main_arg12) :=
  (W1_of m ρ c main_arg12 (by decide)).trans rfl
theorem W2_main_arg12 (c : Dev nD) : W2 m ρ c (Proc.devRef .tc main_arg12) = m ((c : Thread nD τ).loc main_arg12) :=
  (W2_of_ne m ρ c main_arg12 (by decide)).trans (W1_main_arg12 m ρ c)
theorem W3_main_arg12 (c : Dev nD) : W3 m ρ c (Proc.devRef .tc main_arg12) = m ((c : Thread nD τ).loc main_arg12) :=
  (W3_of m ρ c main_arg12 (by decide)).trans (W2_main_arg12 m ρ c)
theorem W4_main_arg12 (c : Dev nD) : W4 m ρ c (Proc.devRef .tc main_arg12) = m ((c : Thread nD τ).loc main_arg12) :=
  (W4_of_ne m ρ c main_arg12 (by decide)).trans (W3_main_arg12 m ρ c)
theorem W5_main_arg12 (c : Dev nD) : W5 m ρ c (Proc.devRef .tc main_arg12) = m ((c : Thread nD τ).loc main_arg12) :=
  ((W5_arr m ρ c 7).trans (((dat2 (V4 m ρ) c).arrAt_in 7 rfl _).trans (A_eq2 (V4 m ρ) c 7))).trans (W4_main_arg12 m ρ c)
theorem W6_main_arg12 (c : Dev nD) : W6 m ρ c (Proc.devRef .tc main_arg12) = m ((c : Thread nD τ).loc main_arg12) :=
  (W6_of m ρ c main_arg12 (by decide)).trans (W5_main_arg12 m ρ c)
theorem W7_main_arg12 (c : Dev nD) : W7 m ρ c (Proc.devRef .tc main_arg12) = m ((c : Thread nD τ).loc main_arg12) :=
  (W7_of_ne m ρ c main_arg12 (by decide)).trans (W6_main_arg12 m ρ c)

theorem W1_main_arg13 (c : Dev nD) : W1 m ρ c (Proc.devRef .tc main_arg13) = m ((c : Thread nD τ).loc main_arg13) :=
  (W1_of m ρ c main_arg13 (by decide)).trans rfl
theorem W2_main_arg13 (c : Dev nD) : W2 m ρ c (Proc.devRef .tc main_arg13) = m ((c : Thread nD τ).loc main_arg13) :=
  (W2_of_ne m ρ c main_arg13 (by decide)).trans (W1_main_arg13 m ρ c)
theorem W3_main_arg13 (c : Dev nD) : W3 m ρ c (Proc.devRef .tc main_arg13) = m ((c : Thread nD τ).loc main_arg13) :=
  (W3_of m ρ c main_arg13 (by decide)).trans (W2_main_arg13 m ρ c)
theorem W4_main_arg13 (c : Dev nD) : W4 m ρ c (Proc.devRef .tc main_arg13) = m ((c : Thread nD τ).loc main_arg13) :=
  (W4_of_ne m ρ c main_arg13 (by decide)).trans (W3_main_arg13 m ρ c)
theorem W5_main_arg13 (c : Dev nD) : W5 m ρ c (Proc.devRef .tc main_arg13) = m ((c : Thread nD τ).loc main_arg13) :=
  (W5_of_ne m ρ c main_arg13 (by decide)).trans (W4_main_arg13 m ρ c)
theorem W6_main_arg13 (c : Dev nD) : W6 m ρ c (Proc.devRef .tc main_arg13) = m ((c : Thread nD τ).loc main_arg13) :=
  (W6_of m ρ c main_arg13 (by decide)).trans (W5_main_arg13 m ρ c)
theorem W7_main_arg13 (c : Dev nD) : W7 m ρ c (Proc.devRef .tc main_arg13) = m ((c : Thread nD τ).loc main_arg13) :=
  ((W7_arr m ρ c 1).trans (((dat3 (V6 m ρ) c).arrAt_in 1 rfl _).trans (A_eq3 (V6 m ρ) c 1))).trans (W6_main_arg13 m ρ c)

theorem W1_main_arg14 (c : Dev nD) : W1 m ρ c (Proc.devRef .tc main_arg14) = m ((c : Thread nD τ).loc main_arg14) :=
  (W1_of m ρ c main_arg14 (by decide)).trans rfl
theorem W2_main_arg14 (c : Dev nD) : W2 m ρ c (Proc.devRef .tc main_arg14) = m ((c : Thread nD τ).loc main_arg14) :=
  (W2_of_ne m ρ c main_arg14 (by decide)).trans (W1_main_arg14 m ρ c)
theorem W3_main_arg14 (c : Dev nD) : W3 m ρ c (Proc.devRef .tc main_arg14) = m ((c : Thread nD τ).loc main_arg14) :=
  (W3_of m ρ c main_arg14 (by decide)).trans (W2_main_arg14 m ρ c)
theorem W4_main_arg14 (c : Dev nD) : W4 m ρ c (Proc.devRef .tc main_arg14) = m ((c : Thread nD τ).loc main_arg14) :=
  (W4_of_ne m ρ c main_arg14 (by decide)).trans (W3_main_arg14 m ρ c)
theorem W5_main_arg14 (c : Dev nD) : W5 m ρ c (Proc.devRef .tc main_arg14) = m ((c : Thread nD τ).loc main_arg14) :=
  (W5_of_ne m ρ c main_arg14 (by decide)).trans (W4_main_arg14 m ρ c)
theorem W6_main_arg14 (c : Dev nD) : W6 m ρ c (Proc.devRef .tc main_arg14) = m ((c : Thread nD τ).loc main_arg14) :=
  (W6_of m ρ c main_arg14 (by decide)).trans (W5_main_arg14 m ρ c)
theorem W7_main_arg14 (c : Dev nD) : W7 m ρ c (Proc.devRef .tc main_arg14) = m ((c : Thread nD τ).loc main_arg14) :=
  (W7_of_ne m ρ c main_arg14 (by decide)).trans (W6_main_arg14 m ρ c)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents: a literal case split on the pipeline, so that the
    pinned configuration at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends at those
    references at the fold of the stretch's results over `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the three stretches allocates a buffer. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps1_fresh : (hostOps1 : List (HloOp τ sig (Elt F))).Forall fun op => op.fresh = ∅ :=
  ⟨rfl, rfl, rfl, rfl⟩
theorem hostOps3_fresh : (hostOps3 : List (HloOp τ sig (Elt F))).Forall fun op => op.fresh = ∅ :=
  rfl
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W7`, the generator
    register at some state. -/
abbrev Tₙ (c : Dev nD) : sProp 𝕄 := iprop(StableHlo.held (c : Thread nD τ) (Pipeline.ucRefs τ sig) (W7 m ρ c) ∗ ∃ r, prngReg c r)

/-- Proof data that owe nothing before a point, their recorded pairs unconstrained there: the core owing nothing is what
    the pipeline's loop holds of the core's dues at that point, -/
theorem owesAt_of_owes {cfg : Cfg sig Λ₀} {c : Dev nD} (dat : Dat τ (Elt F) Unit ℕ (UR sig nD τ) ℕ cfg c) (t : Fin (cfg.N + 1))
    (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [h0, hr]
  iintro ⟨%W, HO⟩; iexists W; isplitr; · ipureintro; exact fun _ _ => Or.inl trivial
  iexact HO
/-- and conversely. -/
theorem owes_of_owesAt {cfg : Cfg sig Λ₀} {c : Dev nD} (dat : Dat τ (Elt F) Unit ℕ (UR sig nD τ) ℕ cfg c) (t : Fin (cfg.N + 1))
    (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩; iexists W; iexact HO

/-! ## The regions as segments -/

-- unifying a library lemma stated over the pinned configuration with this pipeline's takes unfolding plain definitions in
-- a metavariable's type
set_option backward.isDefEq.respectTransparency.types false in
/-- REGION 0 over the thread state: entered from every unscoped buffer at `W1`, left at `W2`. Its arrays split out
    of the unscoped buffers at entry and put back at the exit contents; the generator register and the scoped rest into
    the class invariant, from which the region's own invariant at its first point follows and to which its invariant at
    the last point returns; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => owed0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => share0 (V1 m ρ) c w) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owes (pdats m ρ 0 c) 0 (owed0 (V1 m ρ) c 0) (recorded0 (V1 m ρ) c 0)); iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => share0 (V1 m ρ) c w)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt (pdats m ρ 0 c) (Fin.last _) (owed0 (V1 m ρ) c (Fin.last _))); iexact HO

-- unifying a library lemma stated over the pinned configuration with this pipeline's takes unfolding plain definitions in
-- a metavariable's type
set_option backward.isDefEq.respectTransparency.types false in
/-- REGION 1 over the thread state: entered from every unscoped buffer at `W3`, left at `W4`. Its arrays split out
    of the unscoped buffers at entry and put back at the exit contents; the generator register and the scoped rest into
    the class invariant, from which the region's own invariant at its first point follows and to which its invariant at
    the last point returns; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c t => owed1 (V3 m ρ) c t
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => share1 (V3 m ρ) c w) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owes (pdats m ρ 1 c) 0 (owed1 (V3 m ρ) c 0) (recorded1 (V3 m ρ) c 0)); iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => share1 (V3 m ρ) c w)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt (pdats m ρ 1 c) (Fin.last _) (owed1 (V3 m ρ) c (Fin.last _))); iexact HO

-- unifying a library lemma stated over the pinned configuration with this pipeline's takes unfolding plain definitions in
-- a metavariable's type
set_option backward.isDefEq.respectTransparency.types false in
/-- REGION 2 over the thread state: entered from every unscoped buffer at `W4`, left at `W5`. Its arrays split out
    of the unscoped buffers at entry and put back at the exit contents; the generator register and the scoped rest into
    the class invariant, from which the region's own invariant at its first point follows and to which its invariant at
    the last point returns; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun c t => owed2 (V4 m ρ) c t
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun w => share2 (V4 m ρ) c w) (V4 m ρ c) fun w => A_eq2 (V4 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owes (pdats m ρ 2 c) 0 (owed2 (V4 m ρ) c 0) (recorded2 (V4 m ρ) c 0)); iexact HO
    isplitl [Hp]; · iexact Hp
    iexact Hrest
  hin c := by
    refine BIBase.Entails.trans ?_ (hin2 (V4 m ρ) c)
    unfold Pipeline.ΦA
    iintro ⟨Hp, -, Hr⟩
    isplitl [Hr]; · iexact Hr
    iexact Hp
  hout c := by
    rw [Pipeline.ownSems0_none]
    refine BIBase.Entails.trans (hout2 (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun w => share2 (V4 m ρ) c w)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt (pdats m ρ 2 c) (Fin.last _) (owed2 (V4 m ρ) c (Fin.last _))); iexact HO

-- unifying a library lemma stated over the pinned configuration with this pipeline's takes unfolding plain definitions in
-- a metavariable's type
set_option backward.isDefEq.respectTransparency.types false in
/-- REGION 3 over the thread state: entered from every unscoped buffer at `W6`, left at `W7`. Its arrays split out
    of the unscoped buffers at entry and put back at the exit contents; the generator register and the scoped rest into
    the class invariant, from which the region's own invariant at its first point follows and to which its invariant at
    the last point returns; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun c t => owed3 (V6 m ρ) c t
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun w => share3 (V6 m ρ) c w) (V6 m ρ c) fun w => A_eq3 (V6 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owes (pdats m ρ 3 c) 0 (owed3 (V6 m ρ) c 0) (recorded3 (V6 m ρ) c 0)); iexact HO
    isplitl [Hp]; · iexact Hp
    iexact Hrest
  hin c := by
    refine BIBase.Entails.trans ?_ (hin3 (V6 m ρ) c)
    unfold Pipeline.ΦA
    iintro ⟨Hp, -, Hr⟩
    isplitl [Hr]; · iexact Hr
    iexact Hp
  hout c := by
    rw [Pipeline.ownSems0_none]
    refine BIBase.Entails.trans (hout3 (V6 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun w => share3 (V6 m ρ) c w)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (owes_of_owesAt (pdats m ρ 3 c) (Fin.last _) (owed3 (V6 m ρ) c (Fin.last _))); iexact HO

/-! ## @main as segments, and the launch -/

/-- @main's seven segments in order: a host segment per stretch from its boundary's contents, a region per pallas_call
    (regions 1 and 2 adjacent: the second is entered from what the first leaves). -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ) ]
/-- @main is the run of the segments: the chain of its items, and the segments' run is the chain of their fragments. -/
theorem main_run (c : Dev nD) : main (F := F) c = Pipeline.Seg.run (segs m ρ) := (main_chain c).trans (by chain_rfl)

/-- The three results and the fifteen arguments are unscoped buffers: the last thread state holds each. -/
theorem mem_uc_main_v0_0 : (Proc.devRef .tc main_v0_0 : DevRef τ sig) ∈ Pipeline.ucRefs τ sig := mem_uc main_v0_0 (by decide)
theorem mem_uc_main_v0_1 : (Proc.devRef .tc main_v0_1 : DevRef τ sig) ∈ Pipeline.ucRefs τ sig := mem_uc main_v0_1 (by decide)
theorem mem_uc_main_v0_2 : (Proc.devRef .tc main_v0_2 : DevRef τ sig) ∈ Pipeline.ucRefs τ sig := mem_uc main_v0_2 (by decide)
theorem mem_uc_main_arg0 : (Proc.devRef .tc main_arg0 : DevRef τ sig) ∈ Pipeline.ucRefs τ sig := mem_uc main_arg0 (by decide)
theorem mem_uc_main_arg1 : (Proc.devRef .tc main_arg1 : DevRef τ sig) ∈ Pipeline.ucRefs τ sig := mem_uc main_arg1 (by decide)
theorem mem_uc_main_arg2 : (Proc.devRef .tc main_arg2 : DevRef τ sig) ∈ Pipeline.ucRefs τ sig := mem_uc main_arg2 (by decide)
theorem mem_uc_main_arg3 : (Proc.devRef .tc main_arg3 : DevRef τ sig) ∈ Pipeline.ucRefs τ sig := mem_uc main_arg3 (by decide)
theorem mem_uc_main_arg4 : (Proc.devRef .tc main_arg4 : DevRef τ sig) ∈ Pipeline.ucRefs τ sig := mem_uc main_arg4 (by decide)
theorem mem_uc_main_arg5 : (Proc.devRef .tc main_arg5 : DevRef τ sig) ∈ Pipeline.ucRefs τ sig := mem_uc main_arg5 (by decide)
theorem mem_uc_main_arg6 : (Proc.devRef .tc main_arg6 : DevRef τ sig) ∈ Pipeline.ucRefs τ sig := mem_uc main_arg6 (by decide)
theorem mem_uc_main_arg7 : (Proc.devRef .tc main_arg7 : DevRef τ sig) ∈ Pipeline.ucRefs τ sig := mem_uc main_arg7 (by decide)
theorem mem_uc_main_arg8 : (Proc.devRef .tc main_arg8 : DevRef τ sig) ∈ Pipeline.ucRefs τ sig := mem_uc main_arg8 (by decide)
theorem mem_uc_main_arg9 : (Proc.devRef .tc main_arg9 : DevRef τ sig) ∈ Pipeline.ucRefs τ sig := mem_uc main_arg9 (by decide)
theorem mem_uc_main_arg10 : (Proc.devRef .tc main_arg10 : DevRef τ sig) ∈ Pipeline.ucRefs τ sig := mem_uc main_arg10 (by decide)
theorem mem_uc_main_arg11 : (Proc.devRef .tc main_arg11 : DevRef τ sig) ∈ Pipeline.ucRefs τ sig := mem_uc main_arg11 (by decide)
theorem mem_uc_main_arg12 : (Proc.devRef .tc main_arg12 : DevRef τ sig) ∈ Pipeline.ucRefs τ sig := mem_uc main_arg12 (by decide)
theorem mem_uc_main_arg13 : (Proc.devRef .tc main_arg13 : DevRef τ sig) ∈ Pipeline.ucRefs τ sig := mem_uc main_arg13 (by decide)
theorem mem_uc_main_arg14 : (Proc.devRef .tc main_arg14 : DevRef τ sig) ∈ Pipeline.ucRefs τ sig := mem_uc main_arg14 (by decide)

-- the launch theorem's implicit arguments are found by unifying its conclusion with this one, which takes unfolding plain
-- definitions in a metavariable's type
set_option backward.isDefEq.respectTransparency.types false in
/-- THE RUN: at the compiled mesh, from any memory with zero counters, every weakly fair execution of @main on the
    TensorCores terminates, nothing faulting, and in every final state every unscoped buffer of every core holds the
    last boundary's contents `W7`: the launch over the seven segments, the last thread state read against the final
    state. -/
theorem run_named : θ_run defs (onTc (τ := τ) (main (F := F))) ⟨m, fun _ => 0, ρ⟩ (fun r => ∀ c : Dev nD, ∀ b ∈ Pipeline.ucRefs τ sig,
      r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: every weakly fair execution of @main terminates, nothing faulting, and every final state has the fifteen
    argument arrays as launched: each argument is an unscoped buffer, so the run leaves it at the last boundary's
    contents, which the fold reads back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs (onTc (τ := τ) (main (F := F))) ⟨m, fun _ => 0, ρ⟩).mono (fun r h c => ⟨
    (h c _ (mem_uc_main_arg0)).trans (W7_main_arg0 m ρ c),
    (h c _ (mem_uc_main_arg1)).trans (W7_main_arg1 m ρ c),
    (h c _ (mem_uc_main_arg2)).trans (W7_main_arg2 m ρ c),
    (h c _ (mem_uc_main_arg3)).trans (W7_main_arg3 m ρ c),
    (h c _ (mem_uc_main_arg4)).trans (W7_main_arg4 m ρ c),
    (h c _ (mem_uc_main_arg5)).trans (W7_main_arg5 m ρ c),
    (h c _ (mem_uc_main_arg6)).trans (W7_main_arg6 m ρ c),
    (h c _ (mem_uc_main_arg7)).trans (W7_main_arg7 m ρ c),
    (h c _ (mem_uc_main_arg8)).trans (W7_main_arg8 m ρ c),
    (h c _ (mem_uc_main_arg9)).trans (W7_main_arg9 m ρ c),
    (h c _ (mem_uc_main_arg10)).trans (W7_main_arg10 m ρ c),
    (h c _ (mem_uc_main_arg11)).trans (W7_main_arg11 m ρ c),
    (h c _ (mem_uc_main_arg12)).trans (W7_main_arg12 m ρ c),
    (h c _ (mem_uc_main_arg13)).trans (W7_main_arg13 m ρ c),
    (h c _ (mem_uc_main_arg14)).trans (W7_main_arg14 m ρ c)⟩) (run_named m ρ)

end Cert.KernelIdeal.Fr

end
-- ==== Proof.Spec.lean ====
/-
  The mathematics both programs compute, written once over literal shapes and coordinates, at the extended reals.

  A batch of 64 graphs share one edge list (32000 edges, rows: source, destination) on 1000 nodes with 64 features.
  One message-passing layer: node n receives from every edge e into it the message x[b, src e, :] · W_msg + b_msg; the
  messages are averaged over the in-degree (an isolated node's sum is empty and divided by one), the node's own
  features are added and a leaky rectifier applied (`hSpec`).  The result, flattened per graph, goes through a
  variational auto-encoder: a rectified dense layer, two dense heads (mean and log-variance), the reparameterised
  latent mean + exp(logvar / 2) · eps, a rectified dense layer and a dense layer under the logistic function.

  The kernel evaluates the layer through a dense adjacency-count matrix, eight graphs side by side in the feature axis
  against a block-diagonal weight; those intermediate arrays are specified here too (`adjSpec` … `hGrouped`).
-/
import Idealize.ShloMosaic.PureOps.Ideal
import Idealize.ShloMosaic.Lib.ValueIdx

noncomputable section

open scoped BigOperators

namespace Cert.Spec

open Idealize.ShloMosaic Idealize.ShloMosaic.ValueIdx

abbrev T1 (a : Nat) : Shape := ⟨1, ![a]⟩
abbrev T2 (a b : Nat) : Shape := ⟨2, ![a, b]⟩
abbrev T3 (a b c : Nat) : Shape := ⟨3, ![a, b, c]⟩

/-- The four float literals the programs carry, as the exact values of their binary words. -/
abbrev zeroW : EReal := Ideal.ofBits .f32 0x00000000#32
abbrev oneW : EReal := Ideal.ofBits .f32 0x3F800000#32
abbrev halfW : EReal := Ideal.ofBits .f32 0x3F000000#32
abbrev slopeW : EReal := Ideal.ofBits .f32 0x3C23D70A#32

/-- The leaky rectifier: v where v ≥ 0, slope · v elsewhere. -/
def leaky (v : EReal) : EReal := Scalar.select (Ideal.cmp .oge v zeroW) v (slopeW * v)
/-- The rectifier. -/
def relu (v : EReal) : EReal := max v zeroW
/-- The logistic function 1 / (1 + e^(-v)). -/
def sigm (v : EReal) : EReal := Ideal.div 1 (1 + Ideal.exp (-v))

/-! ## The edge list -/

abbrev Edges : Type := (T2 2 32000).Idx → BitVec 32

/-- Edge e's source node, as a natural number. -/
def srcN (ei : Edges) (e : Fin 32000) : Nat := (ei (ix2 (0 : Fin 2) e)).toNat
/-- Edge e's destination node. -/
def dstN (ei : Edges) (e : Fin 32000) : Nat := (ei (ix2 (1 : Fin 2) e)).toNat
/-- Every endpoint names one of the 1000 nodes. -/
def InRange (ei : Edges) : Prop := ∀ (r : Fin 2) (e : Fin 32000), (ei (ix2 r e)).toNat < 1000
/-- The edges into node n. -/
def edgesInto (ei : Edges) (n : Fin 1000) : Finset (Fin 32000) := Finset.univ.filter fun e => dstN ei e = n.val
/-- Edge e's source as a node (its residue, which is the source itself on an edge list in range). -/
def srcF (ei : Edges) (e : Fin 32000) : Fin 1000 := ⟨srcN ei e % 1000, Nat.mod_lt _ (by decide)⟩

/-! ## The message-passing layer -/

/-- The layer's output at graph b, node n, feature g. -/
def hAt (x : (T3 64 1000 64).Idx → EReal) (ei : Edges) (Wm : (T2 64 64).Idx → EReal) (bm : (T1 64).Idx → EReal)
    (b : Fin 64) (n : Fin 1000) (g : Fin 64) : EReal :=
  leaky (Ideal.div
      (∑ e ∈ edgesInto ei n, ((∑ f : Fin 64, x (ix3 b (srcF ei e) f) * Wm (ix2 f g)) + bm (ix1 g)))
      (max (∑ _e ∈ edgesInto ei n, oneW) oneW)
    + x (ix3 b n g))

def hSpec (x : (T3 64 1000 64).Idx → EReal) (ei : Edges) (Wm : (T2 64 64).Idx → EReal) (bm : (T1 64).Idx → EReal) :
    (T3 64 1000 64).Idx → EReal :=
  fun j => hAt x ei Wm bm ⟨(j 0).val, (j 0).isLt⟩ ⟨(j 1).val, (j 1).isLt⟩ ⟨(j 2).val, (j 2).isLt⟩

/-! ## The dense layers -/

/-- a · W + b, row by row. -/
def linOf {K N : Nat} (a : (T2 64 K).Idx → EReal) (W : (T2 K N).Idx → EReal) (b : (T1 N).Idx → EReal) : (T2 64 N).Idx → EReal :=
  fun j => (∑ k : Fin K, a (ix2 ⟨(j 0).val, (j 0).isLt⟩ k) * W (ix2 k ⟨(j 1).val, (j 1).isLt⟩)) + b (ix1 ⟨(j 1).val, (j 1).isLt⟩)

/-- A graph's node features laid end to end: column n · 64 + f is node n's feature f. -/
def flatOf (h : (T3 64 1000 64).Idx → EReal) : (T2 64 64000).Idx → EReal :=
  fun j => h (ix3 ⟨(j 0).val, (j 0).isLt⟩ ⟨(j 1).val / 64, by have h1 : (j 1).val < 64000 := (j 1).isLt; show _ < 1000; omega⟩ ⟨(j 1).val % 64, Nat.mod_lt _ (by decide)⟩)

def encOf (xs : (T2 64 64000).Idx → EReal) (We1 : (T2 64000 512).Idx → EReal) (be1 : (T1 512).Idx → EReal) : (T2 64 512).Idx → EReal :=
  fun j => relu (linOf xs We1 be1 j)

def latentOf (mean logvar eps : (T2 64 128).Idx → EReal) : (T2 64 128).Idx → EReal :=
  fun j => mean j + Ideal.exp (halfW * logvar j) * eps j

def decHidOf (z : (T2 64 128).Idx → EReal) (Wd1 : (T2 128 512).Idx → EReal) (bd1 : (T1 512).Idx → EReal) : (T2 64 512).Idx → EReal :=
  fun j => relu (linOf z Wd1 bd1 j)

def outOf (hd : (T2 64 512).Idx → EReal) (Wd2 : (T2 512 64000).Idx → EReal) (bd2 : (T1 64000).Idx → EReal) : (T2 64 64000).Idx → EReal :=
  fun j => sigm (linOf hd Wd2 bd2 j)

/-! ## The three results, as functions of the fifteen arguments -/

section Results
variable (x : (T3 64 1000 64).Idx → EReal) (ei : Edges) (eps : (T2 64 128).Idx → EReal) (Wm : (T2 64 64).Idx → EReal) (bm : (T1 64).Idx → EReal)
  (We1 : (T2 64000 512).Idx → EReal) (be1 : (T1 512).Idx → EReal) (Wmean : (T2 512 128).Idx → EReal) (bmean : (T1 128).Idx → EReal)
  (Wlv : (T2 512 128).Idx → EReal) (blv : (T1 128).Idx → EReal) (Wd1 : (T2 128 512).Idx → EReal) (bd1 : (T1 512).Idx → EReal)
  (Wd2 : (T2 512 64000).Idx → EReal) (bd2 : (T1 64000).Idx → EReal)

def heRes : (T2 64 512).Idx → EReal := encOf (flatOf (hSpec x ei Wm bm)) We1 be1
def meanRes : (T2 64 128).Idx → EReal := linOf (heRes x ei Wm bm We1 be1) Wmean bmean
def logvarRes : (T2 64 128).Idx → EReal := linOf (heRes x ei Wm bm We1 be1) Wlv blv
def hdRes : (T2 64 512).Idx → EReal :=
  decHidOf (latentOf (meanRes x ei Wm bm We1 be1 Wmean bmean) (logvarRes x ei Wm bm We1 be1 Wlv blv) eps) Wd1 bd1
def xhatRes : (T2 64 64000).Idx → EReal :=
  outOf (hdRes x ei eps Wm bm We1 be1 Wmean bmean Wlv blv Wd1 bd1) Wd2 bd2
end Results

/-! ## The kernel's intermediate arrays -/

/-- How many edges run from node s to node n. -/
def adjSpec (ei : Edges) : (T2 1000 1000).Idx → EReal :=
  fun j => zeroW + ∑ _e ∈ Finset.univ.filter (fun e : Fin 32000 => dstN ei e = (j 0).val ∧ srcN ei e = (j 1).val), oneW
/-- Node n's in-degree, as the adjacency row's sum. -/
def degSpec (ei : Edges) (n : Fin 1000) : EReal := zeroW + ∑ s : Fin 1000, adjSpec ei (ix2 n s)
/-- One over the in-degree (over one for an isolated node). -/
def invdegSpec (ei : Edges) : (T2 1000 1).Idx → EReal :=
  fun j => Ideal.div oneW (max (degSpec ei ⟨(j 0).val, (j 0).isLt⟩) oneW)
/-- One where the node has an incoming edge, zero elsewhere. -/
def maskSpec (ei : Edges) (n : Fin 1000) : EReal := (((Ideal.cmp .ogt (degSpec ei n) zeroW).toNat : ℝ) : EReal)
/-- The bias, present only at nodes with an incoming edge, repeated for the eight graphs of a group. -/
def biasSpec (ei : Edges) (bm : (T1 64).Idx → EReal) : (T2 1000 512).Idx → EReal :=
  fun j => maskSpec ei ⟨(j 0).val, (j 0).isLt⟩ * bm (ix1 ⟨(j 1).val % 64, Nat.mod_lt _ (by decide)⟩)
/-- The message weight repeated eight times down the diagonal, zero off it. -/
def wbigSpec (Wm : (T2 64 64).Idx → EReal) : (T2 512 512).Idx → EReal :=
  fun j => if (j 0).val / 64 = (j 1).val / 64 then Wm (ix2 ⟨(j 0).val % 64, Nat.mod_lt _ (by decide)⟩ ⟨(j 1).val % 64, Nat.mod_lt _ (by decide)⟩) else zeroW
/-- Eight graphs side by side: group a's column g · 64 + f is graph a · 8 + g's feature f. -/
def groupOf (x : (T3 64 1000 64).Idx → EReal) : (T3 8 1000 512).Idx → EReal :=
  fun j => x (ix3 ⟨(j 0).val * 8 + (j 2).val / 64, by have h0 : (j 0).val < 8 := (j 0).isLt; have h2 : (j 2).val < 512 := (j 2).isLt; show _ < 64; omega⟩ ⟨(j 1).val, (j 1).isLt⟩ ⟨(j 2).val % 64, Nat.mod_lt _ (by decide)⟩)
/-- And back: graph b's feature f is group b / 8's column (b % 8) · 64 + f. -/
def ungroupOf (y : (T3 8 1000 512).Idx → EReal) : (T3 64 1000 64).Idx → EReal :=
  fun j => y (ix3 ⟨(j 0).val / 8, by have h0 : (j 0).val < 64 := (j 0).isLt; show _ < 8; omega⟩ ⟨(j 1).val, (j 1).isLt⟩ ⟨(j 0).val % 8 * 64 + (j 2).val, by have h0 : (j 0).val < 64 := (j 0).isLt; have h2 : (j 2).val < 64 := (j 2).isLt; show _ < 512; omega⟩)

/-- What the fused kernel leaves at group a, node n, column q, from its five operands. -/
def hGrouped (adj : (T2 1000 1000).Idx → EReal) (xt : (T3 8 1000 512).Idx → EReal) (wbig : (T2 512 512).Idx → EReal)
    (invdeg : (T2 1000 1).Idx → EReal) (bias : (T2 1000 512).Idx → EReal) : (T3 8 1000 512).Idx → EReal :=
  fun j =>
    let a : Fin 8 := ⟨(j 0).val, (j 0).isLt⟩
    let n : Fin 1000 := ⟨(j 1).val, (j 1).isLt⟩
    let q : Fin 512 := ⟨(j 2).val, (j 2).isLt⟩
    leaky ((∑ k : Fin 512, ((∑ s : Fin 1000, adj (ix2 n s) * xt (ix3 a s k)) * invdeg (ix2 n (0 : Fin 1))) * wbig (ix2 k q))
      + bias (ix2 n q) + xt (ix3 a n q))

end Cert.Spec

end
-- ==== Proof.KI.HostLayout.lean ====
/- What the kernel program's host stretches compute, the layout part, at the extended reals: the grouped features
   (eight graphs side by side in the feature axis), the ungrouped and flattened layer output, and the output bias as
   one row. Each is a chain of reshapes and one exchange of two axes of an argument or of a region's output; read at an
   index, a reshape keeps the row-major position and the exchange swaps two coordinates, so each entry is one entry of
   the source array, at the index the specification names. -/
import proofs.«419763_j27925877358777_3_alg».proof.Proof.Gen.KernelIdeal.Launch
import proofs.«419763_j27925877358777_3_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.HostVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo

variable (W : Valuation τ sig (Elt Ideal))

set_option maxHeartbeats 4000000 in
/-- The grouped features: the 64 graphs are cut into 8 groups of 8, the graph-in-group axis moved behind the node
    axis, and that axis merged with the feature axis. Entry (a, n, c) reads graph a · 8 + c / 64 at node n, feature
    c % 64: the same row-major position at the two reshapes, the two middle axes exchanged at the transpose. -/
theorem xt_val : StableHlo.after (hostOps0 (F := Ideal)) W main_call0_v65 = Cert.Spec.groupOf (W main_arg0) := by
  have e : StableHlo.after (hostOps0 (F := Ideal)) W main_call0_v65
      = (shapeCast S8x1000x512
          (transpose S8x1000x8x64 [0, 2, 1, 3]
            (shapeCast S8x8x1000x64 (W main_arg0 : S64x1000x64.Idx → EReal) shapeCasts_S64x1000x64_S8x8x1000x64)
            transposes_S8x8x1000x64_S8x1000x8x64_0_2_1_3)
          shapeCasts_S8x1000x8x64_S8x1000x512 : S8x1000x512.Idx → EReal) := by
    after_results_simp <;> rfl
  refine e.trans ?_
  funext j
  have h0 : (j 0).val < 8 := (j 0).isLt
  have h1 : (j 1).val < 1000 := (j 1).isLt
  have h2 : (j 2).val < 512 := (j 2).isLt
  refine (shapeCast_apply _ _ j
    (ix4 (⟨(j 0).val, h0⟩ : Fin 8) (⟨(j 1).val, h1⟩ : Fin 1000) (⟨(j 2).val / 64, by omega⟩ : Fin 8) (⟨(j 2).val % 64, by omega⟩ : Fin 64))
    (by rw [Shape.rowMajor_val_four, Shape.rowMajor_val_three]
        show (((j 0).val * 1000 + (j 1).val) * 8 + (j 2).val / 64) * 64 + (j 2).val % 64 = ((j 0).val * 1000 + (j 1).val) * 512 + (j 2).val
        omega)).trans ?_
  refine (transpose_apply _ _ _ _
    (ix4 (⟨(j 0).val, h0⟩ : Fin 8) (⟨(j 2).val / 64, by omega⟩ : Fin 8) (⟨(j 1).val, h1⟩ : Fin 1000) (⟨(j 2).val % 64, by omega⟩ : Fin 64))
    (fun b => match b with | ⟨0, _⟩ => rfl | ⟨1, _⟩ => rfl | ⟨2, _⟩ => rfl | ⟨3, _⟩ => rfl)).trans ?_
  refine (shapeCast_apply _ _ _
    (ix3 (⟨(j 0).val * 8 + (j 2).val / 64, by omega⟩ : Fin 64) (⟨(j 1).val, h1⟩ : Fin 1000) (⟨(j 2).val % 64, by omega⟩ : Fin 64))
    (by rw [Shape.rowMajor_val_three, Shape.rowMajor_val_four]
        show (((j 0).val * 8 + (j 2).val / 64) * 1000 + (j 1).val) * 64 + (j 2).val % 64
          = (((j 0).val * 8 + (j 2).val / 64) * 1000 + (j 1).val) * 64 + (j 2).val % 64
        rfl)).trans ?_
  rfl

/-- Between the first two regions: the grouped result is cut into its eight graphs per group, the graph axis moved
    in front of the node axis, the two graph axes merged, and each graph's nodes laid end to end. Entry (b, c) reads
    the grouped array at group b / 8, node c / 64, column (b % 8) · 64 + c % 64: the same row-major position at each
    of the three reshapes, the two middle axes exchanged at the transpose. -/
theorem xs_val : StableHlo.after (hostOps1 (F := Ideal)) W main_call0_v70 = Cert.Spec.flatOf (Cert.Spec.ungroupOf (W main_call0_v66)) := by
  have e : StableHlo.after (hostOps1 (F := Ideal)) W main_call0_v70
      = (shapeCast S64x64000
          (shapeCast S64x1000x64
            (transpose S8x8x1000x64 [0, 2, 1, 3]
              (shapeCast S8x1000x8x64 (W main_call0_v66 : S8x1000x512.Idx → EReal) shapeCasts_S8x1000x512_S8x1000x8x64)
              transposes_S8x1000x8x64_S8x8x1000x64_0_2_1_3)
            shapeCasts_S8x8x1000x64_S64x1000x64)
          shapeCasts_S64x1000x64_S64x64000 : S64x64000.Idx → EReal) := by
    after_results; rfl
  refine e.trans ?_
  funext j
  have h0 : (j 0).val < 64 := (j 0).isLt
  have h1 : (j 1).val < 64000 := (j 1).isLt
  refine (shapeCast_apply _ _ j
    (ix3 (⟨(j 0).val, h0⟩ : Fin 64) (⟨(j 1).val / 64, by omega⟩ : Fin 1000) (⟨(j 1).val % 64, by omega⟩ : Fin 64))
    (by rw [Shape.rowMajor_val_three, Shape.rowMajor_val_two]
        show ((j 0).val * 1000 + (j 1).val / 64) * 64 + (j 1).val % 64 = (j 0).val * 64000 + (j 1).val
        omega)).trans ?_
  refine (shapeCast_apply _ _ _
    (ix4 (⟨(j 0).val / 8, by omega⟩ : Fin 8) (⟨(j 0).val % 8, by omega⟩ : Fin 8) (⟨(j 1).val / 64, by omega⟩ : Fin 1000) (⟨(j 1).val % 64, by omega⟩ : Fin 64))
    (by rw [Shape.rowMajor_val_four, Shape.rowMajor_val_three]
        show ((((j 0).val / 8) * 8 + (j 0).val % 8) * 1000 + (j 1).val / 64) * 64 + (j 1).val % 64
          = ((j 0).val * 1000 + (j 1).val / 64) * 64 + (j 1).val % 64
        omega)).trans ?_
  refine (transpose_apply _ _ _ _
    (ix4 (⟨(j 0).val / 8, by omega⟩ : Fin 8) (⟨(j 1).val / 64, by omega⟩ : Fin 1000) (⟨(j 0).val % 8, by omega⟩ : Fin 8) (⟨(j 1).val % 64, by omega⟩ : Fin 64))
    (fun b => match b with | ⟨0, _⟩ => rfl | ⟨1, _⟩ => rfl | ⟨2, _⟩ => rfl | ⟨3, _⟩ => rfl)).trans ?_
  refine (shapeCast_apply _ _ _
    (ix3 (⟨(j 0).val / 8, by omega⟩ : Fin 8) (⟨(j 1).val / 64, by omega⟩ : Fin 1000) (⟨(j 0).val % 8 * 64 + (j 1).val % 64, by omega⟩ : Fin 512))
    (by rw [Shape.rowMajor_val_three, Shape.rowMajor_val_four]
        show (((j 0).val / 8) * 1000 + (j 1).val / 64) * 512 + ((j 0).val % 8 * 64 + (j 1).val % 64)
          = ((((j 0).val / 8) * 1000 + (j 1).val / 64) * 8 + (j 0).val % 8) * 64 + (j 1).val % 64
        omega)).trans ?_
  rfl

/-- Before the last region: the output bias as one row. Entry (0, c) of the row is entry c of the vector: the two
    have the same row-major position. -/
theorem bd2_val : StableHlo.after (hostOps3 (F := Ideal)) W main_call0_v73 = fun j => W main_arg14 (ix1 ⟨(j 1).val, (j 1).isLt⟩) := by
  have e : StableHlo.after (hostOps3 (F := Ideal)) W main_call0_v73
      = (shapeCast S1x64000 (W main_arg14 : S64000.Idx → EReal) shapeCasts_S64000_S1x64000 : S1x64000.Idx → EReal) := by
    after_results; rfl
  refine e.trans ?_
  funext j
  exact shapeCast_apply _ _ j (ix1 ⟨(j 1).val, (j 1).isLt⟩)
    (by rw [Shape.rowMajor_val_one, Shape.rowMajor_val_two]
        have h0 : (j 0).val < 1 := (j 0).isLt
        show (j 1).val = (j 0).val * 64000 + (j 1).val
        omega)

end Cert.KernelIdeal.HostVal

end
-- ==== Proof.KI.ValR1Algebra.lean ====
/- The encoder's dense layer, regrouped by blocks of its contracted axis: the sum over the 64000 columns is the sum
   over ten blocks of 6400, and adding the ten block sums one after another onto zero gives their sum. Over the
   extended reals only: nothing here mentions a program. -/
import proofs.«419763_j27925877358777_3_alg».proof.Proof.Spec
import Mathlib.Algebra.BigOperators.Fin
import Mathlib.Logic.Equiv.Fin.Basic
import Mathlib.Data.Fintype.BigOperators

noncomputable section

open scoped BigOperators

namespace Cert.Spec.Enc

open Cert.Spec Idealize.ShloMosaic Idealize.ShloMosaic.ValueIdx

/-! ## The contracted axis in ten blocks -/

/-- Position `r` of block `b` of the contracted axis, `6400 b + r` (reduced into the axis, so that it is a total
    function of `b`; for `b < 10` nothing is reduced: `kAt_val`). -/
def kAt (b : ℕ) (r : Fin 6400) : Fin 64000 := ⟨(6400 * b + r.val) % 64000, Nat.mod_lt _ (by decide)⟩

theorem kAt_val {b : ℕ} (hb : b < 10) (r : Fin 6400) : (kAt b r).val = 6400 * b + r.val := by
  have := r.isLt
  show (6400 * b + r.val) % 64000 = _
  exact Nat.mod_eq_of_lt (by omega)

/-- A sum over the 64000 positions is the sum over the ten blocks of the sums over each block's 6400 positions:
    the positions are the pairs (block, position in the block), and a sum over pairs is an iterated sum. -/
theorem sum_blocks {M : Type*} [AddCommMonoid M] (f : Fin 64000 → M) :
    ∑ k, f k = ∑ b ∈ Finset.range 10, ∑ r : Fin 6400, f (kAt b r) := by
  rw [Finset.sum_range (fun b => ∑ r : Fin 6400, f (kAt b r))]
  have e := Equiv.sum_comp (finProdFinEquiv (m := 10) (n := 6400)) (fun k : Fin (10 * 6400) => f k)
  rw [Fintype.sum_prod_type] at e
  refine e.symm.trans (Finset.sum_congr rfl fun b _ => Finset.sum_congr rfl fun r _ => congrArg f (Fin.ext ?_))
  rw [kAt_val b.isLt]
  show r.val + 6400 * b.val = _
  omega

/-! ## Adding the block sums one after another -/

/-- An accumulator that holds zero plus the first term after step 0 and adds the next term at every later step holds,
    after step `k`, the sum of the first `k + 1` terms. -/
theorem fold_blocks {M : Type*} [AddCommMonoid M] (g S : ℕ → M) (h0 : S 0 = 0 + g 0) (hs : ∀ k, S (k + 1) = S k + g (k + 1)) :
    ∀ k, S k = ∑ b ∈ Finset.range (k + 1), g b
  | 0 => by rw [h0, zero_add, Finset.sum_range_one]
  | k + 1 => by rw [hs, fold_blocks g S h0 hs k, ← Finset.sum_range_succ]

/-! ## The dense layer by blocks -/

/-- The float zero the programs carry is zero. -/
theorem zeroW_eq : zeroW = 0 := by simp [Ideal.ofBits, Ideal.ieee]

/-- Block `b`'s part of the product at row `i`, column `j`. -/
def encBlk (xs : (T2 64 64000).Idx → EReal) (We1 : (T2 64000 512).Idx → EReal) (i : Fin 64) (j : Fin 512) (b : ℕ) : EReal :=
  ∑ r : Fin 6400, xs (ix2 i (kAt b r)) * We1 (ix2 (kAt b r) j)

/-- The product at row `i`, column `j` is the sum of the ten blocks' parts. -/
theorem dot_blocks (xs : (T2 64 64000).Idx → EReal) (We1 : (T2 64000 512).Idx → EReal) (i : Fin 64) (j : Fin 512) :
    (∑ k : Fin 64000, xs (ix2 i k) * We1 (ix2 k j)) = ∑ b ∈ Finset.range 10, encBlk xs We1 i j b :=
  sum_blocks fun k => xs (ix2 i k) * We1 (ix2 k j)

/-- The encoder's hidden layer at an index, by blocks: the rectified (ten blocks' parts summed, plus the bias). -/
theorem encOf_blocks (xs : (T2 64 64000).Idx → EReal) (We1 : (T2 64000 512).Idx → EReal) (be1 : (T1 512).Idx → EReal)
    (j : (T2 64 512).Idx) :
    encOf xs We1 be1 j
      = max ((∑ b ∈ Finset.range 10, encBlk xs We1 ⟨(j 0).val, (j 0).isLt⟩ ⟨(j 1).val, (j 1).isLt⟩ b)
          + be1 (ix1 ⟨(j 1).val, (j 1).isLt⟩)) zeroW := by
  unfold encOf relu linOf
  rw [dot_blocks]

end Cert.Spec.Enc

end
-- ==== Proof.KI.ValR1.lean ====
/- The value of region 1 at the extended reals. The region is a matrix product blocked along its contracted axis: at
   grid point (h, k) the body adds block k's part of the product for column block h to an accumulator it zeroed at
   k = 0, and at k = 9 stores the accumulator plus the bias, rectified, as column block h of the result. So after
   point (h, k) the accumulator holds the sum of the parts of blocks 0 … k (by induction on the point), the block
   written back at (h, 9) is column block h of the rectified (product plus bias), and the two blocks cover the result:
   the result array ends holding the encoder's hidden layer of the arrays the region finds. -/
import proofs.«419763_j27925877358777_3_alg».proof.Proof.KI.R1Defs
import proofs.«419763_j27925877358777_3_alg».proof.Proof.Spec
import proofs.«419763_j27925877358777_3_alg».proof.Proof.KI.ValR1Algebra
import Idealize.ShloMosaic.Lib.Pipeline.Value
import Idealize.ShloMosaic.Lib.ValueIdx
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

open Cert.Spec.Enc

/-! Everything on the way to the region's value is in the sub-namespace `V1`; the value itself, `arr1_3`, is stated after it. -/
namespace V1

section Generic
variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- One store through the whole buffer leaves its payload; a load through the whole buffer reads the contents. -/
theorem zero1_eq : zero1 (F := F) = k1_pay1 (F := F) := by
  unfold zero1
  exact View.canon_unit_zero hz2 _ _

theorem acc1_eq (x0 : Vec F S64x6400 .bf16) (x1 : Vec F S6400x256 .f32) (xs : Vec F S64x256 .f32) :
    acc1 x0 x1 xs = k1_pay2 x0 x1 xs := by
  unfold acc1
  rw [View.canon_unit_zero hz2]
  simp only [View.ld_unit_zero (S := S64x6400) hz2, View.ld_unit_zero (S := S6400x256) hz2, View.ld_unit_zero (S := S64x256) hz2]

theorem out1_eq (s : Vec F S64x256 .f32) (x2 : Vec F S256 .f32) : out1 s x2 = k1_pay3 s x2 := by
  unfold out1
  rw [View.canon_unit_zero hz2]
  simp only [View.ld_unit_zero (S := S64x256) hz2, View.ld_unit_zero (S := S256) hz1]

end Generic

/-! ## The payloads at an index, over the extended reals -/

/-- The reset stores zeros. -/
theorem pay1_apply (j : S64x256.Idx) : k1_pay1 (F := Ideal) j = 0 := by
  unfold k1_pay1
  simp only [shapeCast_self]
  show Ideal.ofBits .f32 0x00000000#32 = 0
  exact Ideal.ofBits_zero_f32

abbrev D1 := dot_S64x6400_S6400x256_S64x256_1_0_0_1_n_n

/-- The accumulating store: what the accumulator held plus the sum of the blocks' products over the contracted index
    (the format changes are the identity, the product's accumulator operand is zero). -/
theorem pay2_apply (x0 : Vec Ideal S64x6400 .bf16) (x1 : Vec Ideal S6400x256 .f32) (xs : Vec Ideal S64x256 .f32) (j : S64x256.Idx) :
    k1_pay2 x0 x1 xs j = xs j + ∑ k : D1.contr.Idx, x0 (D1.lhsIdx j k) * x1 (D1.rhsIdx j k) := by
  unfold k1_pay2
  simp only [shapeCast_self]
  refine congrArg (xs j + ·) ?_
  exact Ideal.matmul_constant_zero_apply D1 none (φ₁ := .bf16) (φ₂ := .bf16) x0 x1 j

/-- The result's store: the accumulator plus the bias of the column, rectified. -/
theorem pay3_apply (s : Vec Ideal S64x256 .f32) (x2 : Vec Ideal S256 .f32) (i : Fin 64) (jj : Fin 256) :
    k1_pay3 s x2 (ix2 i jj) = max (s (ix2 i jj) + x2 (ix1 jj)) Cert.Spec.zeroW := by
  unfold k1_pay3
  show max (s (ix2 i jj) + broadcastTo S64x256 (shapeCast S1x256 x2 shapeCasts_S256_S1x256) broadcasts_S1x256_S64x256 (ix2 i jj)) (Ideal.ofBits .f32 0x00000000#32) = _
  congr 2
  refine (broadcastTo_apply _ _ (ix2 i jj) (ix2 (0 : Fin 1) jj) (fun a => ?_)).trans ?_
  · match a with
    | ⟨0, _⟩ => rfl
    | ⟨1, _⟩ => rfl
  · exact shapeCast_apply x2 _ (ix2 (0 : Fin 1) jj) (ix1 jj) (by rw [Shape.rowMajor_val_one, Shape.rowMajor_val_two]; simp)

/-! ## The contracted index of the blocks' product is a position in the block -/

def contrEquiv1 : D1.contr.Idx ≃ Fin 6400 where
  toFun k := (k ⟨0, by decide⟩).cast (by decide)
  invFun i := fun a => i.cast (by
    have : a = ⟨0, by decide⟩ := Fin.ext (by have := a.isLt; simp [DotDims.contr, Shape.ofList, D1, dot_S64x6400_S6400x256_S64x256_1_0_0_1_n_n] at this; omega)
    subst this; decide)
  left_inv k := by
    funext a
    have : a = ⟨0, by decide⟩ := Fin.ext (by have := a.isLt; simp [DotDims.contr, Shape.ofList, D1, dot_S64x6400_S6400x256_S64x256_1_0_0_1_n_n] at this; omega)
    subst this; simp
  right_inv i := by simp

@[simp] theorem contrEquiv1_symm_val (r : Fin 6400) : (contrEquiv1.symm r ⟨0, by decide⟩ : ℕ) = r := rfl

theorem lhs1_0 (j : S64x256.Idx) (k : D1.contr.Idx) : (D1.lhsIdx j k 0 : ℕ) = j 0 := by
  simp [DotDims.lhsIdx, D1, dot_S64x6400_S6400x256_S64x256_1_0_0_1_n_n]; rfl
theorem lhs1_1 (j : S64x256.Idx) (k : D1.contr.Idx) : (D1.lhsIdx j k 1 : ℕ) = k ⟨0, by decide⟩ := by
  simp [DotDims.lhsIdx, D1, dot_S64x6400_S6400x256_S64x256_1_0_0_1_n_n]; rfl
theorem rhs1_0 (j : S64x256.Idx) (k : D1.contr.Idx) : (D1.rhsIdx j k 0 : ℕ) = k ⟨0, by decide⟩ := by
  simp [DotDims.rhsIdx, D1, dot_S64x6400_S6400x256_S64x256_1_0_0_1_n_n]; rfl
theorem rhs1_1 (j : S64x256.Idx) (k : D1.contr.Idx) : (D1.rhsIdx j k 1 : ℕ) = j 1 := by
  simp [DotDims.rhsIdx, D1, dot_S64x6400_S6400x256_S64x256_1_0_0_1_n_n]; rfl

/-! ## The block indices, in closed form over the grid -/

theorem idx1_0 : ∀ t : Fin cfg1.N, win1_0.index t 0 = 0 ∧ win1_0.index t 1 = t.val % 10 :=
  (by decide +kernel : ∀ t : Fin grid1.N, win1_0.index t 0 = 0 ∧ win1_0.index t 1 = t.val % 10)
theorem idx1_1 : ∀ t : Fin cfg1.N, win1_1.index t 0 = t.val % 10 ∧ win1_1.index t 1 = t.val / 10 :=
  (by decide +kernel : ∀ t : Fin grid1.N, win1_1.index t 0 = t.val % 10 ∧ win1_1.index t 1 = t.val / 10)
theorem idx1_2 : ∀ t : Fin cfg1.N, win1_2.index t 0 = t.val / 10 :=
  (by decide +kernel : ∀ t : Fin grid1.N, win1_2.index t 0 = t.val / 10)
theorem idx1_3 : ∀ t : Fin cfg1.N, win1_3.index t 0 = 0 ∧ win1_3.index t 1 = t.val / 10 :=
  (by decide +kernel : ∀ t : Fin grid1.N, win1_3.index t 0 = 0 ∧ win1_3.index t 1 = t.val / 10)

/-! ## The input blocks as parts of the arrays -/

section Blocks
variable {F : FTy → Type} [FloatOps F] (V : Entry F)

/-- Window 0's block at point (h, k): columns 6400 k … of the activations. -/
theorem iblk1_0_apply (c : Dev nD) (t : Fin cfg1.N) (i : Fin 64) (r : Fin 6400) (k : Fin 64000) (hk : k.val = 6400 * (t.val % 10) + r.val) :
    (iblk1 V c 0 t : Vec F S64x6400 .bf16) (ix2 i r) = (V c main_call0_v70 : S64x64000.Idx → Elt F .bf16) (ix2 i k) := by
  have hi := idx1_0 t
  unfold iblk1
  rw [View.read_apply]
  show V c main_call0_v70 _ = V c main_call0_v70 _
  congr 1
  funext a
  apply Fin.ext
  match a with
  | ⟨0, _⟩ => show win1_0.index t 0 * 64 + 1 * i.val = i.val; rw [hi.1]; omega
  | ⟨1, _⟩ => show win1_0.index t 1 * 6400 + 1 * r.val = k.val; rw [hi.2, hk]; omega

/-- Window 1's block at point (h, k): rows 6400 k …, columns 256 h … of the weight. -/
theorem iblk1_1_apply (c : Dev nD) (t : Fin cfg1.N) (r : Fin 6400) (jj : Fin 256) (k : Fin 64000) (j : Fin 512)
    (hk : k.val = 6400 * (t.val % 10) + r.val) (hj : j.val = 256 * (t.val / 10) + jj.val) :
    (iblk1 V c 1 t : Vec F S6400x256 .f32) (ix2 r jj) = (V c main_arg5 : S64000x512.Idx → Elt F .f32) (ix2 k j) := by
  have hi := idx1_1 t
  unfold iblk1
  rw [View.read_apply]
  show V c main_arg5 _ = V c main_arg5 _
  congr 1
  funext a
  apply Fin.ext
  match a with
  | ⟨0, _⟩ => show win1_1.index t 0 * 6400 + 1 * r.val = k.val; rw [hi.1, hk]; omega
  | ⟨1, _⟩ => show win1_1.index t 1 * 256 + 1 * jj.val = j.val; rw [hi.2, hj]; omega

/-- Window 2's block at point (h, k): entries 256 h … of the bias. -/
theorem iblk1_2_apply (c : Dev nD) (t : Fin cfg1.N) (jj : Fin 256) (j : Fin 512) (hj : j.val = 256 * (t.val / 10) + jj.val) :
    (iblk1 V c 2 t : Vec F S256 .f32) (ix1 jj) = (V c main_arg6 : S512.Idx → Elt F .f32) (ix1 j) := by
  have hi := idx1_2 t
  unfold iblk1
  rw [View.read_apply]
  show V c main_arg6 _ = V c main_arg6 _
  congr 1
  funext a
  apply Fin.ext
  match a with
  | ⟨0, _⟩ => show win1_2.index t 0 * 256 + 1 * jj.val = j.val; rw [hi, hj]; omega

end Blocks

/-! ## The arrays and the blocks, at their literal types -/

section Value
variable (V : Entry Ideal)

abbrev xsA (c : Dev nD) : (Cert.Spec.T2 64 64000).Idx → EReal := V c main_call0_v70
abbrev WA (c : Dev nD) : (Cert.Spec.T2 64000 512).Idx → EReal := V c main_arg5
abbrev bA (c : Dev nD) : (Cert.Spec.T1 512).Idx → EReal := V c main_arg6
abbrev xblk (c : Dev nD) (t : Fin cfg1.N) : Vec Ideal S64x6400 .bf16 := iblk1 V c 0 t
abbrev wblk (c : Dev nD) (t : Fin cfg1.N) : Vec Ideal S6400x256 .f32 := iblk1 V c 1 t
abbrev bblk (c : Dev nD) (t : Fin cfg1.N) : Vec Ideal S256 .f32 := iblk1 V c 2 t

/-- Column `jj` of column block `h` of the result, `256 h + jj` (reduced into the axis, so that it is a total function
    of `h`; for `h < 2` nothing is reduced). -/
def colAt (h : ℕ) (jj : Fin 256) : Fin 512 := ⟨(256 * h + jj.val) % 512, Nat.mod_lt _ (by decide)⟩

theorem colAt_val {h : ℕ} (hh : h < 2) (jj : Fin 256) : (colAt h jj).val = 256 * h + jj.val := by
  have := jj.isLt
  show (256 * h + jj.val) % 512 = _
  exact Nat.mod_eq_of_lt (by omega)

theorem div10_lt (t : Fin cfg1.N) : t.val / 10 < 2 := by
  have := t.isLt; have hN : cfg1.N = 20 := N_1; omega

/-- The blocks' product at point (h, k), at row `i` and local column `jj`: block `k`'s part of the whole product at
    row `i`, column `256 h + jj` — the contracted index is the position in the block, and each factor is the array's
    entry at that position of the block. -/
theorem blockprod (c : Dev nD) (t : Fin cfg1.N) (i : Fin 64) (jj : Fin 256) :
    (∑ k : D1.contr.Idx, xblk V c t (D1.lhsIdx (ix2 i jj) k) * wblk V c t (D1.rhsIdx (ix2 i jj) k))
      = encBlk (xsA V c) (WA V c) i (colAt (t.val / 10) jj) (t.val % 10) := by
  rw [← Equiv.sum_comp contrEquiv1.symm]
  unfold encBlk
  refine Finset.sum_congr rfl fun r _ => ?_
  have e0 : D1.lhsIdx (ix2 i jj) (contrEquiv1.symm r) = ix2 i r :=
    Shape.idx_ext₂ (by rw [lhs1_0]) (by rw [lhs1_1, contrEquiv1_symm_val])
  have e1 : D1.rhsIdx (ix2 i jj) (contrEquiv1.symm r) = ix2 r jj :=
    Shape.idx_ext₂ (by rw [rhs1_0, contrEquiv1_symm_val]) (by rw [rhs1_1])
  rw [e0, e1]
  have hk : (kAt (t.val % 10) r).val = 6400 * (t.val % 10) + r.val := kAt_val (Nat.mod_lt _ (by decide)) r
  have hj : (colAt (t.val / 10) jj).val = 256 * (t.val / 10) + jj.val := colAt_val (div10_lt t) jj
  exact congrArg₂ (· * ·) (iblk1_0_apply V c t i r _ hk) (iblk1_1_apply V c t r jj _ _ hk hj)

/-! ## The accumulator after every point -/

/-- THE INVARIANT. After the body at point (h, k) the accumulator holds, at row `i` and local column `jj`, the sum of
    the parts of blocks 0 … k of the product at row `i`, column `256 h + jj`: at k = 0 the part of block 0 added to
    zero, at a later k the part of block k added to what the point before left. -/
theorem scAt1_apply (c : Dev nD) : ∀ (n : ℕ) (hn : n < cfg1.N) (i : Fin 64) (jj : Fin 256),
    scAt1 V c n hn (ix2 i jj) = ∑ b ∈ Finset.range (n % 10 + 1), encBlk (xsA V c) (WA V c) i (colAt (n / 10) jj) b := by
  intro n
  induction n with
  | zero =>
    intro hn i jj
    rw [scAt1_reset V c ⟨0, hn⟩ rfl, acc1_eq, pay2_apply, zero1_eq, pay1_apply, zero_add]
    exact (blockprod V c ⟨0, hn⟩ i jj).trans (Finset.sum_range_one _).symm
  | succ n ih =>
    intro hn i jj
    by_cases h0 : (n + 1) % 10 = 0
    · rw [scAt1_reset V c ⟨n + 1, hn⟩ h0, acc1_eq, pay2_apply, zero1_eq, pay1_apply, zero_add]
      refine (blockprod V c ⟨n + 1, hn⟩ i jj).trans ?_
      show encBlk _ _ i (colAt ((n + 1) / 10) jj) ((n + 1) % 10) = _
      rw [h0]
      exact (Finset.sum_range_one _).symm
    · rw [scAt1_step V c ⟨n + 1, hn⟩ h0, acc1_eq, pay2_apply]
      show scAt1 V c n _ (ix2 i jj) + _ = _
      rw [ih (Nat.lt_of_succ_lt hn) i jj]
      refine (congrArg (_ + ·) (blockprod V c ⟨n + 1, hn⟩ i jj)).trans ?_
      show _ + encBlk _ _ i (colAt ((n + 1) / 10) jj) ((n + 1) % 10) = _
      have e1 : n % 10 + 1 = (n + 1) % 10 := by omega
      have e2 : n / 10 = (n + 1) / 10 := by omega
      rw [e1, e2]
      exact (Finset.sum_range_succ _ _).symm

/-! ## The result array -/

/-- What the result array ends holding: the encoder's hidden layer of the three arrays. -/
abbrev encG (c : Dev nD) : Buf (Elt Ideal) ((c : Thread nD τ).loc main_call0_v71) :=
  Cert.Spec.encOf (xsA V c) (WA V c) (bA V c)

/-- Each write-back, at a point (h, 9), writes its block of it. -/
theorem flushed1_3 (c : Dev nD) (t : Fin cfg1.N) (hf : (cfg1.win 3).flush t = true) :
    (dat1 V c).flushed 3 t = ((cfg1.win 3).blk t).view.read (Elt Ideal) (encG V c) := by
  have h9 : t.val % 10 = 9 := (flush1_3 t).mp hf
  have hi := idx1_3 t
  show (cfg1.win 3).cut (grid1.coords t) ((dat1 V c).after 3 t) = _
  rw [after1_3, out1_eq]
  funext y
  obtain ⟨i, jj, rfl⟩ : ∃ (i : Fin 64) (jj : Fin 256), y = ix2 i jj := ⟨y 0, y 1, eq_ix2 (n0 := 64) (n1 := 256) y⟩
  rw [View.read_apply]
  have hj : (colAt (t.val / 10) jj).val = 256 * (t.val / 10) + jj.val := colAt_val (div10_lt t) jj
  have he : ((cfg1.win 3).blk t).view.emb (ix2 i jj) = ix2 i (colAt (t.val / 10) jj) := by
    funext a
    apply Fin.ext
    match a with
    | ⟨0, _⟩ => show win1_3.index t 0 * 64 + 1 * i.val = i.val; rw [hi.1]; omega
    | ⟨1, _⟩ => show win1_3.index t 1 * 256 + 1 * jj.val = (colAt (t.val / 10) jj).val; rw [hi.2, hj]; omega
  show k1_pay3 (scAt1 V c t.val t.isLt) (bblk V c t) (ix2 i jj) = encG V c (((cfg1.win 3).blk t).view.emb (ix2 i jj))
  rw [he, pay3_apply, scAt1_apply V c t.val t.isLt i jj, h9]
  show _ = Cert.Spec.encOf (xsA V c) (WA V c) (bA V c) (ix2 i (colAt (t.val / 10) jj))
  rw [encOf_blocks]
  exact congrArg (fun z => max (_ + z) Cert.Spec.zeroW) (iblk1_2_apply V c t jj _ hj)

/-- The two column blocks, written back at the points (0, 9) and (1, 9), cover the array. -/
theorem cover1_3 (i : S64x512.Idx) : ∃ t : Fin cfg1.N, (cfg1.win 3).flush t = true ∧ i ∈ ((cfg1.win 3).blk t).view.set := by
  have h0 : (i 0 : Nat) < 64 := (i 0).isLt
  have h1 : (i 1 : Nat) < 512 := (i 1).isLt
  have hN : cfg1.N = 20 := N_1
  have ht : 10 * ((i 1).val / 256) + 9 < cfg1.N := by omega
  have hi := idx1_3 ⟨10 * ((i 1).val / 256) + 9, ht⟩
  refine ⟨⟨10 * ((i 1).val / 256) + 9, ht⟩, (flush1_3 _).mpr (by show (10 * ((i 1).val / 256) + 9) % 10 = 9; omega), ?_⟩
  show i ∈ ((View.whole main_call0_v71).slice (win1_3.rect ⟨10 * ((i 1).val / 256) + 9, ht⟩)).set
  rw [View.set_slice_whole, Rect.mem_set_unit]
  intro a
  match a with
  | ⟨0, _⟩ =>
    show win1_3.index ⟨10 * ((i 1).val / 256) + 9, ht⟩ 0 * 64 ≤ (i 0 : Nat) ∧ (i 0 : Nat) < win1_3.index ⟨10 * ((i 1).val / 256) + 9, ht⟩ 0 * 64 + 64
    rw [hi.1]; omega
  | ⟨1, _⟩ =>
    show win1_3.index ⟨10 * ((i 1).val / 256) + 9, ht⟩ 1 * 256 ≤ (i 1 : Nat) ∧ (i 1 : Nat) < win1_3.index ⟨10 * ((i 1).val / 256) + 9, ht⟩ 1 * 256 + 256
    rw [hi.2]; show (10 * ((i 1).val / 256) + 9) / 10 * 256 ≤ (i 1 : Nat) ∧ (i 1 : Nat) < (10 * ((i 1).val / 256) + 9) / 10 * 256 + 256; omega

end Value

end V1

open V1 in
/-- THE VALUE of region 1: the result array ends holding the encoder's hidden layer — the rectified (activations times
    weight, plus bias) — of the arrays the region finds. -/
theorem arr1_3 (V : Entry Ideal) (c : Dev nD) : (dat1 (F := Ideal) V c).arrAt 3 cfg1.N
    = Cert.Spec.encOf (V c main_call0_v70) (V c main_arg5) (V c main_arg6) :=
  (dat1 V c).arrAt_eq_of_cover 3 (encG V c) (flushed1_3 V c) cover1_3

end Cert.KernelIdeal.Fr

end
-- ==== Proof.KI.ValR2.lean ====
/- Region 2 (the VAE latent kernel, one grid point, every block its whole array): what its three output arrays hold
   after the pipeline has run, at the extended reals, as the specification's functions of the region's input arrays.
   The body's arithmetic is read at an index: each contraction into a zero accumulator is the sum over the contracted
   coordinate, a bias vector broadcast down the rows reads the vector at the column, a format change is the identity.
   The one block is the array (every block index is zero), so what the one point writes back is the whole result. -/
import proofs.«419763_j27925877358777_3_alg».proof.Proof.KI.R2
import proofs.«419763_j27925877358777_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Fr

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

namespace ValR2

/-! ## The two contractions at an index -/

/-- The hidden activations times a head's weight: the left operand's row is the result's row, -/
theorem lhsA_0 (i : S64x128.Idx) (q : dot_S64x512_S512x128_S64x128_1_0_0_1_n_n.contr.Idx) :
    (dot_S64x512_S512x128_S64x128_1_0_0_1_n_n.lhsIdx i q 0).val = (i 0).val := by
  unfold DotDims.lhsIdx
  rw [dif_neg (show ¬(0 : Fin S64x512.rank) ∈ dot_S64x512_S512x128_S64x128_1_0_0_1_n_n.lhsBatch by decide), dif_pos (show (0 : Fin S64x512.rank) ∈ dot_S64x512_S512x128_S64x128_1_0_0_1_n_n.lhsNonContracting by decide)]
  rfl
/-- its column the contracted coordinate, -/
theorem lhsA_1 (i : S64x128.Idx) (q : dot_S64x512_S512x128_S64x128_1_0_0_1_n_n.contr.Idx) :
    (dot_S64x512_S512x128_S64x128_1_0_0_1_n_n.lhsIdx i q 1).val = (q ⟨0, by decide⟩).val :=
  dot_S64x512_S512x128_S64x128_1_0_0_1_n_n.lhsIdx_val_of_single rfl i q
/-- the right operand's row the contracted coordinate, -/
theorem rhsA_0 (i : S64x128.Idx) (q : dot_S64x512_S512x128_S64x128_1_0_0_1_n_n.contr.Idx) :
    (dot_S64x512_S512x128_S64x128_1_0_0_1_n_n.rhsIdx i q 0).val = (q ⟨0, by decide⟩).val :=
  dot_S64x512_S512x128_S64x128_1_0_0_1_n_n.rhsIdx_val_of_single rfl i q
/-- its column the result's column. -/
theorem rhsA_1 (i : S64x128.Idx) (q : dot_S64x512_S512x128_S64x128_1_0_0_1_n_n.contr.Idx) :
    (dot_S64x512_S512x128_S64x128_1_0_0_1_n_n.rhsIdx i q 1).val = (i 1).val := by
  unfold DotDims.rhsIdx
  rw [dif_neg (show ¬(1 : Fin S512x128.rank) ∈ dot_S64x512_S512x128_S64x128_1_0_0_1_n_n.rhsBatch by decide), dif_pos (show (1 : Fin S512x128.rank) ∈ dot_S64x512_S512x128_S64x128_1_0_0_1_n_n.rhsNonContracting by decide)]
  rfl

/-- So the product into a zero accumulator, at row p and column q, is the sum over k of a[p, k] · w[k, q]. -/
theorem mmA_apply {φ₁ φ₂ : FTy} (a : FVec Ideal S64x512 φ₁) (w : FVec Ideal S512x128 φ₂) (p : Fin 64) (q : Fin 128) :
    matmul dot_S64x512_S512x128_S64x128_1_0_0_1_n_n none a w (constant (F := Ideal) S64x128 .f32 0x00000000#32) (ix2 p q)
      = ∑ k : Fin 512, a (ix2 p k) * w (ix2 k q) := by
  simp only [matmul]
  rw [Ideal.matmul_constant_zero_apply, ← Equiv.sum_comp (contrEquiv1 dot_S64x512_S512x128_S64x128_1_0_0_1_n_n 512 rfl rfl).symm]
  refine Finset.sum_congr rfl fun k _ => ?_
  have hk := contrEquiv1_symm_val dot_S64x512_S512x128_S64x128_1_0_0_1_n_n 512 rfl rfl k
  have el : dot_S64x512_S512x128_S64x128_1_0_0_1_n_n.lhsIdx (ix2 p q) ((contrEquiv1 dot_S64x512_S512x128_S64x128_1_0_0_1_n_n 512 rfl rfl).symm k) = ix2 p k := funext fun a => Fin.ext (by
    match a with
    | ⟨0, _⟩ => exact lhsA_0 _ _
    | ⟨1, _⟩ => exact (lhsA_1 _ _).trans hk)
  have er : dot_S64x512_S512x128_S64x128_1_0_0_1_n_n.rhsIdx (ix2 p q) ((contrEquiv1 dot_S64x512_S512x128_S64x128_1_0_0_1_n_n 512 rfl rfl).symm k) = ix2 k q := funext fun a => Fin.ext (by
    match a with
    | ⟨0, _⟩ => exact (rhsA_0 _ _).trans hk
    | ⟨1, _⟩ => exact rhsA_1 _ _)
  rw [el, er]

/-! ## The heads' payloads at an index -/

/-- A bias vector as one row, repeated down the 64 rows, reads the vector at the column. -/
theorem biasRow128_apply (b : FVec Ideal S128 .f32) (p : Fin 64) (q : Fin 128) :
    broadcastTo S64x128 (shapeCast S1x128 b shapeCasts_S128_S1x128) broadcasts_S1x128_S64x128 (ix2 p q) = b (ix1 q) :=
  (broadcastTo_1b_ab_apply _ broadcasts_S1x128_S64x128 p q).trans (shapeCast_a_1a_apply b shapeCasts_S128_S1x128 (0 : Fin 1) q)

/-- The mean's payload at row p, column q: the row of the hidden activations against the weight's column, plus the bias there. -/
theorem pay2_apply (x0 : Vec Ideal S64x512 .bf16) (x1 : Vec Ideal S512x128 .f32) (x2 : Vec Ideal S128 .f32) (p : Fin 64) (q : Fin 128) :
    k2_pay2 x0 x1 x2 (ix2 p q) = (∑ k : Fin 512, x0 (ix2 p k) * x1 (ix2 k q)) + x2 (ix1 q) := by
  unfold k2_pay2 k2_pay1
  refine (congrArg₂ (· + ·) (mmA_apply (shapeCast S64x512 x0 shapeCasts_S64x512_S64x512) (truncf .bf16 x1 bitsLt_bf16_f32) p q) (biasRow128_apply x2 p q)).trans ?_
  rw [shapeCast_self]
  rfl

/-- The log-variance's payload at row p, column q: the same with its own weight and bias. -/
theorem pay3_apply (x0 : Vec Ideal S64x512 .bf16) (x3 : Vec Ideal S512x128 .f32) (x4 : Vec Ideal S128 .f32) (p : Fin 64) (q : Fin 128) :
    k2_pay3 x0 x3 x4 (ix2 p q) = (∑ k : Fin 512, x0 (ix2 p k) * x3 (ix2 k q)) + x4 (ix1 q) := by
  unfold k2_pay3 k2_pay1
  refine (congrArg₂ (· + ·) (mmA_apply (shapeCast S64x512 x0 shapeCasts_S64x512_S64x512) (truncf .bf16 x3 bitsLt_bf16_f32) p q) (biasRow128_apply x4 p q)).trans ?_
  rw [shapeCast_self]
  rfl

/-! ## From the one block to the array -/

variable (V : Entry Ideal)

theorem hz2 : (![0, 0] : Fin 2 → Nat) = fun _ => 0 := funext fun a => by fin_cases a <;> rfl
theorem hz1 : (![0] : Fin 1 → Nat) = fun _ => 0 := funext fun a => by fin_cases a <;> rfl

/-- Every window's block index is zero on every axis at the grid's one point: each block is its whole array. -/
theorem idx_zero2 : ∀ t : Fin cfg2.N,
    (win2_0.index t (0 : Fin 2) = 0 ∧ win2_0.index t (1 : Fin 2) = 0)
    ∧ (win2_1.index t (0 : Fin 2) = 0 ∧ win2_1.index t (1 : Fin 2) = 0)
    ∧ win2_2.index t (0 : Fin 1) = 0
    ∧ (win2_3.index t (0 : Fin 2) = 0 ∧ win2_3.index t (1 : Fin 2) = 0)
    ∧ win2_4.index t (0 : Fin 1) = 0
    ∧ (win2_5.index t (0 : Fin 2) = 0 ∧ win2_5.index t (1 : Fin 2) = 0)
    ∧ (win2_6.index t (0 : Fin 2) = 0 ∧ win2_6.index t (1 : Fin 2) = 0)
    ∧ win2_7.index t (0 : Fin 1) = 0
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0) :=
  (by decide +kernel : ∀ t : Fin grid2.N, _)

/-- The hidden activations' block is the array. -/
theorem iblk2_0_apply (c : Dev nD) (t : Fin cfg2.N) (p : Fin 64) (k : Fin 512) :
    (iblk2 V c 0 t : Vec Ideal S64x512 .bf16) (ix2 p k) = V c main_call0_v71 (ix2 p k) := by
  obtain ⟨⟨e0, e1⟩, -⟩ := idx_zero2 t
  show V c main_call0_v71 (((cfg2.win 0).blk t).view.emb (ix2 p k)) = V c main_call0_v71 (ix2 p k)
  refine congrArg _ (funext fun a => Fin.ext ?_)
  match a with
  | ⟨0, _⟩ => show win2_0.index t (0 : Fin 2) * 64 + 1 * p.val = p.val; rw [e0]; omega
  | ⟨1, _⟩ => show win2_0.index t (1 : Fin 2) * 512 + 1 * k.val = k.val; rw [e1]; omega

/-- The mean's weight's block is the array. -/
theorem iblk2_1_apply (c : Dev nD) (t : Fin cfg2.N) (k : Fin 512) (q : Fin 128) :
    (iblk2 V c 1 t : Vec Ideal S512x128 .f32) (ix2 k q) = V c main_arg7 (ix2 k q) := by
  obtain ⟨-, ⟨e0, e1⟩, -⟩ := idx_zero2 t
  show V c main_arg7 (((cfg2.win 1).blk t).view.emb (ix2 k q)) = V c main_arg7 (ix2 k q)
  refine congrArg _ (funext fun a => Fin.ext ?_)
  match a with
  | ⟨0, _⟩ => show win2_1.index t (0 : Fin 2) * 512 + 1 * k.val = k.val; rw [e0]; omega
  | ⟨1, _⟩ => show win2_1.index t (1 : Fin 2) * 128 + 1 * q.val = q.val; rw [e1]; omega

/-- The mean's bias's block is the array. -/
theorem iblk2_2_apply (c : Dev nD) (t : Fin cfg2.N) (q : Fin 128) :
    (iblk2 V c 2 t : Vec Ideal S128 .f32) (ix1 q) = V c main_arg8 (ix1 q) := by
  obtain ⟨-, -, e0, -⟩ := idx_zero2 t
  show V c main_arg8 (((cfg2.win 2).blk t).view.emb (ix1 q)) = V c main_arg8 (ix1 q)
  refine congrArg _ (funext fun a => Fin.ext ?_)
  match a with
  | ⟨0, _⟩ => show win2_2.index t (0 : Fin 1) * 128 + 1 * q.val = q.val; rw [e0]; omega

/-- A dense head's value at an index, from operands that agree entry by entry with the specification's arrays. -/
theorem lin128_at (a : (Cert.Spec.T2 64 512).Idx → EReal) (W : (Cert.Spec.T2 512 128).Idx → EReal) (b : (Cert.Spec.T1 128).Idx → EReal)
    (x0 : Vec Ideal S64x512 .bf16) (xw : Vec Ideal S512x128 .f32) (xb : Vec Ideal S128 .f32)
    (h0 : ∀ (p : Fin 64) (k : Fin 512), x0 (ix2 p k) = a (ix2 p k))
    (hw : ∀ (k : Fin 512) (q : Fin 128), xw (ix2 k q) = W (ix2 k q))
    (hb : ∀ q : Fin 128, xb (ix1 q) = b (ix1 q))
    (p : Fin 64) (q : Fin 128) (i : (Cert.Spec.T2 64 128).Idx) (hi0 : (i 0).val = p.val) (hi1 : (i 1).val = q.val) :
    (∑ k : Fin 512, x0 (ix2 p k) * xw (ix2 k q)) + xb (ix1 q) = Cert.Spec.linOf a W b i := by
  obtain rfl : i = ix2 p q := by
    funext d; apply Fin.ext
    match d with
    | ⟨0, _⟩ => exact hi0
    | ⟨1, _⟩ => exact hi1
  unfold Cert.Spec.linOf
  rw [hb]
  refine congrArg₂ (· + ·) (Finset.sum_congr rfl fun k _ => ?_) rfl
  rw [h0, hw]

/-- WHAT THE ONE POINT WRITES BACK to the mean's window is the block of the specification's dense head. -/
theorem flushed2_8_eq (c : Dev nD) (t : Fin cfg2.N) :
    (dat2 (F := Ideal) V c).flushed 8 t
      = ((cfg2.win 8).blk t).view.read (Elt Ideal) (Cert.Spec.linOf (V c main_call0_v71) (V c main_arg7) (V c main_arg8)) := by
  show (cfg2.win 8).cut (grid2.coords t) ((dat2 V c).after 8 t) = _
  rw [after2_8]
  unfold out2_8
  rw [View.canon_unit_zero hz2]
  simp only [View.ld_unit_zero (S := S64x512) hz2, View.ld_unit_zero (S := S512x128) hz2, View.ld_unit_zero (S := S128) hz1]
  obtain ⟨-, -, -, -, -, -, -, -, ⟨e0, e1⟩, -⟩ := idx_zero2 t
  funext j
  obtain ⟨p, q, rfl⟩ : ∃ (p : Fin 64) (q : Fin 128), j = ix2 p q := ⟨j 0, j 1, eq_ix2 j⟩
  refine (pay2_apply (iblk2 V c 0 t) (iblk2 V c 1 t) (iblk2 V c 2 t) p q).trans ?_
  refine lin128_at (V c main_call0_v71) (V c main_arg7) (V c main_arg8) (iblk2 V c 0 t) (iblk2 V c 1 t) (iblk2 V c 2 t)
    (iblk2_0_apply V c t) (iblk2_1_apply V c t) (iblk2_2_apply V c t) p q (((cfg2.win 8).blk t).view.emb (ix2 p q)) ?_ ?_
  · show win2_8.index t (0 : Fin 2) * 64 + 1 * p.val = p.val; rw [e0]; omega
  · show win2_8.index t (1 : Fin 2) * 128 + 1 * q.val = q.val; rw [e1]; omega

/-- An index of the mean's array is in the point's block iff each coordinate is in the block's range on its axis. -/
theorem mem_blk2_8 (t : Fin cfg2.N) (i : S64x128.Idx) :
    i ∈ ((cfg2.win 8).blk t).view.set ↔ ∀ a : Fin 2, win2_8.index t a * S64x128.size a ≤ (i a).val ∧ (i a).val < win2_8.index t a * S64x128.size a + S64x128.size a := by
  show i ∈ ((View.whole main_v0_1).slice (win2_8.rect t)).set ↔ _
  rw [View.set_slice_whole, Rect.mem_set_unit]
  exact Iff.rfl

/-! ## The log-variance: the same road through its own windows -/

/-- The log-variance's weight's block is the array. -/
theorem iblk2_3_apply (c : Dev nD) (t : Fin cfg2.N) (k : Fin 512) (q : Fin 128) :
    (iblk2 V c 3 t : Vec Ideal S512x128 .f32) (ix2 k q) = V c main_arg9 (ix2 k q) := by
  obtain ⟨-, -, -, ⟨e0, e1⟩, -⟩ := idx_zero2 t
  show V c main_arg9 (((cfg2.win 3).blk t).view.emb (ix2 k q)) = V c main_arg9 (ix2 k q)
  refine congrArg _ (funext fun a => Fin.ext ?_)
  match a with
  | ⟨0, _⟩ => show win2_3.index t (0 : Fin 2) * 512 + 1 * k.val = k.val; rw [e0]; omega
  | ⟨1, _⟩ => show win2_3.index t (1 : Fin 2) * 128 + 1 * q.val = q.val; rw [e1]; omega

/-- The log-variance's bias's block is the array. -/
theorem iblk2_4_apply (c : Dev nD) (t : Fin cfg2.N) (q : Fin 128) :
    (iblk2 V c 4 t : Vec Ideal S128 .f32) (ix1 q) = V c main_arg10 (ix1 q) := by
  obtain ⟨-, -, -, -, e0, -⟩ := idx_zero2 t
  show V c main_arg10 (((cfg2.win 4).blk t).view.emb (ix1 q)) = V c main_arg10 (ix1 q)
  refine congrArg _ (funext fun a => Fin.ext ?_)
  match a with
  | ⟨0, _⟩ => show win2_4.index t (0 : Fin 1) * 128 + 1 * q.val = q.val; rw [e0]; omega

/-- WHAT THE ONE POINT WRITES BACK to the log-variance's window is the block of the specification's dense head. -/
theorem flushed2_9_eq (c : Dev nD) (t : Fin cfg2.N) :
    (dat2 (F := Ideal) V c).flushed 9 t
      = ((cfg2.win 9).blk t).view.read (Elt Ideal) (Cert.Spec.linOf (V c main_call0_v71) (V c main_arg9) (V c main_arg10)) := by
  show (cfg2.win 9).cut (grid2.coords t) ((dat2 V c).after 9 t) = _
  rw [after2_9]
  unfold out2_9
  rw [View.canon_unit_zero hz2]
  simp only [View.ld_unit_zero (S := S64x512) hz2, View.ld_unit_zero (S := S512x128) hz2, View.ld_unit_zero (S := S128) hz1]
  obtain ⟨-, -, -, -, -, -, -, -, -, ⟨e0, e1⟩, -⟩ := idx_zero2 t
  funext j
  obtain ⟨p, q, rfl⟩ : ∃ (p : Fin 64) (q : Fin 128), j = ix2 p q := ⟨j 0, j 1, eq_ix2 j⟩
  refine (pay3_apply (iblk2 V c 0 t) (iblk2 V c 3 t) (iblk2 V c 4 t) p q).trans ?_
  refine lin128_at (V c main_call0_v71) (V c main_arg9) (V c main_arg10) (iblk2 V c 0 t) (iblk2 V c 3 t) (iblk2 V c 4 t)
    (iblk2_0_apply V c t) (iblk2_3_apply V c t) (iblk2_4_apply V c t) p q (((cfg2.win 9).blk t).view.emb (ix2 p q)) ?_ ?_
  · show win2_9.index t (0 : Fin 2) * 64 + 1 * p.val = p.val; rw [e0]; omega
  · show win2_9.index t (1 : Fin 2) * 128 + 1 * q.val = q.val; rw [e1]; omega

/-- An index of the log-variance's array is in the point's block iff each coordinate is in the block's range on its axis. -/
theorem mem_blk2_9 (t : Fin cfg2.N) (i : S64x128.Idx) :
    i ∈ ((cfg2.win 9).blk t).view.set ↔ ∀ a : Fin 2, win2_9.index t a * S64x128.size a ≤ (i a).val ∧ (i a).val < win2_9.index t a * S64x128.size a + S64x128.size a := by
  show i ∈ ((View.whole main_v0_2).slice (win2_9.rect t)).set ↔ _
  rw [View.set_slice_whole, Rect.mem_set_unit]
  exact Iff.rfl

/-! ## The decoder's hidden layer -/

/-- The latent times the decoder's first weight: the left operand's row is the result's row, -/
theorem lhsB_0 (i : S64x512.Idx) (q : dot_S64x128_S128x512_S64x512_1_0_0_1_n_n.contr.Idx) :
    (dot_S64x128_S128x512_S64x512_1_0_0_1_n_n.lhsIdx i q 0).val = (i 0).val := by
  unfold DotDims.lhsIdx
  rw [dif_neg (show ¬(0 : Fin S64x128.rank) ∈ dot_S64x128_S128x512_S64x512_1_0_0_1_n_n.lhsBatch by decide), dif_pos (show (0 : Fin S64x128.rank) ∈ dot_S64x128_S128x512_S64x512_1_0_0_1_n_n.lhsNonContracting by decide)]
  rfl
/-- its column the contracted coordinate, -/
theorem lhsB_1 (i : S64x512.Idx) (q : dot_S64x128_S128x512_S64x512_1_0_0_1_n_n.contr.Idx) :
    (dot_S64x128_S128x512_S64x512_1_0_0_1_n_n.lhsIdx i q 1).val = (q ⟨0, by decide⟩).val :=
  dot_S64x128_S128x512_S64x512_1_0_0_1_n_n.lhsIdx_val_of_single rfl i q
/-- the right operand's row the contracted coordinate, -/
theorem rhsB_0 (i : S64x512.Idx) (q : dot_S64x128_S128x512_S64x512_1_0_0_1_n_n.contr.Idx) :
    (dot_S64x128_S128x512_S64x512_1_0_0_1_n_n.rhsIdx i q 0).val = (q ⟨0, by decide⟩).val :=
  dot_S64x128_S128x512_S64x512_1_0_0_1_n_n.rhsIdx_val_of_single rfl i q
/-- its column the result's column. -/
theorem rhsB_1 (i : S64x512.Idx) (q : dot_S64x128_S128x512_S64x512_1_0_0_1_n_n.contr.Idx) :
    (dot_S64x128_S128x512_S64x512_1_0_0_1_n_n.rhsIdx i q 1).val = (i 1).val := by
  unfold DotDims.rhsIdx
  rw [dif_neg (show ¬(1 : Fin S128x512.rank) ∈ dot_S64x128_S128x512_S64x512_1_0_0_1_n_n.rhsBatch by decide), dif_pos (show (1 : Fin S128x512.rank) ∈ dot_S64x128_S128x512_S64x512_1_0_0_1_n_n.rhsNonContracting by decide)]
  rfl

/-- So that product into a zero accumulator, at row p and column r, is the sum over k of z[p, k] · w[k, r], whatever
    the contraction's precision. -/
theorem mmB_apply {φ₁ φ₂ : FTy} (prec : Option ContractPrecision) (z : FVec Ideal S64x128 φ₁) (w : FVec Ideal S128x512 φ₂) (p : Fin 64) (r : Fin 512) :
    matmul dot_S64x128_S128x512_S64x512_1_0_0_1_n_n prec z w (constant (F := Ideal) S64x512 .f32 0x00000000#32) (ix2 p r)
      = ∑ k : Fin 128, z (ix2 p k) * w (ix2 k r) := by
  simp only [matmul]
  rw [Ideal.matmul_constant_zero_apply, ← Equiv.sum_comp (contrEquiv1 dot_S64x128_S128x512_S64x512_1_0_0_1_n_n 128 rfl rfl).symm]
  refine Finset.sum_congr rfl fun k _ => ?_
  have hk := contrEquiv1_symm_val dot_S64x128_S128x512_S64x512_1_0_0_1_n_n 128 rfl rfl k
  have el : dot_S64x128_S128x512_S64x512_1_0_0_1_n_n.lhsIdx (ix2 p r) ((contrEquiv1 dot_S64x128_S128x512_S64x512_1_0_0_1_n_n 128 rfl rfl).symm k) = ix2 p k := funext fun a => Fin.ext (by
    match a with
    | ⟨0, _⟩ => exact lhsB_0 _ _
    | ⟨1, _⟩ => exact (lhsB_1 _ _).trans hk)
  have er : dot_S64x128_S128x512_S64x512_1_0_0_1_n_n.rhsIdx (ix2 p r) ((contrEquiv1 dot_S64x128_S128x512_S64x512_1_0_0_1_n_n 128 rfl rfl).symm k) = ix2 k r := funext fun a => Fin.ext (by
    match a with
    | ⟨0, _⟩ => exact (rhsB_0 _ _).trans hk
    | ⟨1, _⟩ => exact rhsB_1 _ _)
  rw [el, er]

/-- The decoder's bias as one row, repeated down the 64 rows, reads the vector at the column. -/
theorem biasRow512_apply (b : FVec Ideal S512 .f32) (p : Fin 64) (r : Fin 512) :
    broadcastTo S64x512 (shapeCast S1x512 b shapeCasts_S512_S1x512) broadcasts_S1x512_S64x512 (ix2 p r) = b (ix1 r) :=
  (broadcastTo_1b_ab_apply _ broadcasts_S1x512_S64x512 p r).trans (shapeCast_a_1a_apply b shapeCasts_S512_S1x512 (0 : Fin 1) r)

/-- The hidden layer's payload at row p, column r: the rectifier of the latent's row against the weight's column plus
    the bias there, the latent at (p, k) being mean + exp(½ · log-variance) · noise of the two heads' payloads. -/
theorem pay4_apply (x0 : Vec Ideal S64x512 .bf16) (x1 : Vec Ideal S512x128 .f32) (x3 : Vec Ideal S512x128 .f32) (x2 : Vec Ideal S128 .f32) (x4 : Vec Ideal S128 .f32)
    (x5 : Vec Ideal S64x128 .f32) (x6 : Vec Ideal S128x512 .f32) (x7 : Vec Ideal S512 .f32) (p : Fin 64) (r : Fin 512) :
    k2_pay4 x0 x1 x3 x2 x4 x5 x6 x7 (ix2 p r)
      = max ((∑ k : Fin 128, (k2_pay2 x0 x1 x2 (ix2 p k) + Ideal.exp (Cert.Spec.halfW * k2_pay3 x0 x3 x4 (ix2 p k)) * x5 (ix2 p k)) * x6 (ix2 k r)) + x7 (ix1 r))
          Cert.Spec.zeroW := by
  unfold k2_pay4
  refine (congrArg₂ max (congrArg₂ (· + ·) (mmB_apply (some .fp32) _ x6 p r) (biasRow512_apply x7 p r)) rfl).trans ?_
  rfl

/-- The noise's block is the array. -/
theorem iblk2_5_apply (c : Dev nD) (t : Fin cfg2.N) (p : Fin 64) (k : Fin 128) :
    (iblk2 V c 5 t : Vec Ideal S64x128 .f32) (ix2 p k) = V c main_arg2 (ix2 p k) := by
  obtain ⟨-, -, -, -, -, ⟨e0, e1⟩, -⟩ := idx_zero2 t
  show V c main_arg2 (((cfg2.win 5).blk t).view.emb (ix2 p k)) = V c main_arg2 (ix2 p k)
  refine congrArg _ (funext fun a => Fin.ext ?_)
  match a with
  | ⟨0, _⟩ => show win2_5.index t (0 : Fin 2) * 64 + 1 * p.val = p.val; rw [e0]; omega
  | ⟨1, _⟩ => show win2_5.index t (1 : Fin 2) * 128 + 1 * k.val = k.val; rw [e1]; omega

/-- The decoder's first weight's block is the array. -/
theorem iblk2_6_apply (c : Dev nD) (t : Fin cfg2.N) (k : Fin 128) (r : Fin 512) :
    (iblk2 V c 6 t : Vec Ideal S128x512 .f32) (ix2 k r) = V c main_arg11 (ix2 k r) := by
  obtain ⟨-, -, -, -, -, -, ⟨e0, e1⟩, -⟩ := idx_zero2 t
  show V c main_arg11 (((cfg2.win 6).blk t).view.emb (ix2 k r)) = V c main_arg11 (ix2 k r)
  refine congrArg _ (funext fun a => Fin.ext ?_)
  match a with
  | ⟨0, _⟩ => show win2_6.index t (0 : Fin 2) * 128 + 1 * k.val = k.val; rw [e0]; omega
  | ⟨1, _⟩ => show win2_6.index t (1 : Fin 2) * 512 + 1 * r.val = r.val; rw [e1]; omega

/-- The decoder's first bias's block is the array. -/
theorem iblk2_7_apply (c : Dev nD) (t : Fin cfg2.N) (r : Fin 512) :
    (iblk2 V c 7 t : Vec Ideal S512 .f32) (ix1 r) = V c main_arg12 (ix1 r) := by
  obtain ⟨-, -, -, -, -, -, -, e0, -⟩ := idx_zero2 t
  show V c main_arg12 (((cfg2.win 7).blk t).view.emb (ix1 r)) = V c main_arg12 (ix1 r)
  refine congrArg _ (funext fun a => Fin.ext ?_)
  match a with
  | ⟨0, _⟩ => show win2_7.index t (0 : Fin 1) * 512 + 1 * r.val = r.val; rw [e0]; omega

/-- The hidden layer's value at an index, from operands that agree entry by entry with the specification's arrays:
    each latent entry is the specification's (the two heads by `lin128_at`), and the rectified dense layer over it is
    the specification's, term by term. -/
theorem dec_at (a : (Cert.Spec.T2 64 512).Idx → EReal) (W1 : (Cert.Spec.T2 512 128).Idx → EReal) (b1 : (Cert.Spec.T1 128).Idx → EReal)
    (W2 : (Cert.Spec.T2 512 128).Idx → EReal) (b2 : (Cert.Spec.T1 128).Idx → EReal) (eps : (Cert.Spec.T2 64 128).Idx → EReal)
    (Wd : (Cert.Spec.T2 128 512).Idx → EReal) (bd : (Cert.Spec.T1 512).Idx → EReal)
    (x0 : Vec Ideal S64x512 .bf16) (x1 : Vec Ideal S512x128 .f32) (x2 : Vec Ideal S128 .f32) (x3 : Vec Ideal S512x128 .f32) (x4 : Vec Ideal S128 .f32)
    (x5 : Vec Ideal S64x128 .f32) (x6 : Vec Ideal S128x512 .f32) (x7 : Vec Ideal S512 .f32)
    (h0 : ∀ (p : Fin 64) (k : Fin 512), x0 (ix2 p k) = a (ix2 p k))
    (h1 : ∀ (k : Fin 512) (q : Fin 128), x1 (ix2 k q) = W1 (ix2 k q)) (h2 : ∀ q : Fin 128, x2 (ix1 q) = b1 (ix1 q))
    (h3 : ∀ (k : Fin 512) (q : Fin 128), x3 (ix2 k q) = W2 (ix2 k q)) (h4 : ∀ q : Fin 128, x4 (ix1 q) = b2 (ix1 q))
    (h5 : ∀ (p : Fin 64) (k : Fin 128), x5 (ix2 p k) = eps (ix2 p k))
    (h6 : ∀ (k : Fin 128) (r : Fin 512), x6 (ix2 k r) = Wd (ix2 k r)) (h7 : ∀ r : Fin 512, x7 (ix1 r) = bd (ix1 r))
    (p : Fin 64) (r : Fin 512) (i : (Cert.Spec.T2 64 512).Idx) (hi0 : (i 0).val = p.val) (hi1 : (i 1).val = r.val) :
    max ((∑ k : Fin 128, (k2_pay2 x0 x1 x2 (ix2 p k) + Ideal.exp (Cert.Spec.halfW * k2_pay3 x0 x3 x4 (ix2 p k)) * x5 (ix2 p k)) * x6 (ix2 k r)) + x7 (ix1 r))
        Cert.Spec.zeroW
      = Cert.Spec.decHidOf (Cert.Spec.latentOf (Cert.Spec.linOf a W1 b1) (Cert.Spec.linOf a W2 b2) eps) Wd bd i := by
  obtain rfl : i = ix2 p r := by
    funext d; apply Fin.ext
    match d with
    | ⟨0, _⟩ => exact hi0
    | ⟨1, _⟩ => exact hi1
  have hz : ∀ k : Fin 128, k2_pay2 x0 x1 x2 (ix2 p k) + Ideal.exp (Cert.Spec.halfW * k2_pay3 x0 x3 x4 (ix2 p k)) * x5 (ix2 p k)
      = Cert.Spec.latentOf (Cert.Spec.linOf a W1 b1) (Cert.Spec.linOf a W2 b2) eps (ix2 p k) := fun k => by
    show _ = Cert.Spec.linOf a W1 b1 (ix2 p k) + Ideal.exp (Cert.Spec.halfW * Cert.Spec.linOf a W2 b2 (ix2 p k)) * eps (ix2 p k)
    rw [pay2_apply, pay3_apply, lin128_at a W1 b1 x0 x1 x2 h0 h1 h2 p k (ix2 p k) rfl rfl,
      lin128_at a W2 b2 x0 x3 x4 h0 h3 h4 p k (ix2 p k) rfl rfl, h5]
  show _ = max ((∑ k : Fin 128, Cert.Spec.latentOf (Cert.Spec.linOf a W1 b1) (Cert.Spec.linOf a W2 b2) eps (ix2 p k) * Wd (ix2 k r)) + bd (ix1 r)) Cert.Spec.zeroW
  rw [h7]
  refine congrArg₂ max (congrArg₂ (· + ·) (Finset.sum_congr rfl fun k _ => ?_) rfl) rfl
  rw [hz, h6]

/-- WHAT THE ONE POINT WRITES BACK to the hidden layer's window is the block of the specification's rectified dense
    layer over the reparameterised latent. -/
theorem flushed2_10_eq (c : Dev nD) (t : Fin cfg2.N) :
    (dat2 (F := Ideal) V c).flushed 10 t
      = ((cfg2.win 10).blk t).view.read (Elt Ideal)
          (Cert.Spec.decHidOf (Cert.Spec.latentOf (Cert.Spec.linOf (V c main_call0_v71) (V c main_arg7) (V c main_arg8))
            (Cert.Spec.linOf (V c main_call0_v71) (V c main_arg9) (V c main_arg10)) (V c main_arg2)) (V c main_arg11) (V c main_arg12)) := by
  show (cfg2.win 10).cut (grid2.coords t) ((dat2 V c).after 10 t) = _
  rw [after2_10]
  unfold out2_10
  rw [View.canon_unit_zero hz2]
  simp only [View.ld_unit_zero (S := S64x512) hz2, View.ld_unit_zero (S := S512x128) hz2, View.ld_unit_zero (S := S128) hz1,
    View.ld_unit_zero (S := S64x128) hz2, View.ld_unit_zero (S := S128x512) hz2, View.ld_unit_zero (S := S512) hz1]
  obtain ⟨-, -, -, -, -, -, -, -, -, -, ⟨e0, e1⟩⟩ := idx_zero2 t
  funext j
  obtain ⟨p, r, rfl⟩ : ∃ (p : Fin 64) (r : Fin 512), j = ix2 p r := ⟨j 0, j 1, eq_ix2 j⟩
  refine (pay4_apply (iblk2 V c 0 t) (iblk2 V c 1 t) (iblk2 V c 3 t) (iblk2 V c 2 t) (iblk2 V c 4 t) (iblk2 V c 5 t) (iblk2 V c 6 t) (iblk2 V c 7 t) p r).trans ?_
  refine dec_at (V c main_call0_v71) (V c main_arg7) (V c main_arg8) (V c main_arg9) (V c main_arg10) (V c main_arg2) (V c main_arg11) (V c main_arg12)
    (iblk2 V c 0 t) (iblk2 V c 1 t) (iblk2 V c 2 t) (iblk2 V c 3 t) (iblk2 V c 4 t) (iblk2 V c 5 t) (iblk2 V c 6 t) (iblk2 V c 7 t)
    (iblk2_0_apply V c t) (iblk2_1_apply V c t) (iblk2_2_apply V c t) (iblk2_3_apply V c t) (iblk2_4_apply V c t) (iblk2_5_apply V c t) (iblk2_6_apply V c t) (iblk2_7_apply V c t)
    p r (((cfg2.win 10).blk t).view.emb (ix2 p r)) ?_ ?_
  · show win2_10.index t (0 : Fin 2) * 64 + 1 * p.val = p.val; rw [e0]; omega
  · show win2_10.index t (1 : Fin 2) * 512 + 1 * r.val = r.val; rw [e1]; omega

/-- An index of the hidden layer's array is in the point's block iff each coordinate is in the block's range on its axis. -/
theorem mem_blk2_10 (t : Fin cfg2.N) (i : S64x512.Idx) :
    i ∈ ((cfg2.win 10).blk t).view.set ↔ ∀ a : Fin 2, win2_10.index t a * S64x512.size a ≤ (i a).val ∧ (i a).val < win2_10.index t a * S64x512.size a + S64x512.size a := by
  show i ∈ ((View.whole main_call0_v72_2).slice (win2_10.rect t)).set ↔ _
  rw [View.set_slice_whole, Rect.mem_set_unit]
  exact Iff.rfl

end ValR2

open ValR2

/-! ## The three arrays after the run -/

variable (V : Entry Ideal)

/-- THE MEAN after the run: the one block covers the array, so the array is the specification's dense head of the
    hidden activations, the mean's weight and the mean's bias. -/
theorem arr2_8 (c : Dev nD) : (dat2 (F := Ideal) V c).arrAt 8 cfg2.N
    = Cert.Spec.linOf (V c main_call0_v71) (V c main_arg7) (V c main_arg8) :=
  (dat2 (F := Ideal) V c).arrAt_eq_of_cover 8 (Cert.Spec.linOf (V c main_call0_v71) (V c main_arg7) (V c main_arg8))
    (fun t _ => flushed2_8_eq V c t) fun i => ⟨t2_0, flush2_8 t2_0, by
      rw [mem_blk2_8]
      obtain ⟨-, -, -, -, -, -, -, -, ⟨e0, e1⟩, -⟩ := idx_zero2 t2_0
      have h0 : (i 0).val < 64 := (i 0).isLt
      have h1 : (i 1).val < 128 := (i 1).isLt
      intro a
      match a with
      | ⟨0, _⟩ => show win2_8.index t2_0 (0 : Fin 2) * 64 ≤ (i 0).val ∧ (i 0).val < win2_8.index t2_0 (0 : Fin 2) * 64 + 64; rw [e0]; omega
      | ⟨1, _⟩ => show win2_8.index t2_0 (1 : Fin 2) * 128 ≤ (i 1).val ∧ (i 1).val < win2_8.index t2_0 (1 : Fin 2) * 128 + 128; rw [e1]; omega⟩

/-- THE LOG-VARIANCE after the run: the specification's dense head of the hidden activations, the log-variance's
    weight and its bias. -/
theorem arr2_9 (c : Dev nD) : (dat2 (F := Ideal) V c).arrAt 9 cfg2.N
    = Cert.Spec.linOf (V c main_call0_v71) (V c main_arg9) (V c main_arg10) :=
  (dat2 (F := Ideal) V c).arrAt_eq_of_cover 9 (Cert.Spec.linOf (V c main_call0_v71) (V c main_arg9) (V c main_arg10))
    (fun t _ => flushed2_9_eq V c t) fun i => ⟨t2_0, flush2_9 t2_0, by
      rw [mem_blk2_9]
      obtain ⟨-, -, -, -, -, -, -, -, -, ⟨e0, e1⟩, -⟩ := idx_zero2 t2_0
      have h0 : (i 0).val < 64 := (i 0).isLt
      have h1 : (i 1).val < 128 := (i 1).isLt
      intro a
      match a with
      | ⟨0, _⟩ => show win2_9.index t2_0 (0 : Fin 2) * 64 ≤ (i 0).val ∧ (i 0).val < win2_9.index t2_0 (0 : Fin 2) * 64 + 64; rw [e0]; omega
      | ⟨1, _⟩ => show win2_9.index t2_0 (1 : Fin 2) * 128 ≤ (i 1).val ∧ (i 1).val < win2_9.index t2_0 (1 : Fin 2) * 128 + 128; rw [e1]; omega⟩

/-- THE DECODER'S HIDDEN LAYER after the run: the specification's rectified dense layer of the latent
    mean + exp(½ · log-variance) · noise, the mean and the log-variance being the two dense heads. -/
theorem arr2_10 (c : Dev nD) : (dat2 (F := Ideal) V c).arrAt 10 cfg2.N
    = Cert.Spec.decHidOf (Cert.Spec.latentOf (Cert.Spec.linOf (V c main_call0_v71) (V c main_arg7) (V c main_arg8))
        (Cert.Spec.linOf (V c main_call0_v71) (V c main_arg9) (V c main_arg10)) (V c main_arg2)) (V c main_arg11) (V c main_arg12) :=
  (dat2 (F := Ideal) V c).arrAt_eq_of_cover 10
    (Cert.Spec.decHidOf (Cert.Spec.latentOf (Cert.Spec.linOf (V c main_call0_v71) (V c main_arg7) (V c main_arg8))
        (Cert.Spec.linOf (V c main_call0_v71) (V c main_arg9) (V c main_arg10)) (V c main_arg2)) (V c main_arg11) (V c main_arg12))
    (fun t _ => flushed2_10_eq V c t) fun i => ⟨t2_0, flush2_10 t2_0, by
      rw [mem_blk2_10]
      obtain ⟨-, -, -, -, -, -, -, -, -, -, ⟨e0, e1⟩⟩ := idx_zero2 t2_0
      have h0 : (i 0).val < 64 := (i 0).isLt
      have h1 : (i 1).val < 512 := (i 1).isLt
      intro a
      match a with
      | ⟨0, _⟩ => show win2_10.index t2_0 (0 : Fin 2) * 64 ≤ (i 0).val ∧ (i 0).val < win2_10.index t2_0 (0 : Fin 2) * 64 + 64; rw [e0]; omega
      | ⟨1, _⟩ => show win2_10.index t2_0 (1 : Fin 2) * 512 ≤ (i 1).val ∧ (i 1).val < win2_10.index t2_0 (1 : Fin 2) * 512 + 512; rw [e1]; omega⟩

end Cert.KernelIdeal.Fr

end
-- ==== Proof.KI.ValR3.lean ====
/- The value of region 3, the decoder pipeline, at the extended reals: its output array after the pipeline has run is
   the logistic function of (decoder hidden · second decoder weight + bias), entry by entry, as the specification's
   function of the region's three input arrays. -/
import proofs.«419763_j27925877358777_3_alg».proof.Proof.KI.R3
import proofs.«419763_j27925877358777_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

namespace ValR3

/-! ## The body's arithmetic at an index -/

/-- The matrix product's operand indices at output index `i` and contraction index `q`, axis by axis: the left
    operand's row is the output's row, its column the contraction index; the right operand's row is the contraction
    index, its column the output's column. -/
theorem lhs3_0 (i : S64x3200.Idx) (q : dot_S64x512_S512x3200_S64x3200_1_0_0_1_n_n.contr.Idx) :
    (dot_S64x512_S512x3200_S64x3200_1_0_0_1_n_n.lhsIdx i q 0).val = (i 0).val := by
  unfold DotDims.lhsIdx
  rw [dif_neg (show ¬(0 : Fin S64x512.rank) ∈ dot_S64x512_S512x3200_S64x3200_1_0_0_1_n_n.lhsBatch by decide), dif_pos (show (0 : Fin S64x512.rank) ∈ dot_S64x512_S512x3200_S64x3200_1_0_0_1_n_n.lhsNonContracting by decide)]
  rfl
theorem lhs3_1 (i : S64x3200.Idx) (q : dot_S64x512_S512x3200_S64x3200_1_0_0_1_n_n.contr.Idx) :
    (dot_S64x512_S512x3200_S64x3200_1_0_0_1_n_n.lhsIdx i q 1).val = (q ⟨0, by decide⟩).val :=
  dot_S64x512_S512x3200_S64x3200_1_0_0_1_n_n.lhsIdx_val_of_single rfl i q
theorem rhs3_0 (i : S64x3200.Idx) (q : dot_S64x512_S512x3200_S64x3200_1_0_0_1_n_n.contr.Idx) :
    (dot_S64x512_S512x3200_S64x3200_1_0_0_1_n_n.rhsIdx i q 0).val = (q ⟨0, by decide⟩).val :=
  dot_S64x512_S512x3200_S64x3200_1_0_0_1_n_n.rhsIdx_val_of_single rfl i q
theorem rhs3_1 (i : S64x3200.Idx) (q : dot_S64x512_S512x3200_S64x3200_1_0_0_1_n_n.contr.Idx) :
    (dot_S64x512_S512x3200_S64x3200_1_0_0_1_n_n.rhsIdx i q 1).val = (i 1).val := by
  unfold DotDims.rhsIdx
  rw [dif_neg (show ¬(1 : Fin S512x3200.rank) ∈ dot_S64x512_S512x3200_S64x3200_1_0_0_1_n_n.rhsBatch by decide), dif_pos (show (1 : Fin S512x3200.rank) ∈ dot_S64x512_S512x3200_S64x3200_1_0_0_1_n_n.rhsNonContracting by decide)]
  rfl

/-- The matrix product into a zero accumulator, at row `p` and column `q`: the sum over the 512 contracted
    positions of the operands' products. -/
theorem matmul3_apply (a : FVec Ideal S64x512 .bf16) (b : FVec Ideal S512x3200 .bf16) (p : Fin 64) (q : Fin 3200) :
    FloatOps.matmul dot_S64x512_S512x3200_S64x3200_1_0_0_1_n_n none a b (constant (F := Ideal) S64x3200 .f32 0x00000000#32) (ix2 p q)
      = ∑ k : Fin 512, a (ix2 p k) * b (ix2 k q) := by
  rw [Ideal.matmul_constant_zero_apply, ← Equiv.sum_comp (ValueIdx.contrEquiv1 dot_S64x512_S512x3200_S64x3200_1_0_0_1_n_n 512 rfl rfl).symm]
  refine Finset.sum_congr rfl fun k _ => ?_
  have hk := ValueIdx.contrEquiv1_symm_val dot_S64x512_S512x3200_S64x3200_1_0_0_1_n_n 512 rfl rfl k
  have el : dot_S64x512_S512x3200_S64x3200_1_0_0_1_n_n.lhsIdx (ix2 p q) ((ValueIdx.contrEquiv1 dot_S64x512_S512x3200_S64x3200_1_0_0_1_n_n 512 rfl rfl).symm k) = ix2 p k := funext fun a => Fin.ext (by
    match a with
    | ⟨0, _⟩ => exact lhs3_0 _ _
    | ⟨1, _⟩ => exact (lhs3_1 _ _).trans hk)
  have er : dot_S64x512_S512x3200_S64x3200_1_0_0_1_n_n.rhsIdx (ix2 p q) ((ValueIdx.contrEquiv1 dot_S64x512_S512x3200_S64x3200_1_0_0_1_n_n 512 rfl rfl).symm k) = ix2 k q := funext fun a => Fin.ext (by
    match a with
    | ⟨0, _⟩ => exact (rhs3_0 _ _).trans hk
    | ⟨1, _⟩ => exact rhs3_1 _ _)
  rw [el, er]

/-- The body's arithmetic at row `p`, column `q` of the block: the logistic function of the hidden block's row
    against the weight block's column plus the bias block's entry (the format changes are the identity at the
    extended reals; the bias row is repeated down the rows). -/
theorem pay3_apply (x0 : Vec Ideal S64x512 .bf16) (x1 : Vec Ideal S512x3200 .f32) (x2 : Vec Ideal S1x3200 .f32) (p : Fin 64) (q : Fin 3200) :
    k3_pay1 (F := Ideal) x0 x1 x2 (ix2 p q)
      = Cert.Spec.sigm ((∑ k : Fin 512, x0 (ix2 p k) * x1 (ix2 k q)) + x2 (ix2 (0 : Fin 1) q)) := by
  unfold k3_pay1
  show Ideal.logistic (FloatOps.matmul dot_S64x512_S512x3200_S64x3200_1_0_0_1_n_n none (shapeCast S64x512 x0 shapeCasts_S64x512_S64x512) (truncf .bf16 x1 bitsLt_bf16_f32) (constant (F := Ideal) S64x3200 .f32 0x00000000#32) (ix2 p q)
      + broadcastTo S64x3200 (shapeCast S1x3200 x2 shapeCasts_S1x3200_S1x3200) broadcasts_S1x3200_S64x3200 (ix2 p q)) = _
  rw [matmul3_apply, shapeCast_self, shapeCast_self, broadcastTo_1b_ab_apply]
  rfl

/-! ## From the blocks to the array -/

theorem hz2d : (![0, 0] : Fin 2 → Nat) = fun _ => 0 := funext fun a => by fin_cases a <;> rfl

/-- The body's arithmetic at an index `j` of the block at block column `n`, when the three input blocks are the
    hidden array whole, the weight's columns 3200·n … 3200·n + 3199 and the bias row's same columns: the
    specification's output at row `j 0`, column 3200·n + `j 1`. -/
theorem point3 (x0 : Vec Ideal S64x512 .bf16) (x1 : Vec Ideal S512x3200 .f32) (x2 : Vec Ideal S1x3200 .f32)
    (hd : (Cert.Spec.T2 64 512).Idx → EReal) (W : (Cert.Spec.T2 512 64000).Idx → EReal) (b : (Cert.Spec.T2 1 64000).Idx → EReal)
    (n : Nat)
    (h0 : ∀ (p : Fin 64) (k : Fin 512), x0 (ix2 p k) = hd (ix2 p k))
    (h1 : ∀ (k : Fin 512) (q : Fin 3200) (col : Fin 64000), col.val = n * 3200 + q.val → x1 (ix2 k q) = W (ix2 k col))
    (h2 : ∀ (q : Fin 3200) (col : Fin 64000), col.val = n * 3200 + q.val → x2 (ix2 (0 : Fin 1) q) = b (ix2 (0 : Fin 1) col))
    (j : S64x3200.Idx) (i : S64x64000.Idx) (hi0 : (i 0).val = (j 0).val) (hi1 : (i 1).val = n * 3200 + (j 1).val) :
    k3_pay1 (F := Ideal) x0 x1 x2 j = Cert.Spec.outOf hd W (fun j => b (ix2 (0 : Fin 1) ⟨(j 0).val, (j 0).isLt⟩)) i := by
  obtain ⟨p, q, rfl⟩ : ∃ (p : Fin 64) (q : Fin 3200), j = ix2 p q := ⟨j 0, j 1, eq_ix2 j⟩
  rw [pay3_apply]
  have e0 : (⟨(i 0).val, (i 0).isLt⟩ : Fin 64) = p := Fin.ext hi0
  have key : ∀ (r : Fin 64) (col : Fin 64000), r = p → col.val = n * 3200 + q.val →
      Cert.Spec.sigm ((∑ k : Fin 512, x0 (ix2 p k) * x1 (ix2 k q)) + x2 (ix2 (0 : Fin 1) q))
        = Cert.Spec.sigm ((∑ k : Fin 512, hd (ix2 r k) * W (ix2 k col)) + b (ix2 (0 : Fin 1) col)) := by
    intro r col hr hcol
    subst hr
    rw [h2 q col hcol]
    refine congrArg Cert.Spec.sigm (congrArg (· + _) (Finset.sum_congr rfl fun k _ => ?_))
    rw [h0, h1 k q col hcol]
  exact key ⟨(i 0).val, (i 0).isLt⟩ ⟨(i 1).val, (i 1).isLt⟩ e0 hi1

/-- The printed index maps over the 20 grid points: the hidden window's block is always the whole array; the weight's
    and the bias's block column is the output's block column; the output's block row is 0 and its block column is
    below 20. -/
theorem idx_facts3 : ∀ t : Fin cfg3.N,
    win3_0.index t (0 : Fin 2) = 0 ∧ win3_0.index t (1 : Fin 2) = 0
    ∧ win3_1.index t (0 : Fin 2) = 0 ∧ win3_1.index t (1 : Fin 2) = win3_3.index t (1 : Fin 2)
    ∧ win3_2.index t (0 : Fin 2) = 0 ∧ win3_2.index t (1 : Fin 2) = win3_3.index t (1 : Fin 2)
    ∧ win3_3.index t (0 : Fin 2) = 0 ∧ win3_3.index t (1 : Fin 2) ≤ 19 :=
  (by decide +kernel : ∀ t : Fin grid3.N, _)

/-- Every one of the 20 block columns is some grid point's. -/
theorem idx_onto3 : ∀ q1 : Fin 20, ∃ t : Fin cfg3.N, win3_3.index t = ![0, q1.val] :=
  (by decide +kernel : ∀ q1 : Fin 20, ∃ t : Fin grid3.N, win3_3.index t = ![0, q1.val])

variable (V : Entry Ideal)

/-- What grid point `t` writes back is block `t` of the specification's output of the region's input arrays. -/
theorem flushed3_eq (c : Dev nD) (t : Fin cfg3.N) :
    (dat3 (F := Ideal) V c).flushed 3 t = ((cfg3.win 3).blk t).view.read (Elt Ideal)
      (Cert.Spec.outOf (V c main_call0_v72_2) (V c main_arg13) (fun j => V c main_call0_v73 (ix2 (0 : Fin 1) ⟨(j 0).val, (j 0).isLt⟩))) := by
  show (cfg3.win 3).cut (grid3.coords t) ((dat3 V c).after 3 t) = _
  rw [after3_3]
  unfold out3_3
  rw [View.canon_unit_zero hz2d]
  simp only [View.ld_unit_zero (S := S64x512) hz2d, View.ld_unit_zero (S := S512x3200) hz2d, View.ld_unit_zero (S := S1x3200) hz2d]
  obtain ⟨e00, e01, e10, e11, e20, e21, e30, e31⟩ := idx_facts3 t
  funext j
  show k3_pay1 (F := Ideal) (iblk3 V c 0 t) (iblk3 V c 1 t) (iblk3 V c 2 t) j = Cert.Spec.outOf _ _ _ (((cfg3.win 3).blk t).view.emb j)
  refine point3 (iblk3 V c 0 t) (iblk3 V c 1 t) (iblk3 V c 2 t) (V c main_call0_v72_2) (V c main_arg13) (V c main_call0_v73) (win3_3.index t (1 : Fin 2)) ?_ ?_ ?_ j (((cfg3.win 3).blk t).view.emb j) ?_ ?_
  · intro p k
    show V c main_call0_v72_2 (((cfg3.win 0).blk t).view.emb (ix2 p k)) = V c main_call0_v72_2 (ix2 p k)
    refine congrArg _ (funext fun a => Fin.ext ?_)
    match a with
    | ⟨0, _⟩ => show win3_0.index t (0 : Fin 2) * 64 + 1 * p.val = p.val; omega
    | ⟨1, _⟩ => show win3_0.index t (1 : Fin 2) * 512 + 1 * k.val = k.val; omega
  · intro k q col hcol
    show V c main_arg13 (((cfg3.win 1).blk t).view.emb (ix2 k q)) = V c main_arg13 (ix2 k col)
    refine congrArg _ (funext fun a => Fin.ext ?_)
    match a with
    | ⟨0, _⟩ => show win3_1.index t (0 : Fin 2) * 512 + 1 * k.val = k.val; omega
    | ⟨1, _⟩ => show win3_1.index t (1 : Fin 2) * 3200 + 1 * q.val = col.val; omega
  · intro q col hcol
    show V c main_call0_v73 (((cfg3.win 2).blk t).view.emb (ix2 (0 : Fin 1) q)) = V c main_call0_v73 (ix2 (0 : Fin 1) col)
    refine congrArg _ (funext fun a => Fin.ext ?_)
    match a with
    | ⟨0, _⟩ => show win3_2.index t (0 : Fin 2) * 1 + 1 * 0 = 0; omega
    | ⟨1, _⟩ => show win3_2.index t (1 : Fin 2) * 3200 + 1 * q.val = col.val; omega
  · show win3_3.index t (0 : Fin 2) * 64 + 1 * (j 0).val = (j 0).val; omega
  · show win3_3.index t (1 : Fin 2) * 3200 + 1 * (j 1).val = win3_3.index t (1 : Fin 2) * 3200 + (j 1).val; omega

/-- An index of the output array is in point `t`'s block iff each coordinate is in the block's range on its axis. -/
theorem mem_blk3 (t : Fin cfg3.N) (i : S64x64000.Idx) :
    i ∈ ((cfg3.win 3).blk t).view.set ↔ ∀ a : Fin 2, win3_3.index t a * S64x3200.size a ≤ (i a).val ∧ (i a).val < win3_3.index t a * S64x3200.size a + S64x3200.size a := by
  show i ∈ ((View.whole main_v0_0).slice (win3_3.rect t)).set ↔ _
  rw [View.set_slice_whole, Rect.mem_set_unit]
  exact Iff.rfl

/-- The twenty blocks cover the output array: column `col` lies in the block of block column `col / 3200`. -/
theorem cover3 (i : S64x64000.Idx) : ∃ t : Fin cfg3.N, (cfg3.win 3).flush t = true ∧ i ∈ ((cfg3.win 3).blk t).view.set := by
  have hi0 : (i 0).val < 64 := (i 0).isLt
  have hi1 : (i 1).val < 64000 := (i 1).isLt
  obtain ⟨t, ht⟩ := idx_onto3 ⟨(i 1).val / 3200, by omega⟩
  have q0 : win3_3.index t (0 : Fin 2) = 0 := congrFun ht 0
  have q1 : win3_3.index t (1 : Fin 2) = (i 1).val / 3200 := congrFun ht 1
  refine ⟨t, flush3_3 t, ?_⟩
  rw [mem_blk3]
  intro a
  match a with
  | ⟨0, _⟩ => show win3_3.index t (0 : Fin 2) * 64 ≤ (i 0).val ∧ (i 0).val < win3_3.index t (0 : Fin 2) * 64 + 64; omega
  | ⟨1, _⟩ => show win3_3.index t (1 : Fin 2) * 3200 ≤ (i 1).val ∧ (i 1).val < win3_3.index t (1 : Fin 2) * 3200 + 3200; omega

end ValR3

variable (V : Entry Ideal)

/-- The output array after the pipeline has run: the logistic function of (hidden · weight + bias), entry by entry:
    every grid point writes back its block of that function, and the twenty blocks cover the array. -/
theorem arr3_3 (c : Dev nD) : (dat3 (F := Ideal) V c).arrAt 3 cfg3.N
    = Cert.Spec.outOf (V c main_call0_v72_2) (V c main_arg13) (fun j => V c main_call0_v73 (ix2 (0 : Fin 1) ⟨(j 0).val, (j 0).isLt⟩)) :=
  (dat3 V c).arrAt_eq_of_cover 3 _ (fun t _ => ValR3.flushed3_eq V c t) ValR3.cover3

end Cert.KernelIdeal.Fr

end
-- ==== Proof.KI.HostEdges.lean ====
/-
  The kernel program's first host stretch, the edge-list part: the dense adjacency-count table, at the extended reals.

  The stretch slices the edge list into its source row and its destination row, forms for every edge the flat position
  destination · 1000 + source as a 32-bit word, and accumulates a one into a zero vector of a million positions at each
  edge's flat position; the vector is then read as a 1000 × 1000 table, and copied in a narrower float format.

  Three facts carry the value.  (i) On an edge list whose every endpoint is below 1000 the flat position's arithmetic does
  not wrap, and the word reads the same signed and unsigned: its value is destination · 1000 + source, below a million.
  (ii) The accumulation has one operand axis, an inserted one, and no window: update e lands on position p exactly when
  the e-th index word, read signed, is p; nothing lands outside.  So position p holds zero plus a one for every edge
  whose flat position is p.  (iii) The table's entry (n, s) is position n · 1000 + s, and destination · 1000 + source
  = n · 1000 + s with source, s < 1000 forces destination = n and source = s.  Hence entry (n, s) is zero plus a one for
  every edge from s to n: `Cert.Spec.adjSpec`.  At the extended reals the change of float format is the identity.
-/
import proofs.«419763_j27925877358777_3_alg».proof.Proof.Gen.KernelIdeal.Launch
import proofs.«419763_j27925877358777_3_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.HostVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo

variable (W : Valuation τ sig (Elt Ideal))

namespace Edges

/-! ## Where an update of the rank-1 accumulation lands -/

/-- Update e's start on the one operand axis: the word at (e, 0) of the indices, read signed. -/
theorem scat_start (idx : IVec S32000x1 32) (e : Fin 32000) :
    scatter_S1000000_S32000x1_S32000_n_0_0_1.start (ix1 e : S32000.Idx) idx (0 : Fin 1)
      = (idx (ix2 e (0 : Fin 1))).toInt := by
  unfold ScatterDims.start
  rw [dif_pos (by decide)]
  refine congrArg (fun k => (idx k).toInt) (funext fun b => ?_)
  match b with
  | ⟨0, _⟩ => rfl
  | ⟨1, _⟩ => rfl

/-- It has no window: the one operand axis is an inserted one. -/
theorem scat_window (e : Fin 32000) :
    scatter_S1000000_S32000x1_S32000_n_0_0_1.window (ix1 e : S32000.Idx) (0 : Fin 1) = 0 := by
  unfold ScatterDims.window
  rw [dif_neg (by decide)]

/-- So update e lands on position p exactly when its index word, read signed, is p. -/
theorem scat_resultIdx_iff (idx : IVec S32000x1 32) (e : Fin 32000) (p : Fin 1000000) :
    scatter_S1000000_S32000x1_S32000_n_0_0_1.resultIdx? (ix1 e : S32000.Idx) idx = some (ix1 p : S1000000.Idx)
      ↔ (idx (ix2 e (0 : Fin 1))).toInt = (p.val : Int) := by
  have hs := scat_start idx e
  have hw := scat_window e
  unfold ScatterDims.resultIdx?
  constructor
  · intro h
    by_cases hc : ∀ a, 0 ≤ scatter_S1000000_S32000x1_S32000_n_0_0_1.start (ix1 e : S32000.Idx) idx a + scatter_S1000000_S32000x1_S32000_n_0_0_1.window (ix1 e : S32000.Idx) a
        ∧ scatter_S1000000_S32000x1_S32000_n_0_0_1.start (ix1 e : S32000.Idx) idx a + scatter_S1000000_S32000x1_S32000_n_0_0_1.window (ix1 e : S32000.Idx) a < S1000000.size a
    · rw [dif_pos hc] at h
      have h0 := congrArg (fun f : S1000000.Idx => (f 0).val) (Option.some.inj h)
      have hc0 := (hc 0).1
      have h0' : (scatter_S1000000_S32000x1_S32000_n_0_0_1.start (ix1 e : S32000.Idx) idx 0
          + ((scatter_S1000000_S32000x1_S32000_n_0_0_1.window (ix1 e : S32000.Idx) 0 : Nat) : Int)).toNat = p.val := h0
      omega
    · rw [dif_neg hc] at h; exact absurd h (by simp)
  · intro h
    have hc : ∀ a, 0 ≤ scatter_S1000000_S32000x1_S32000_n_0_0_1.start (ix1 e : S32000.Idx) idx a + scatter_S1000000_S32000x1_S32000_n_0_0_1.window (ix1 e : S32000.Idx) a
        ∧ scatter_S1000000_S32000x1_S32000_n_0_0_1.start (ix1 e : S32000.Idx) idx a + scatter_S1000000_S32000x1_S32000_n_0_0_1.window (ix1 e : S32000.Idx) a < S1000000.size a := by
      intro a
      have ha : a = 0 := Subsingleton.elim _ _
      subst ha
      rw [hs, hw, h]
      have hp : p.val < 1000000 := p.isLt
      constructor
      · omega
      · show (p.val : Int) + ((0 : Nat) : Int) < ((1000000 : Nat) : Int); omega
    rw [dif_pos hc]
    refine congrArg some (funext fun a => ?_)
    have ha : a = 0 := Subsingleton.elim _ _
    subst ha
    apply Fin.ext
    show (scatter_S1000000_S32000x1_S32000_n_0_0_1.start (ix1 e : S32000.Idx) idx 0 + scatter_S1000000_S32000x1_S32000_n_0_0_1.window (ix1 e : S32000.Idx) 0).toNat = p.val
    rw [hs, hw, h]; omega

/-! ## The flat position does not wrap -/

theorem flat_toNat (a b : BitVec 32) (ha : a.toNat < 1000) (hb : b.toNat < 1000) :
    (IntOp.addi (IntOp.muli a 1000#32) b).toNat = a.toNat * 1000 + b.toNat := by
  show (a * 1000#32 + b).toNat = _
  rw [BitVec.toNat_add, BitVec.toNat_mul]
  have h1 : (1000#32 : BitVec 32).toNat = 1000 := by decide
  rw [h1, Nat.mod_eq_of_lt (a := a.toNat * 1000) (by omega), Nat.mod_eq_of_lt (by omega)]

theorem flat_toInt (a b : BitVec 32) (ha : a.toNat < 1000) (hb : b.toNat < 1000) :
    (IntOp.addi (IntOp.muli a 1000#32) b).toInt = ((a.toNat * 1000 + b.toNat : Nat) : Int) := by
  have h := flat_toNat a b ha hb
  unfold BitVec.toInt
  rw [if_pos (by rw [h]; omega), h]

local notation "A" => StableHlo.after (hostOps0 (F := Ideal)) W

/-! ## The operations' composed terms, buffer by buffer -/

/-- Row 0 of the edge list as a vector: the sources. -/
theorem e1 : (A main_call0_v1 : S32000.Idx → BitVec 32)
    = fun i => shapeCast S32000 (extractStridedSlice S1x32000 ![0, 0] (W main_arg1 : S2x32000.Idx → BitVec 32) slices_S2x32000_S1x32000_0_0) shapeCasts_S1x32000_S32000 i := by
  dsimp only [hostOps0]; after_results_simp; rfl

/-- Row 1: the destinations. -/
theorem e3 : (A main_call0_v3 : S32000.Idx → BitVec 32)
    = fun i => shapeCast S32000 (extractStridedSlice S1x32000 ![1, 0] (W main_arg1 : S2x32000.Idx → BitVec 32) slices_S2x32000_S1x32000_1_0) shapeCasts_S1x32000_S32000 i := by
  dsimp only [hostOps0]; after_results_simp; rfl

/-- The flat position destination · 1000 + source, as 32-bit words. -/
theorem e6 : (A main_call0_v6 : S32000.Idx → BitVec 32)
    = addi (muli (A main_call0_v3 : S32000.Idx → BitVec 32) (broadcastInDim S32000 ![] bcast_S_S32000 (constantI S_ 32 1000#32)))
        (A main_call0_v1 : S32000.Idx → BitVec 32) := by
  dsimp only [hostOps0]; after_results_simp; rfl

/-- Ones accumulated into zeros at the flat positions. -/
theorem e10 : (A main_call0_v10 : S1000000.Idx → EReal)
    = Host.scatterAdd scatter_S1000000_S32000x1_S32000_n_0_0_1
        (broadcastInDim S1000000 ![] bcast_S_S1000000 (constant (F := Ideal) S_ .f32 0x00000000#32))
        (broadcastInDim S32000x1 ![0] bcast_S32000_S32000x1_0 (A main_call0_v6 : S32000.Idx → BitVec 32))
        (broadcastInDim S32000 ![] bcast_S_S32000 (constant (F := Ideal) S_ .f32 0x3F800000#32)) := by
  dsimp only [hostOps0]; after_results_simp; rfl

/-- The million positions read as a 1000 × 1000 table. -/
theorem e11 : (A main_call0_v11 : S1000x1000.Idx → EReal)
    = fun i => shapeCast S1000x1000 (A main_call0_v10 : S1000000.Idx → EReal) shapeCasts_S1000000_S1000x1000 i := by
  dsimp only [hostOps0]; after_results_simp; rfl

/-- The narrower format's copy of the table: at the extended reals a change of format is the identity. -/
theorem e22 : (A main_call0_v22 : S1000x1000.Idx → EReal) = (A main_call0_v11 : S1000x1000.Idx → EReal) := by
  dsimp only [hostOps0]; after_results_simp; rfl

/-! ## The words at an edge -/

/-- The source vector at edge e is the edge list at (0, e). -/
theorem src_apply (e : Fin 32000) :
    (A main_call0_v1 : S32000.Idx → BitVec 32) (ix1 e) = (W main_arg1 : S2x32000.Idx → BitVec 32) (ix2 (0 : Fin 2) e) := by
  refine (congrFun (e1 W) (ix1 e)).trans ?_
  refine (shapeCast_apply _ shapeCasts_S1x32000_S32000 (ix1 e) (ix2 (0 : Fin 1) e) ?_).trans ?_
  · rw [Shape.rowMajor_val_two, Shape.rowMajor_val_one]
    show 0 * 32000 + e.val = e.val
    omega
  exact extractStridedSlice_apply _ _ _ _ (ix2 (0 : Fin 2) e) fun a => by
    match a with
    | ⟨0, _⟩ => rfl
    | ⟨1, _⟩ => exact (Nat.zero_add _).symm

/-- The destination vector at edge e is the edge list at (1, e). -/
theorem dst_apply (e : Fin 32000) :
    (A main_call0_v3 : S32000.Idx → BitVec 32) (ix1 e) = (W main_arg1 : S2x32000.Idx → BitVec 32) (ix2 (1 : Fin 2) e) := by
  refine (congrFun (e3 W) (ix1 e)).trans ?_
  refine (shapeCast_apply _ shapeCasts_S1x32000_S32000 (ix1 e) (ix2 (0 : Fin 1) e) ?_).trans ?_
  · rw [Shape.rowMajor_val_two, Shape.rowMajor_val_one]
    show 0 * 32000 + e.val = e.val
    omega
  exact extractStridedSlice_apply _ _ _ _ (ix2 (1 : Fin 2) e) fun a => by
    match a with
    | ⟨0, _⟩ => rfl
    | ⟨1, _⟩ => exact (Nat.zero_add _).symm

/-- The flat position's word at edge e. -/
theorem flat_apply (e : Fin 32000) :
    (A main_call0_v6 : S32000.Idx → BitVec 32) (ix1 e)
      = IntOp.addi (IntOp.muli ((W main_arg1 : S2x32000.Idx → BitVec 32) (ix2 (1 : Fin 2) e)) 1000#32)
          ((W main_arg1 : S2x32000.Idx → BitVec 32) (ix2 (0 : Fin 2) e)) := by
  refine (congrFun (e6 W) (ix1 e)).trans ?_
  show IntOp.addi (IntOp.muli ((A main_call0_v3 : S32000.Idx → BitVec 32) (ix1 e)) 1000#32) ((A main_call0_v1 : S32000.Idx → BitVec 32) (ix1 e)) = _
  rw [src_apply W e, dst_apply W e]

/-- The index operand's word at (e, 0) is the flat position's at e. -/
theorem idx_apply (e : Fin 32000) :
    broadcastInDim S32000x1 ![0] bcast_S32000_S32000x1_0 (A main_call0_v6 : S32000.Idx → BitVec 32) (ix2 e (0 : Fin 1))
      = (A main_call0_v6 : S32000.Idx → BitVec 32) (ix1 e) :=
  broadcastInDim_apply _ _ _ _ (ix1 e) fun a => by
    match a with
    | ⟨0, _⟩ => rfl

/-- On an edge list in range, edge e's update lands on position n · 1000 + s exactly when e runs from s to n. -/
theorem lands_iff (hr : Cert.Spec.InRange (W main_arg1)) (e : Fin 32000) (n s : Fin 1000) (hp : n.val * 1000 + s.val < 1000000) :
    scatter_S1000000_S32000x1_S32000_n_0_0_1.resultIdx? (ix1 e : S32000.Idx)
        (broadcastInDim S32000x1 ![0] bcast_S32000_S32000x1_0 (A main_call0_v6 : S32000.Idx → BitVec 32))
        = some (ix1 (⟨n.val * 1000 + s.val, hp⟩ : Fin 1000000) : S1000000.Idx)
      ↔ Cert.Spec.dstN (W main_arg1) e = n.val ∧ Cert.Spec.srcN (W main_arg1) e = s.val := by
  have h0 : ((W main_arg1 : S2x32000.Idx → BitVec 32) (ix2 (0 : Fin 2) e)).toNat < 1000 := hr 0 e
  have h1 : ((W main_arg1 : S2x32000.Idx → BitVec 32) (ix2 (1 : Fin 2) e)).toNat < 1000 := hr 1 e
  rw [scat_resultIdx_iff, idx_apply W e, flat_apply W e, flat_toInt _ _ h1 h0]
  show (((((W main_arg1 : S2x32000.Idx → BitVec 32) (ix2 (1 : Fin 2) e)).toNat * 1000
        + ((W main_arg1 : S2x32000.Idx → BitVec 32) (ix2 (0 : Fin 2) e)).toNat : Nat) : Int) = ((n.val * 1000 + s.val : Nat) : Int))
      ↔ ((W main_arg1 : S2x32000.Idx → BitVec 32) (ix2 (1 : Fin 2) e)).toNat = n.val
        ∧ ((W main_arg1 : S2x32000.Idx → BitVec 32) (ix2 (0 : Fin 2) e)).toNat = s.val
  have hn := n.isLt
  have hs := s.isLt
  omega

/-! ## The adjacency counts -/

/-- The table at (n, s): zero plus a one for every edge from s to n. -/
theorem adj11_apply (hr : Cert.Spec.InRange (W main_arg1)) (n s : Fin 1000) :
    (A main_call0_v11 : S1000x1000.Idx → EReal) (ix2 n s) = Cert.Spec.adjSpec (W main_arg1) (ix2 n s) := by
  have hn := n.isLt
  have hs := s.isLt
  have hp : n.val * 1000 + s.val < 1000000 := by omega
  refine (congrFun (e11 W) (ix2 n s)).trans ?_
  refine (shapeCast_apply _ shapeCasts_S1000000_S1000x1000 (ix2 n s) (ix1 (⟨n.val * 1000 + s.val, hp⟩ : Fin 1000000)) ?_).trans ?_
  · rw [Shape.rowMajor_val_one, Shape.rowMajor_val_two]; rfl
  refine (congrFun (e10 W) _).trans ?_
  show Ideal.hostScatterAdd _ _ _ _ _ = _
  unfold Ideal.hostScatterAdd Cert.Spec.adjSpec
  refine congrArg₂ (· + ·) rfl ?_
  refine Finset.sum_nbij' (fun j : S32000.Idx => (⟨(j 0).val, (j 0).isLt⟩ : Fin 32000)) (fun e => (ix1 e : S32000.Idx)) ?_ ?_ ?_ ?_ ?_
  · intro j hj
    obtain ⟨e, rfl⟩ : ∃ e : Fin 32000, j = ix1 e := ⟨⟨(j 0).val, (j 0).isLt⟩, eq_ix1 j⟩
    rw [Finset.mem_filter] at hj ⊢
    exact ⟨Finset.mem_univ _, (lands_iff W hr e n s hp).mp hj.2⟩
  · intro e he
    rw [Finset.mem_filter] at he ⊢
    exact ⟨Finset.mem_univ _, (lands_iff W hr e n s hp).mpr he.2⟩
  · intro j _; exact (eq_ix1 j).symm
  · intro e _; rfl
  · intro j _; rfl

end Edges

/-- The f32 table is the adjacency counts. -/
theorem adj11_val (hr : Cert.Spec.InRange (W main_arg1)) :
    StableHlo.after (hostOps0 (F := Ideal)) W main_call0_v11 = Cert.Spec.adjSpec (W main_arg1) := by
  funext j
  rw [eq_ix2 j]
  exact Edges.adj11_apply W hr (j 0) (j 1)

/-- The adjacency counts, from an edge list in range. -/
theorem adj_val (hr : Cert.Spec.InRange (W main_arg1)) :
    StableHlo.after (hostOps0 (F := Ideal)) W main_call0_v22 = Cert.Spec.adjSpec (W main_arg1) :=
  (Edges.e22 W).trans (adj11_val W hr)

end Cert.KernelIdeal.HostVal

end
-- ==== Proof.KI.HostDeg.lean ====
/- Two facts about the kernel program's first host stretch at the extended reals, given the adjacency counts: the
   reciprocal degree and the masked bias. -/
import proofs.«419763_j27925877358777_3_alg».proof.Proof.Gen.KernelIdeal.Launch
import proofs.«419763_j27925877358777_3_alg».proof.Proof.Spec
import Idealize.ShloMosaic.Lib.StableHlo.Run
import Idealize.ShloMosaic.Lib.Pipeline.Value
import Idealize.ShloMosaic.Lib.ValueIdx
import Idealize.ShloMosaic.Lib.IdealHost

set_option maxRecDepth 16384

noncomputable section

namespace Cert.KernelIdeal.HostVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo
open scoped BigOperators

variable (W : Valuation τ sig (Elt Ideal))

/-! ## The first host stretch cut after the adjacency counts -/

/-- The stretch run from `W` is its tail run from what its first fifteen operations leave. -/
theorem after_cut (b : DevRef τ sig) :
    StableHlo.after (hostOps0 (F := Ideal)) W b
      = StableHlo.after (List.drop 15 (hostOps0 (F := Ideal))) (StableHlo.after (List.take 15 (hostOps0 (F := Ideal))) W) b := by
  rw [← StableHlo.after_append, List.take_append_drop]

/-- No operation of the tail writes the adjacency counts. -/
theorem tail_v11 (V : Valuation τ sig (Elt Ideal)) :
    StableHlo.after (List.drop 15 (hostOps0 (F := Ideal))) V main_call0_v11 = V main_call0_v11 := by
  simp only [hostOps0, List.drop_succ_cons, List.drop_zero]
  after_results

/-- The reciprocal degree as the tail's operations compute it from the adjacency counts. -/
theorem tail_v17 (V : Valuation τ sig (Elt Ideal)) :
    (StableHlo.after (List.drop 15 (hostOps0 (F := Ideal))) V main_call0_v17 : S1000x1.Idx → EReal)
      = shapeCast S1000x1 (Host.divf (broadcastInDim S1000 ![] bcast_S_S1000 (constant (F := Ideal) S_ .f32 0x3F800000#32))
          (maximumf (Host.reduceAdd (V main_call0_v11 : S1000x1000.Idx → EReal) (constant (F := Ideal) S_ .f32 0x00000000#32) reducesTo_S1000x1000_S1000_d1 h_S_)
            (broadcastInDim S1000 ![] bcast_S_S1000 (constant (F := Ideal) S_ .f32 0x3F800000#32)))) shapeCasts_S1000_S1000x1 := by
  simp only [hostOps0, List.drop_succ_cons, List.drop_zero]
  after_results
  rfl

/-! ## The reciprocal degree -/

/-- The degree at node `n`: the zero word plus the adjacency row's sum (the host's sum along axis 1, one term per
    coordinate of the dropped axis). -/
theorem deg_apply (adj : S1000x1000.Idx → EReal) (n : Fin 1000) :
    Host.reduceAdd (F := Ideal) (φ := .f32) adj (constant (F := Ideal) S_ .f32 0x00000000#32) reducesTo_S1000x1000_S1000_d1 h_S_ (ix1 n)
      = Cert.Spec.zeroW + ∑ s : Fin 1000, adj (ix2 n s) := by
  rw [hostReduceAdd_apply, Ideal.hostReduceAdd_single reducesTo_S1000x1000_S1000_d1 (by decide : S1000x1000.Reduces [1] S1000)]
  show _ + ∑ k : Fin 1000, _ = _
  refine congrArg₂ (· + ·) rfl (Finset.sum_congr rfl fun k _ => congrArg adj (funext fun a => ?_))
  match a with
  | ⟨0, _⟩ => exact Fin.ext rfl
  | ⟨1, _⟩ => exact Fin.ext rfl

/-- The reciprocal degree read at an index: one over the larger of the degree and one. -/
theorem invdeg_apply (adj : S1000x1000.Idx → EReal) (j : S1000x1.Idx) :
    shapeCast S1000x1 (Host.divf (broadcastInDim S1000 ![] bcast_S_S1000 (constant (F := Ideal) S_ .f32 0x3F800000#32))
          (maximumf (Host.reduceAdd (F := Ideal) (φ := .f32) adj (constant (F := Ideal) S_ .f32 0x00000000#32) reducesTo_S1000x1000_S1000_d1 h_S_)
            (broadcastInDim S1000 ![] bcast_S_S1000 (constant (F := Ideal) S_ .f32 0x3F800000#32)))) shapeCasts_S1000_S1000x1 j
      = Ideal.div Cert.Spec.oneW (max (Cert.Spec.zeroW + ∑ s : Fin 1000, adj (ix2 ⟨(j 0).val, (j 0).isLt⟩ s)) Cert.Spec.oneW) := by
  rw [shapeCast_apply _ shapeCasts_S1000_S1000x1 j (ix1 ⟨(j 0).val, (j 0).isLt⟩)
    (by rewrite [Shape.rowMajor_val_one, Shape.rowMajor_val_two]; have h1 : (j 1).val < 1 := (j 1).isLt; show (j 0).val = (j 0).val * 1 + (j 1).val; omega)]
  rw [hostDivf_apply, maximumf_apply, broadcastInDim_scalar_apply, constant_apply, deg_apply]

/-- The reciprocal degree after the first host stretch, given the adjacency counts. -/
theorem invdeg_of_adj (hadj : StableHlo.after (hostOps0 (F := Ideal)) W main_call0_v11 = Cert.Spec.adjSpec (W main_arg1)) :
    StableHlo.after (hostOps0 (F := Ideal)) W main_call0_v17 = Cert.Spec.invdegSpec (W main_arg1) := by
  rw [after_cut, tail_v11] at hadj
  rw [after_cut]
  refine (tail_v17 _).trans ?_
  rw [hadj]
  funext j
  rw [invdeg_apply]
  rfl

/-! ## The masked bias -/

/-- No operation before the cut writes the message bias. -/
theorem head_arg4 : StableHlo.after (List.take 15 (hostOps0 (F := Ideal))) W main_arg4 = W main_arg4 := by
  simp only [hostOps0, List.take_succ_cons, List.take_zero]
  after_results

set_option maxHeartbeats 4000000 in
/-- The masked bias as the tail's operations compute it from the adjacency counts and the message bias. -/
theorem tail_v29 (V : Valuation τ sig (Elt Ideal)) :
    (StableHlo.after (List.drop 15 (hostOps0 (F := Ideal))) V main_call0_v29 : S1000x512.Idx → EReal)
      = shapeCast S1000x512 (broadcastInDim S1x1000x8x64 ![0, 1, 2, 3] bcast_S1x1000x1x64_S1x1000x8x64_0_1_2_3
          (shapeCast S1x1000x1x64 (mulf
              (broadcastInDim S1000x64 ![0, 1] bcast_S1000x1_S1000x64_0_1
                (shapeCast S1000x1 (uitofp (F := Ideal) .f32 (cmpf .ogt
                    (Host.reduceAdd (V main_call0_v11 : S1000x1000.Idx → EReal) (constant (F := Ideal) S_ .f32 0x00000000#32) reducesTo_S1000x1000_S1000_d1 h_S_)
                    (broadcastInDim S1000 ![] bcast_S_S1000 (constant (F := Ideal) S_ .f32 0x00000000#32)))) shapeCasts_S1000_S1000x1))
              (broadcastInDim S1000x64 ![0, 1] bcast_S1x64_S1000x64_0_1
                (broadcastInDim S1x64 ![1] bcast_S64_S1x64_1 (V main_arg4 : S64.Idx → EReal))))
            shapeCasts_S1000x64_S1x1000x1x64)) shapeCasts_S1x1000x8x64_S1000x512 := by
  simp only [hostOps0, List.drop_succ_cons, List.drop_zero]
  after_results
  rfl

/-- The masked bias read at an index: the indicator of a positive degree times the message bias at the column's
    residue. -/
theorem bias_apply (adj : S1000x1000.Idx → EReal) (bm : S64.Idx → EReal) (j : S1000x512.Idx) :
    shapeCast S1000x512 (broadcastInDim S1x1000x8x64 ![0, 1, 2, 3] bcast_S1x1000x1x64_S1x1000x8x64_0_1_2_3
          (shapeCast S1x1000x1x64 (mulf
              (broadcastInDim S1000x64 ![0, 1] bcast_S1000x1_S1000x64_0_1
                (shapeCast S1000x1 (uitofp (F := Ideal) .f32 (cmpf .ogt
                    (Host.reduceAdd (F := Ideal) (φ := .f32) adj (constant (F := Ideal) S_ .f32 0x00000000#32) reducesTo_S1000x1000_S1000_d1 h_S_)
                    (broadcastInDim S1000 ![] bcast_S_S1000 (constant (F := Ideal) S_ .f32 0x00000000#32)))) shapeCasts_S1000_S1000x1))
              (broadcastInDim S1000x64 ![0, 1] bcast_S1x64_S1000x64_0_1
                (broadcastInDim S1x64 ![1] bcast_S64_S1x64_1 bm)))
            shapeCasts_S1000x64_S1x1000x1x64)) shapeCasts_S1x1000x8x64_S1000x512 j
      = (((Ideal.cmp .ogt (Cert.Spec.zeroW + ∑ s : Fin 1000, adj (ix2 ⟨(j 0).val, (j 0).isLt⟩ s)) Cert.Spec.zeroW).toNat : ℝ) : EReal)
          * bm (ix1 ⟨(j 1).val % 64, Nat.mod_lt _ (by decide)⟩) := by
  have h0 : (j 0).val < 1000 := (j 0).isLt
  have h1 : (j 1).val < 512 := (j 1).isLt
  rw [shapeCast_apply _ shapeCasts_S1x1000x8x64_S1000x512 j
    (ix4 (0 : Fin 1) (⟨(j 0).val, h0⟩ : Fin 1000) (⟨(j 1).val / 64, by omega⟩ : Fin 8) (⟨(j 1).val % 64, Nat.mod_lt _ (by decide)⟩ : Fin 64))
    (by rewrite [Shape.rowMajor_val_four, Shape.rowMajor_val_two]
        show ((0 * 1000 + (j 0).val) * 8 + (j 1).val / 64) * 64 + (j 1).val % 64 = (j 0).val * 512 + (j 1).val; omega)]
  rw [broadcastInDim_apply _ bcast_S1x1000x1x64_S1x1000x8x64_0_1_2_3 _ _
    (ix4 (0 : Fin 1) (⟨(j 0).val, h0⟩ : Fin 1000) (0 : Fin 1) (⟨(j 1).val % 64, Nat.mod_lt _ (by decide)⟩ : Fin 64))
    (fun a => match a with
      | ⟨0, _⟩ => by show (0 : Nat) = if (1 : Nat) = 1 then 0 else _; rw [if_pos rfl]
      | ⟨1, _⟩ => by show (j 0).val = if (1000 : Nat) = 1 then 0 else (j 0).val; rw [if_neg (by decide)]
      | ⟨2, _⟩ => by show (0 : Nat) = if (1 : Nat) = 1 then 0 else _; rw [if_pos rfl]
      | ⟨3, _⟩ => by show (j 1).val % 64 = if (64 : Nat) = 1 then 0 else (j 1).val % 64; rw [if_neg (by decide)])]
  rw [shapeCast_apply _ shapeCasts_S1000x64_S1x1000x1x64 _
    (ix2 (⟨(j 0).val, h0⟩ : Fin 1000) (⟨(j 1).val % 64, Nat.mod_lt _ (by decide)⟩ : Fin 64))
    (by rewrite [Shape.rowMajor_val_two, Shape.rowMajor_val_four]
        show (j 0).val * 64 + (j 1).val % 64 = ((0 * 1000 + (j 0).val) * 1 + 0) * 64 + (j 1).val % 64; omega)]
  rw [mulf_apply]
  rw [broadcastInDim_apply _ bcast_S1000x1_S1000x64_0_1 _ _ (ix2 (⟨(j 0).val, h0⟩ : Fin 1000) (0 : Fin 1))
    (fun a => match a with
      | ⟨0, _⟩ => by show (j 0).val = if (1000 : Nat) = 1 then 0 else (j 0).val; rw [if_neg (by decide)]
      | ⟨1, _⟩ => by show (0 : Nat) = if (1 : Nat) = 1 then 0 else _; rw [if_pos rfl])]
  rw [shapeCast_apply _ shapeCasts_S1000_S1000x1 _ (ix1 (⟨(j 0).val, h0⟩ : Fin 1000))
    (by rewrite [Shape.rowMajor_val_one, Shape.rowMajor_val_two]; show (j 0).val = (j 0).val * 1 + 0; omega)]
  rw [broadcastInDim_apply _ bcast_S1x64_S1000x64_0_1 _ _ (ix2 (0 : Fin 1) (⟨(j 1).val % 64, Nat.mod_lt _ (by decide)⟩ : Fin 64))
    (fun a => match a with
      | ⟨0, _⟩ => by show (0 : Nat) = if (1 : Nat) = 1 then 0 else _; rw [if_pos rfl]
      | ⟨1, _⟩ => by show (j 1).val % 64 = if (64 : Nat) = 1 then 0 else (j 1).val % 64; rw [if_neg (by decide)])]
  rw [broadcastInDim_apply _ bcast_S64_S1x64_1 bm _ (ix1 (⟨(j 1).val % 64, Nat.mod_lt _ (by decide)⟩ : Fin 64))
    (fun a => match a with
      | ⟨0, _⟩ => by show (j 1).val % 64 = if (64 : Nat) = 1 then 0 else (j 1).val % 64; rw [if_neg (by decide)])]
  show (((Ideal.cmp .ogt (Host.reduceAdd (F := Ideal) (φ := .f32) adj (constant (F := Ideal) S_ .f32 0x00000000#32) reducesTo_S1000x1000_S1000_d1 h_S_ (ix1 ⟨(j 0).val, h0⟩))
      (broadcastInDim S1000 ![] bcast_S_S1000 (constant (F := Ideal) S_ .f32 0x00000000#32) (ix1 ⟨(j 0).val, h0⟩))).toNat : ℝ) : EReal) * _ = _
  rw [deg_apply, broadcastInDim_scalar_apply, constant_apply]

/-- The masked bias after the first host stretch, given the adjacency counts. -/
theorem bias_of_adj (hadj : StableHlo.after (hostOps0 (F := Ideal)) W main_call0_v11 = Cert.Spec.adjSpec (W main_arg1)) :
    StableHlo.after (hostOps0 (F := Ideal)) W main_call0_v29 = Cert.Spec.biasSpec (W main_arg1) (W main_arg4) := by
  rw [after_cut, tail_v11] at hadj
  rw [after_cut]
  refine (tail_v29 _).trans ?_
  rw [hadj, head_arg4]
  funext j
  rw [bias_apply]
  rfl

end Cert.KernelIdeal.HostVal

end
-- ==== Proof.KI.HostWbig.lean ====
/- The block-diagonal weight: what the first host stretch leaves in the fused kernel's weight operand, at the extended reals. -/
import proofs.«419763_j27925877358777_3_alg».proof.Proof.Gen.KernelIdeal.Launch
import proofs.«419763_j27925877358777_3_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.HostVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo

/-- Two one-word vectors end to end: the index vector of a window update. -/
def cat2 (a b : S1.Idx → BitVec 32) : S2.Idx → BitVec 32 := concatenate S2 0 [⟨S1, a⟩, ⟨S1, b⟩] concatenates_S1_S1_S2_d0

theorem cat2_eq (a b : S1.Idx → BitVec 32) (h) : concatenate S2 0 [⟨S1, a⟩, ⟨S1, b⟩] h = cat2 a b := rfl

/-! ## A fold of overwriting steps -/

section Fold
variable {ι β α : Type} (g : ι → Option β) (v : ι → α) (i' : β) (st : (β → α) → ι → β → α)

/-- A position no step names keeps its value through the fold. -/
theorem foldl_st_of_none (h1 : ∀ r n, g n ≠ some i' → st r n i' = r i') :
    ∀ (L : List ι) (x : β → α), (∀ n ∈ L, g n ≠ some i') → (L.foldl st x) i' = x i'
  | [], _, _ => rfl
  | a :: L, x, h => by
    rw [List.foldl_cons, foldl_st_of_none h1 L _ (fun n hn => h n (List.mem_cons_of_mem _ hn))]
    exact h1 x a (h a List.mem_cons_self)

/-- A position some step names ends at that step's value, when every step naming it carries the same value. -/
theorem foldl_st_of_mem (h1 : ∀ r n, g n ≠ some i' → st r n i' = r i') (h2 : ∀ r n, g n = some i' → st r n i' = v n) (y : α) :
    ∀ (L : List ι) (x : β → α), (∃ n ∈ L, g n = some i') → (∀ n ∈ L, g n = some i' → v n = y) → (L.foldl st x) i' = y
  | [], _, h, _ => by obtain ⟨n, hn, _⟩ := h; exact absurd hn List.not_mem_nil
  | a :: L, x, hex, huniq => by
    rw [List.foldl_cons]
    by_cases hL : ∃ n ∈ L, g n = some i'
    · exact foldl_st_of_mem h1 h2 y L _ hL (fun n hn => huniq n (List.mem_cons_of_mem _ hn))
    · rw [foldl_st_of_none g i' st h1 L _ (fun n hn e => hL ⟨n, hn, e⟩)]
      obtain ⟨n, hn, hgn⟩ := hex
      rcases List.mem_cons.1 hn with rfl | hn'
      · rw [h2 x n hgn]; exact huniq n List.mem_cons_self hgn
      · exact absurd ⟨n, hn', hgn⟩ hL

end Fold

/-! ## The window update -/

section Window
variable {α : Type}

/-- The update's start on each axis is the index vector's word there, read signed. -/
theorem start_eq0 (i : IVec S2 32) (jj : S64x64.Idx) :
    scatter_S512x512_S2_S64x64_01_n_01_0.start jj i (0 : Fin 2) = (i (ix1 (0 : Fin 2))).toInt := by
  unfold ScatterDims.start
  rw [dif_pos (by decide)]
  congr 2; funext b; match b with | ⟨0, _⟩ => rfl
theorem start_eq1 (i : IVec S2 32) (jj : S64x64.Idx) :
    scatter_S512x512_S2_S64x64_01_n_01_0.start jj i (1 : Fin 2) = (i (ix1 (1 : Fin 2))).toInt := by
  unfold ScatterDims.start
  rw [dif_pos (by decide)]
  congr 2; funext b; match b with | ⟨0, _⟩ => rfl

/-- The window coordinate on each axis is the update index's coordinate. -/
theorem window_eq0 (jj : S64x64.Idx) : scatter_S512x512_S2_S64x64_01_n_01_0.window jj (0 : Fin 2) = (jj (0 : Fin 2)).val := rfl
theorem window_eq1 (jj : S64x64.Idx) : scatter_S512x512_S2_S64x64_01_n_01_0.window jj (1 : Fin 2) = (jj (1 : Fin 2)).val := rfl

/-- Where update index `jj` lands when the window starts at `(o0, o1)` and fits. -/
theorem resultIdx_eq (i : IVec S2 32) (o0 o1 : Nat) (h0 : (i (ix1 (0 : Fin 2))).toInt = (o0 : Int)) (h1 : (i (ix1 (1 : Fin 2))).toInt = (o1 : Int))
    (hb0 : o0 + 64 ≤ 512) (hb1 : o1 + 64 ≤ 512) (jj : S64x64.Idx) :
    scatter_S512x512_S2_S64x64_01_n_01_0.resultIdx? jj i
      = some (ix2 ⟨o0 + (jj (0 : Fin 2)).val, by have := idx2_lt0 jj; omega⟩ ⟨o1 + (jj (1 : Fin 2)).val, by have := idx2_lt1 jj; omega⟩ : S512x512.Idx) := by
  have l0 : (jj (0 : Fin 2)).val < 64 := idx2_lt0 jj
  have l1 : (jj (1 : Fin 2)).val < 64 := idx2_lt1 jj
  have e0 : scatter_S512x512_S2_S64x64_01_n_01_0.start jj i (0 : Fin 2) + (scatter_S512x512_S2_S64x64_01_n_01_0.window jj (0 : Fin 2) : Int)
      = ((o0 + (jj (0 : Fin 2)).val : Nat) : Int) := by
    rw [start_eq0, window_eq0, h0]; omega
  have e1 : scatter_S512x512_S2_S64x64_01_n_01_0.start jj i (1 : Fin 2) + (scatter_S512x512_S2_S64x64_01_n_01_0.window jj (1 : Fin 2) : Int)
      = ((o1 + (jj (1 : Fin 2)).val : Nat) : Int) := by
    rw [start_eq1, window_eq1, h1]; omega
  unfold ScatterDims.resultIdx?
  rw [dif_pos (Fin.forall_fin_two.2 ⟨by rw [e0]; exact ⟨by omega, by show ((o0 + (jj (0 : Fin 2)).val : Nat) : Int) < ((512 : Nat) : Int); omega⟩,
    by rw [e1]; exact ⟨by omega, by show ((o1 + (jj (1 : Fin 2)).val : Nat) : Int) < ((512 : Nat) : Int); omega⟩⟩)]
  congr 1
  funext a
  revert a
  refine Fin.forall_fin_two.2 ⟨?_, ?_⟩
  · apply Fin.ext; show (_ : Int).toNat = o0 + (jj (0 : Fin 2)).val; rw [e0]; first | rfl | omega
  · apply Fin.ext; show (_ : Int).toNat = o1 + (jj (1 : Fin 2)).val; rw [e1]; first | rfl | omega

/-- A 64×64 update written at start `(o0, o1)`, the window inside the array: inside the window the update, read at the
    offset from the start; outside it the array as it was. -/
theorem scatter_window_apply (x : S512x512.Idx → α) (i : IVec S2 32) (u : S64x64.Idx → α) (o0 o1 : Nat)
    (h0 : (i (ix1 (0 : Fin 2))).toInt = (o0 : Int)) (h1 : (i (ix1 (1 : Fin 2))).toInt = (o1 : Int))
    (hb0 : o0 + 64 ≤ 512) (hb1 : o1 + 64 ≤ 512) (j : S512x512.Idx) :
    Host.scatter scatter_S512x512_S2_S64x64_01_n_01_0 (fun _ b => b) x i u j
      = if o0 ≤ (j (0 : Fin 2)).val ∧ (j (0 : Fin 2)).val < o0 + 64 ∧ o1 ≤ (j (1 : Fin 2)).val ∧ (j (1 : Fin 2)).val < o1 + 64
        then u (ix2 ⟨((j (0 : Fin 2)).val - o0) % 64, Nat.mod_lt _ (by decide)⟩ ⟨((j (1 : Fin 2)).val - o1) % 64, Nat.mod_lt _ (by decide)⟩)
        else x j := by
  unfold Host.scatter
  have hR := resultIdx_eq i o0 o1 h0 h1 hb0 hb1
  by_cases hw : o0 ≤ (j (0 : Fin 2)).val ∧ (j (0 : Fin 2)).val < o0 + 64 ∧ o1 ≤ (j (1 : Fin 2)).val ∧ (j (1 : Fin 2)).val < o1 + 64
  · rw [if_pos hw]
    obtain ⟨a0, a1, a2, a3⟩ := hw
    refine foldl_st_of_mem (fun n => scatter_S512x512_S2_S64x64_01_n_01_0.resultIdx? (S64x64.rowMajor.symm n) i)
      (fun n => u (S64x64.rowMajor.symm n)) j _ ?_ ?_ _ _ x
      ⟨S64x64.rowMajor (ix2 ⟨(j (0 : Fin 2)).val - o0, by omega⟩ ⟨(j (1 : Fin 2)).val - o1, by omega⟩), List.mem_finRange _, ?_⟩ ?_
    · intro r n hne
      rw [hR] at hne ⊢
      dsimp only
      rw [if_neg (fun e => hne (congrArg some e.symm))]
    · intro r n he
      rw [hR] at he ⊢
      dsimp only
      rw [if_pos (Option.some.inj he).symm]
    · show scatter_S512x512_S2_S64x64_01_n_01_0.resultIdx? (S64x64.rowMajor.symm (S64x64.rowMajor _)) i = some j
      rw [Equiv.symm_apply_apply, hR]
      congr 1
      funext a
      revert a
      refine Fin.forall_fin_two.2 ⟨?_, ?_⟩
      · apply Fin.ext; show o0 + ((j (0 : Fin 2)).val - o0) = (j (0 : Fin 2)).val; omega
      · apply Fin.ext; show o1 + ((j (1 : Fin 2)).val - o1) = (j (1 : Fin 2)).val; omega
    · intro n _ hn
      show u (S64x64.rowMajor.symm n) = _
      rw [hR] at hn
      have hj := Option.some.inj hn
      have c0 : o0 + ((S64x64.rowMajor.symm n) (0 : Fin 2)).val = (j (0 : Fin 2)).val := congrArg (fun k : S512x512.Idx => (k (0 : Fin 2)).val) hj
      have c1 : o1 + ((S64x64.rowMajor.symm n) (1 : Fin 2)).val = (j (1 : Fin 2)).val := congrArg (fun k : S512x512.Idx => (k (1 : Fin 2)).val) hj
      have l0 : ((S64x64.rowMajor.symm n) (0 : Fin 2)).val < 64 := idx2_lt0 (S64x64.rowMajor.symm n)
      have l1 : ((S64x64.rowMajor.symm n) (1 : Fin 2)).val < 64 := idx2_lt1 (S64x64.rowMajor.symm n)
      congr 1
      funext a
      revert a
      refine Fin.forall_fin_two.2 ⟨?_, ?_⟩
      · apply Fin.ext; show ((S64x64.rowMajor.symm n) (0 : Fin 2)).val = ((j (0 : Fin 2)).val - o0) % 64; rw [Nat.mod_eq_of_lt (by omega)]; omega
      · apply Fin.ext; show ((S64x64.rowMajor.symm n) (1 : Fin 2)).val = ((j (1 : Fin 2)).val - o1) % 64; rw [Nat.mod_eq_of_lt (by omega)]; omega
  · rw [if_neg hw]
    refine foldl_st_of_none (fun n => scatter_S512x512_S2_S64x64_01_n_01_0.resultIdx? (S64x64.rowMajor.symm n) i) j _ ?_ _ x ?_
    · intro r n hne
      rw [hR] at hne ⊢
      dsimp only
      rw [if_neg (fun e => hne (congrArg some e.symm))]
    intro n _ hn
    rw [hR] at hn
    have hj := Option.some.inj hn
    have c0 : o0 + ((S64x64.rowMajor.symm n) (0 : Fin 2)).val = (j (0 : Fin 2)).val := congrArg (fun k : S512x512.Idx => (k (0 : Fin 2)).val) hj
    have c1 : o1 + ((S64x64.rowMajor.symm n) (1 : Fin 2)).val = (j (1 : Fin 2)).val := congrArg (fun k : S512x512.Idx => (k (1 : Fin 2)).val) hj
    have l0 : ((S64x64.rowMajor.symm n) (0 : Fin 2)).val < 64 := idx2_lt0 (S64x64.rowMajor.symm n)
    have l1 : ((S64x64.rowMajor.symm n) (1 : Fin 2)).val < 64 := idx2_lt1 (S64x64.rowMajor.symm n)
    exact hw ⟨by omega, by omega, by omega, by omega⟩

end Window

/-! ## The host stretch in pieces: before the weight is built, the eight window updates, after -/

section Pieces
variable {F : FTy → Type} [FloatOps F]

set_option maxHeartbeats 4000000 in
/-- The operations before the first window update (the last of them fills the weight array with the zero word). -/
def pre0 : List (HloOp τ sig (Elt F)) :=
  [ StableHlo.TRef.unary (.of main_arg1 : StableHlo.TRef sig ⟨S2x32000, .i32⟩) (.of main_call0_v0 : StableHlo.TRef sig ⟨S1x32000, .i32⟩) (extractStridedSlice S1x32000 ![0, 0] · slices_S2x32000_S1x32000_0_0),
    StableHlo.TRef.reshape (.of main_call0_v0 : StableHlo.TRef sig ⟨S1x32000, .i32⟩) (.of main_call0_v1 : StableHlo.TRef sig ⟨S32000, .i32⟩) rfl shapeCasts_S1x32000_S32000,
    StableHlo.TRef.unary (.of main_arg1 : StableHlo.TRef sig ⟨S2x32000, .i32⟩) (.of main_call0_v2 : StableHlo.TRef sig ⟨S1x32000, .i32⟩) (extractStridedSlice S1x32000 ![1, 0] · slices_S2x32000_S1x32000_1_0),
    StableHlo.TRef.reshape (.of main_call0_v2 : StableHlo.TRef sig ⟨S1x32000, .i32⟩) (.of main_call0_v3 : StableHlo.TRef sig ⟨S32000, .i32⟩) rfl shapeCasts_S1x32000_S32000,
    StableHlo.TRef.nullary (.of main_call0_c : StableHlo.TRef sig ⟨S_, .i32⟩) (constantI S_ 32 1000#32),
    StableHlo.TRef.unary (.of main_call0_c : StableHlo.TRef sig ⟨S_, .i32⟩) (.of main_call0_v4 : StableHlo.TRef sig ⟨S32000, .i32⟩) (broadcastInDim S32000 ![] bcast_S_S32000),
    StableHlo.TRef.binary (.of main_call0_v3 : StableHlo.TRef sig ⟨S32000, .i32⟩) (.of main_call0_v4 : StableHlo.TRef sig ⟨S32000, .i32⟩) (.of main_call0_v5 : StableHlo.TRef sig ⟨S32000, .i32⟩) muli,
    StableHlo.TRef.binary (.of main_call0_v5 : StableHlo.TRef sig ⟨S32000, .i32⟩) (.of main_call0_v1 : StableHlo.TRef sig ⟨S32000, .i32⟩) (.of main_call0_v6 : StableHlo.TRef sig ⟨S32000, .i32⟩) addi,
    StableHlo.TRef.nullary (.of main_call0_cst : StableHlo.TRef sig ⟨S_, .f32⟩) (constant S_ .f32 0x3F800000#32),
    StableHlo.TRef.unary (.of main_call0_cst : StableHlo.TRef sig ⟨S_, .f32⟩) (.of main_call0_v7 : StableHlo.TRef sig ⟨S32000, .f32⟩) (broadcastInDim S32000 ![] bcast_S_S32000),
    StableHlo.TRef.nullary (.of main_call0_cst_0 : StableHlo.TRef sig ⟨S_, .f32⟩) (constant S_ .f32 0x00000000#32),
    StableHlo.TRef.unary (.of main_call0_cst_0 : StableHlo.TRef sig ⟨S_, .f32⟩) (.of main_call0_v8 : StableHlo.TRef sig ⟨S1000000, .f32⟩) (broadcastInDim S1000000 ![] bcast_S_S1000000),
    StableHlo.TRef.unary (.of main_call0_v6 : StableHlo.TRef sig ⟨S32000, .i32⟩) (.of main_call0_v9 : StableHlo.TRef sig ⟨S32000x1, .i32⟩) (broadcastInDim S32000x1 ![0] bcast_S32000_S32000x1_0),
    StableHlo.TRef.ternary (.of main_call0_v8 : StableHlo.TRef sig ⟨S1000000, .f32⟩) (.of main_call0_v9 : StableHlo.TRef sig ⟨S32000x1, .i32⟩) (.of main_call0_v7 : StableHlo.TRef sig ⟨S32000, .f32⟩) (.of main_call0_v10 : StableHlo.TRef sig ⟨S1000000, .f32⟩) (fun x i u => Host.scatterAdd scatter_S1000000_S32000x1_S32000_n_0_0_1 x i u),
    StableHlo.TRef.reshape (.of main_call0_v10 : StableHlo.TRef sig ⟨S1000000, .f32⟩) (.of main_call0_v11 : StableHlo.TRef sig ⟨S1000x1000, .f32⟩) rfl shapeCasts_S1000000_S1000x1000,
    StableHlo.TRef.nullary (.of main_call0_cst_1 : StableHlo.TRef sig ⟨S_, .f32⟩) (constant S_ .f32 0x00000000#32),
    StableHlo.TRef.binary (.of main_call0_v11 : StableHlo.TRef sig ⟨S1000x1000, .f32⟩) (.of main_call0_cst_1 : StableHlo.TRef sig ⟨S_, .f32⟩) (.of main_call0_v12 : StableHlo.TRef sig ⟨S1000, .f32⟩) (fun x v => Host.reduceAdd x v reducesTo_S1000x1000_S1000_d1 h_S_),
    StableHlo.TRef.nullary (.of main_call0_cst_2 : StableHlo.TRef sig ⟨S_, .f32⟩) (constant S_ .f32 0x3F800000#32),
    StableHlo.TRef.unary (.of main_call0_cst_2 : StableHlo.TRef sig ⟨S_, .f32⟩) (.of main_call0_v13 : StableHlo.TRef sig ⟨S1000, .f32⟩) (broadcastInDim S1000 ![] bcast_S_S1000),
    StableHlo.TRef.binary (.of main_call0_v12 : StableHlo.TRef sig ⟨S1000, .f32⟩) (.of main_call0_v13 : StableHlo.TRef sig ⟨S1000, .f32⟩) (.of main_call0_v14 : StableHlo.TRef sig ⟨S1000, .f32⟩) maximumf,
    StableHlo.TRef.nullary (.of main_call0_cst_3 : StableHlo.TRef sig ⟨S_, .f32⟩) (constant S_ .f32 0x3F800000#32),
    StableHlo.TRef.unary (.of main_call0_cst_3 : StableHlo.TRef sig ⟨S_, .f32⟩) (.of main_call0_v15 : StableHlo.TRef sig ⟨S1000, .f32⟩) (broadcastInDim S1000 ![] bcast_S_S1000),
    StableHlo.TRef.binary (.of main_call0_v15 : StableHlo.TRef sig ⟨S1000, .f32⟩) (.of main_call0_v14 : StableHlo.TRef sig ⟨S1000, .f32⟩) (.of main_call0_v16 : StableHlo.TRef sig ⟨S1000, .f32⟩) Host.divf,
    StableHlo.TRef.reshape (.of main_call0_v16 : StableHlo.TRef sig ⟨S1000, .f32⟩) (.of main_call0_v17 : StableHlo.TRef sig ⟨S1000x1, .f32⟩) rfl shapeCasts_S1000_S1000x1,
    StableHlo.TRef.nullary (.of main_call0_cst_4 : StableHlo.TRef sig ⟨S_, .f32⟩) (constant S_ .f32 0x00000000#32),
    StableHlo.TRef.unary (.of main_call0_cst_4 : StableHlo.TRef sig ⟨S_, .f32⟩) (.of main_call0_v18 : StableHlo.TRef sig ⟨S1000, .f32⟩) (broadcastInDim S1000 ![] bcast_S_S1000),
    StableHlo.TRef.binary (.of main_call0_v12 : StableHlo.TRef sig ⟨S1000, .f32⟩) (.of main_call0_v18 : StableHlo.TRef sig ⟨S1000, .f32⟩) (.of main_call0_v19 : StableHlo.TRef sig ⟨S1000, .i1⟩) (cmpf .ogt),
    StableHlo.TRef.unary (.of main_call0_v19 : StableHlo.TRef sig ⟨S1000, .i1⟩) (.of main_call0_v20 : StableHlo.TRef sig ⟨S1000, .f32⟩) (uitofp .f32),
    StableHlo.TRef.reshape (.of main_call0_v20 : StableHlo.TRef sig ⟨S1000, .f32⟩) (.of main_call0_v21 : StableHlo.TRef sig ⟨S1000x1, .f32⟩) rfl shapeCasts_S1000_S1000x1,
    StableHlo.TRef.unary (.of main_call0_v11 : StableHlo.TRef sig ⟨S1000x1000, .f32⟩) (.of main_call0_v22 : StableHlo.TRef sig ⟨S1000x1000, .bf16⟩) (truncf .bf16 · bitsLt_bf16_f32),
    StableHlo.TRef.unary (.of main_arg4 : StableHlo.TRef sig ⟨S64, .f32⟩) (.of main_call0_v23 : StableHlo.TRef sig ⟨S1x64, .f32⟩) (broadcastInDim S1x64 ![1] bcast_S64_S1x64_1),
    StableHlo.TRef.unary (.of main_call0_v21 : StableHlo.TRef sig ⟨S1000x1, .f32⟩) (.of main_call0_v24 : StableHlo.TRef sig ⟨S1000x64, .f32⟩) (broadcastInDim S1000x64 ![0, 1] bcast_S1000x1_S1000x64_0_1),
    StableHlo.TRef.unary (.of main_call0_v23 : StableHlo.TRef sig ⟨S1x64, .f32⟩) (.of main_call0_v25 : StableHlo.TRef sig ⟨S1000x64, .f32⟩) (broadcastInDim S1000x64 ![0, 1] bcast_S1x64_S1000x64_0_1),
    StableHlo.TRef.binary (.of main_call0_v24 : StableHlo.TRef sig ⟨S1000x64, .f32⟩) (.of main_call0_v25 : StableHlo.TRef sig ⟨S1000x64, .f32⟩) (.of main_call0_v26 : StableHlo.TRef sig ⟨S1000x64, .f32⟩) mulf,
    StableHlo.TRef.reshape (.of main_call0_v26 : StableHlo.TRef sig ⟨S1000x64, .f32⟩) (.of main_call0_v27 : StableHlo.TRef sig ⟨S1x1000x1x64, .f32⟩) rfl shapeCasts_S1000x64_S1x1000x1x64,
    StableHlo.TRef.unary (.of main_call0_v27 : StableHlo.TRef sig ⟨S1x1000x1x64, .f32⟩) (.of main_call0_v28 : StableHlo.TRef sig ⟨S1x1000x8x64, .f32⟩) (broadcastInDim S1x1000x8x64 ![0, 1, 2, 3] bcast_S1x1000x1x64_S1x1000x8x64_0_1_2_3),
    StableHlo.TRef.reshape (.of main_call0_v28 : StableHlo.TRef sig ⟨S1x1000x8x64, .f32⟩) (.of main_call0_v29 : StableHlo.TRef sig ⟨S1000x512, .f32⟩) rfl shapeCasts_S1x1000x8x64_S1000x512,
    StableHlo.TRef.nullary (.of main_call0_cst_5 : StableHlo.TRef sig ⟨S_, .f32⟩) (constant S_ .f32 0x00000000#32),
    StableHlo.TRef.unary (.of main_call0_cst_5 : StableHlo.TRef sig ⟨S_, .f32⟩) (.of main_call0_v30 : StableHlo.TRef sig ⟨S512x512, .f32⟩) (broadcastInDim S512x512 ![] bcast_S_S512x512) ]

/-- Window update 0: the two offset words 0, the index vector, the 64×64 weight written at (0, 0). -/
def step0 : List (HloOp τ sig (Elt F)) :=
  [ StableHlo.TRef.nullary (.of main_call0_c_6 : StableHlo.TRef sig ⟨S_, .i32⟩) (constantI S_ 32 0#32),
    StableHlo.TRef.unary (.of main_call0_c_6 : StableHlo.TRef sig ⟨S_, .i32⟩) (.of main_call0_v31 : StableHlo.TRef sig ⟨S1, .i32⟩) (broadcastInDim S1 ![] bcast_S_S1),
    StableHlo.TRef.nullary (.of main_call0_c_7 : StableHlo.TRef sig ⟨S_, .i32⟩) (constantI S_ 32 0#32),
    StableHlo.TRef.unary (.of main_call0_c_7 : StableHlo.TRef sig ⟨S_, .i32⟩) (.of main_call0_v32 : StableHlo.TRef sig ⟨S1, .i32⟩) (broadcastInDim S1 ![] bcast_S_S1),
    StableHlo.TRef.binary (.of main_call0_v31 : StableHlo.TRef sig ⟨S1, .i32⟩) (.of main_call0_v32 : StableHlo.TRef sig ⟨S1, .i32⟩) (.of main_call0_v33 : StableHlo.TRef sig ⟨S2, .i32⟩) (fun a b => concatenate S2 0 [⟨S1, a⟩, ⟨S1, b⟩] concatenates_S1_S1_S2_d0),
    StableHlo.TRef.ternary (.of main_call0_v30 : StableHlo.TRef sig ⟨S512x512, .f32⟩) (.of main_call0_v33 : StableHlo.TRef sig ⟨S2, .i32⟩) (.of main_arg3 : StableHlo.TRef sig ⟨S64x64, .f32⟩) (.of main_call0_v34 : StableHlo.TRef sig ⟨S512x512, .f32⟩) (fun x i u => Host.scatter scatter_S512x512_S2_S64x64_01_n_01_0 (fun _ b => b) x i u) ]

/-- Window update 1: the two offset words 64, the index vector, the 64×64 weight written at (64, 64). -/
def step1 : List (HloOp τ sig (Elt F)) :=
  [ StableHlo.TRef.nullary (.of main_call0_c_8 : StableHlo.TRef sig ⟨S_, .i32⟩) (constantI S_ 32 64#32),
    StableHlo.TRef.unary (.of main_call0_c_8 : StableHlo.TRef sig ⟨S_, .i32⟩) (.of main_call0_v35 : StableHlo.TRef sig ⟨S1, .i32⟩) (broadcastInDim S1 ![] bcast_S_S1),
    StableHlo.TRef.nullary (.of main_call0_c_9 : StableHlo.TRef sig ⟨S_, .i32⟩) (constantI S_ 32 64#32),
    StableHlo.TRef.unary (.of main_call0_c_9 : StableHlo.TRef sig ⟨S_, .i32⟩) (.of main_call0_v36 : StableHlo.TRef sig ⟨S1, .i32⟩) (broadcastInDim S1 ![] bcast_S_S1),
    StableHlo.TRef.binary (.of main_call0_v35 : StableHlo.TRef sig ⟨S1, .i32⟩) (.of main_call0_v36 : StableHlo.TRef sig ⟨S1, .i32⟩) (.of main_call0_v37 : StableHlo.TRef sig ⟨S2, .i32⟩) (fun a b => concatenate S2 0 [⟨S1, a⟩, ⟨S1, b⟩] concatenates_S1_S1_S2_d0),
    StableHlo.TRef.ternary (.of main_call0_v34 : StableHlo.TRef sig ⟨S512x512, .f32⟩) (.of main_call0_v37 : StableHlo.TRef sig ⟨S2, .i32⟩) (.of main_arg3 : StableHlo.TRef sig ⟨S64x64, .f32⟩) (.of main_call0_v38 : StableHlo.TRef sig ⟨S512x512, .f32⟩) (fun x i u => Host.scatter scatter_S512x512_S2_S64x64_01_n_01_0 (fun _ b => b) x i u) ]

/-- Window update 2: the two offset words 128, the index vector, the 64×64 weight written at (128, 128). -/
def step2 : List (HloOp τ sig (Elt F)) :=
  [ StableHlo.TRef.nullary (.of main_call0_c_10 : StableHlo.TRef sig ⟨S_, .i32⟩) (constantI S_ 32 128#32),
    StableHlo.TRef.unary (.of main_call0_c_10 : StableHlo.TRef sig ⟨S_, .i32⟩) (.of main_call0_v39 : StableHlo.TRef sig ⟨S1, .i32⟩) (broadcastInDim S1 ![] bcast_S_S1),
    StableHlo.TRef.nullary (.of main_call0_c_11 : StableHlo.TRef sig ⟨S_, .i32⟩) (constantI S_ 32 128#32),
    StableHlo.TRef.unary (.of main_call0_c_11 : StableHlo.TRef sig ⟨S_, .i32⟩) (.of main_call0_v40 : StableHlo.TRef sig ⟨S1, .i32⟩) (broadcastInDim S1 ![] bcast_S_S1),
    StableHlo.TRef.binary (.of main_call0_v39 : StableHlo.TRef sig ⟨S1, .i32⟩) (.of main_call0_v40 : StableHlo.TRef sig ⟨S1, .i32⟩) (.of main_call0_v41 : StableHlo.TRef sig ⟨S2, .i32⟩) (fun a b => concatenate S2 0 [⟨S1, a⟩, ⟨S1, b⟩] concatenates_S1_S1_S2_d0),
    StableHlo.TRef.ternary (.of main_call0_v38 : StableHlo.TRef sig ⟨S512x512, .f32⟩) (.of main_call0_v41 : StableHlo.TRef sig ⟨S2, .i32⟩) (.of main_arg3 : StableHlo.TRef sig ⟨S64x64, .f32⟩) (.of main_call0_v42 : StableHlo.TRef sig ⟨S512x512, .f32⟩) (fun x i u => Host.scatter scatter_S512x512_S2_S64x64_01_n_01_0 (fun _ b => b) x i u) ]

/-- Window update 3: the two offset words 192, the index vector, the 64×64 weight written at (192, 192). -/
def step3 : List (HloOp τ sig (Elt F)) :=
  [ StableHlo.TRef.nullary (.of main_call0_c_12 : StableHlo.TRef sig ⟨S_, .i32⟩) (constantI S_ 32 192#32),
    StableHlo.TRef.unary (.of main_call0_c_12 : StableHlo.TRef sig ⟨S_, .i32⟩) (.of main_call0_v43 : StableHlo.TRef sig ⟨S1, .i32⟩) (broadcastInDim S1 ![] bcast_S_S1),
    StableHlo.TRef.nullary (.of main_call0_c_13 : StableHlo.TRef sig ⟨S_, .i32⟩) (constantI S_ 32 192#32),
    StableHlo.TRef.unary (.of main_call0_c_13 : StableHlo.TRef sig ⟨S_, .i32⟩) (.of main_call0_v44 : StableHlo.TRef sig ⟨S1, .i32⟩) (broadcastInDim S1 ![] bcast_S_S1),
    StableHlo.TRef.binary (.of main_call0_v43 : StableHlo.TRef sig ⟨S1, .i32⟩) (.of main_call0_v44 : StableHlo.TRef sig ⟨S1, .i32⟩) (.of main_call0_v45 : StableHlo.TRef sig ⟨S2, .i32⟩) (fun a b => concatenate S2 0 [⟨S1, a⟩, ⟨S1, b⟩] concatenates_S1_S1_S2_d0),
    StableHlo.TRef.ternary (.of main_call0_v42 : StableHlo.TRef sig ⟨S512x512, .f32⟩) (.of main_call0_v45 : StableHlo.TRef sig ⟨S2, .i32⟩) (.of main_arg3 : StableHlo.TRef sig ⟨S64x64, .f32⟩) (.of main_call0_v46 : StableHlo.TRef sig ⟨S512x512, .f32⟩) (fun x i u => Host.scatter scatter_S512x512_S2_S64x64_01_n_01_0 (fun _ b => b) x i u) ]

/-- Window update 4: the two offset words 256, the index vector, the 64×64 weight written at (256, 256). -/
def step4 : List (HloOp τ sig (Elt F)) :=
  [ StableHlo.TRef.nullary (.of main_call0_c_14 : StableHlo.TRef sig ⟨S_, .i32⟩) (constantI S_ 32 256#32),
    StableHlo.TRef.unary (.of main_call0_c_14 : StableHlo.TRef sig ⟨S_, .i32⟩) (.of main_call0_v47 : StableHlo.TRef sig ⟨S1, .i32⟩) (broadcastInDim S1 ![] bcast_S_S1),
    StableHlo.TRef.nullary (.of main_call0_c_15 : StableHlo.TRef sig ⟨S_, .i32⟩) (constantI S_ 32 256#32),
    StableHlo.TRef.unary (.of main_call0_c_15 : StableHlo.TRef sig ⟨S_, .i32⟩) (.of main_call0_v48 : StableHlo.TRef sig ⟨S1, .i32⟩) (broadcastInDim S1 ![] bcast_S_S1),
    StableHlo.TRef.binary (.of main_call0_v47 : StableHlo.TRef sig ⟨S1, .i32⟩) (.of main_call0_v48 : StableHlo.TRef sig ⟨S1, .i32⟩) (.of main_call0_v49 : StableHlo.TRef sig ⟨S2, .i32⟩) (fun a b => concatenate S2 0 [⟨S1, a⟩, ⟨S1, b⟩] concatenates_S1_S1_S2_d0),
    StableHlo.TRef.ternary (.of main_call0_v46 : StableHlo.TRef sig ⟨S512x512, .f32⟩) (.of main_call0_v49 : StableHlo.TRef sig ⟨S2, .i32⟩) (.of main_arg3 : StableHlo.TRef sig ⟨S64x64, .f32⟩) (.of main_call0_v50 : StableHlo.TRef sig ⟨S512x512, .f32⟩) (fun x i u => Host.scatter scatter_S512x512_S2_S64x64_01_n_01_0 (fun _ b => b) x i u) ]

/-- Window update 5: the two offset words 320, the index vector, the 64×64 weight written at (320, 320). -/
def step5 : List (HloOp τ sig (Elt F)) :=
  [ StableHlo.TRef.nullary (.of main_call0_c_16 : StableHlo.TRef sig ⟨S_, .i32⟩) (constantI S_ 32 320#32),
    StableHlo.TRef.unary (.of main_call0_c_16 : StableHlo.TRef sig ⟨S_, .i32⟩) (.of main_call0_v51 : StableHlo.TRef sig ⟨S1, .i32⟩) (broadcastInDim S1 ![] bcast_S_S1),
    StableHlo.TRef.nullary (.of main_call0_c_17 : StableHlo.TRef sig ⟨S_, .i32⟩) (constantI S_ 32 320#32),
    StableHlo.TRef.unary (.of main_call0_c_17 : StableHlo.TRef sig ⟨S_, .i32⟩) (.of main_call0_v52 : StableHlo.TRef sig ⟨S1, .i32⟩) (broadcastInDim S1 ![] bcast_S_S1),
    StableHlo.TRef.binary (.of main_call0_v51 : StableHlo.TRef sig ⟨S1, .i32⟩) (.of main_call0_v52 : StableHlo.TRef sig ⟨S1, .i32⟩) (.of main_call0_v53 : StableHlo.TRef sig ⟨S2, .i32⟩) (fun a b => concatenate S2 0 [⟨S1, a⟩, ⟨S1, b⟩] concatenates_S1_S1_S2_d0),
    StableHlo.TRef.ternary (.of main_call0_v50 : StableHlo.TRef sig ⟨S512x512, .f32⟩) (.of main_call0_v53 : StableHlo.TRef sig ⟨S2, .i32⟩) (.of main_arg3 : StableHlo.TRef sig ⟨S64x64, .f32⟩) (.of main_call0_v54 : StableHlo.TRef sig ⟨S512x512, .f32⟩) (fun x i u => Host.scatter scatter_S512x512_S2_S64x64_01_n_01_0 (fun _ b => b) x i u) ]

/-- Window update 6: the two offset words 384, the index vector, the 64×64 weight written at (384, 384). -/
def step6 : List (HloOp τ sig (Elt F)) :=
  [ StableHlo.TRef.nullary (.of main_call0_c_18 : StableHlo.TRef sig ⟨S_, .i32⟩) (constantI S_ 32 384#32),
    StableHlo.TRef.unary (.of main_call0_c_18 : StableHlo.TRef sig ⟨S_, .i32⟩) (.of main_call0_v55 : StableHlo.TRef sig ⟨S1, .i32⟩) (broadcastInDim S1 ![] bcast_S_S1),
    StableHlo.TRef.nullary (.of main_call0_c_19 : StableHlo.TRef sig ⟨S_, .i32⟩) (constantI S_ 32 384#32),
    StableHlo.TRef.unary (.of main_call0_c_19 : StableHlo.TRef sig ⟨S_, .i32⟩) (.of main_call0_v56 : StableHlo.TRef sig ⟨S1, .i32⟩) (broadcastInDim S1 ![] bcast_S_S1),
    StableHlo.TRef.binary (.of main_call0_v55 : StableHlo.TRef sig ⟨S1, .i32⟩) (.of main_call0_v56 : StableHlo.TRef sig ⟨S1, .i32⟩) (.of main_call0_v57 : StableHlo.TRef sig ⟨S2, .i32⟩) (fun a b => concatenate S2 0 [⟨S1, a⟩, ⟨S1, b⟩] concatenates_S1_S1_S2_d0),
    StableHlo.TRef.ternary (.of main_call0_v54 : StableHlo.TRef sig ⟨S512x512, .f32⟩) (.of main_call0_v57 : StableHlo.TRef sig ⟨S2, .i32⟩) (.of main_arg3 : StableHlo.TRef sig ⟨S64x64, .f32⟩) (.of main_call0_v58 : StableHlo.TRef sig ⟨S512x512, .f32⟩) (fun x i u => Host.scatter scatter_S512x512_S2_S64x64_01_n_01_0 (fun _ b => b) x i u) ]

/-- Window update 7: the two offset words 448, the index vector, the 64×64 weight written at (448, 448). -/
def step7 : List (HloOp τ sig (Elt F)) :=
  [ StableHlo.TRef.nullary (.of main_call0_c_20 : StableHlo.TRef sig ⟨S_, .i32⟩) (constantI S_ 32 448#32),
    StableHlo.TRef.unary (.of main_call0_c_20 : StableHlo.TRef sig ⟨S_, .i32⟩) (.of main_call0_v59 : StableHlo.TRef sig ⟨S1, .i32⟩) (broadcastInDim S1 ![] bcast_S_S1),
    StableHlo.TRef.nullary (.of main_call0_c_21 : StableHlo.TRef sig ⟨S_, .i32⟩) (constantI S_ 32 448#32),
    StableHlo.TRef.unary (.of main_call0_c_21 : StableHlo.TRef sig ⟨S_, .i32⟩) (.of main_call0_v60 : StableHlo.TRef sig ⟨S1, .i32⟩) (broadcastInDim S1 ![] bcast_S_S1),
    StableHlo.TRef.binary (.of main_call0_v59 : StableHlo.TRef sig ⟨S1, .i32⟩) (.of main_call0_v60 : StableHlo.TRef sig ⟨S1, .i32⟩) (.of main_call0_v61 : StableHlo.TRef sig ⟨S2, .i32⟩) (fun a b => concatenate S2 0 [⟨S1, a⟩, ⟨S1, b⟩] concatenates_S1_S1_S2_d0),
    StableHlo.TRef.ternary (.of main_call0_v58 : StableHlo.TRef sig ⟨S512x512, .f32⟩) (.of main_call0_v61 : StableHlo.TRef sig ⟨S2, .i32⟩) (.of main_arg3 : StableHlo.TRef sig ⟨S64x64, .f32⟩) (.of main_call0_v62 : StableHlo.TRef sig ⟨S512x512, .f32⟩) (fun x i u => Host.scatter scatter_S512x512_S2_S64x64_01_n_01_0 (fun _ b => b) x i u) ]

/-- The operations after the last window update (the grouped features). -/
def post0 : List (HloOp τ sig (Elt F)) :=
  [ StableHlo.TRef.reshape (.of main_arg0 : StableHlo.TRef sig ⟨S64x1000x64, .f32⟩) (.of main_call0_v63 : StableHlo.TRef sig ⟨S8x8x1000x64, .f32⟩) rfl shapeCasts_S64x1000x64_S8x8x1000x64,
    StableHlo.TRef.unary (.of main_call0_v63 : StableHlo.TRef sig ⟨S8x8x1000x64, .f32⟩) (.of main_call0_v64 : StableHlo.TRef sig ⟨S8x1000x8x64, .f32⟩) (transpose S8x1000x8x64 [0, 2, 1, 3] · transposes_S8x8x1000x64_S8x1000x8x64_0_2_1_3),
    StableHlo.TRef.reshape (.of main_call0_v64 : StableHlo.TRef sig ⟨S8x1000x8x64, .f32⟩) (.of main_call0_v65 : StableHlo.TRef sig ⟨S8x1000x512, .f32⟩) rfl shapeCasts_S8x1000x8x64_S8x1000x512 ]

set_option maxHeartbeats 4000000 in
/-- The stretch is its pieces in order. -/
theorem hostOps0_split : (hostOps0 : List (HloOp τ sig (Elt F)))
    = pre0 ++ (step0 ++ (step1 ++ (step2 ++ (step3 ++ (step4 ++ (step5 ++ (step6 ++ (step7 ++ post0)))))))) := rfl

/-- One window update as a function: the array `x` with the update `u` written at (`o`, `o`). -/
def diagStep (o : BitVec 32) (x : S512x512.Idx → Elt F .f32) (u : S64x64.Idx → Elt F .f32) : S512x512.Idx → Elt F .f32 :=
  Host.scatter scatter_S512x512_S2_S64x64_01_n_01_0 (fun _ b => b) x
    (cat2 (broadcastInDim S1 ![] bcast_S_S1 (constantI S_ 32 o)) (broadcastInDim S1 ![] bcast_S_S1 (constantI S_ 32 o))) u

theorem step0_res (V : Valuation τ sig (Elt F)) :
    StableHlo.after (step0 (F := F)) V main_call0_v34 = diagStep 0#32 (V main_call0_v30) (V main_arg3) := by
  unfold step0 diagStep
  simp (disch := decide) only [after_cons, after_nil, nullary_result', unary_result', binary_result', ternary_result', nullary_result_ne',
    unary_result_ne', binary_result_ne', ternary_result_ne', cat2_eq, TRef.ofBuf, TRef.toBuf, cast_eq]
theorem step0_arg3 (V : Valuation τ sig (Elt F)) : StableHlo.after (step0 (F := F)) V main_arg3 = V main_arg3 := by
  unfold step0
  after_results
  all_goals rfl

theorem step1_res (V : Valuation τ sig (Elt F)) :
    StableHlo.after (step1 (F := F)) V main_call0_v38 = diagStep 64#32 (V main_call0_v34) (V main_arg3) := by
  unfold step1 diagStep
  simp (disch := decide) only [after_cons, after_nil, nullary_result', unary_result', binary_result', ternary_result', nullary_result_ne',
    unary_result_ne', binary_result_ne', ternary_result_ne', cat2_eq, TRef.ofBuf, TRef.toBuf, cast_eq]
theorem step1_arg3 (V : Valuation τ sig (Elt F)) : StableHlo.after (step1 (F := F)) V main_arg3 = V main_arg3 := by
  unfold step1
  after_results
  all_goals rfl

theorem step2_res (V : Valuation τ sig (Elt F)) :
    StableHlo.after (step2 (F := F)) V main_call0_v42 = diagStep 128#32 (V main_call0_v38) (V main_arg3) := by
  unfold step2 diagStep
  simp (disch := decide) only [after_cons, after_nil, nullary_result', unary_result', binary_result', ternary_result', nullary_result_ne',
    unary_result_ne', binary_result_ne', ternary_result_ne', cat2_eq, TRef.ofBuf, TRef.toBuf, cast_eq]
theorem step2_arg3 (V : Valuation τ sig (Elt F)) : StableHlo.after (step2 (F := F)) V main_arg3 = V main_arg3 := by
  unfold step2
  after_results
  all_goals rfl

theorem step3_res (V : Valuation τ sig (Elt F)) :
    StableHlo.after (step3 (F := F)) V main_call0_v46 = diagStep 192#32 (V main_call0_v42) (V main_arg3) := by
  unfold step3 diagStep
  simp (disch := decide) only [after_cons, after_nil, nullary_result', unary_result', binary_result', ternary_result', nullary_result_ne',
    unary_result_ne', binary_result_ne', ternary_result_ne', cat2_eq, TRef.ofBuf, TRef.toBuf, cast_eq]
theorem step3_arg3 (V : Valuation τ sig (Elt F)) : StableHlo.after (step3 (F := F)) V main_arg3 = V main_arg3 := by
  unfold step3
  after_results
  all_goals rfl

theorem step4_res (V : Valuation τ sig (Elt F)) :
    StableHlo.after (step4 (F := F)) V main_call0_v50 = diagStep 256#32 (V main_call0_v46) (V main_arg3) := by
  unfold step4 diagStep
  simp (disch := decide) only [after_cons, after_nil, nullary_result', unary_result', binary_result', ternary_result', nullary_result_ne',
    unary_result_ne', binary_result_ne', ternary_result_ne', cat2_eq, TRef.ofBuf, TRef.toBuf, cast_eq]
theorem step4_arg3 (V : Valuation τ sig (Elt F)) : StableHlo.after (step4 (F := F)) V main_arg3 = V main_arg3 := by
  unfold step4
  after_results
  all_goals rfl

theorem step5_res (V : Valuation τ sig (Elt F)) :
    StableHlo.after (step5 (F := F)) V main_call0_v54 = diagStep 320#32 (V main_call0_v50) (V main_arg3) := by
  unfold step5 diagStep
  simp (disch := decide) only [after_cons, after_nil, nullary_result', unary_result', binary_result', ternary_result', nullary_result_ne',
    unary_result_ne', binary_result_ne', ternary_result_ne', cat2_eq, TRef.ofBuf, TRef.toBuf, cast_eq]
theorem step5_arg3 (V : Valuation τ sig (Elt F)) : StableHlo.after (step5 (F := F)) V main_arg3 = V main_arg3 := by
  unfold step5
  after_results
  all_goals rfl

theorem step6_res (V : Valuation τ sig (Elt F)) :
    StableHlo.after (step6 (F := F)) V main_call0_v58 = diagStep 384#32 (V main_call0_v54) (V main_arg3) := by
  unfold step6 diagStep
  simp (disch := decide) only [after_cons, after_nil, nullary_result', unary_result', binary_result', ternary_result', nullary_result_ne',
    unary_result_ne', binary_result_ne', ternary_result_ne', cat2_eq, TRef.ofBuf, TRef.toBuf, cast_eq]
theorem step6_arg3 (V : Valuation τ sig (Elt F)) : StableHlo.after (step6 (F := F)) V main_arg3 = V main_arg3 := by
  unfold step6
  after_results
  all_goals rfl

theorem step7_res (V : Valuation τ sig (Elt F)) :
    StableHlo.after (step7 (F := F)) V main_call0_v62 = diagStep 448#32 (V main_call0_v58) (V main_arg3) := by
  unfold step7 diagStep
  simp (disch := decide) only [after_cons, after_nil, nullary_result', unary_result', binary_result', ternary_result', nullary_result_ne',
    unary_result_ne', binary_result_ne', ternary_result_ne', cat2_eq, TRef.ofBuf, TRef.toBuf, cast_eq]
theorem step7_arg3 (V : Valuation τ sig (Elt F)) : StableHlo.after (step7 (F := F)) V main_arg3 = V main_arg3 := by
  unfold step7
  after_results
  all_goals rfl

theorem post0_v62 (V : Valuation τ sig (Elt F)) : StableHlo.after (post0 (F := F)) V main_call0_v62 = V main_call0_v62 := by
  unfold post0
  after_results
  all_goals rfl

set_option maxHeartbeats 4000000 in
theorem pre0_v30 (V : Valuation τ sig (Elt F)) :
    StableHlo.after (pre0 (F := F)) V main_call0_v30 = broadcastInDim S512x512 ![] bcast_S_S512x512 (constant S_ .f32 0x00000000#32) := by
  unfold pre0
  after_results_simp
  all_goals (try simp only [TRef.ofBuf, TRef.toBuf, cast_eq])
  all_goals rfl

set_option maxHeartbeats 4000000 in
theorem pre0_arg3 (V : Valuation τ sig (Elt F)) : StableHlo.after (pre0 (F := F)) V main_arg3 = V main_arg3 := by
  unfold pre0
  after_results_simp
  all_goals rfl

/-- The weight array after the stretch: the zero array with the eight window updates applied in order. -/
theorem wbig_term (V : Valuation τ sig (Elt F)) :
    StableHlo.after (hostOps0 (F := F)) V main_call0_v62
      = diagStep 448#32 (diagStep 384#32 (diagStep 320#32 (diagStep 256#32 (diagStep 192#32 (diagStep 128#32 (diagStep 64#32 (diagStep 0#32
          (broadcastInDim S512x512 ![] bcast_S_S512x512 (constant S_ .f32 0x00000000#32))
          (V main_arg3)) (V main_arg3)) (V main_arg3)) (V main_arg3)) (V main_arg3)) (V main_arg3)) (V main_arg3)) (V main_arg3) := by
  rw [hostOps0_split]
  simp only [StableHlo.after_append]
  rw [post0_v62, step7_res, step6_res, step6_arg3, step5_res, step5_arg3, step4_res, step4_arg3, step3_res, step3_arg3,
    step2_res, step2_arg3, step1_res, step1_arg3, step0_res, step0_arg3, pre0_v30, pre0_arg3]

end Pieces

/-! ## The index vector's words, one window update at a point, and the eight of them against the block-diagonal array -/

section Final
variable {F : FTy → Type} [FloatOps F]

theorem cat2_bc_0 (w w' : BitVec 32) :
    cat2 (broadcastInDim S1 ![] bcast_S_S1 (constantI S_ 32 w)) (broadcastInDim S1 ![] bcast_S_S1 (constantI S_ 32 w')) (ix1 (0 : Fin 2)) = w := rfl
theorem cat2_bc_1 (w w' : BitVec 32) :
    cat2 (broadcastInDim S1 ![] bcast_S_S1 (constantI S_ 32 w)) (broadcastInDim S1 ![] bcast_S_S1 (constantI S_ 32 w')) (ix1 (1 : Fin 2)) = w' := rfl

/-- A window update at a multiple of 64 on the diagonal, read at a point: inside the window the update at the point's
    residues, outside it the array as it was. -/
theorem diagStep_apply (w : BitVec 32) (o : Nat) (hw : w.toInt = (o : Int)) (ho : o + 64 ≤ 512) (hm : o % 64 = 0)
    (x : S512x512.Idx → Elt F .f32) (u : S64x64.Idx → Elt F .f32) (j : S512x512.Idx) :
    diagStep w x u j
      = if o ≤ (j (0 : Fin 2)).val ∧ (j (0 : Fin 2)).val < o + 64 ∧ o ≤ (j (1 : Fin 2)).val ∧ (j (1 : Fin 2)).val < o + 64
        then u (ix2 ⟨(j (0 : Fin 2)).val % 64, Nat.mod_lt _ (by decide)⟩ ⟨(j (1 : Fin 2)).val % 64, Nat.mod_lt _ (by decide)⟩)
        else x j := by
  unfold diagStep
  rw [scatter_window_apply x _ u o o (by rw [cat2_bc_0]; exact hw) (by rw [cat2_bc_1]; exact hw) ho ho j]
  by_cases hc : o ≤ (j (0 : Fin 2)).val ∧ (j (0 : Fin 2)).val < o + 64 ∧ o ≤ (j (1 : Fin 2)).val ∧ (j (1 : Fin 2)).val < o + 64
  · rw [if_pos hc, if_pos hc]
    obtain ⟨a0, a1, a2, a3⟩ := hc
    have e0 : ((j (0 : Fin 2)).val - o) % 64 = (j (0 : Fin 2)).val % 64 := by omega
    have e1 : ((j (1 : Fin 2)).val - o) % 64 = (j (1 : Fin 2)).val % 64 := by omega
    simp only [e0, e1]
  · rw [if_neg hc, if_neg hc]

/-- Eight diagonal windows cover exactly the points whose two coordinates fall in the same block of 64. -/
theorem diag_cases {β : Type} (A z : β) (k0 k1 : Nat) (h0 : k0 < 512) (h1 : k1 < 512) :
    (if 448 ≤ k0 ∧ k0 < 448 + 64 ∧ 448 ≤ k1 ∧ k1 < 448 + 64 then A else (if 384 ≤ k0 ∧ k0 < 384 + 64 ∧ 384 ≤ k1 ∧ k1 < 384 + 64 then A else (if 320 ≤ k0 ∧ k0 < 320 + 64 ∧ 320 ≤ k1 ∧ k1 < 320 + 64 then A else (if 256 ≤ k0 ∧ k0 < 256 + 64 ∧ 256 ≤ k1 ∧ k1 < 256 + 64 then A else (if 192 ≤ k0 ∧ k0 < 192 + 64 ∧ 192 ≤ k1 ∧ k1 < 192 + 64 then A else (if 128 ≤ k0 ∧ k0 < 128 + 64 ∧ 128 ≤ k1 ∧ k1 < 128 + 64 then A else (if 64 ≤ k0 ∧ k0 < 64 + 64 ∧ 64 ≤ k1 ∧ k1 < 64 + 64 then A else (if 0 ≤ k0 ∧ k0 < 0 + 64 ∧ 0 ≤ k1 ∧ k1 < 0 + 64 then A else z))))))))
      = if k0 / 64 = k1 / 64 then A else z := by
  split_ifs <;> first | rfl | (exfalso; omega)

/-- The block-diagonal weight: what the first host stretch leaves in the fused kernel's weight operand. -/
theorem wbig_val (W : Valuation τ sig (Elt Ideal)) :
    StableHlo.after (hostOps0 (F := Ideal)) W main_call0_v62 = Cert.Spec.wbigSpec (W main_arg3) := by
  rw [wbig_term]
  funext j
  rw [diagStep_apply 448#32 448 (by decide) (by decide) (by decide),
    diagStep_apply 384#32 384 (by decide) (by decide) (by decide),
    diagStep_apply 320#32 320 (by decide) (by decide) (by decide),
    diagStep_apply 256#32 256 (by decide) (by decide) (by decide),
    diagStep_apply 192#32 192 (by decide) (by decide) (by decide),
    diagStep_apply 128#32 128 (by decide) (by decide) (by decide),
    diagStep_apply 64#32 64 (by decide) (by decide) (by decide),
    diagStep_apply 0#32 0 (by decide) (by decide) (by decide)]
  exact diag_cases _ _ (j (0 : Fin 2)).val (j (1 : Fin 2)).val (idx2_lt0 j) (idx2_lt1 j)

end Final

end Cert.KernelIdeal.HostVal

end
-- ==== Proof.KI.ValR0.lean ====
/- Region 0's value at the extended reals: what the fused message-passing kernel leaves in its output array, as the
   specification's function of the five arrays it reads.  Grid point a computes slab a of the output from slab a of the
   grouped features and the whole of the other four arrays; the eight slabs tile the output. -/
import proofs.«419763_j27925877358777_3_alg».proof.Proof.KI.R0
import proofs.«419763_j27925877358777_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! ## The two products, as sums over the contracted coordinate

Each product contracts the left operand's columns with the right operand's rows.  The operand indices at an output
index and a contraction index are read axis by axis: the free axis carries the output's coordinate, the contracted
axis the contraction index's one coordinate. -/

theorem lhs_val0_mmA_0 (i : S1000x512.Idx) (q : dot_S1000x1000_S1000x512_S1000x512_1_0_0_1_n_n.contr.Idx) :
    (dot_S1000x1000_S1000x512_S1000x512_1_0_0_1_n_n.lhsIdx i q 0).val = (i 0).val := by
  unfold DotDims.lhsIdx
  rw [dif_neg (show ¬(0 : Fin S1000x1000.rank) ∈ dot_S1000x1000_S1000x512_S1000x512_1_0_0_1_n_n.lhsBatch by decide), dif_pos (show (0 : Fin S1000x1000.rank) ∈ dot_S1000x1000_S1000x512_S1000x512_1_0_0_1_n_n.lhsNonContracting by decide)]
  rfl
theorem lhs_val0_mmA_1 (i : S1000x512.Idx) (q : dot_S1000x1000_S1000x512_S1000x512_1_0_0_1_n_n.contr.Idx) :
    (dot_S1000x1000_S1000x512_S1000x512_1_0_0_1_n_n.lhsIdx i q 1).val = (q ⟨0, by decide⟩).val :=
  dot_S1000x1000_S1000x512_S1000x512_1_0_0_1_n_n.lhsIdx_val_of_single rfl i q
theorem rhs_val0_mmA_0 (i : S1000x512.Idx) (q : dot_S1000x1000_S1000x512_S1000x512_1_0_0_1_n_n.contr.Idx) :
    (dot_S1000x1000_S1000x512_S1000x512_1_0_0_1_n_n.rhsIdx i q 0).val = (q ⟨0, by decide⟩).val :=
  dot_S1000x1000_S1000x512_S1000x512_1_0_0_1_n_n.rhsIdx_val_of_single rfl i q
theorem rhs_val0_mmA_1 (i : S1000x512.Idx) (q : dot_S1000x1000_S1000x512_S1000x512_1_0_0_1_n_n.contr.Idx) :
    (dot_S1000x1000_S1000x512_S1000x512_1_0_0_1_n_n.rhsIdx i q 1).val = (i 1).val := by
  unfold DotDims.rhsIdx
  rw [dif_neg (show ¬(1 : Fin S1000x512.rank) ∈ dot_S1000x1000_S1000x512_S1000x512_1_0_0_1_n_n.rhsBatch by decide), dif_pos (show (1 : Fin S1000x512.rank) ∈ dot_S1000x1000_S1000x512_S1000x512_1_0_0_1_n_n.rhsNonContracting by decide)]
  rfl

theorem lhs_val0_mmB_0 (i : S1000x512.Idx) (q : dot_S1000x512_S512x512_S1000x512_1_0_0_1_n_n.contr.Idx) :
    (dot_S1000x512_S512x512_S1000x512_1_0_0_1_n_n.lhsIdx i q 0).val = (i 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
theorem lhs_val0_mmB_1 (i : S1000x512.Idx) (q : dot_S1000x512_S512x512_S1000x512_1_0_0_1_n_n.contr.Idx) :
    (dot_S1000x512_S512x512_S1000x512_1_0_0_1_n_n.lhsIdx i q 1).val = (q ⟨0, by decide⟩).val :=
  dot_S1000x512_S512x512_S1000x512_1_0_0_1_n_n.lhsIdx_val_of_single rfl i q
theorem rhs_val0_mmB_0 (i : S1000x512.Idx) (q : dot_S1000x512_S512x512_S1000x512_1_0_0_1_n_n.contr.Idx) :
    (dot_S1000x512_S512x512_S1000x512_1_0_0_1_n_n.rhsIdx i q 0).val = (q ⟨0, by decide⟩).val :=
  dot_S1000x512_S512x512_S1000x512_1_0_0_1_n_n.rhsIdx_val_of_single rfl i q
theorem rhs_val0_mmB_1 (i : S1000x512.Idx) (q : dot_S1000x512_S512x512_S1000x512_1_0_0_1_n_n.contr.Idx) :
    (dot_S1000x512_S512x512_S1000x512_1_0_0_1_n_n.rhsIdx i q 1).val = (i 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

/-- The adjacency times a slab of features: entry (p, q) sums, over the 1000 source nodes, the count of edges into p from the node times the node's feature q. -/
theorem val0_mmA_apply (A : FVec Ideal S1000x1000 .bf16) (B : FVec Ideal S1000x512 .bf16) (p : Fin 1000) (q : Fin 512) :
    matmul dot_S1000x1000_S1000x512_S1000x512_1_0_0_1_n_n none A B (constant (F := Ideal) S1000x512 .f32 0x00000000#32) (ix2 p q)
      = ∑ k : Fin 1000, A (ix2 p k) * B (ix2 k q) := by
  refine (Ideal.matmul_constant_zero_apply dot_S1000x1000_S1000x512_S1000x512_1_0_0_1_n_n none A B (ix2 p q)).trans ?_
  rw [← Equiv.sum_comp (ValueIdx.contrEquiv1 dot_S1000x1000_S1000x512_S1000x512_1_0_0_1_n_n 1000 rfl rfl).symm]
  refine Finset.sum_congr rfl fun k _ => ?_
  have hk := ValueIdx.contrEquiv1_symm_val dot_S1000x1000_S1000x512_S1000x512_1_0_0_1_n_n 1000 rfl rfl k
  have el : dot_S1000x1000_S1000x512_S1000x512_1_0_0_1_n_n.lhsIdx (ix2 p q) ((ValueIdx.contrEquiv1 dot_S1000x1000_S1000x512_S1000x512_1_0_0_1_n_n 1000 rfl rfl).symm k) = ix2 p k := funext fun a => Fin.ext (by
    match a with
    | ⟨0, _⟩ => exact lhs_val0_mmA_0 _ _
    | ⟨1, _⟩ => exact (lhs_val0_mmA_1 _ _).trans hk)
  have er : dot_S1000x1000_S1000x512_S1000x512_1_0_0_1_n_n.rhsIdx (ix2 p q) ((ValueIdx.contrEquiv1 dot_S1000x1000_S1000x512_S1000x512_1_0_0_1_n_n 1000 rfl rfl).symm k) = ix2 k q := funext fun a => Fin.ext (by
    match a with
    | ⟨0, _⟩ => exact (rhs_val0_mmA_0 _ _).trans hk
    | ⟨1, _⟩ => exact rhs_val0_mmA_1 _ _)
  rw [el, er]

/-- The averaged messages times the block-diagonal weight: entry (p, q) sums over the 512 columns. -/
theorem val0_mmB_apply (A : FVec Ideal S1000x512 .bf16) (B : FVec Ideal S512x512 .bf16) (p : Fin 1000) (q : Fin 512) :
    matmul dot_S1000x512_S512x512_S1000x512_1_0_0_1_n_n none A B (constant (F := Ideal) S1000x512 .f32 0x00000000#32) (ix2 p q)
      = ∑ k : Fin 512, A (ix2 p k) * B (ix2 k q) := by
  refine (Ideal.matmul_constant_zero_apply dot_S1000x512_S512x512_S1000x512_1_0_0_1_n_n none A B (ix2 p q)).trans ?_
  rw [← Equiv.sum_comp (ValueIdx.contrEquiv1 dot_S1000x512_S512x512_S1000x512_1_0_0_1_n_n 512 rfl rfl).symm]
  refine Finset.sum_congr rfl fun k _ => ?_
  have hk := ValueIdx.contrEquiv1_symm_val dot_S1000x512_S512x512_S1000x512_1_0_0_1_n_n 512 rfl rfl k
  have el : dot_S1000x512_S512x512_S1000x512_1_0_0_1_n_n.lhsIdx (ix2 p q) ((ValueIdx.contrEquiv1 dot_S1000x512_S512x512_S1000x512_1_0_0_1_n_n 512 rfl rfl).symm k) = ix2 p k := funext fun a => Fin.ext (by
    match a with
    | ⟨0, _⟩ => exact lhs_val0_mmB_0 _ _
    | ⟨1, _⟩ => exact (lhs_val0_mmB_1 _ _).trans hk)
  have er : dot_S1000x512_S512x512_S1000x512_1_0_0_1_n_n.rhsIdx (ix2 p q) ((ValueIdx.contrEquiv1 dot_S1000x512_S512x512_S1000x512_1_0_0_1_n_n 512 rfl rfl).symm k) = ix2 k q := funext fun a => Fin.ext (by
    match a with
    | ⟨0, _⟩ => exact (rhs_val0_mmB_0 _ _).trans hk
    | ⟨1, _⟩ => exact rhs_val0_mmB_1 _ _)
  rw [el, er]

/-! ## A column spread over the feature axis -/

/-- An `[a, 1]` column broadcast to `[a, b]` reads, at `(p, c)`, the column's entry of row `p`. -/
theorem val0_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's arithmetic at an index -/

/-- What the body stores at row `n`, column `q` of its slab, from the five blocks it loads: the adjacency row times the
    feature slab, scaled by the row's inverse degree, times the weight, plus the bias and the node's own features, under
    the leaky rectifier.  The unit axis of the slab is cast away and back; the changes of float format are the identity
    on the extended reals; each product is its sum over the contracted coordinate. -/
theorem val0_pay_apply (x0 : FVec Ideal S1000x1000 .bf16) (x1 : FVec Ideal S1x1000x512 .f32) (x3 : FVec Ideal S1000x1 .f32)
    (x2 : FVec Ideal S512x512 .f32) (x4 : FVec Ideal S1000x512 .f32) (u : Fin 1) (n : Fin 1000) (q : Fin 512) :
    k0_pay1 (F := Ideal) x0 x1 x3 x2 x4 (ix3 u n q)
      = Cert.Spec.leaky ((∑ k : Fin 512, ((∑ s : Fin 1000, x0 (ix2 n s) * x1 (ix3 (0 : Fin 1) s k)) * x3 (ix2 n (0 : Fin 1))) * x2 (ix2 k q))
          + x4 (ix2 n q) + x1 (ix3 (0 : Fin 1) n q)) := by
  unfold k0_pay1
  refine (shapeCast_ab_1ab_apply _ shapeCasts_S1000x512_S1x1000x512 u n q).trans ?_
  simp only [truncf_apply, select_apply, cmpf_apply, mulf_apply, addf_apply, broadcast_apply, shapeCast_self]
  rw [val0_mmB_apply, shapeCast_1ab_ab_apply]
  simp only [truncf_apply, mulf_apply, val0_mmA_apply, val0_broadcastTo_a1_ab_apply, shapeCast_1ab_ab_apply]
  rfl

/-! ## From blocks to the array

Every window but the features' and the output's takes its whole array as its one block; those two take slab `a` at grid
point `a`.  So the output block's entry (u, n, q) at point `a` sits at (a, n, q) of the output array, and reads the other
arrays whole and the features at slab `a`. -/

variable (V : Entry Ideal)

theorem val0_hz2 : (![0, 0] : Fin 2 → Nat) = fun _ => 0 := funext fun a => by fin_cases a <;> rfl
theorem val0_hz3 : (![0, 0, 0] : Fin 3 → Nat) = fun _ => 0 := funext fun a => by fin_cases a <;> rfl

/-- The printed index maps, decided over the grid: the features' and the output's blocks move with the grid point
    along the leading axis; every other block index is zero. -/
theorem val0_idx_facts : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The specification's function at coordinates. -/
theorem val0_hGrouped_apply (adj : (Cert.Spec.T2 1000 1000).Idx → EReal) (xt : (Cert.Spec.T3 8 1000 512).Idx → EReal)
    (wbig : (Cert.Spec.T2 512 512).Idx → EReal) (invdeg : (Cert.Spec.T2 1000 1).Idx → EReal) (bias : (Cert.Spec.T2 1000 512).Idx → EReal)
    (a : Fin 8) (n : Fin 1000) (q : Fin 512) :
    Cert.Spec.hGrouped adj xt wbig invdeg bias (ix3 a n q)
      = Cert.Spec.leaky ((∑ k : Fin 512, ((∑ s : Fin 1000, adj (ix2 n s) * xt (ix3 a s k)) * invdeg (ix2 n (0 : Fin 1))) * wbig (ix2 k q))
          + bias (ix2 n q) + xt (ix3 a n q)) := rfl

/-- The grid point as a slab number. -/
abbrev val0_slab (t : Fin cfg0.N) : Fin 8 := ⟨t.val, by have h : cfg0.N = 8 := N_0; have := t.isLt; omega⟩

/-- The adjacency's block at any point is the adjacency. -/
theorem val0_blk0_apply (c : Dev nD) (t : Fin cfg0.N) (n s : Fin 1000) :
    (iblk0 V c 0 t : FVec Ideal S1000x1000 .bf16) (ix2 n s) = (V c main_call0_v22 : S1000x1000.Idx → EReal) (ix2 n s) := by
  obtain ⟨e00, e01, e10, e11, e12, e20, e21, e30, e31, e40, e41, e50, e51, e52⟩ := val0_idx_facts t
  unfold iblk0
  rw [View.read_apply]
  show V c main_call0_v22 _ = V c main_call0_v22 _
  congr 1
  funext a; apply Fin.ext
  match a with
  | ⟨0, _⟩ => show win0_0.index t (0 : Fin 2) * 1000 + 1 * n.val = n.val; omega
  | ⟨1, _⟩ => show win0_0.index t (1 : Fin 2) * 1000 + 1 * s.val = s.val; omega

/-- The features' block at point `a` is slab `a` of the grouped features. -/
theorem val0_blk1_apply (c : Dev nD) (t : Fin cfg0.N) (u : Fin 1) (s : Fin 1000) (k : Fin 512) :
    (iblk0 V c 1 t : FVec Ideal S1x1000x512 .f32) (ix3 u s k) = (V c main_call0_v65 : S8x1000x512.Idx → EReal) (ix3 (val0_slab t) s k) := by
  obtain ⟨e00, e01, e10, e11, e12, e20, e21, e30, e31, e40, e41, e50, e51, e52⟩ := val0_idx_facts t
  unfold iblk0
  rw [View.read_apply]
  show V c main_call0_v65 _ = V c main_call0_v65 _
  congr 1
  funext a; apply Fin.ext
  match a with
  | ⟨0, _⟩ => show win0_1.index t (0 : Fin 3) * 1 + 1 * u.val = t.val; have := u.isLt; omega
  | ⟨1, _⟩ => show win0_1.index t (1 : Fin 3) * 1000 + 1 * s.val = s.val; omega
  | ⟨2, _⟩ => show win0_1.index t (2 : Fin 3) * 512 + 1 * k.val = k.val; omega

/-- The weight's block at any point is the weight. -/
theorem val0_blk2_apply (c : Dev nD) (t : Fin cfg0.N) (k q : Fin 512) :
    (iblk0 V c 2 t : FVec Ideal S512x512 .f32) (ix2 k q) = (V c main_call0_v62 : S512x512.Idx → EReal) (ix2 k q) := by
  obtain ⟨e00, e01, e10, e11, e12, e20, e21, e30, e31, e40, e41, e50, e51, e52⟩ := val0_idx_facts t
  unfold iblk0
  rw [View.read_apply]
  show V c main_call0_v62 _ = V c main_call0_v62 _
  congr 1
  funext a; apply Fin.ext
  match a with
  | ⟨0, _⟩ => show win0_2.index t (0 : Fin 2) * 512 + 1 * k.val = k.val; omega
  | ⟨1, _⟩ => show win0_2.index t (1 : Fin 2) * 512 + 1 * q.val = q.val; omega

/-- The inverse degrees' block at any point is the whole column. -/
theorem val0_blk3_apply (c : Dev nD) (t : Fin cfg0.N) (n : Fin 1000) (z : Fin 1) :
    (iblk0 V c 3 t : FVec Ideal S1000x1 .f32) (ix2 n z) = (V c main_call0_v17 : S1000x1.Idx → EReal) (ix2 n z) := by
  obtain ⟨e00, e01, e10, e11, e12, e20, e21, e30, e31, e40, e41, e50, e51, e52⟩ := val0_idx_facts t
  unfold iblk0
  rw [View.read_apply]
  show V c main_call0_v17 _ = V c main_call0_v17 _
  congr 1
  funext a; apply Fin.ext
  match a with
  | ⟨0, _⟩ => show win0_3.index t (0 : Fin 2) * 1000 + 1 * n.val = n.val; omega
  | ⟨1, _⟩ => show win0_3.index t (1 : Fin 2) * 1 + 1 * z.val = z.val; omega

/-- The bias's block at any point is the bias. -/
theorem val0_blk4_apply (c : Dev nD) (t : Fin cfg0.N) (n : Fin 1000) (q : Fin 512) :
    (iblk0 V c 4 t : FVec Ideal S1000x512 .f32) (ix2 n q) = (V c main_call0_v29 : S1000x512.Idx → EReal) (ix2 n q) := by
  obtain ⟨e00, e01, e10, e11, e12, e20, e21, e30, e31, e40, e41, e50, e51, e52⟩ := val0_idx_facts t
  unfold iblk0
  rw [View.read_apply]
  show V c main_call0_v29 _ = V c main_call0_v29 _
  congr 1
  funext a; apply Fin.ext
  match a with
  | ⟨0, _⟩ => show win0_4.index t (0 : Fin 2) * 1000 + 1 * n.val = n.val; omega
  | ⟨1, _⟩ => show win0_4.index t (1 : Fin 2) * 512 + 1 * q.val = q.val; omega

/-- The specification's function of the five arrays as the region finds them. -/
abbrev val0_G (c : Dev nD) : S8x1000x512.Idx → EReal :=
  Cert.Spec.hGrouped (V c main_call0_v22) (V c main_call0_v65) (V c main_call0_v62) (V c main_call0_v17) (V c main_call0_v29)

/-- Where entry (u, n, q) of the output's block at point `a` sits in the output array: at (a, n, q). -/
theorem val0_emb5 (t : Fin cfg0.N) (u : Fin 1) (n : Fin 1000) (q : Fin 512) :
    (((cfg0.win 5).blk t).view.emb (ix3 u n q) : S8x1000x512.Idx) = ix3 (val0_slab t) n q := by
  obtain ⟨e00, e01, e10, e11, e12, e20, e21, e30, e31, e40, e41, e50, e51, e52⟩ := val0_idx_facts t
  funext a; apply Fin.ext
  match a with
  | ⟨0, _⟩ => show win0_5.index t (0 : Fin 3) * 1 + 1 * u.val = t.val; have := u.isLt; omega
  | ⟨1, _⟩ => show win0_5.index t (1 : Fin 3) * 1000 + 1 * n.val = n.val; omega
  | ⟨2, _⟩ => show win0_5.index t (2 : Fin 3) * 512 + 1 * q.val = q.val; omega

/-- What point `a` writes back is slab `a` of the specification's function. -/
theorem val0_flushed_eq (c : Dev nD) (t : Fin cfg0.N) :
    (dat0 (F := Ideal) V c).flushed 5 t = ((cfg0.win 5).blk t).view.read (Elt Ideal) (val0_G V c) := by
  show (cfg0.win 5).cut (grid0.coords t) ((dat0 (F := Ideal) V c).after 5 t) = _
  rw [after0_5]
  unfold out0_5
  rw [View.canon_unit_zero val0_hz3]
  simp only [View.ld_unit_zero (S := S1000x1000) val0_hz2, View.ld_unit_zero (S := S1x1000x512) val0_hz3,
    View.ld_unit_zero (S := S512x512) val0_hz2, View.ld_unit_zero (S := S1000x1) val0_hz2, View.ld_unit_zero (S := S1000x512) val0_hz2]
  funext y
  obtain ⟨u, n, q, rfl⟩ : ∃ (u : Fin 1) (n : Fin 1000) (q : Fin 512), y = ix3 u n q := ⟨y 0, y 1, y 2, eq_ix3 y⟩
  show k0_pay1 (F := Ideal) (iblk0 V c 0 t) (iblk0 V c 1 t) (iblk0 V c 3 t) (iblk0 V c 2 t) (iblk0 V c 4 t) (ix3 u n q)
    = val0_G V c (((cfg0.win 5).blk t).view.emb (ix3 u n q))
  refine Eq.trans ?_ (congrArg (val0_G V c) (val0_emb5 t u n q)).symm
  refine (val0_pay_apply (iblk0 V c 0 t) (iblk0 V c 1 t) (iblk0 V c 3 t) (iblk0 V c 2 t) (iblk0 V c 4 t) u n q).trans ?_
  refine Eq.trans ?_ (val0_hGrouped_apply (V c main_call0_v22) (V c main_call0_v65) (V c main_call0_v62) (V c main_call0_v17)
    (V c main_call0_v29) (val0_slab t) n q).symm
  simp only [val0_blk0_apply V c t, val0_blk1_apply V c t, val0_blk2_apply V c t, val0_blk3_apply V c t, val0_blk4_apply V c t]

/-- An index of the output array is in point `t`'s block iff each coordinate is in the block's range on its axis. -/
theorem val0_mem_blk5 (t : Fin cfg0.N) (i : S8x1000x512.Idx) :
    i ∈ ((cfg0.win 5).blk t).view.set ↔ ∀ a : Fin 3, win0_5.index t a * S1x1000x512.size a ≤ (i a).val
      ∧ (i a).val < win0_5.index t a * S1x1000x512.size a + S1x1000x512.size a := by
  show i ∈ ((View.whole main_call0_v66).slice (win0_5.rect t)).set ↔ _
  rw [View.set_slice_whole, Rect.mem_set_unit]
  exact Iff.rfl

/-- The eight slabs tile the output: entry (a, n, q) is in the block of point `a`, which writes back. -/
theorem val0_cover5 (i : S8x1000x512.Idx) :
    ∃ t : Fin cfg0.N, (cfg0.win 5).flush t = true ∧ i ∈ ((cfg0.win 5).blk t).view.set := by
  have hN : cfg0.N = 8 := N_0
  have h0 : (i 0).val < 8 := (i 0).isLt
  have h1 : (i 1).val < 1000 := (i 1).isLt
  have h2 : (i 2).val < 512 := (i 2).isLt
  obtain ⟨t, ht⟩ : ∃ t : Fin cfg0.N, t.val = (i 0).val := ⟨⟨(i 0).val, by omega⟩, rfl⟩
  obtain ⟨e00, e01, e10, e11, e12, e20, e21, e30, e31, e40, e41, e50, e51, e52⟩ := val0_idx_facts t
  refine ⟨t, flush0_5 t, ?_⟩
  rw [val0_mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1000 ≤ (i 1).val ∧ (i 1).val < win0_5.index t (1 : Fin 3) * 1000 + 1000; omega
  | ⟨2, _⟩ => show win0_5.index t (2 : Fin 3) * 512 ≤ (i 2).val ∧ (i 2).val < win0_5.index t (2 : Fin 3) * 512 + 512; omega

/-- The output array after the run is the specification's function of the five arrays the region reads: every point
    writes back its slab of that one function, and the slabs cover the array. -/
theorem arr0_5 (c : Dev nD) : (dat0 (F := Ideal) V c).arrAt 5 cfg0.N
    = Cert.Spec.hGrouped (V c main_call0_v22) (V c main_call0_v65) (V c main_call0_v62) (V c main_call0_v17) (V c main_call0_v29) :=
  (dat0 (F := Ideal) V c).arrAt_eq_of_cover 5 (val0_G V c) (fun t _ => val0_flushed_eq V c t) val0_cover5

end Cert.KernelIdeal.Fr

end
-- ==== Proof.GnnMath.lean ====
/-
  The message-passing layer's two evaluations agree.

  The fused kernel evaluates the layer through a dense matrix of edge counts, eight graphs side by side in the
  feature axis against a block-diagonal weight, a reciprocal in-degree and a masked bias; the specification sums over
  the edges into a node and divides by their number.  Over real entries the two are the same real number: the
  block-diagonal weight keeps only the columns of one graph, the count matrix regroups the edges into a node by their
  source, and the masked bias is the in-degree times the bias over the in-degree.
-/
import proofs.«419763_j27925877358777_3_alg».proof.Proof.Spec
import Idealize.ShloMosaic.PureOps.Ideal.Laws
import Idealize.ShloMosaic.Lib.IdealHost

noncomputable section

open scoped BigOperators

namespace Cert.Spec

open Idealize.ShloMosaic Idealize.ShloMosaic.ValueIdx

/-- Every entry is a real number. -/
def Fin' {S : Shape} (x : S.Idx → EReal) : Prop := ∀ i, x i ≠ ⊤ ∧ x i ≠ ⊥

/-! ## Grouping eight graphs side by side and back -/

/-- Graph b sits in group b / 8 at block b % 8, and (b / 8) · 8 + b % 8 = b. -/
theorem ungroup_group (h : (T3 64 1000 64).Idx → EReal) : ungroupOf (groupOf h) = h := by
  funext j
  have h0 : (j 0).val < 64 := (j 0).isLt
  have h2 : (j 2).val < 64 := (j 2).isLt
  unfold ungroupOf groupOf
  refine congrArg h ?_
  funext a
  match a with
  | ⟨0, _⟩ => exact Fin.ext (by show (j 0).val / 8 * 8 + ((j 0).val % 8 * 64 + (j 2).val) / 64 = (j 0).val; omega)
  | ⟨1, _⟩ => exact Fin.ext rfl
  | ⟨2, _⟩ => exact Fin.ext (by show ((j 0).val % 8 * 64 + (j 2).val) % 64 = (j 2).val; omega)

namespace Gnn

/-! ## The literals, and real numbers among the extended reals -/

theorem zeroW_eq : zeroW = 0 := Ideal.ofBits_zero_f32
theorem oneW_eq : oneW = 1 := Ideal.ofBits_one_f32

/-- The coercion of a finite sum of reals is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The coercion of a maximum of reals is the maximum of the coercions. -/
theorem coe_max (a b : ℝ) : ((max a b : ℝ) : EReal) = max (a : EReal) (b : EReal) :=
  EReal.coe_strictMono.monotone.map_max

/-- A sum of ones over a finite set, from zero, is the set's size. -/
theorem zero_add_sum_one {ι : Type*} (S : Finset ι) : zeroW + ∑ _e ∈ S, oneW = ((S.card : ℝ) : EReal) := by
  rw [zeroW_eq, oneW_eq, zero_add, ← EReal.coe_one, ← coe_sum, Finset.sum_const, nsmul_eq_mul, mul_one]

/-- A sum of ones over a finite set is the set's size. -/
theorem sum_one {ι : Type*} (S : Finset ι) : ∑ _e ∈ S, oneW = ((S.card : ℝ) : EReal) := by
  rw [← zero_add (∑ _e ∈ S, oneW), ← zeroW_eq]; exact zero_add_sum_one S

/-! ## The edges into a node, grouped by their source -/

/-- On an edge list in range an edge's source node is its source itself. -/
theorem srcF_val (ei : Edges) (hr : InRange ei) (e : Fin 32000) : (srcF ei e).val = srcN ei e :=
  Nat.mod_eq_of_lt (hr 0 e)

/-- The edges from s to n are the edges into n whose source node is s. -/
theorem filter_dst_src (ei : Edges) (hr : InRange ei) (n s : Fin 1000) :
    Finset.univ.filter (fun e : Fin 32000 => dstN ei e = n.val ∧ srcN ei e = s.val)
      = (edgesInto ei n).filter (fun e => srcF ei e = s) := by
  ext e
  simp only [edgesInto, Finset.mem_filter, Finset.mem_univ, true_and]
  constructor
  · rintro ⟨h1, h2⟩; exact ⟨h1, Fin.ext ((srcF_val ei hr e).trans h2)⟩
  · rintro ⟨h1, h2⟩; exact ⟨h1, (srcF_val ei hr e).symm.trans (congrArg Fin.val h2)⟩

/-- How many edges run from s to n, as a real number. -/
def cnt (ei : Edges) (n s : Fin 1000) : ℝ := (((edgesInto ei n).filter (fun e => srcF ei e = s)).card : ℝ)

/-- The adjacency entry is that count. -/
theorem adjSpec_eq (ei : Edges) (hr : InRange ei) (n s : Fin 1000) : adjSpec ei (ix2 n s) = ((cnt ei n s : ℝ) : EReal) := by
  unfold adjSpec cnt
  rw [← filter_dst_src ei hr n s]
  exact zero_add_sum_one _

/-- Weighting a function of the source node by the counts sums it over the edges into n: every edge into n is
    counted once, at its source. -/
theorem sum_cnt_mul (ei : Edges) (n : Fin 1000) (F : Fin 1000 → ℝ) :
    ∑ s : Fin 1000, cnt ei n s * F s = ∑ e ∈ edgesInto ei n, F (srcF ei e) := by
  rw [← Finset.sum_fiberwise' (edgesInto ei n) (srcF ei) F]
  refine Finset.sum_congr rfl fun s _ => ?_
  rw [Finset.sum_const, nsmul_eq_mul]; rfl

/-- The counts into n add up to the number of edges into n. -/
theorem sum_cnt (ei : Edges) (n : Fin 1000) : ∑ s : Fin 1000, cnt ei n s = ((edgesInto ei n).card : ℝ) := by
  have h : ∑ s : Fin 1000, cnt ei n s * 1 = ∑ _e ∈ edgesInto ei n, (1 : ℝ) := sum_cnt_mul ei n (fun _ => 1)
  rw [Finset.sum_const, nsmul_eq_mul, mul_one] at h
  rw [← h]
  exact Finset.sum_congr rfl fun s _ => (mul_one _).symm

/-- The in-degree is the number of edges into the node. -/
theorem degSpec_eq (ei : Edges) (hr : InRange ei) (n : Fin 1000) :
    degSpec ei n = (((edgesInto ei n).card : ℝ) : EReal) := by
  unfold degSpec
  rw [zeroW_eq, zero_add, ← sum_cnt, coe_sum]
  exact Finset.sum_congr rfl fun s _ => adjSpec_eq ei hr n s

/-- The reciprocal in-degree, one for an isolated node. -/
theorem invdegSpec_eq (ei : Edges) (hr : InRange ei) (n : Fin 1000) :
    invdegSpec ei (ix2 n (0 : Fin 1)) = ((1 / max ((edgesInto ei n).card : ℝ) 1 : ℝ) : EReal) := by
  have hne : max ((edgesInto ei n).card : ℝ) 1 ≠ 0 := (lt_of_lt_of_le one_pos (le_max_right _ _)).ne'
  show Ideal.div oneW (max (degSpec ei n) oneW) = _
  rw [degSpec_eq ei hr, oneW_eq, ← EReal.coe_one, ← coe_max, Ideal.div_coe hne, ← EReal.coe_mul, one_mul]

/-- The mask is one at a node with an incoming edge and zero at an isolated one. -/
theorem maskSpec_eq (ei : Edges) (hr : InRange ei) (n : Fin 1000) :
    maskSpec ei n = (((if 0 < (edgesInto ei n).card then 1 else 0 : ℝ)) : EReal) := by
  have hiff : ((0 : EReal) < (((edgesInto ei n).card : ℝ) : EReal)) ↔ 0 < (edgesInto ei n).card := by
    rw [EReal.coe_pos, Nat.cast_pos]
  unfold maskSpec
  rw [degSpec_eq ei hr, zeroW_eq]
  simp only [Ideal.cmp, BitVec.toNat_ofBool, hiff]
  by_cases h : 0 < (edgesInto ei n).card <;> simp [h]

/-! ## The block-diagonal contraction -/

/-- A sum over the 512 columns of terms that vanish outside block g is the sum over that block's 64 columns. -/
theorem sum_block (g : Fin 8) (H : Fin 8 → Fin 64 → ℝ) :
    ∑ k : Fin 512, (if k.val / 64 = g.val
        then H ⟨k.val / 64, by have := k.isLt; omega⟩ ⟨k.val % 64, Nat.mod_lt _ (by decide)⟩ else 0)
      = ∑ f : Fin 64, H g f := by
  rw [← Finset.sum_filter]
  refine Finset.sum_bij' (fun k _ => (⟨k.val % 64, Nat.mod_lt _ (by decide)⟩ : Fin 64))
    (fun f _ => (⟨g.val * 64 + f.val, by have := g.isLt; have := f.isLt; omega⟩ : Fin 512)) ?_ ?_ ?_ ?_ ?_
  · intro k _; exact Finset.mem_univ _
  · intro f _
    have hf := f.isLt
    simp only [Finset.mem_filter, Finset.mem_univ, true_and]
    omega
  · intro k hk
    have hk' : k.val / 64 = g.val := (Finset.mem_filter.mp hk).2
    exact Fin.ext (by show g.val * 64 + k.val % 64 = k.val; omega)
  · intro f _
    have hf := f.isLt
    exact Fin.ext (by show (g.val * 64 + f.val) % 64 = f.val; omega)
  · intro k hk
    have hk' : k.val / 64 = g.val := (Finset.mem_filter.mp hk).2
    have hg : (⟨k.val / 64, by have := k.isLt; omega⟩ : Fin 8) = g := Fin.ext hk'
    rw [hg]

/-! ## The identity over the reals -/

/-- With d the number of edges: one over max(d, 1), times d, is one when d is positive and zero when d is zero. -/
theorem mask_eq_mul (d : ℕ) : (if 0 < d then 1 else 0 : ℝ) = (d : ℝ) * (1 / max (d : ℝ) 1) := by
  by_cases h : 0 < d
  · have h1 : (1 : ℝ) ≤ d := by exact_mod_cast h
    have hd : (d : ℝ) ≠ 0 := by positivity
    rw [if_pos h, max_eq_left h1]; field_simp
  · have h0 : d = 0 := by omega
    subst h0; simp

/-- The layer at one node and column, over the reals. E is the set of edges into the node, src their source
    nodes, c the counts by source (which regroup E: hc), X g s f the feature f of node s in the group's graph g,
    W the weight's column, β the bias entry. Left: the block-diagonal contraction of the count-weighted, degree-scaled
    features, plus the masked bias. Right: the mean over E of the messages. -/
theorem real_core (E : Finset (Fin 32000)) (src : Fin 32000 → Fin 1000) (c : Fin 1000 → ℝ)
    (hc : ∀ F : Fin 1000 → ℝ, ∑ s : Fin 1000, c s * F s = ∑ e ∈ E, F (src e))
    (X : Fin 8 → Fin 1000 → Fin 64 → ℝ) (W : Fin 64 → ℝ) (β : ℝ) (g : Fin 8) :
    (∑ k : Fin 512, ((∑ s : Fin 1000, c s * X ⟨k.val / 64, by have := k.isLt; omega⟩ s ⟨k.val % 64, Nat.mod_lt _ (by decide)⟩)
          * (1 / max (E.card : ℝ) 1))
        * (if k.val / 64 = g.val then W ⟨k.val % 64, Nat.mod_lt _ (by decide)⟩ else 0))
      + (if 0 < E.card then 1 else 0 : ℝ) * β
    = (∑ e ∈ E, ((∑ f : Fin 64, X g (src e) f * W f) + β)) * (1 / max (E.card : ℝ) 1) := by
  set r : ℝ := 1 / max (E.card : ℝ) 1 with hr
  -- the weight's zero blocks drop every column outside block g
  have h1 : (∑ k : Fin 512, ((∑ s : Fin 1000, c s * X ⟨k.val / 64, by have := k.isLt; omega⟩ s ⟨k.val % 64, Nat.mod_lt _ (by decide)⟩) * r)
        * (if k.val / 64 = g.val then W ⟨k.val % 64, Nat.mod_lt _ (by decide)⟩ else 0))
      = ∑ f : Fin 64, ((∑ s : Fin 1000, c s * X g s f) * r) * W f := by
    rw [← sum_block g (fun g' f => ((∑ s : Fin 1000, c s * X g' s f) * r) * W f)]
    refine Finset.sum_congr rfl fun k _ => ?_
    rw [mul_ite, mul_zero]
  rw [h1, mask_eq_mul, ← hr]
  -- the counts regroup the edges by source; the rest is the distributive law
  have h2 : ∀ f : Fin 64, ∑ s : Fin 1000, c s * X g s f = ∑ e ∈ E, X g (src e) f := fun f => hc (fun s => X g s f)
  simp only [h2]
  rw [Finset.sum_add_distrib, Finset.sum_const, nsmul_eq_mul, Finset.sum_comm, add_mul, Finset.sum_mul]
  congr 1
  · refine Finset.sum_congr rfl fun f _ => ?_
    rw [← Finset.sum_mul]; ring
  · ring

/-! ## The kernel's operands at real entries -/

/-- Group a's graph at block g. -/
abbrev gb (a g : Fin 8) : Fin 64 := ⟨a.val * 8 + g.val, by have := a.isLt; have := g.isLt; omega⟩
/-- Column q's block. -/
abbrev qg (q : Fin 512) : Fin 8 := ⟨q.val / 64, by have := q.isLt; omega⟩
/-- Column q's feature within its block. -/
abbrev qf (q : Fin 512) : Fin 64 := ⟨q.val % 64, Nat.mod_lt _ (by decide)⟩

/-- The block-diagonal weight at real entries: the weight on the diagonal blocks, zero off them. -/
theorem wbigSpec_coe (Wr : (T2 64 64).Idx → ℝ) (k q : Fin 512) :
    wbigSpec (fun i => (Wr i : EReal)) (ix2 k q)
      = ((if k.val / 64 = (qg q).val then Wr (ix2 (qf k) (qf q)) else 0 : ℝ) : EReal) := by
  show (if k.val / 64 = q.val / 64 then (Wr (ix2 (qf k) (qf q)) : EReal) else zeroW) = _
  by_cases h : k.val / 64 = q.val / 64
  · rw [if_pos h, if_pos h]
  · rw [if_neg h, if_neg h, zeroW_eq, EReal.coe_zero]

/-- The layer's two evaluations at group a, node n, column q: the arguments of the rectifier agree. -/
theorem point_eq (xr : (T3 64 1000 64).Idx → ℝ) (ei : Edges) (Wr : (T2 64 64).Idx → ℝ) (br : (T1 64).Idx → ℝ)
    (hr : InRange ei) (a : Fin 8) (n : Fin 1000) (q : Fin 512) :
    (∑ k : Fin 512, ((∑ s : Fin 1000, adjSpec ei (ix2 n s) * groupOf (fun i => (xr i : EReal)) (ix3 a s k))
          * invdegSpec ei (ix2 n (0 : Fin 1))) * wbigSpec (fun i => (Wr i : EReal)) (ix2 k q))
        + biasSpec ei (fun i => (br i : EReal)) (ix2 n q) + groupOf (fun i => (xr i : EReal)) (ix3 a n q)
      = Ideal.div
          (∑ e ∈ edgesInto ei n, ((∑ f : Fin 64, (xr (ix3 (gb a (qg q)) (srcF ei e) f) : EReal) * (Wr (ix2 f (qf q)) : EReal))
            + (br (ix1 (qf q)) : EReal)))
          (max (∑ _e ∈ edgesInto ei n, oneW) oneW)
        + (xr (ix3 (gb a (qg q)) n (qf q)) : EReal) := by
  have hne : max ((edgesInto ei n).card : ℝ) 1 ≠ 0 := (lt_of_lt_of_le one_pos (le_max_right _ _)).ne'
  -- the k-th term of the contraction is a real number
  have hk : ∀ k : Fin 512,
      ((∑ s : Fin 1000, adjSpec ei (ix2 n s) * groupOf (fun i => (xr i : EReal)) (ix3 a s k))
          * invdegSpec ei (ix2 n (0 : Fin 1))) * wbigSpec (fun i => (Wr i : EReal)) (ix2 k q)
        = ((((∑ s : Fin 1000, cnt ei n s * xr (ix3 (gb a (qg k)) s (qf k))) * (1 / max ((edgesInto ei n).card : ℝ) 1))
            * (if k.val / 64 = (qg q).val then Wr (ix2 (qf k) (qf q)) else 0) : ℝ) : EReal) := by
    intro k
    have hs : ∀ s : Fin 1000, adjSpec ei (ix2 n s) * groupOf (fun i => (xr i : EReal)) (ix3 a s k)
        = ((cnt ei n s * xr (ix3 (gb a (qg k)) s (qf k)) : ℝ) : EReal) := by
      intro s; rw [adjSpec_eq ei hr, EReal.coe_mul]; rfl
    rw [Finset.sum_congr rfl (fun s _ => hs s), ← coe_sum, invdegSpec_eq ei hr, ← EReal.coe_mul, wbigSpec_coe,
      ← EReal.coe_mul]
  -- so are the masked bias and the node's own feature
  have hbias : biasSpec ei (fun i => (br i : EReal)) (ix2 n q)
      = (((if 0 < (edgesInto ei n).card then 1 else 0 : ℝ) * br (ix1 (qf q)) : ℝ) : EReal) := by
    show maskSpec ei n * (br (ix1 (qf q)) : EReal) = _
    rw [maskSpec_eq ei hr, EReal.coe_mul]
  have hself : groupOf (fun i => (xr i : EReal)) (ix3 a n q) = ((xr (ix3 (gb a (qg q)) n (qf q)) : ℝ) : EReal) := rfl
  -- and every message
  have hmsg : ∀ e : Fin 32000,
      ((∑ f : Fin 64, (xr (ix3 (gb a (qg q)) (srcF ei e) f) : EReal) * (Wr (ix2 f (qf q)) : EReal)) + (br (ix1 (qf q)) : EReal))
        = (((∑ f : Fin 64, xr (ix3 (gb a (qg q)) (srcF ei e) f) * Wr (ix2 f (qf q))) + br (ix1 (qf q)) : ℝ) : EReal) := by
    intro e
    rw [EReal.coe_add, coe_sum]
    exact congrArg (· + _) (Finset.sum_congr rfl fun f _ => (EReal.coe_mul _ _).symm)
  have hL : (∑ k : Fin 512, ((∑ s : Fin 1000, adjSpec ei (ix2 n s) * groupOf (fun i => (xr i : EReal)) (ix3 a s k))
          * invdegSpec ei (ix2 n (0 : Fin 1))) * wbigSpec (fun i => (Wr i : EReal)) (ix2 k q))
        + biasSpec ei (fun i => (br i : EReal)) (ix2 n q)
      = (((∑ k : Fin 512, ((∑ s : Fin 1000, cnt ei n s * xr (ix3 (gb a (qg k)) s (qf k))) * (1 / max ((edgesInto ei n).card : ℝ) 1))
            * (if k.val / 64 = (qg q).val then Wr (ix2 (qf k) (qf q)) else 0))
          + (if 0 < (edgesInto ei n).card then 1 else 0 : ℝ) * br (ix1 (qf q)) : ℝ) : EReal) := by
    rw [Finset.sum_congr rfl (fun k _ => hk k), ← coe_sum, hbias, ← EReal.coe_add]
  have hR : Ideal.div
          (∑ e ∈ edgesInto ei n, ((∑ f : Fin 64, (xr (ix3 (gb a (qg q)) (srcF ei e) f) : EReal) * (Wr (ix2 f (qf q)) : EReal))
            + (br (ix1 (qf q)) : EReal)))
          (max (∑ _e ∈ edgesInto ei n, oneW) oneW)
      = (((∑ e ∈ edgesInto ei n, ((∑ f : Fin 64, xr (ix3 (gb a (qg q)) (srcF ei e) f) * Wr (ix2 f (qf q))) + br (ix1 (qf q))))
          * (1 / max ((edgesInto ei n).card : ℝ) 1) : ℝ) : EReal) := by
    rw [Finset.sum_congr rfl (fun e _ => hmsg e), ← coe_sum, sum_one, oneW_eq, ← EReal.coe_one, ← coe_max,
      Ideal.div_coe hne, ← EReal.coe_mul]
  rw [hL, hR, hself]
  refine congrArg (fun t : ℝ => (t : EReal) + _) ?_
  exact real_core (edgesInto ei n) (srcF ei) (cnt ei n) (sum_cnt_mul ei n)
    (fun g' s f => xr (ix3 (gb a g') s f)) (fun f => Wr (ix2 f (qf q))) (br (ix1 (qf q))) (qg q)

end Gnn

open Gnn

/-! ## The assembly -/

/-- Through the adjacency counts, eight graphs side by side against the block-diagonal weight, the fused kernel computes the layer. -/
theorem hGrouped_eq (x : (T3 64 1000 64).Idx → EReal) (ei : Edges) (Wm : (T2 64 64).Idx → EReal) (bm : (T1 64).Idx → EReal)
    (hr : InRange ei) (hx : Fin' x) (hW : Fin' Wm) (hb : Fin' bm) :
    hGrouped (adjSpec ei) (groupOf x) (wbigSpec Wm) (invdegSpec ei) (biasSpec ei bm) = groupOf (hSpec x ei Wm bm) := by
  obtain ⟨xr, rfl⟩ : ∃ xr : (T3 64 1000 64).Idx → ℝ, x = fun i => (xr i : EReal) :=
    ⟨fun i => (x i).toReal, funext fun i => (EReal.coe_toReal (hx i).1 (hx i).2).symm⟩
  obtain ⟨Wr, rfl⟩ : ∃ Wr : (T2 64 64).Idx → ℝ, Wm = fun i => (Wr i : EReal) :=
    ⟨fun i => (Wm i).toReal, funext fun i => (EReal.coe_toReal (hW i).1 (hW i).2).symm⟩
  obtain ⟨br, rfl⟩ : ∃ br : (T1 64).Idx → ℝ, bm = fun i => (br i : EReal) :=
    ⟨fun i => (bm i).toReal, funext fun i => (EReal.coe_toReal (hb i).1 (hb i).2).symm⟩
  funext j
  obtain ⟨a, n, q, rfl⟩ : ∃ (a : Fin 8) (n : Fin 1000) (q : Fin 512), j = ix3 a n q := ⟨j 0, j 1, j 2, eq_ix3 j⟩
  unfold hGrouped hSpec hAt
  conv_rhs => unfold groupOf
  dsimp only
  refine congrArg leaky ?_
  exact point_eq xr ei Wr br hr a n q

end Cert.Spec

end
-- ==== Proof.KI.ChainGnn.lean ====
/-
  The first link of the kernel program's value chain, at the extended reals: after the first host stretch and the
  first region, the region's output array holds the message-passing layer's result, eight graphs side by side.

  The region leaves at its output the grouped evaluation `Cert.Spec.hGrouped` of its five operand arrays.  Those five
  are what the first host stretch computes from the launch contents of the arguments: the adjacency counts from the
  edge list, the grouped features from the node features, the block-diagonal weight from the message weight, the
  reciprocal in-degree and the masked bias from the adjacency counts (and the message bias).  On an edge list in range
  and real-valued features, weight and bias, the grouped evaluation of those five is the layer's specification grouped
  (`Cert.Spec.hGrouped_eq`).
-/
import proofs.«419763_j27925877358777_3_alg».proof.Proof.KI.Run
import proofs.«419763_j27925877358777_3_alg».proof.Proof.KI.HostEdges
import proofs.«419763_j27925877358777_3_alg».proof.Proof.KI.HostDeg
import proofs.«419763_j27925877358777_3_alg».proof.Proof.KI.HostLayout
import proofs.«419763_j27925877358777_3_alg».proof.Proof.KI.HostWbig
import proofs.«419763_j27925877358777_3_alg».proof.Proof.KI.ValR0
import proofs.«419763_j27925877358777_3_alg».proof.Proof.GnnMath

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo

variable (m : (ℓ : Loc nD τ sig) → Buf (Elt Ideal) ℓ) (ρ : Dev nD → PrngReg)

set_option maxHeartbeats 1000000 in
/-- Region 0's output after the region: the layer's result, eight graphs side by side. The region leaves at its output
    array the grouped evaluation of its five operands; the operands are what the first host stretch computes from the
    arguments — the adjacency counts, the grouped features, the block-diagonal weight, the reciprocal in-degree and the
    masked bias —, and over real entries that grouped evaluation is the layer. -/
theorem h66_val (c : Dev nD)
    (hr : Cert.Spec.InRange (m ((c : Thread nD τ).loc main_arg1)))
    (hx : Cert.Spec.Fin' (S := S64x1000x64) (m ((c : Thread nD τ).loc main_arg0)))
    (hW : Cert.Spec.Fin' (S := S64x64) (m ((c : Thread nD τ).loc main_arg3)))
    (hb : Cert.Spec.Fin' (S := S64) (m ((c : Thread nD τ).loc main_arg4))) :
    W2 m ρ c (Proc.devRef .tc main_call0_v66)
      = Cert.Spec.groupOf (Cert.Spec.hSpec (m ((c : Thread nD τ).loc main_arg0)) (m ((c : Thread nD τ).loc main_arg1))
          (m ((c : Thread nD τ).loc main_arg3)) (m ((c : Thread nD τ).loc main_arg4))) := by
  have h1 : W2 m ρ c (Proc.devRef .tc main_call0_v66) = (dat0 (V1 m ρ) c).arrAt 5 cfg0.N := W2_arr m ρ c 5
  have h2 := arr0_5 (V1 m ρ) c
  have a11 := HostVal.adj11_val (W0 m ρ c) hr
  have a22 : V1 m ρ c main_call0_v22 = Cert.Spec.adjSpec (m ((c : Thread nD τ).loc main_arg1)) := HostVal.adj_val (W0 m ρ c) hr
  have a65 : V1 m ρ c main_call0_v65 = Cert.Spec.groupOf (m ((c : Thread nD τ).loc main_arg0)) := HostVal.xt_val (W0 m ρ c)
  have a62 : V1 m ρ c main_call0_v62 = Cert.Spec.wbigSpec (m ((c : Thread nD τ).loc main_arg3)) := HostVal.wbig_val (W0 m ρ c)
  have a17 : V1 m ρ c main_call0_v17 = Cert.Spec.invdegSpec (m ((c : Thread nD τ).loc main_arg1)) := HostVal.invdeg_of_adj (W0 m ρ c) a11
  have a29 : V1 m ρ c main_call0_v29 = Cert.Spec.biasSpec (m ((c : Thread nD τ).loc main_arg1)) (m ((c : Thread nD τ).loc main_arg4)) := HostVal.bias_of_adj (W0 m ρ c) a11
  rw [h1, h2, a22, a65, a62, a17, a29]
  exact Cert.Spec.hGrouped_eq _ _ _ _ hr hx hW hb

end Cert.KernelIdeal.Fr

end
-- ==== Proof.KI.Chain.lean ====
/- The kernel program's value chain at the extended reals: what its three result buffers hold after the last region,
   as the specification's result functions of the launch memory.

   The buffer contents are followed through the run's fold. Region 0 leaves the message-passing layer's result with
   eight graphs side by side; the host stretch before region 1 takes the groups apart (grouping then ungrouping is the
   identity) and lays each graph's nodes end to end; region 1 is the encoder's rectified dense layer; region 2 the two
   heads, the reparameterised latent and the decoder's rectified dense layer; the last host stretch makes the output
   bias a row; region 3 is the decoder's output layer under the logistic function. Every argument read at a boundary
   holds its launch contents there, and the two heads are written by no later segment. -/
import proofs.«419763_j27925877358777_3_alg».proof.Proof.KI.Run
import proofs.«419763_j27925877358777_3_alg».proof.Proof.KI.HostLayout
import proofs.«419763_j27925877358777_3_alg».proof.Proof.KI.ValR1
import proofs.«419763_j27925877358777_3_alg».proof.Proof.KI.ValR2
import proofs.«419763_j27925877358777_3_alg».proof.Proof.KI.ValR3
import proofs.«419763_j27925877358777_3_alg».proof.Proof.KI.ChainGnn
import proofs.«419763_j27925877358777_3_alg».proof.Proof.GnnMath
import proofs.«419763_j27925877358777_3_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo
open Cert.Spec (InRange)

variable (m : (ℓ : Loc nD τ sig) → Buf (Elt Ideal) ℓ) (ρ : Dev nD → PrngReg) (c : Dev nD)

/-! ## The fifteen arguments' launch contents, at their literal types -/

/-- The node features. -/
abbrev inp0 : (Cert.Spec.T3 64 1000 64).Idx → EReal := m ((c : Thread nD τ).loc main_arg0)
/-- The edge list. -/
abbrev inp1 : Cert.Spec.Edges := m ((c : Thread nD τ).loc main_arg1)
/-- The reparameterisation noise. -/
abbrev inp2 : (Cert.Spec.T2 64 128).Idx → EReal := m ((c : Thread nD τ).loc main_arg2)
/-- The message weight and bias. -/
abbrev inp3 : (Cert.Spec.T2 64 64).Idx → EReal := m ((c : Thread nD τ).loc main_arg3)
abbrev inp4 : (Cert.Spec.T1 64).Idx → EReal := m ((c : Thread nD τ).loc main_arg4)
/-- The encoder's dense layer. -/
abbrev inp5 : (Cert.Spec.T2 64000 512).Idx → EReal := m ((c : Thread nD τ).loc main_arg5)
abbrev inp6 : (Cert.Spec.T1 512).Idx → EReal := m ((c : Thread nD τ).loc main_arg6)
/-- The mean head and the log-variance head. -/
abbrev inp7 : (Cert.Spec.T2 512 128).Idx → EReal := m ((c : Thread nD τ).loc main_arg7)
abbrev inp8 : (Cert.Spec.T1 128).Idx → EReal := m ((c : Thread nD τ).loc main_arg8)
abbrev inp9 : (Cert.Spec.T2 512 128).Idx → EReal := m ((c : Thread nD τ).loc main_arg9)
abbrev inp10 : (Cert.Spec.T1 128).Idx → EReal := m ((c : Thread nD τ).loc main_arg10)
/-- The decoder's two dense layers. -/
abbrev inp11 : (Cert.Spec.T2 128 512).Idx → EReal := m ((c : Thread nD τ).loc main_arg11)
abbrev inp12 : (Cert.Spec.T1 512).Idx → EReal := m ((c : Thread nD τ).loc main_arg12)
abbrev inp13 : (Cert.Spec.T2 512 64000).Idx → EReal := m ((c : Thread nD τ).loc main_arg13)
abbrev inp14 : (Cert.Spec.T1 64000).Idx → EReal := m ((c : Thread nD τ).loc main_arg14)

/-! ## The layer's output, ungrouped and flattened

Region 0 leaves the layer's result with eight graphs side by side; the host stretch before region 1 takes the groups
apart again, and grouping then ungrouping is the identity. -/

/-- What region 0 is shown to leave: the layer's result, grouped. -/
abbrev LayerGrouped : Prop :=
  W2 m ρ c (Proc.devRef .tc main_call0_v66) = Cert.Spec.groupOf (Cert.Spec.hSpec (inp0 m c) (inp1 m c) (inp3 m c) (inp4 m c))

/-- Region 1's left operand: each graph's node features laid end to end. -/
theorem V3_xs (h66 : LayerGrouped m ρ c) :
    V3 m ρ c main_call0_v70 = Cert.Spec.flatOf (Cert.Spec.hSpec (inp0 m c) (inp1 m c) (inp3 m c) (inp4 m c)) := by
  refine (HostVal.xs_val (W2 m ρ c)).trans ?_
  rw [h66, Cert.Spec.ungroup_group]

/-! ## Region 1: the encoder's rectified dense layer -/

theorem W4_he (h66 : LayerGrouped m ρ c) :
    W4 m ρ c (Proc.devRef .tc main_call0_v71)
      = Cert.Spec.heRes (inp0 m c) (inp1 m c) (inp3 m c) (inp4 m c) (inp5 m c) (inp6 m c) := by
  refine (W4_arr m ρ c 3).trans ?_
  refine (arr1_3 (V3 m ρ) c).trans ?_
  rw [V3_xs m ρ c h66, show V3 m ρ c main_arg5 = inp5 m c from W3_main_arg5 m ρ c,
    show V3 m ρ c main_arg6 = inp6 m c from W3_main_arg6 m ρ c]
  rfl

/-! ## Region 2: the two heads, the latent and the decoder's first layer -/

theorem V4_he (h66 : LayerGrouped m ρ c) :
    V4 m ρ c main_call0_v71 = Cert.Spec.heRes (inp0 m c) (inp1 m c) (inp3 m c) (inp4 m c) (inp5 m c) (inp6 m c) :=
  W4_he m ρ c h66

theorem W5_mean (h66 : LayerGrouped m ρ c) :
    W5 m ρ c (Proc.devRef .tc main_v0_1)
      = Cert.Spec.meanRes (inp0 m c) (inp1 m c) (inp3 m c) (inp4 m c) (inp5 m c) (inp6 m c) (inp7 m c) (inp8 m c) := by
  refine (W5_arr m ρ c 8).trans ?_
  refine (arr2_8 (V4 m ρ) c).trans ?_
  rw [V4_he m ρ c h66, show V4 m ρ c main_arg7 = inp7 m c from W4_main_arg7 m ρ c,
    show V4 m ρ c main_arg8 = inp8 m c from W4_main_arg8 m ρ c]
  rfl

theorem W5_logvar (h66 : LayerGrouped m ρ c) :
    W5 m ρ c (Proc.devRef .tc main_v0_2)
      = Cert.Spec.logvarRes (inp0 m c) (inp1 m c) (inp3 m c) (inp4 m c) (inp5 m c) (inp6 m c) (inp9 m c) (inp10 m c) := by
  refine (W5_arr m ρ c 9).trans ?_
  refine (arr2_9 (V4 m ρ) c).trans ?_
  rw [V4_he m ρ c h66, show V4 m ρ c main_arg9 = inp9 m c from W4_main_arg9 m ρ c,
    show V4 m ρ c main_arg10 = inp10 m c from W4_main_arg10 m ρ c]
  rfl

theorem W5_hd (h66 : LayerGrouped m ρ c) :
    W5 m ρ c (Proc.devRef .tc main_call0_v72_2)
      = Cert.Spec.hdRes (inp0 m c) (inp1 m c) (inp2 m c) (inp3 m c) (inp4 m c) (inp5 m c) (inp6 m c) (inp7 m c) (inp8 m c) (inp9 m c) (inp10 m c)
          (inp11 m c) (inp12 m c) := by
  refine (W5_arr m ρ c 10).trans ?_
  refine (arr2_10 (V4 m ρ) c).trans ?_
  rw [V4_he m ρ c h66, show V4 m ρ c main_arg7 = inp7 m c from W4_main_arg7 m ρ c,
    show V4 m ρ c main_arg8 = inp8 m c from W4_main_arg8 m ρ c,
    show V4 m ρ c main_arg9 = inp9 m c from W4_main_arg9 m ρ c,
    show V4 m ρ c main_arg10 = inp10 m c from W4_main_arg10 m ρ c,
    show V4 m ρ c main_arg2 = inp2 m c from W4_main_arg2 m ρ c,
    show V4 m ρ c main_arg11 = inp11 m c from W4_main_arg11 m ρ c,
    show V4 m ρ c main_arg12 = inp12 m c from W4_main_arg12 m ρ c]
  rfl

/-! ## Region 3: the decoder's output layer under the logistic function

The last host stretch writes only the output bias's row; the decoder's hidden layer and the two heads pass it
untouched, and region 3 writes neither head. -/

theorem V6_hd (h66 : LayerGrouped m ρ c) :
    V6 m ρ c main_call0_v72_2
      = Cert.Spec.hdRes (inp0 m c) (inp1 m c) (inp2 m c) (inp3 m c) (inp4 m c) (inp5 m c) (inp6 m c) (inp7 m c) (inp8 m c) (inp9 m c) (inp10 m c)
          (inp11 m c) (inp12 m c) :=
  (W6_of m ρ c main_call0_v72_2 (by decide)).trans (W5_hd m ρ c h66)

/-- The bias row read back as the vector it was made from. -/
theorem V6_bd2 :
    (fun j : (Cert.Spec.T1 64000).Idx => V6 m ρ c main_call0_v73 (ix2 (0 : Fin 1) ⟨(j 0).val, (j 0).isLt⟩)) = inp14 m c := by
  funext j
  refine (congrFun (HostVal.bd2_val (W5 m ρ c)) (ix2 (0 : Fin 1) ⟨(j 0).val, (j 0).isLt⟩)).trans ?_
  show W5 m ρ c (Proc.devRef .tc main_arg14) (ix1 ⟨(j 0).val, (j 0).isLt⟩) = _
  rw [W5_main_arg14 m ρ c]
  exact congrArg _ (eq_ix1 j).symm

theorem W7_xhat (h66 : LayerGrouped m ρ c) :
    W7 m ρ c (Proc.devRef .tc main_v0_0)
      = Cert.Spec.xhatRes (inp0 m c) (inp1 m c) (inp2 m c) (inp3 m c) (inp4 m c) (inp5 m c) (inp6 m c) (inp7 m c) (inp8 m c) (inp9 m c) (inp10 m c)
          (inp11 m c) (inp12 m c) (inp13 m c) (inp14 m c) := by
  refine (W7_arr m ρ c 3).trans ?_
  refine (arr3_3 (V6 m ρ) c).trans ?_
  rw [V6_hd m ρ c h66, V6_bd2 m ρ c, show V6 m ρ c main_arg13 = inp13 m c from W6_main_arg13 m ρ c]
  rfl

theorem W7_mean (h66 : LayerGrouped m ρ c) :
    W7 m ρ c (Proc.devRef .tc main_v0_1)
      = Cert.Spec.meanRes (inp0 m c) (inp1 m c) (inp3 m c) (inp4 m c) (inp5 m c) (inp6 m c) (inp7 m c) (inp8 m c) :=
  (W7_of_ne m ρ c main_v0_1 (by decide)).trans ((W6_of m ρ c main_v0_1 (by decide)).trans (W5_mean m ρ c h66))

theorem W7_logvar (h66 : LayerGrouped m ρ c) :
    W7 m ρ c (Proc.devRef .tc main_v0_2)
      = Cert.Spec.logvarRes (inp0 m c) (inp1 m c) (inp3 m c) (inp4 m c) (inp5 m c) (inp6 m c) (inp9 m c) (inp10 m c) :=
  (W7_of_ne m ρ c main_v0_2 (by decide)).trans ((W6_of m ρ c main_v0_2 (by decide)).trans (W5_logvar m ρ c h66))

/-! ## The three results as functions of the launch memory -/

/-- The reconstruction. -/
theorem xhat_val (hr : InRange (m ((c : Thread nD τ).loc main_arg1))) (hx : Cert.Spec.Fin' (inp0 m c))
    (hW : Cert.Spec.Fin' (inp3 m c)) (hb : Cert.Spec.Fin' (inp4 m c)) :
    W7 m ρ c (Proc.devRef .tc main_v0_0)
      = Cert.Spec.xhatRes (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13))
          (m ((c : Thread nD τ).loc main_arg14)) :=
  W7_xhat m ρ c (h66_val m ρ c hr hx hW hb)

/-- The latent mean. -/
theorem mean_val (hr : InRange (m ((c : Thread nD τ).loc main_arg1))) (hx : Cert.Spec.Fin' (inp0 m c))
    (hW : Cert.Spec.Fin' (inp3 m c)) (hb : Cert.Spec.Fin' (inp4 m c)) :
    W7 m ρ c (Proc.devRef .tc main_v0_1)
      = Cert.Spec.meanRes (m ((c : Thread nD τ).loc main_arg0)) (m ((c : Thread nD τ).loc main_arg1))
          (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) :=
  W7_mean m ρ c (h66_val m ρ c hr hx hW hb)

/-- The latent log-variance. -/
theorem logvar_val (hr : InRange (m ((c : Thread nD τ).loc main_arg1))) (hx : Cert.Spec.Fin' (inp0 m c))
    (hW : Cert.Spec.Fin' (inp3 m c)) (hb : Cert.Spec.Fin' (inp4 m c)) :
    W7 m ρ c (Proc.devRef .tc main_v0_2)
      = Cert.Spec.logvarRes (m ((c : Thread nD τ).loc main_arg0)) (m ((c : Thread nD τ).loc main_arg1))
          (m ((c : Thread nD τ).loc main_arg3)) (m ((c : Thread nD τ).loc main_arg4))
          (m ((c : Thread nD τ).loc main_arg5)) (m ((c : Thread nD τ).loc main_arg6)) (m ((c : Thread nD τ).loc main_arg9))
          (m ((c : Thread nD τ).loc main_arg10)) :=
  W7_logvar m ρ c (h66_val m ρ c hr hx hW hb)

end Cert.KernelIdeal.Fr

end
-- ==== Proof.RefDense.lean ====
/-
  The reference's dense layers, stage by stage, as the specification's functions.

  Each statement reads one stage of the reference at an index in terms of an EARLIER stage, which stays an opaque array:
  the flattening of the layer's output (a reshape: row-major position n · 64 + f of a graph's row is node n's feature f),
  the rectified encoder layer, the two dense heads, the rectified decoder layer on the reparameterised latent, and the
  dense layer under the logistic function.  A dense layer is a sum over the contracted axis plus a broadcast bias; the
  sums are never opened, only their summands' indices are identified with the specification's coordinates.
-/
import proofs.«419763_j27925877358777_3_alg».proof.Proof.Gen.ReferenceIdeal.Read
import proofs.«419763_j27925877358777_3_alg».proof.Proof.Spec

set_option maxRecDepth 16384

noncomputable section

namespace Cert.ReferenceIdeal.RefVal

open Cert.ReferenceIdeal Cert.ReferenceIdeal.Gen Cert.ReferenceIdeal.Read Idealize.ShloMosaic Idealize.ShloMosaic.TcCoe Idealize.ShloMosaic.ValueIdx

variable (x0 : (⟨S64x1000x64, .f32⟩ : BufTy).Contents (Elt Ideal)) (x1 : (⟨S2x32000, .i32⟩ : BufTy).Contents (Elt Ideal)) (x2 : (⟨S64x128, .f32⟩ : BufTy).Contents (Elt Ideal)) (x3 : (⟨S64x64, .f32⟩ : BufTy).Contents (Elt Ideal)) (x4 : (⟨S64, .f32⟩ : BufTy).Contents (Elt Ideal)) (x5 : (⟨S64000x512, .f32⟩ : BufTy).Contents (Elt Ideal)) (x6 : (⟨S512, .f32⟩ : BufTy).Contents (Elt Ideal)) (x7 : (⟨S512x128, .f32⟩ : BufTy).Contents (Elt Ideal)) (x8 : (⟨S128, .f32⟩ : BufTy).Contents (Elt Ideal)) (x9 : (⟨S512x128, .f32⟩ : BufTy).Contents (Elt Ideal)) (x10 : (⟨S128, .f32⟩ : BufTy).Contents (Elt Ideal)) (x11 : (⟨S128x512, .f32⟩ : BufTy).Contents (Elt Ideal)) (x12 : (⟨S512, .f32⟩ : BufTy).Contents (Elt Ideal)) (x13 : (⟨S512x64000, .f32⟩ : BufTy).Contents (Elt Ideal)) (x14 : (⟨S64000, .f32⟩ : BufTy).Contents (Elt Ideal))

/-! ## The flattening -/

/-- Where the reshape reads: position (b, c) of the flat array is node c / 64's feature c % 64 of graph b, because the
    row-major position b · 64000 + c splits as (b · 1000 + c / 64) · 64 + c % 64. -/
theorem flat_idx (i : S64x64000.Idx) :
    idx_main_v43 i = ix3 (⟨(i 0).val, (i 0).isLt⟩ : Fin 64)
      (⟨(i 1).val / 64, by have h1 : (i 1).val < 64000 := (i 1).isLt; omega⟩ : Fin 1000)
      (⟨(i 1).val % 64, Nat.mod_lt _ (by decide)⟩ : Fin 64) := by
  have h0 : (i 0).val < 64 := (i 0).isLt
  have h1 : (i 1).val < 64000 := (i 1).isLt
  funext a
  apply Fin.ext
  match a with
  | ⟨0, _⟩ => show ((i 0).val * 64000 + (i 1).val) / 64000 = (i 0).val; omega
  | ⟨1, _⟩ => show ((i 0).val * 64000 + (i 1).val) / 64 % 1000 = (i 1).val / 64; omega
  | ⟨2, _⟩ => show ((i 0).val * 64000 + (i 1).val) % 64 = (i 1).val % 64; omega

theorem xs_ref : val_main_v43 (F := Ideal) x0 x1 x3 x4 = Cert.Spec.flatOf (val_main_v42 (F := Ideal) x0 x1 x3 x4) := by
  funext i
  rw [val_main_v43_apply, flat_idx]
  rfl

/-! ## The encoder layer -/

/-- The contraction reads the left operand along row i₀ … -/
theorem enc_lidx (i : S64x512.Idx) (k : Fin 64000) :
    lidx_main_v44 i k = ix2 (⟨(i 0).val, (i 0).isLt⟩ : Fin 64) k :=
  funext fun a => match a with | ⟨0, _⟩ => rfl | ⟨1, _⟩ => rfl
/-- … and the weight down column i₁. -/
theorem enc_ridx (i : S64x512.Idx) (k : Fin 64000) :
    ridx_main_v44 i k = ix2 k (⟨(i 1).val, (i 1).isLt⟩ : Fin 512) :=
  funext fun a => match a with | ⟨0, _⟩ => rfl | ⟨1, _⟩ => rfl
/-- The bias, broadcast over the rows, is read at the column. -/
theorem enc_bidx (i : S64x512.Idx) :
    idx_main_v45 (idx_main_v46 i) = ix1 (⟨(i 1).val, (i 1).isLt⟩ : Fin 512) :=
  funext fun a => match a with | ⟨0, _⟩ => rfl

theorem he_ref : val_main_v48 (F := Ideal) x0 x1 x3 x4 x5 x6 = Cert.Spec.encOf (val_main_v43 (F := Ideal) x0 x1 x3 x4) x5 x6 := by
  funext i
  rw [val_main_v48_apply, val_main_v47_apply, val_main_v44_apply, val_main_v46_apply, val_main_v45_apply,
    val_main_call1_v0_apply, val_main_call1_cst_apply]
  generalize val_main_v43 (F := Ideal) x0 x1 x3 x4 = xs
  simp only [enc_lidx, enc_ridx, enc_bidx, Ideal.maximumf_def, Ideal.addf_def, Ideal.ofBits_def]
  rfl

/-! ## The two dense heads -/

theorem mean_lidx (i : S64x128.Idx) (k : Fin 512) :
    lidx_main_v49 i k = ix2 (⟨(i 0).val, (i 0).isLt⟩ : Fin 64) k :=
  funext fun a => match a with | ⟨0, _⟩ => rfl | ⟨1, _⟩ => rfl
theorem mean_ridx (i : S64x128.Idx) (k : Fin 512) :
    ridx_main_v49 i k = ix2 k (⟨(i 1).val, (i 1).isLt⟩ : Fin 128) :=
  funext fun a => match a with | ⟨0, _⟩ => rfl | ⟨1, _⟩ => rfl
theorem mean_bidx (i : S64x128.Idx) :
    idx_main_v50 (idx_main_v51 i) = ix1 (⟨(i 1).val, (i 1).isLt⟩ : Fin 128) :=
  funext fun a => match a with | ⟨0, _⟩ => rfl

theorem mean_ref : val_main_v52 (F := Ideal) x0 x1 x3 x4 x5 x6 x7 x8 = Cert.Spec.linOf (val_main_v48 (F := Ideal) x0 x1 x3 x4 x5 x6) x7 x8 := by
  funext i
  rw [val_main_v52_apply, val_main_v49_apply, val_main_v51_apply, val_main_v50_apply]
  generalize val_main_v48 (F := Ideal) x0 x1 x3 x4 x5 x6 = he
  simp only [mean_lidx, mean_ridx, mean_bidx, Ideal.addf_def]
  rfl

theorem lv_lidx (i : S64x128.Idx) (k : Fin 512) :
    lidx_main_v53 i k = ix2 (⟨(i 0).val, (i 0).isLt⟩ : Fin 64) k :=
  funext fun a => match a with | ⟨0, _⟩ => rfl | ⟨1, _⟩ => rfl
theorem lv_ridx (i : S64x128.Idx) (k : Fin 512) :
    ridx_main_v53 i k = ix2 k (⟨(i 1).val, (i 1).isLt⟩ : Fin 128) :=
  funext fun a => match a with | ⟨0, _⟩ => rfl | ⟨1, _⟩ => rfl
theorem lv_bidx (i : S64x128.Idx) :
    idx_main_v54 (idx_main_v55 i) = ix1 (⟨(i 1).val, (i 1).isLt⟩ : Fin 128) :=
  funext fun a => match a with | ⟨0, _⟩ => rfl

theorem lv_ref : val_main_v56 (F := Ideal) x0 x1 x3 x4 x5 x6 x9 x10 = Cert.Spec.linOf (val_main_v48 (F := Ideal) x0 x1 x3 x4 x5 x6) x9 x10 := by
  funext i
  rw [val_main_v56_apply, val_main_v53_apply, val_main_v55_apply, val_main_v54_apply]
  generalize val_main_v48 (F := Ideal) x0 x1 x3 x4 x5 x6 = he
  simp only [lv_lidx, lv_ridx, lv_bidx, Ideal.addf_def]
  rfl

/-! ## The decoder's hidden layer on the reparameterised latent -/

theorem dec_lidx (i : S64x512.Idx) (k : Fin 128) :
    lidx_main_v62 i k = ix2 (⟨(i 0).val, (i 0).isLt⟩ : Fin 64) k :=
  funext fun a => match a with | ⟨0, _⟩ => rfl | ⟨1, _⟩ => rfl
theorem dec_ridx (i : S64x512.Idx) (k : Fin 128) :
    ridx_main_v62 i k = ix2 k (⟨(i 1).val, (i 1).isLt⟩ : Fin 512) :=
  funext fun a => match a with | ⟨0, _⟩ => rfl | ⟨1, _⟩ => rfl
theorem dec_bidx (i : S64x512.Idx) :
    idx_main_v63 (idx_main_v64 i) = ix1 (⟨(i 1).val, (i 1).isLt⟩ : Fin 512) :=
  funext fun a => match a with | ⟨0, _⟩ => rfl

/-- The latent at an index: mean + exp(½ · logvar) · eps, the half being the reference's own word. -/
theorem latent_at (j : S64x128.Idx) :
    val_main_v61 (F := Ideal) x0 x1 x2 x3 x4 x5 x6 x7 x8 x9 x10 j
      = Cert.Spec.latentOf (val_main_v52 (F := Ideal) x0 x1 x3 x4 x5 x6 x7 x8) (val_main_v56 (F := Ideal) x0 x1 x3 x4 x5 x6 x9 x10) x2 j := by
  rw [val_main_v61_apply, val_main_v60_apply, val_main_v59_apply, val_main_v58_apply, val_main_v57_apply, val_main_cst_10_apply]
  generalize val_main_v52 (F := Ideal) x0 x1 x3 x4 x5 x6 x7 x8 = mean
  generalize val_main_v56 (F := Ideal) x0 x1 x3 x4 x5 x6 x9 x10 = lv
  simp only [Ideal.addf_def, Ideal.mulf_def, Ideal.hostUnary_exp_def, Ideal.ofBits_def]
  rfl

theorem hd_ref : val_main_v66 (F := Ideal) x0 x1 x2 x3 x4 x5 x6 x7 x8 x9 x10 x11 x12
    = Cert.Spec.decHidOf (Cert.Spec.latentOf (val_main_v52 (F := Ideal) x0 x1 x3 x4 x5 x6 x7 x8) (val_main_v56 (F := Ideal) x0 x1 x3 x4 x5 x6 x9 x10) x2) x11 x12 := by
  have hz : val_main_v61 (F := Ideal) x0 x1 x2 x3 x4 x5 x6 x7 x8 x9 x10
      = Cert.Spec.latentOf (val_main_v52 (F := Ideal) x0 x1 x3 x4 x5 x6 x7 x8) (val_main_v56 (F := Ideal) x0 x1 x3 x4 x5 x6 x9 x10) x2 :=
    funext fun j => latent_at x0 x1 x2 x3 x4 x5 x6 x7 x8 x9 x10 j
  funext i
  rw [val_main_v66_apply, val_main_v65_apply, val_main_v62_apply, val_main_v64_apply, val_main_v63_apply,
    val_main_call2_v0_apply, val_main_call2_cst_apply, hz]
  generalize Cert.Spec.latentOf (val_main_v52 (F := Ideal) x0 x1 x3 x4 x5 x6 x7 x8) (val_main_v56 (F := Ideal) x0 x1 x3 x4 x5 x6 x9 x10) x2 = z
  simp only [dec_lidx, dec_ridx, dec_bidx, Ideal.maximumf_def, Ideal.addf_def, Ideal.ofBits_def]
  rfl

/-! ## The output layer under the logistic function -/

/-- The word 0x3F800000 denotes one: sign 0, biased exponent 127, zero fraction. -/
theorem ofBits_one : Ideal.ofBits .f32 0x3F800000#32 = 1 := by
  simp [Ideal.ofBits, Ideal.ieee, -EReal.coe_mul]; norm_num

theorem out_lidx (i : S64x64000.Idx) (k : Fin 512) :
    lidx_main_v67 i k = ix2 (⟨(i 0).val, (i 0).isLt⟩ : Fin 64) k :=
  funext fun a => match a with | ⟨0, _⟩ => rfl | ⟨1, _⟩ => rfl
theorem out_ridx (i : S64x64000.Idx) (k : Fin 512) :
    ridx_main_v67 i k = ix2 k (⟨(i 1).val, (i 1).isLt⟩ : Fin 64000) :=
  funext fun a => match a with | ⟨0, _⟩ => rfl | ⟨1, _⟩ => rfl
theorem out_bidx (i : S64x64000.Idx) :
    idx_main_v68 (idx_main_v69 i) = ix1 (⟨(i 1).val, (i 1).isLt⟩ : Fin 64000) :=
  funext fun a => match a with | ⟨0, _⟩ => rfl

theorem xhat_ref : val_main_v76 (F := Ideal) x0 x1 x2 x3 x4 x5 x6 x7 x8 x9 x10 x11 x12 x13 x14
    = Cert.Spec.outOf (val_main_v66 (F := Ideal) x0 x1 x2 x3 x4 x5 x6 x7 x8 x9 x10 x11 x12) x13 x14 := by
  funext i
  rw [val_main_v76_apply, val_main_v75_apply, val_main_cst_12_apply, val_main_v74_apply, val_main_v73_apply,
    val_main_cst_11_apply, val_main_v72_apply, val_main_v71_apply, val_main_v70_apply, val_main_v67_apply,
    val_main_v69_apply, val_main_v68_apply]
  generalize val_main_v66 (F := Ideal) x0 x1 x2 x3 x4 x5 x6 x7 x8 x9 x10 x11 x12 = hd
  simp only [out_lidx, out_ridx, out_bidx, Ideal.hostDivf_def, Ideal.addf_def, Ideal.hostUnary_exp_def, Ideal.hostNegf_def,
    Ideal.negf_def, Ideal.ofBits_def, ofBits_one]
  rfl

end Cert.ReferenceIdeal.RefVal

end
-- ==== Proof.RefResults.lean ====
/-
  The reference's three results as the specification's result functions of the fifteen arguments, first for the stages
  as functions of argument arrays, then at the names the run gives its result buffers.  The message-passing stage enters
  as a hypothesis (it holds for an edge list in range); everything after it is the chain of dense layers.
-/
import proofs.«419763_j27925877358777_3_alg».proof.Proof.RefDense

set_option maxRecDepth 16384

noncomputable section

namespace Cert.ReferenceIdeal.RefVal

open Cert.ReferenceIdeal Cert.ReferenceIdeal.Gen Cert.ReferenceIdeal.Read Idealize.ShloMosaic Idealize.ShloMosaic.TcCoe Idealize.ShloMosaic.ValueIdx Idealize.SL.Sem

variable (x0 : (⟨S64x1000x64, .f32⟩ : BufTy).Contents (Elt Ideal)) (x1 : (⟨S2x32000, .i32⟩ : BufTy).Contents (Elt Ideal)) (x2 : (⟨S64x128, .f32⟩ : BufTy).Contents (Elt Ideal)) (x3 : (⟨S64x64, .f32⟩ : BufTy).Contents (Elt Ideal)) (x4 : (⟨S64, .f32⟩ : BufTy).Contents (Elt Ideal)) (x5 : (⟨S64000x512, .f32⟩ : BufTy).Contents (Elt Ideal)) (x6 : (⟨S512, .f32⟩ : BufTy).Contents (Elt Ideal)) (x7 : (⟨S512x128, .f32⟩ : BufTy).Contents (Elt Ideal)) (x8 : (⟨S128, .f32⟩ : BufTy).Contents (Elt Ideal)) (x9 : (⟨S512x128, .f32⟩ : BufTy).Contents (Elt Ideal)) (x10 : (⟨S128, .f32⟩ : BufTy).Contents (Elt Ideal)) (x11 : (⟨S128x512, .f32⟩ : BufTy).Contents (Elt Ideal)) (x12 : (⟨S512, .f32⟩ : BufTy).Contents (Elt Ideal)) (x13 : (⟨S512x64000, .f32⟩ : BufTy).Contents (Elt Ideal)) (x14 : (⟨S64000, .f32⟩ : BufTy).Contents (Elt Ideal))

/-! ## The three results as functions of the fifteen arguments

  The stages chain: the layer's output (the hypothesis hh: the reference's message-passing stage is the specification's
  layer), flattened, through the encoder, the two heads, the latent, the decoder's hidden layer and the output layer.
  Each result function of the specification is this chain of the same dense-layer functions, so the equalities are
  substitutions. -/

theorem mean_res (hh : val_main_v42 (F := Ideal) x0 x1 x3 x4 = Cert.Spec.hSpec x0 x1 x3 x4) :
    val_main_v52 (F := Ideal) x0 x1 x3 x4 x5 x6 x7 x8 = Cert.Spec.meanRes x0 x1 x3 x4 x5 x6 x7 x8 := by
  rw [mean_ref, he_ref, xs_ref, hh]
  rfl

theorem logvar_res (hh : val_main_v42 (F := Ideal) x0 x1 x3 x4 = Cert.Spec.hSpec x0 x1 x3 x4) :
    val_main_v56 (F := Ideal) x0 x1 x3 x4 x5 x6 x9 x10 = Cert.Spec.logvarRes x0 x1 x3 x4 x5 x6 x9 x10 := by
  rw [lv_ref, he_ref, xs_ref, hh]
  rfl

theorem xhat_res (hh : val_main_v42 (F := Ideal) x0 x1 x3 x4 = Cert.Spec.hSpec x0 x1 x3 x4) :
    val_main_v76 (F := Ideal) x0 x1 x2 x3 x4 x5 x6 x7 x8 x9 x10 x11 x12 x13 x14
      = Cert.Spec.xhatRes x0 x1 x2 x3 x4 x5 x6 x7 x8 x9 x10 x11 x12 x13 x14 := by
  rw [xhat_ref, hd_ref, mean_res x0 x1 x3 x4 x5 x6 x7 x8 hh, logvar_res x0 x1 x3 x4 x5 x6 x9 x10 hh]
  rfl

/-! ## The same at the run's names

  The run leaves each result buffer at the stage's value of the arguments' launch contents. -/

theorem xhat_run (m : (ℓ : Loc nD τ sig) → Buf (Elt Ideal) ℓ) (c : Dev nD)
    (hh : val_main_v42 (F := Ideal) (m ((c.tc : Thread nD τ).loc main_arg0)) (m ((c.tc : Thread nD τ).loc main_arg1)) (m ((c.tc : Thread nD τ).loc main_arg3)) (m ((c.tc : Thread nD τ).loc main_arg4)) = Cert.Spec.hSpec (m ((c.tc : Thread nD τ).loc main_arg0)) (m ((c.tc : Thread nD τ).loc main_arg1)) (m ((c.tc : Thread nD τ).loc main_arg3)) (m ((c.tc : Thread nD τ).loc main_arg4))) :
    Cert.ReferenceIdeal.Value.res_main_v76 m c = Cert.Spec.xhatRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (val_main_v76_eq m c).trans (xhat_res _ _ _ _ _ _ _ _ _ _ _ _ _ _ _ hh)

theorem mean_run (m : (ℓ : Loc nD τ sig) → Buf (Elt Ideal) ℓ) (c : Dev nD)
    (hh : val_main_v42 (F := Ideal) (m ((c.tc : Thread nD τ).loc main_arg0)) (m ((c.tc : Thread nD τ).loc main_arg1)) (m ((c.tc : Thread nD τ).loc main_arg3)) (m ((c.tc : Thread nD τ).loc main_arg4)) = Cert.Spec.hSpec (m ((c.tc : Thread nD τ).loc main_arg0)) (m ((c.tc : Thread nD τ).loc main_arg1)) (m ((c.tc : Thread nD τ).loc main_arg3)) (m ((c.tc : Thread nD τ).loc main_arg4))) :
    Cert.ReferenceIdeal.Value.res_main_v52 m c = Cert.Spec.meanRes (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (val_main_v52_eq m c).trans (mean_res _ _ _ _ _ _ _ _ hh)

theorem logvar_run (m : (ℓ : Loc nD τ sig) → Buf (Elt Ideal) ℓ) (c : Dev nD)
    (hh : val_main_v42 (F := Ideal) (m ((c.tc : Thread nD τ).loc main_arg0)) (m ((c.tc : Thread nD τ).loc main_arg1)) (m ((c.tc : Thread nD τ).loc main_arg3)) (m ((c.tc : Thread nD τ).loc main_arg4)) = Cert.Spec.hSpec (m ((c.tc : Thread nD τ).loc main_arg0)) (m ((c.tc : Thread nD τ).loc main_arg1)) (m ((c.tc : Thread nD τ).loc main_arg3)) (m ((c.tc : Thread nD τ).loc main_arg4))) :
    Cert.ReferenceIdeal.Value.res_main_v56 m c = Cert.Spec.logvarRes (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) :=
  (val_main_v56_eq m c).trans (logvar_res _ _ _ _ _ _ _ _ hh)

end Cert.ReferenceIdeal.RefVal

end
-- ==== Proof.RefGather.lean ====
/-
  Two reads of the reference that depend on the edge list's values, for an edge list in range.

  The gather `x[:, src, :]`: result entry (b, e, f) is the operand at (b, s, f), where s is edge e's start index read
  signed and clamped into [0, 999]. The start index is the source word with 1000 added where the word is negative read
  signed; a word below 1000 is not negative, so the start is the source itself, the clamp does nothing, and the source is
  its own residue modulo 1000.

  The in-degree: a scatter of ones into zeros by `add`, one update per edge, at the edge's destination word read signed
  and NOT clamped (an update outside [0, 1000) is dropped). Entry n of the result is zero plus the sum of one over the
  updates that land at n; update e lands at n exactly when its destination word is n, and the destination word of an edge
  list in range is the destination itself. The updates are indexed by rank-1 indices, the edges by numbers below 32000:
  the two index sets correspond by the coordinate.
-/
import proofs.«419763_j27925877358777_3_alg».proof.Proof.Gen.ReferenceIdeal.Read
import proofs.«419763_j27925877358777_3_alg».proof.Proof.Spec
import Idealize.ShloMosaic.Lib.StableHlo.Predicate
import Idealize.ShloMosaic.Lib.ValueIdxRank1

set_option maxRecDepth 16384

noncomputable section

open scoped BigOperators

namespace Cert.ReferenceIdeal.RefVal

open Cert.ReferenceIdeal Cert.ReferenceIdeal.Gen Cert.ReferenceIdeal.Read Idealize.ShloMosaic Idealize.ShloMosaic.TcCoe Idealize.ShloMosaic.ValueIdx

/-! ## The gather's operand index, axis by axis -/

section Hand
variable {α : Type} {w : Nat}

abbrev gD := gather_S64x1000x64_S32000x1_S64x32000x64_02_1_n_n_1_1_64164

theorem gD_start_0 (j : S64x32000x64.Idx) (idx : IVec S32000x1 w) : gD.start j idx 0 = 0 := by
  unfold GatherDims.start
  rw [dif_neg (show ¬ (0 : Fin S64x1000x64.rank) ∈ gD.startIndexMap by decide)]
theorem gD_start_2 (j : S64x32000x64.Idx) (idx : IVec S32000x1 w) : gD.start j idx 2 = 0 := by
  unfold GatherDims.start
  rw [dif_neg (show ¬ (2 : Fin S64x1000x64.rank) ∈ gD.startIndexMap by decide)]
theorem gD_start_1 (j : S64x32000x64.Idx) (idx : IVec S32000x1 w) :
    gD.start j idx 1 = min (idx (ix2 (⟨(j 1).val, (j 1).isLt⟩ : Fin 32000) (0 : Fin 1))).toInt.toNat 999 := by
  unfold GatherDims.start
  rw [dif_pos (show (1 : Fin S64x1000x64.rank) ∈ gD.startIndexMap by decide)]
  have hsi : gD.siIdx j ⟨List.idxOf (1 : Fin S64x1000x64.rank) gD.startIndexMap,
      List.idxOf_lt_length_iff.2 (show (1 : Fin S64x1000x64.rank) ∈ gD.startIndexMap by decide)⟩
      = ix2 (⟨(j 1).val, (j 1).isLt⟩ : Fin 32000) (0 : Fin 1) := by
    funext c; refine Fin.ext ?_
    match c with
    | ⟨0, _⟩ => rfl
    | ⟨1, _⟩ => rfl
  rw [hsi]
  rfl
theorem gD_off_0 (j : S64x32000x64.Idx) : gD.offCoord j 0 = (j 0).val := by
  unfold GatherDims.offCoord
  rw [dif_pos (show (0 : Fin S64x1000x64.rank) ∈ gD.sKept by decide)]
  rfl
theorem gD_off_1 (j : S64x32000x64.Idx) : gD.offCoord j 1 = 0 :=
  GatherDims.offCoord_eq_zero _ _ _ (by decide)
theorem gD_off_2 (j : S64x32000x64.Idx) : gD.offCoord j 2 = (j 2).val := by
  unfold GatherDims.offCoord
  rw [dif_pos (show (2 : Fin S64x1000x64.rank) ∈ gD.sKept by decide)]
  rfl

/-- The gather at (b, e, f) is the operand at (b, s, f), s edge e's start index read signed and clamped into [0, 999]. -/
theorem gather_at (x : S64x1000x64.Idx → α) (idx : IVec S32000x1 w) (b : Fin 64) (e : Fin 32000) (f : Fin 64) :
    Host.gather gather_S64x1000x64_S32000x1_S64x32000x64_02_1_n_n_1_1_64164 x idx (ix3 b e f)
      = x (ix3 b ⟨min (idx (ix2 e (0 : Fin 1))).toInt.toNat 999, by omega⟩ f) := by
  unfold Host.gather
  congr 1
  funext a
  refine Fin.ext ?_
  show gD.start (ix3 b e f) idx a + gD.batchCoord (ix3 b e f) a + gD.offCoord (ix3 b e f) a = _
  rw [GatherDims.batchCoord_eq_zero _ _ _ List.not_mem_nil, Nat.add_zero]
  match a with
  | ⟨0, _⟩ => exact (congrArg₂ (· + ·) (gD_start_0 _ _) (gD_off_0 _)).trans (Nat.zero_add _)
  | ⟨1, _⟩ => exact (congrArg₂ (· + ·) (gD_start_1 _ _) (gD_off_1 _)).trans (Nat.add_zero _)
  | ⟨2, _⟩ => exact (congrArg₂ (· + ·) (gD_start_2 _ _) (gD_off_2 _)).trans (Nat.zero_add _)

end Hand

/-! ## The index words of an edge list in range -/

/-- A word below 1000 is not negative read signed: adding 1000 where it is negative leaves it as it is. -/
theorem norm_word (v : BitVec 32) (hv : v.toNat < 1000) :
    Scalar.select (IntOp.cmpi .slt v 0#32) (IntOp.addi v 1000#32) v = v := by
  have h0 : IntOp.cmpi .slt v 0#32 = 0#1 := by
    apply eq_zero_of_ne_one
    rw [StableHlo.Predicate.slt_iff_toNat (by omega) (by decide)]
    show ¬ v.toNat < 0
    omega
  rw [h0, select_zero]

/-- A word below 1000 read signed is its value. -/
theorem toInt_small (v : BitVec 32) (hv : v.toNat < 1000) : v.toInt = v.toNat :=
  StableHlo.Predicate.toInt_eq_toNat_of_lt (by omega)

variable (x0 : (⟨S64x1000x64, .f32⟩ : BufTy).Contents (Elt Ideal)) (x1 : (⟨S2x32000, .i32⟩ : BufTy).Contents (Elt Ideal))

/-- Row 0 of the edge list, flattened, at e. -/
theorem src_row (e : Fin 32000) : val_main_v1 (F := Ideal) x1 (ix1 e) = x1 (ix2 (0 : Fin 2) e) := by
  rw [val_main_v1_apply, val_main_v0_apply]
  congr 1
  funext a
  refine Fin.ext ?_
  match a with
  | ⟨0, _⟩ => rfl
  | ⟨1, _⟩ => exact Nat.mod_eq_of_lt e.isLt

/-- Row 1 of the edge list, flattened, at e. -/
theorem dst_row (e : Fin 32000) : val_main_v3 (F := Ideal) x1 (ix1 e) = x1 (ix2 (1 : Fin 2) e) := by
  rw [val_main_v3_apply, val_main_v2_apply]
  congr 1
  funext a
  refine Fin.ext ?_
  match a with
  | ⟨0, _⟩ => rfl
  | ⟨1, _⟩ => exact Nat.mod_eq_of_lt e.isLt

/-- The gather's start index for edge e is the source word. -/
theorem src_word (hr : Cert.Spec.InRange x1) (e : Fin 32000) :
    val_main_v9 (F := Ideal) x1 (ix2 e (0 : Fin 1)) = x1 (ix2 (0 : Fin 2) e) := by
  rw [val_main_v9_apply]
  show val_main_v8 (F := Ideal) x1 (ix1 e) = _
  rw [val_main_v8_apply, val_main_v5_apply, val_main_v7_apply, src_row]
  exact norm_word _ (hr 0 e)

/-- THE GATHER: entry (b, e, f) is the node features at (b, source of e, f). -/
theorem gather_ref (hr : Cert.Spec.InRange x1) (b : Fin 64) (e : Fin 32000) (f : Fin 64) :
    val_main_v10 (F := Ideal) x0 x1 (ix3 b e f) = x0 (ix3 b (Cert.Spec.srcF x1 e) f) := by
  unfold val_main_v10
  rw [gather_at]
  have hk : (⟨min (val_main_v9 (F := Ideal) x1 (ix2 e (0 : Fin 1))).toInt.toNat 999, by omega⟩ : Fin 1000) = Cert.Spec.srcF x1 e := by
    refine Fin.ext ?_
    have h := hr 0 e
    show min (val_main_v9 (F := Ideal) x1 (ix2 e (0 : Fin 1))).toInt.toNat 999 = (x1 (ix2 (0 : Fin 2) e)).toNat % 1000
    rw [src_word x1 hr e, toInt_small _ h]
    omega
  rw [hk]

end Cert.ReferenceIdeal.RefVal

end
-- ==== Proof.RefDeg.lean ====
/-
  The reference's in-degree, for an edge list in range.

  The in-degree is a scatter of ones into zeros by `add`, one update per edge, at the edge's destination word read signed
  and NOT clamped (an update outside [0, 1000) is dropped). Entry n of the result is zero plus the sum of one over the
  updates that land at n. Update e lands at n exactly when its index word, read signed, is n: the scatter is a point
  scatter, so the landing index is the start alone. The index word is the destination word with 1000 added where it is
  negative read signed; a word below 1000 is not negative, so the index word is the destination itself and, read signed,
  its value. The updates are indexed by rank-1 indices, the edges by numbers below 32000: the two index sets correspond
  by the coordinate, and the sum over the one is the sum over the other.
-/
import proofs.«419763_j27925877358777_3_alg».proof.Proof.RefGather
import proofs.«419763_j27925877358777_3_alg».proof.Proof.Gen.ReferenceIdeal.Read
import proofs.«419763_j27925877358777_3_alg».proof.Proof.Spec
import Idealize.ShloMosaic.Lib.ValueIdxRank1

set_option maxRecDepth 16384

noncomputable section

open scoped BigOperators

namespace Cert.ReferenceIdeal.RefVal

open Cert.ReferenceIdeal Cert.ReferenceIdeal.Gen Cert.ReferenceIdeal.Read Idealize.ShloMosaic Idealize.ShloMosaic.TcCoe Idealize.ShloMosaic.ValueIdx

variable (x1 : (⟨S2x32000, .i32⟩ : BufTy).Contents (Elt Ideal))

/-! ## The in-degree scatter -/

section Scatter
variable {w : Nat}

abbrev sD := scatter_S1000_S32000x1_S32000_n_0_0_1

/-- Update e's start on the operand's one axis is its index word read signed. -/
theorem sD_start (idx : IVec S32000x1 w) (e : Fin 32000) :
    sD.start (ix1 e) idx 0 = (idx (ix2 e (0 : Fin 1))).toInt := by
  unfold ScatterDims.start
  rw [dif_pos (show (0 : Fin S1000.rank) ∈ sD.scatterDimsToOperandDims by decide)]
  have hsi : sD.siIdx (ix1 e) ⟨List.idxOf (0 : Fin S1000.rank) sD.scatterDimsToOperandDims,
      List.idxOf_lt_length_iff.2 (show (0 : Fin S1000.rank) ∈ sD.scatterDimsToOperandDims by decide)⟩
      = ix2 e (0 : Fin 1) := by
    funext c; refine Fin.ext ?_
    match c with
    | ⟨0, _⟩ => rfl
    | ⟨1, _⟩ => rfl
  rw [hsi]

/-- A point scatter: no window coordinate. -/
theorem sD_window (j : S32000.Idx) : sD.window j 0 = 0 := by
  unfold ScatterDims.window
  rw [dif_neg (show ¬ (0 : Fin S1000.rank) ∈ sD.sKept by decide)]

/-- Update e lands at n exactly when its index word, read signed, is n. -/
theorem sD_lands (idx : IVec S32000x1 w) (e : Fin 32000) (n : Fin 1000) :
    sD.resultIdx? (ix1 e) idx = some (ix1 n) ↔ (idx (ix2 e (0 : Fin 1))).toInt = (n.val : Int) := by
  have hn := n.isLt
  unfold ScatterDims.resultIdx?
  constructor
  · intro h
    split at h
    · rename_i hin
      have h1 := congrArg Fin.val (congrFun (Option.some.inj h) 0)
      have h2 := hin 0
      rw [sD_start, sD_window] at h2
      change (sD.start (ix1 e) idx 0 + (sD.window (ix1 e) 0 : Int)).toNat = n.val at h1
      rw [sD_start, sD_window] at h1
      omega
    · exact absurd h (by simp)
  · intro h
    have hin : ∀ a, 0 ≤ sD.start (ix1 e) idx a + (sD.window (ix1 e) a : Int) ∧ sD.start (ix1 e) idx a + (sD.window (ix1 e) a : Int) < (S1000.size a : Int) := by
      intro a
      obtain rfl : a = 0 := Subsingleton.elim _ _
      rw [sD_start, sD_window, h]
      show 0 ≤ (n.val : Int) + ((0 : Nat) : Int) ∧ (n.val : Int) + ((0 : Nat) : Int) < ((1000 : Nat) : Int)
      omega
    rw [dif_pos hin]
    congr 1
    funext a
    obtain rfl : a = 0 := Subsingleton.elim _ _
    refine Fin.ext ?_
    show (sD.start (ix1 e) idx 0 + (sD.window (ix1 e) 0 : Int)).toNat = n.val
    rw [sD_start, sD_window, h]
    omega

end Scatter

/-- The scatter's index for edge e is the destination word. -/
theorem dst_word (hr : Cert.Spec.InRange x1) (e : Fin 32000) :
    val_main_v29 (F := Ideal) x1 (ix2 e (0 : Fin 1)) = x1 (ix2 (1 : Fin 2) e) := by
  rw [val_main_v29_apply]
  show val_main_v28 (F := Ideal) x1 (ix1 e) = _
  rw [val_main_v28_apply, val_main_v25_apply, val_main_v27_apply, dst_row]
  exact norm_word _ (hr 1 e)

/-- THE IN-DEGREE: entry n is zero plus one for every edge into n. -/
theorem deg_ref (hr : Cert.Spec.InRange x1) (n : Fin 1000) :
    val_main_v31 (F := Ideal) x1 (ix1 n) = Cert.Spec.zeroW + ∑ _e ∈ Cert.Spec.edgesInto x1 n, Cert.Spec.oneW := by
  show Ideal.hostScatterAdd sD (val_main_v23 (F := Ideal)) (val_main_v29 (F := Ideal) x1) (val_main_v30 (F := Ideal)) (ix1 n) = _
  unfold Ideal.hostScatterAdd
  refine congrArg₂ (· + ·) (by rw [val_main_v23_apply]; rfl) ?_
  unfold Cert.Spec.edgesInto
  refine Finset.sum_equiv idxEquiv1 (fun j => ?_) (fun j _ => rfl)
  obtain ⟨e, rfl⟩ : ∃ e : Fin 32000, j = ix1 e := ⟨j 0, eq_ix1 j⟩
  simp only [Finset.mem_filter, Finset.mem_univ, true_and]
  rw [sD_lands, dst_word x1 hr e, toInt_small _ (hr 1 e)]
  show ((x1 (ix2 (1 : Fin 2) e)).toNat : Int) = (n.val : Int) ↔ Cert.Spec.dstN x1 e = n.val
  unfold Cert.Spec.dstN
  omega

end Cert.ReferenceIdeal.RefVal

end
-- ==== Proof.RefGnn.lean ====
/-
  The reference's message-passing layer, operation by operation, is the specification's function hSpec.

  The messages (the gathered source row times the weight, plus the bias) are accumulated at their edges' destination nodes:
  an update (b', e, g') lands on element (b, n, g) exactly when b' = b, g' = g and edge e's destination is n, so the
  accumulated array at (b, n, g) is the sum of the messages (b, e, g) over the edges e into n.  Divided by the in-degree
  (at least one), with the node's own features added and the leaky rectifier applied, that is hSpec term for term.
-/
import proofs.«419763_j27925877358777_3_alg».proof.Proof.Gen.ReferenceIdeal.Read
import proofs.«419763_j27925877358777_3_alg».proof.Proof.Spec
import proofs.«419763_j27925877358777_3_alg».proof.Proof.RefGather
import proofs.«419763_j27925877358777_3_alg».proof.Proof.RefDeg
import Idealize.ShloMosaic.Lib.StableHlo.Predicate

set_option maxRecDepth 16384

noncomputable section

open scoped BigOperators

namespace Cert.ReferenceIdeal.RefVal

open Cert.ReferenceIdeal Cert.ReferenceIdeal.Gen Cert.ReferenceIdeal.Read Idealize.ShloMosaic Idealize.ShloMosaic.TcCoe Idealize.ShloMosaic.ValueIdx

namespace Msg

section Scatter
variable {α : Type} {w : Nat}

/-- An update lands on element i exactly when, on every axis, its start plus its window coordinate is i's coordinate. -/
theorem resultIdx?_eq_some_iff {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro hs a
      have h1 := congrFun (Option.some.inj hs) a
      rw [← h1]
      exact (Int.toNat_of_nonneg (h a).1).symm
    · intro hall
      refine congrArg some (funext fun a => Fin.ext ?_)
      show (d.start j idx a + (d.window j a : Int)).toNat = (i a).val
      rw [hall a]; exact Int.toNat_natCast _
  · rename_i h
    constructor
    · intro hs; exact absurd hs (by simp)
    · intro hall
      exact absurd (fun a => by rw [hall a]; exact ⟨Int.natCast_nonneg _, by exact_mod_cast (i a).isLt⟩) h

abbrev mD := scatter_S64x1000x64_S32000x1_S64x32000x64_02_1_1_1

theorem mD_start_0 (j : S64x32000x64.Idx) (idx : IVec S32000x1 w) : mD.start j idx 0 = 0 := by
  unfold ScatterDims.start
  rw [dif_neg (show ¬ (0 : Fin S64x1000x64.rank) ∈ mD.scatterDimsToOperandDims by decide)]
theorem mD_start_2 (j : S64x32000x64.Idx) (idx : IVec S32000x1 w) : mD.start j idx 2 = 0 := by
  unfold ScatterDims.start
  rw [dif_neg (show ¬ (2 : Fin S64x1000x64.rank) ∈ mD.scatterDimsToOperandDims by decide)]
theorem mD_start_1 (j : S64x32000x64.Idx) (idx : IVec S32000x1 w) :
    mD.start j idx 1 = (idx (ix2 (⟨(j 1).val, (j 1).isLt⟩ : Fin 32000) (0 : Fin 1))).toInt := by
  unfold ScatterDims.start
  rw [dif_pos (show (1 : Fin S64x1000x64.rank) ∈ mD.scatterDimsToOperandDims by decide)]
  have hsi : mD.siIdx j ⟨List.idxOf (1 : Fin S64x1000x64.rank) mD.scatterDimsToOperandDims,
      List.idxOf_lt_length_iff.2 (show (1 : Fin S64x1000x64.rank) ∈ mD.scatterDimsToOperandDims by decide)⟩
      = ix2 (⟨(j 1).val, (j 1).isLt⟩ : Fin 32000) (0 : Fin 1) := by
    funext c; refine Fin.ext ?_
    match c with
    | ⟨0, _⟩ => rfl
    | ⟨1, _⟩ => rfl
  rw [hsi]
theorem mD_window_0 (j : S64x32000x64.Idx) : mD.window j 0 = (j 0).val := by
  unfold ScatterDims.window
  rw [dif_pos (show (0 : Fin S64x1000x64.rank) ∈ mD.sKept by decide)]
  rfl
theorem mD_window_1 (j : S64x32000x64.Idx) : mD.window j 1 = 0 := by
  unfold ScatterDims.window
  rw [dif_neg (show ¬ (1 : Fin S64x1000x64.rank) ∈ mD.sKept by decide)]
theorem mD_window_2 (j : S64x32000x64.Idx) : mD.window j 2 = (j 2).val := by
  unfold ScatterDims.window
  rw [dif_pos (show (2 : Fin S64x1000x64.rank) ∈ mD.sKept by decide)]
  rfl

/-- The update at (b', e, g') lands on (b, n, g) exactly when b' = b, g' = g and edge e's index word, read signed, is n. -/
theorem mD_lands (idx : IVec S32000x1 w) (b' : Fin 64) (e : Fin 32000) (g' : Fin 64) (b : Fin 64) (n : Fin 1000) (g : Fin 64) :
    mD.resultIdx? (ix3 b' e g') idx = some (ix3 b n g)
      ↔ b' = b ∧ (idx (ix2 e (0 : Fin 1))).toInt = (n.val : Int) ∧ g' = g := by
  rw [resultIdx?_eq_some_iff]
  constructor
  · intro h
    have h0 := h 0
    have h1 := h 1
    have h2 := h 2
    rw [mD_start_0, mD_window_0] at h0
    rw [mD_start_1, mD_window_1] at h1
    rw [mD_start_2, mD_window_2] at h2
    refine ⟨Fin.ext ?_, ?_, Fin.ext ?_⟩
    · have : ((b'.val : Int)) = (b.val : Int) := by simpa using h0
      exact_mod_cast this
    · simpa using h1
    · have : ((g'.val : Int)) = (g.val : Int) := by simpa using h2
      exact_mod_cast this
  · rintro ⟨rfl, h1, rfl⟩ a
    match a with
    | ⟨0, _⟩ => exact (congrArg₂ (· + ·) (mD_start_0 _ idx) (congrArg Nat.cast (mD_window_0 _))).trans (Int.zero_add _)
    | ⟨1, _⟩ => exact ((congrArg₂ (· + ·) (mD_start_1 _ idx) (congrArg Nat.cast (mD_window_1 _))).trans (Int.add_zero _)).trans h1
    | ⟨2, _⟩ => exact (congrArg₂ (· + ·) (mD_start_2 _ idx) (congrArg Nat.cast (mD_window_2 _))).trans (Int.zero_add _)

/-- The accumulating scatter of the messages read at (b, n, g): the operand there plus the updates (b, e, g) of the edges e
    whose index word, read signed, is n. -/
theorem scatter_at (x : S64x1000x64.Idx → EReal) (idx : IVec S32000x1 w) (upd : S64x32000x64.Idx → EReal)
    (b : Fin 64) (n : Fin 1000) (g : Fin 64) :
    Ideal.hostScatterAdd scatter_S64x1000x64_S32000x1_S64x32000x64_02_1_1_1 x idx upd (ix3 b n g)
      = x (ix3 b n g) + ∑ e ∈ Finset.univ.filter (fun e : Fin 32000 => (idx (ix2 e (0 : Fin 1))).toInt = (n.val : Int)), upd (ix3 b e g) := by
  unfold Ideal.hostScatterAdd
  refine congrArg (x (ix3 b n g) + ·) ?_
  symm
  refine Finset.sum_bij (fun e _ => ix3 b e g) ?_ ?_ ?_ ?_
  · intro e he
    exact Finset.mem_filter.2 ⟨Finset.mem_univ _, (mD_lands idx b e g b n g).2 ⟨rfl, (Finset.mem_filter.1 he).2, rfl⟩⟩
  · intro e1 _ e2 _ h
    exact congrFun h 1
  · intro j hj
    obtain ⟨b', e, g', rfl⟩ : ∃ (b' : Fin 64) (e : Fin 32000) (g' : Fin 64), j = ix3 b' e g' := ⟨j 0, j 1, j 2, eq_ix3 j⟩
    obtain ⟨rfl, h1, rfl⟩ := (mD_lands idx b' e g' b n g).1 (Finset.mem_filter.1 hj).2
    exact ⟨e, Finset.mem_filter.2 ⟨Finset.mem_univ _, h1⟩, rfl⟩
  · intro e he
    rfl

end Scatter

section Stages

variable (x0 : (⟨S64x1000x64, .f32⟩ : BufTy).Contents (Elt Ideal)) (x1 : (⟨S2x32000, .i32⟩ : BufTy).Contents (Elt Ideal)) (x3 : (⟨S64x64, .f32⟩ : BufTy).Contents (Elt Ideal)) (x4 : (⟨S64, .f32⟩ : BufTy).Contents (Elt Ideal))

/-- On an edge list in range no destination word is negative as a signed number, so the normalised destination is the
    destination itself. -/
theorem dst_norm (hr : Cert.Spec.InRange x1) (e : Fin 32000) :
    val_main_v21 (F := Ideal) x1 (ix2 e (0 : Fin 1)) = x1 (ix2 (1 : Fin 2) e) := by
  rw [val_main_v21_apply, val_main_v20_apply, val_main_v17_apply, val_main_v16_apply, val_main_c_1_apply, val_main_v3_apply,
    val_main_v2_apply]
  have hi : idx_main_v2 (idx_main_v3 (idx_main_v21 (ix2 e (0 : Fin 1)))) = ix2 (1 : Fin 2) e := by
    funext a; refine Fin.ext ?_
    match a with
    | ⟨0, _⟩ => rfl
    | ⟨1, _⟩ => exact Nat.mod_eq_of_lt e.isLt
  rw [hi]
  have hlt : (x1 (ix2 (1 : Fin 2) e)).toNat < 1000 := hr 1 e
  have hc : IntOp.cmpi .slt (x1 (ix2 (1 : Fin 2) e)) 0#32 = 0#1 :=
    eq_zero_of_ne_one fun h => by
      have h2 := (StableHlo.Predicate.slt_iff_toNat (a := x1 (ix2 (1 : Fin 2) e)) (b := 0#32) (by omega) (by decide)).1 h
      exact absurd h2 (by simp)
  rw [hc, select_zero]

/-- A message: the gathered source row times the weight, plus the bias. -/
theorem msg_at (b : Fin 64) (e : Fin 32000) (g : Fin 64) :
    val_main_v14 (F := Ideal) x0 x1 x3 x4 (ix3 b e g)
      = (∑ f : Fin 64, val_main_v10 (F := Ideal) x0 x1 (ix3 b e f) * x3 (ix2 f g)) + x4 (ix1 g) := by
  rw [val_main_v14_apply, val_main_v11_apply, val_main_v13_apply, val_main_v12_apply]
  have hl : ∀ k : Fin 64, lidx_main_v11 (ix3 b e g) k = ix3 b e k := fun k => by
    funext a; refine Fin.ext ?_
    match a with
    | ⟨0, _⟩ => rfl
    | ⟨1, _⟩ => rfl
    | ⟨2, _⟩ => rfl
  have hrr : ∀ k : Fin 64, ridx_main_v11 (ix3 b e g) k = ix2 k g := fun k => by
    funext a; refine Fin.ext ?_
    match a with
    | ⟨0, _⟩ => rfl
    | ⟨1, _⟩ => rfl
  have hb : idx_main_v12 (idx_main_v13 (ix3 b e g)) = ix1 g := by
    funext a; refine Fin.ext ?_
    match a with
    | ⟨0, _⟩ => rfl
  simp only [hl, hrr, hb]
  rfl

end Stages

end Msg

section Chain

variable (x0 : (⟨S64x1000x64, .f32⟩ : BufTy).Contents (Elt Ideal)) (x1 : (⟨S2x32000, .i32⟩ : BufTy).Contents (Elt Ideal)) (x3 : (⟨S64x64, .f32⟩ : BufTy).Contents (Elt Ideal)) (x4 : (⟨S64, .f32⟩ : BufTy).Contents (Elt Ideal))

/-- The summed messages at node n: over the edges into n, the source row times the weight plus the bias. -/
theorem msgs_ref (hr : Cert.Spec.InRange x1)
    (hG : ∀ (b : Fin 64) (e : Fin 32000) (f : Fin 64), val_main_v10 (F := Ideal) x0 x1 (ix3 b e f) = x0 (ix3 b (Cert.Spec.srcF x1 e) f))
    (b : Fin 64) (n : Fin 1000) (g : Fin 64) :
    val_main_v22 (F := Ideal) x0 x1 x3 x4 (ix3 b n g)
      = ∑ e ∈ Cert.Spec.edgesInto x1 n, ((∑ f : Fin 64, x0 (ix3 b (Cert.Spec.srcF x1 e) f) * x3 (ix2 f g)) + x4 (ix1 g)) := by
  unfold val_main_v22 Host.scatterAdd
  rw [Ideal.hostScatterAdd_def, Msg.scatter_at, val_main_v15_apply, val_main_cst_apply, Ideal.ofBits_def, Ideal.ofBits_zero_f32, zero_add]
  have hf : (Finset.univ.filter fun e : Fin 32000 => (val_main_v21 (F := Ideal) x1 (ix2 e (0 : Fin 1))).toInt = (n.val : Int))
      = Cert.Spec.edgesInto x1 n := by
    unfold Cert.Spec.edgesInto
    refine Finset.filter_congr fun e _ => ?_
    rw [Msg.dst_norm x1 hr e, StableHlo.Predicate.toInt_eq_toNat_of_lt (by have := hr 1 e; omega)]
    exact Int.natCast_inj
  rw [hf]
  refine Finset.sum_congr rfl fun e _ => ?_
  rw [Msg.msg_at]
  simp only [hG]

/-- The layer, given what the gather of the sources reads and the in-degree count. -/
theorem h_ref_of (hr : Cert.Spec.InRange x1)
    (hG : ∀ (b : Fin 64) (e : Fin 32000) (f : Fin 64), val_main_v10 (F := Ideal) x0 x1 (ix3 b e f) = x0 (ix3 b (Cert.Spec.srcF x1 e) f))
    (hD : ∀ n : Fin 1000, val_main_v31 (F := Ideal) x1 (ix1 n) = Cert.Spec.zeroW + ∑ _e ∈ Cert.Spec.edgesInto x1 n, Cert.Spec.oneW) :
    val_main_v42 (F := Ideal) x0 x1 x3 x4 = Cert.Spec.hSpec x0 x1 x3 x4 := by
  funext i
  obtain ⟨b, n, g, rfl⟩ : ∃ (b : Fin 64) (n : Fin 1000) (g : Fin 64), i = ix3 b n g := ⟨i 0, i 1, i 2, eq_ix3 i⟩
  rw [val_main_v42_apply, val_main_v39_apply, val_main_v41_apply, val_main_v37_apply, val_main_v36_apply, val_main_v38_apply,
    val_main_cst_8_apply, val_main_v40_apply, val_main_cst_9_apply, val_main_v35_apply, val_main_v34_apply, val_main_v33_apply,
    val_main_v32_apply, val_main_cst_7_apply]
  have h31 : idx_main_v34 (idx_main_v35 (ix3 b n g)) = ix1 n := by
    funext a; refine Fin.ext ?_
    match a with
    | ⟨0, _⟩ => rfl
  have hD' : val_main_v31 (F := Ideal) x1 (ix1 n) = ∑ _e ∈ Cert.Spec.edgesInto x1 n, Cert.Spec.oneW :=
    (hD n).trans (by show Ideal.ofBits .f32 0x00000000#32 + _ = _; rw [Ideal.ofBits_zero_f32, zero_add])
  rw [h31, hD', msgs_ref x0 x1 x3 x4 hr hG b n g]
  simp only [Ideal.ofBits_def, Ideal.addf_def, Ideal.mulf_def, Ideal.maximumf_def, Ideal.hostDivf_def]
  rfl

/-- The message-passing layer, from an edge list in range. -/
theorem h_ref (hr : Cert.Spec.InRange x1) : val_main_v42 (F := Ideal) x0 x1 x3 x4 = Cert.Spec.hSpec x0 x1 x3 x4 :=
  h_ref_of x0 x1 x3 x4 hr (fun b e f => gather_ref x0 x1 hr b e f) (fun n => deg_ref x1 hr n)

end Chain

end Cert.ReferenceIdeal.RefVal

end
-- ==== Proof.PreFacts.lean ====
/-
  What the precondition says of the arguments.

  The predicate is a conjunction of fifteen bits. Fourteen of them are, for one float argument each, "every entry x has
  |x| < +∞": the entry-wise comparison of max x (−x) with the word 0x7F800000, which is +∞, folded by `and` over every
  axis from the bit 1. The fifteenth is, for the edge list, "every word w has 0 ≤ w and w < 1000, read signed", folded the
  same way. A conjunction that is 1 has every conjunct 1; a fold by `and` from 1 that is 1 met only 1s, so the compared
  fact holds at every entry. On the extended reals max x (−x) < ⊤ says x ≠ ⊤ and −x ≠ ⊤, that is x ≠ ⊥. A 32-bit word
  that is non-negative read signed has its top bit clear, so its signed and unsigned readings agree, and below 1000 signed
  is below 1000 unsigned.
-/
import proofs.«419763_j27925877358777_3_alg».proof.Pre_finite_inputs
import proofs.«419763_j27925877358777_3_alg».proof.Proof.Gen.Pre_finite_inputs
import proofs.«419763_j27925877358777_3_alg».proof.Proof.Spec
import Idealize.ShloMosaic.PureOps.Ideal
import Idealize.ShloMosaic.Lib.ReduceAll
import Idealize.ShloMosaic.Lib.StableHlo.Predicate

noncomputable section

namespace Cert.PreFacts

open Idealize.ShloMosaic

/-- A shape of rank zero has one index. -/
instance : Subsingleton Cert.Pre_finite_inputs.S_.Idx := ⟨fun a b => funext fun d => d.elim0⟩

/-- The word 0x7F800000 is +∞. -/
theorem inf_word : Ideal.ofBits .f32 0x7F800000#32 = (⊤ : EReal) := by simp [Ideal.ofBits, Ideal.ieee]

/-- |x| < +∞ on the extended reals says that x is neither infinity. -/
theorem finite_of_abs_lt (x : EReal) (h : Ideal.cmp .olt (max x (-x)) (Ideal.ofBits .f32 0x7F800000#32) = 1#1) :
    x ≠ ⊤ ∧ x ≠ ⊥ := by
  rw [inf_word] at h
  unfold Ideal.cmp at h
  rw [StableHlo.Predicate.ofBool_eq_one_iff, decide_eq_true_eq, max_lt_iff] at h
  refine ⟨fun e => ?_, fun e => ?_⟩
  · subst e; exact absurd h.1 (lt_irrefl _)
  · subst e; exact absurd h.2 (by simp)

/-- A 32-bit word in [0, 1000) signed is below 1000 unsigned. -/
theorem toNat_lt_of_signed (w : BitVec 32) (h0 : IntOp.cmpi .sge w 0#32 = 1#1) (h1 : IntOp.cmpi .slt w 1000#32 = 1#1) :
    w.toNat < 1000 := by
  rw [IntOp.cmpi_sge] at h0
  rw [IntOp.cmpi_slt] at h1
  have z : (0#32 : BitVec 32).toInt = 0 := by decide
  have k : (1000#32 : BitVec 32).toInt = 1000 := by decide
  rw [z] at h0
  rw [k] at h1
  have h32 := w.isLt
  rw [BitVec.toInt_eq_toNat_cond] at h0 h1
  split at h1 <;> omega

/-- One conjunct "every entry has |x| < +∞" of the predicate, read at an entry: the entry is neither infinity. -/
theorem finite_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x) (broadcastInDim s ![] hb (constant Cert.Pre_finite_inputs.S_ .f32 0x7F800000#32)))
        (constantI Cert.Pre_finite_inputs.S_ 1 1#1) hr hu ValueIdx.ix0 = 1#1) (i : s.Idx) :
    x i ≠ ⊤ ∧ x i ≠ ⊥ :=
  finite_of_abs_lt (x i) (Host.reduce_andi_all _ _ hr hu _ e i)

/-- The precondition holding (the printed predicate all ones) gives: every endpoint of the edge list names a node, and
    the node features, the message weight and the message bias are real numbers entry by entry. -/
theorem facts_of_pre [Cert.Pre_finite_inputs.Facts] (a0 : FVec Ideal Cert.Pre_finite_inputs.S64x1000x64 .f32) (a1 : IVec Cert.Pre_finite_inputs.S2x32000 32) (a2 : FVec Ideal Cert.Pre_finite_inputs.S64x128 .f32) (a3 : FVec Ideal Cert.Pre_finite_inputs.S64x64 .f32) (a4 : FVec Ideal Cert.Pre_finite_inputs.S64 .f32) (a5 : FVec Ideal Cert.Pre_finite_inputs.S64000x512 .f32) (a6 : FVec Ideal Cert.Pre_finite_inputs.S512 .f32) (a7 : FVec Ideal Cert.Pre_finite_inputs.S512x128 .f32) (a8 : FVec Ideal Cert.Pre_finite_inputs.S128 .f32) (a9 : FVec Ideal Cert.Pre_finite_inputs.S512x128 .f32) (a10 : FVec Ideal Cert.Pre_finite_inputs.S128 .f32) (a11 : FVec Ideal Cert.Pre_finite_inputs.S128x512 .f32) (a12 : FVec Ideal Cert.Pre_finite_inputs.S512 .f32) (a13 : FVec Ideal Cert.Pre_finite_inputs.S512x64000 .f32) (a14 : FVec Ideal Cert.Pre_finite_inputs.S64000 .f32)
    (h : Cert.Pre_finite_inputs.fn (F := Ideal) a0 a1 a2 a3 a4 a5 a6 a7 a8 a9 a10 a11 a12 a13 a14 = fun _ => 1#1) :
    Cert.Spec.InRange a1 ∧ (∀ i, a0 i ≠ ⊤ ∧ a0 i ≠ ⊥) ∧ (∀ i, a3 i ≠ ⊤ ∧ a3 i ≠ ⊥) ∧ (∀ i, a4 i ≠ ⊤ ∧ a4 i ≠ ⊥) := by
  -- the predicate's one bit, as the nested conjunction of its fifteen conjuncts
  have e := congrFun h ValueIdx.ix0
  dsimp only [Cert.Pre_finite_inputs.fn, Cert.Pre_finite_inputs.fn_part1, Cert.Pre_finite_inputs.fn_part2, Cert.Pre_finite_inputs.fn_part3, Cert.Pre_finite_inputs.fn_part4] at e
  simp only [andi, IntOp.andi_eq_one] at e
  obtain ⟨⟨⟨⟨⟨⟨⟨⟨⟨⟨⟨⟨⟨⟨e0, -⟩, e3⟩, e4⟩, -⟩, -⟩, -⟩, -⟩, -⟩, -⟩, -⟩, -⟩, -⟩, -⟩, e1⟩ := e
  refine ⟨fun r c => ?_, finite_of_all a0 _ _ _ e0, finite_of_all a3 _ _ _ e3, finite_of_all a4 _ _ _ e4⟩
  -- the edge list's conjunct at row r, column c: both signed comparisons hold of that word
  have q := Host.reduce_andi_all _ _ _ _ _ e1 (ValueIdx.ix2 r c)
  replace q : IntOp.andi (IntOp.cmpi .sge (a1 (ValueIdx.ix2 r c)) 0#32) (IntOp.cmpi .slt (a1 (ValueIdx.ix2 r c)) 1000#32) = 1#1 := q
  rw [IntOp.andi_eq_one] at q
  exact toNat_lt_of_signed _ q.1 q.2

end Cert.PreFacts

end
-- ==== Proof.lean ====
/-
  The certificate of the graph-convolution + variational-auto-encoder kernel against its jnp reference.

  The kernel evaluates one message-passing layer for 64 graphs on a shared edge list, then a variational auto-encoder,
  in four pipelined regions around host operations; the reference writes the same mathematics with a gather, a
  scatter-add and plain matrix products.  Over the extended reals the two agree wherever the edge list names nodes
  (every entry in [0, 1000): outside that range the reference clamps its reads and drops its writes while the kernel's
  flattened index dst · 1000 + src lands on another edge) and the node features, message weight and message bias are
  finite (the averaging (S · W + d · b) / d = (S / d) · W + b is a law of the reals).

  * The three frames: each program runs to the end, faults nowhere and leaves its arguments as launched.  For the
    kernel's two readings this is the run of its seven segments (three host stretches, four regions), stated once for
    any float instance; for the reference it is its run with the results dropped.
  * preserves: the ideal pass rewrote nothing.
  * algebraic: the kernel's last boundary holds the specification's three result functions of the launch memory, read
    through every stage (adjacency counts, grouped layer, flatten, K-blocked encoder, latent heads, decoder); the
    reference's run holds the same functions, read operation by operation; the memories agree on the arguments.
-/
import proofs.«419763_j27925877358777_3_alg».proof.Defs
import proofs.«419763_j27925877358777_3_alg».proof.Proof.Gen.Kernel
import proofs.«419763_j27925877358777_3_alg».proof.Proof.Gen.KernelIdeal
import proofs.«419763_j27925877358777_3_alg».proof.Proof.Gen.ReferenceIdeal
import proofs.«419763_j27925877358777_3_alg».proof.Proof.Gen.Pre_finite_inputs
import proofs.«419763_j27925877358777_3_alg».proof.Proof.Gen.ReferenceIdeal.Run
import proofs.«419763_j27925877358777_3_alg».proof.Proof.Gen.ReferenceIdeal.Read
import proofs.«419763_j27925877358777_3_alg».proof.Proof.K.Run
import proofs.«419763_j27925877358777_3_alg».proof.Proof.KI.Run
import proofs.«419763_j27925877358777_3_alg».proof.Proof.KI.Chain
import proofs.«419763_j27925877358777_3_alg».proof.Proof.RefResults
import proofs.«419763_j27925877358777_3_alg».proof.Proof.RefGnn
import proofs.«419763_j27925877358777_3_alg».proof.Proof.PreFacts
import Idealize.ShloMosaic.Adequacy
import Idealize.ShloMosaic.Init

set_option maxRecDepth 16384

noncomputable section

namespace Cert.Proof

open Idealize.ShloMosaic Idealize.ShloMosaic.TcCoe Idealize.SL.Sem

/-! The three results are functions of the fifteen arguments: equal arguments, equal results. -/
section Congr
open Cert.Spec
theorem xhat_congr {a0 b0 : (T3 64 1000 64).Idx → EReal} {a1 b1 : Edges} {a2 b2 : (T2 64 128).Idx → EReal} {a3 b3 : (T2 64 64).Idx → EReal} {a4 b4 : (T1 64).Idx → EReal} {a5 b5 : (T2 64000 512).Idx → EReal} {a6 b6 : (T1 512).Idx → EReal} {a7 b7 : (T2 512 128).Idx → EReal} {a8 b8 : (T1 128).Idx → EReal} {a9 b9 : (T2 512 128).Idx → EReal} {a10 b10 : (T1 128).Idx → EReal} {a11 b11 : (T2 128 512).Idx → EReal} {a12 b12 : (T1 512).Idx → EReal} {a13 b13 : (T2 512 64000).Idx → EReal} {a14 b14 : (T1 64000).Idx → EReal}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) :
    xhatRes a0 a1 a2 a3 a4 a5 a6 a7 a8 a9 a10 a11 a12 a13 a14 = xhatRes b0 b1 b2 b3 b4 b5 b6 b7 b8 b9 b10 b11 b12 b13 b14 := by
  subst h0; subst h1; subst h2; subst h3; subst h4; subst h5; subst h6; subst h7; subst h8; subst h9; subst h10; subst h11; subst h12; subst h13; subst h14; rfl
theorem mean_congr {a0 b0 : (T3 64 1000 64).Idx → EReal} {a1 b1 : Edges} {a3 b3 : (T2 64 64).Idx → EReal} {a4 b4 : (T1 64).Idx → EReal} {a5 b5 : (T2 64000 512).Idx → EReal} {a6 b6 : (T1 512).Idx → EReal} {a7 b7 : (T2 512 128).Idx → EReal} {a8 b8 : (T1 128).Idx → EReal}
    (h0 : a0 = b0) (h1 : a1 = b1) (h3 : a3 = b3) (h4 : a4 = b4) (h5 : a5 = b5) (h6 : a6 = b6) (h7 : a7 = b7) (h8 : a8 = b8) :
    meanRes a0 a1 a3 a4 a5 a6 a7 a8 = meanRes b0 b1 b3 b4 b5 b6 b7 b8 := by
  subst h0; subst h1; subst h3; subst h4; subst h5; subst h6; subst h7; subst h8; rfl
theorem logvar_congr {a0 b0 : (T3 64 1000 64).Idx → EReal} {a1 b1 : Edges} {a3 b3 : (T2 64 64).Idx → EReal} {a4 b4 : (T1 64).Idx → EReal} {a5 b5 : (T2 64000 512).Idx → EReal} {a6 b6 : (T1 512).Idx → EReal} {a9 b9 : (T2 512 128).Idx → EReal} {a10 b10 : (T1 128).Idx → EReal}
    (h0 : a0 = b0) (h1 : a1 = b1) (h3 : a3 = b3) (h4 : a4 = b4) (h5 : a5 = b5) (h6 : a6 = b6) (h9 : a9 = b9) (h10 : a10 = b10) :
    logvarRes a0 a1 a3 a4 a5 a6 a9 a10 = logvarRes b0 b1 b3 b4 b5 b6 b9 b10 := by
  subst h0; subst h1; subst h3; subst h4; subst h5; subst h6; subst h9; subst h10; rfl
end Congr

/-- The word-level kernel runs and leaves its arguments as launched. -/
theorem frame_kernel : Cert.frame_Kernel := fun m ρ _ => Cert.Kernel.Fr.frame m ρ

/-- So does its reading at the extended reals. -/
theorem frame_kernelIdeal : Cert.frame_KernelIdeal := fun m ρ _ => Cert.KernelIdeal.Fr.frame m ρ

/-- The reference's frame is its run with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

set_option maxHeartbeats 4000000 in
/-- Both idealized programs end at the specification's three results of arguments that agree. -/
theorem algebraic : Cert.algebraic_KernelIdeal_ReferenceIdeal := by
  intro m ρ m' ρ' hpre hagree
  have hf : ∀ c : Dev Cert.KernelIdeal.nD, _ := fun c => Cert.PreFacts.facts_of_pre _ _ _ _ _ _ _ _ _ _ _ _ _ _ _ (hpre c)
  refine ⟨fun c => Cert.Spec.xhatRes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => Cert.Spec.meanRes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.Spec.logvarRes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.Fr.run_named (F := Ideal) m ρ)
    obtain ⟨hr, hx, hW, hb⟩ := hf c
    refine ⟨(h c _ Cert.KernelIdeal.Fr.mem_uc_main_v0_0).trans (Cert.KernelIdeal.Fr.xhat_val m ρ c hr hx hW hb),
      (h c _ Cert.KernelIdeal.Fr.mem_uc_main_v0_1).trans (Cert.KernelIdeal.Fr.mean_val m ρ c hr hx hW hb),
      (h c _ Cert.KernelIdeal.Fr.mem_uc_main_v0_2).trans (Cert.KernelIdeal.Fr.logvar_val m ρ c hr hx hW hb),
      (h c _ Cert.KernelIdeal.Fr.mem_uc_main_arg0).trans (Cert.KernelIdeal.Fr.W7_main_arg0 m ρ c),
      (h c _ Cert.KernelIdeal.Fr.mem_uc_main_arg1).trans (Cert.KernelIdeal.Fr.W7_main_arg1 m ρ c),
      (h c _ Cert.KernelIdeal.Fr.mem_uc_main_arg2).trans (Cert.KernelIdeal.Fr.W7_main_arg2 m ρ c),
      (h c _ Cert.KernelIdeal.Fr.mem_uc_main_arg3).trans (Cert.KernelIdeal.Fr.W7_main_arg3 m ρ c),
      (h c _ Cert.KernelIdeal.Fr.mem_uc_main_arg4).trans (Cert.KernelIdeal.Fr.W7_main_arg4 m ρ c),
      (h c _ Cert.KernelIdeal.Fr.mem_uc_main_arg5).trans (Cert.KernelIdeal.Fr.W7_main_arg5 m ρ c),
      (h c _ Cert.KernelIdeal.Fr.mem_uc_main_arg6).trans (Cert.KernelIdeal.Fr.W7_main_arg6 m ρ c),
      (h c _ Cert.KernelIdeal.Fr.mem_uc_main_arg7).trans (Cert.KernelIdeal.Fr.W7_main_arg7 m ρ c),
      (h c _ Cert.KernelIdeal.Fr.mem_uc_main_arg8).trans (Cert.KernelIdeal.Fr.W7_main_arg8 m ρ c),
      (h c _ Cert.KernelIdeal.Fr.mem_uc_main_arg9).trans (Cert.KernelIdeal.Fr.W7_main_arg9 m ρ c),
      (h c _ Cert.KernelIdeal.Fr.mem_uc_main_arg10).trans (Cert.KernelIdeal.Fr.W7_main_arg10 m ρ c),
      (h c _ Cert.KernelIdeal.Fr.mem_uc_main_arg11).trans (Cert.KernelIdeal.Fr.W7_main_arg11 m ρ c),
      (h c _ Cert.KernelIdeal.Fr.mem_uc_main_arg12).trans (Cert.KernelIdeal.Fr.W7_main_arg12 m ρ c),
      (h c _ Cert.KernelIdeal.Fr.mem_uc_main_arg13).trans (Cert.KernelIdeal.Fr.W7_main_arg13 m ρ c),
      (h c _ Cert.KernelIdeal.Fr.mem_uc_main_arg14).trans (Cert.KernelIdeal.Fr.W7_main_arg14 m ρ c)⟩
  · refine (θ_run Cert.ReferenceIdeal.defs _ _).mono (fun r h c => ?_) (Cert.ReferenceIdeal.Value.run (F := Ideal) m' ρ')
    obtain ⟨hr, hx, hW, hb⟩ := hf c
    obtain ⟨e0, e1, e2, e3, e4, e5, e6, e7, e8, e9, e10, e11, e12, e13, e14⟩ := hagree c
    have hr' : Cert.Spec.InRange (m' ((c.tc : Thread Cert.ReferenceIdeal.nD Cert.ReferenceIdeal.τ).loc Cert.ReferenceIdeal.main_arg1)) := by rw [e1]; exact hr
    refine ⟨(h c).1.trans ?_, (h c).2.1.trans ?_, (h c).2.2.1.trans ?_, (h c).2.2.2⟩
    · exact (Cert.ReferenceIdeal.RefVal.xhat_run m' c (Cert.ReferenceIdeal.RefVal.h_ref _ _ _ _ hr')).trans (xhat_congr e0 e1 e2 e3 e4 e5 e6 e7 e8 e9 e10 e11 e12 e13 e14)
    · exact (Cert.ReferenceIdeal.RefVal.mean_run m' c (Cert.ReferenceIdeal.RefVal.h_ref _ _ _ _ hr')).trans (mean_congr e0 e1 e3 e4 e5 e6 e7 e8)
    · exact (Cert.ReferenceIdeal.RefVal.logvar_run m' c (Cert.ReferenceIdeal.RefVal.h_ref _ _ _ _ hr')).trans (logvar_congr e0 e1 e3 e4 e5 e6 e9 e10)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
